-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v31)) (v4 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_v36) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x2048 : Shape := ⟨3, ![2, 1024, 2048]⟩
abbrev S32000x2048 : Shape := ⟨2, ![32000, 2048]⟩
abbrev S2x1024 : Shape := ⟨2, ![2, 1024]⟩
abbrev S2 : Shape := ⟨1, ![2]⟩
abbrev S_ : Shape := ⟨0, ![]⟩

class Facts : Prop where
  bcast_S_S2x1024x2048 : S_.BroadcastsInDim S2x1024x2048 (![] : Fin 0 → Fin S2x1024x2048.rank)
  reducesTo_S2x1024x2048_S_d0_1_2 : S2x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32000x2048 .f32) (main_v13 : IVec S_ 1) (main_v16 : IVec S2x1024x2048 1) : IVec S_ 1 :=
  let main_c_5 : IVec S_ 1 := constantI S_ 1 1#1
  let main_v17 : IVec S_ 1 := (fun x v => Host.reduce IntOp.andi x v reducesTo_S2x1024x2048_S_d0_1_2 h_S_) main_v16 main_c_5
  let main_v18 : IVec S_ 1 := andi main_v13 main_v17
  let main_v19 : FVec F S32000x2048 .f32 := Host.absf main_arg5
  let main_cst_6 : FVec F S_ .f32 := constant S_ .f32 0x7F800000#32
  let main_v20 : FVec F S32000x2048 .f32 := broadcastInDim S32000x2048 ![] bcast_S_S32000x2048 main_cst_6
  let main_v21 : IVec S32000x2048 1 := cmpf .olt main_v19 main_v20
  let main_c_7 : IVec S_ 1 := constantI S_ 1 1#1
  let main_v22 : IVec S_ 1 := (fun x v => Host.reduce IntOp.andi x v reducesTo_S32000x2048_S_d0_1 h_S_) main_v21 main_c_7
  let main_v23 : IVec S_ 1 := andi main_v18 main_v22
  main_v23

def fn {F : FTy → Type} [FloatOps F] (main_arg0 : FVec F S2x1024x2048 .f32) (main_arg1 : FVec F S32000x2048 .f32) (main_arg2 : IVec S2x1024 32) (main_arg3 : FVec F S2 .f32) (main_arg4 : FVec F S2x1024x2048 .f32) (main_arg5 : FVec F S32000x2048 .f32) : IVec S_ 1 :=
  let main_v0 : FVec F S2x1024x2048 .f32 := Host.absf main_arg0
  let main_cst : FVec F S_ .f32 := constant S_ .f32 0x7F800000#32
  let main_v1 : FVec F S2x1024x2048 .f32 := broadcastInDim S2x1024x2048 ![] bcast_S_S2x1024x2048 main_cst
  let main_v2 : IVec S2x1024x2048 1 := cmpf .olt main_v0 main_v1
  let main_c : IVec S_ 1 := constantI S_ 1 1#1
  let main_v3 : IVec S_ 1 := (fun x v => Host.reduce IntOp.andi x v reducesTo_S2x1024x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x1024x2048 .f32 := Host.absf main_arg4
  let main_cst_4 : FVec F S_ .f32 := constant S_ .f32 0x7F800000#32
  let main_v15 : FVec F S2x1024x2048 .f32 := broadcastInDim S2x1024x2048 ![] bcast_S_S2x1024x2048 main_cst_4
  let main_v16 : IVec S2x1024x2048 1 := cmpf .olt main_v14 main_v15
  fn_part1 (F := F) main_arg5 main_v13 main_v16
-- ==== Kernel.lean ====
abbrev S2x1024x2048 : Shape := ⟨3, ![2, 1024, 2048]⟩
abbrev S32000x2048 : Shape := ⟨2, ![32000, 2048]⟩
abbrev S2x1024 : Shape := ⟨2, ![2, 1024]⟩
abbrev S2 : Shape := ⟨1, ![2]⟩
abbrev S2x512x2048 : Shape := ⟨3, ![2, 512, 2048]⟩
abbrev S1280x2048 : Shape := ⟨2, ![1280, 2048]⟩
abbrev S2x512 : Shape := ⟨2, ![2, 512]⟩
abbrev S1024x1 : Shape := ⟨2, ![1024, 1]⟩
abbrev S1024x2048 : Shape := ⟨2, ![1024, 2048]⟩
abbrev S1024x1280 : Shape := ⟨2, ![1024, 1280]⟩
abbrev S1024 : Shape := ⟨1, ![1024]⟩
abbrev S_ : Shape := ⟨0, ![]⟩
abbrev S1 : Shape := ⟨1, ![1]⟩

abbrev nBuf : Space → Nat
  | .hbm => 104
  | .vmem => 22
  | .smem => 0
  | _ => 0

abbrev bufTy : (tb : Table) → Fin (tcTables nBuf tb) → BufTy
  | .hbm, ⟨0, _⟩ => ⟨S2x1024x2048, .f32⟩
  | .hbm, ⟨1, _⟩ => ⟨S32000x2048, .f32⟩
  | .hbm, ⟨2, _⟩ => ⟨S2x1024, .i32⟩
  | .hbm, ⟨3, _⟩ => ⟨S2, .f32⟩
  | .hbm, ⟨4, _⟩ => ⟨S2x1024x2048, .f32⟩
  | .hbm, ⟨5, _⟩ => ⟨S32000x2048, .f32⟩
  | .hbm, ⟨6, _⟩ => ⟨S2x1024, .f32⟩
  | .hbm, ⟨7, _⟩ => ⟨S2x1024x2048, .bf16⟩
  | .hbm, ⟨8, _⟩ => ⟨S32000x2048, .bf16⟩
  | .hbm, ⟨9, _⟩ => ⟨S2x1024, .f32⟩
  | .hbm, ⟨10, _⟩ => ⟨S2x1024, .f32⟩
  | .hbm, ⟨11, _⟩ => ⟨S2x1024x2048, .bf16⟩
  | .hbm, ⟨12, _⟩ => ⟨S32000x2048, .bf16⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S_, .f32⟩
  | .hbm, ⟨17, _⟩ => ⟨S2, .f32⟩
  | .hbm, ⟨18, _⟩ => ⟨S2x1024, .f32⟩
  | .hbm, ⟨19, _⟩ => ⟨S_, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2, .f32⟩
  | .hbm, ⟨26, _⟩ => ⟨S2, .f32⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S2, .f32⟩
  | .hbm, ⟨61, _⟩ => ⟨S2, .f32⟩
  | .hbm, ⟨62, _⟩ => ⟨S_, .f32⟩
  | .hbm, ⟨63, _⟩ => ⟨S2, .f32⟩
  | .hbm, ⟨64, _⟩ => ⟨S2, .f32⟩
  | .hbm, ⟨65, _⟩ => ⟨S2, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S2, .f32⟩
  | .hbm, ⟨86, _⟩ => ⟨S2, .f32⟩
  | .hbm, ⟨87, _⟩ => ⟨S2, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .local _ .vmem, ⟨0, _⟩ => ⟨S2x512x2048, .bf16⟩
  | .local _ .vmem, ⟨1, _⟩ => ⟨S2x512x2048, .bf16⟩
  | .local _ .vmem, ⟨2, _⟩ => ⟨S1280x2048, .bf16⟩
  | .local _ .vmem, ⟨3, _⟩ => ⟨S1280x2048, .bf16⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S2x512x2048, .bf16⟩
  | .local _ .vmem, ⟨12, _⟩ => ⟨S2x512x2048, .bf16⟩
  | .local _ .vmem, ⟨13, _⟩ => ⟨S1280x2048, .bf16⟩
  | .local _ .vmem, ⟨14, _⟩ => ⟨S1280x2048, .bf16⟩
  | .local _ .vmem, ⟨15, _⟩ => ⟨S2x512, .f32⟩
  | .local _ .vmem, ⟨16, _⟩ => ⟨S2x512, .f32⟩
  | .local _ .vmem, ⟨17, _⟩ => ⟨S2x512, .f32⟩
  | .local _ .vmem, ⟨18, _⟩ => ⟨S2x512, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_cst_0 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_cst_1 : Ref sig .tc := ⟨.hbm, 38, rfl⟩
abbrev main_call0_call0_v8 : Ref sig .tc := ⟨.hbm, 39, rfl⟩
abbrev main_call0_call0_cst_2 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_cst_3 : Ref sig .tc := ⟨.hbm, 43, rfl⟩
abbrev main_call0_call0_v11 : Ref sig .tc := ⟨.hbm, 44, rfl⟩
abbrev main_call0_call0_cst_4 : Ref sig .tc := ⟨.hbm, 45, rfl⟩
abbrev main_call0_call0_call0_v0 : Ref sig .tc := ⟨.hbm, 46, rfl⟩
abbrev main_call0_v0 : Ref sig .tc := ⟨.hbm, 47, rfl⟩
abbrev main_v15 : Ref sig .tc := ⟨.hbm, 48, rfl⟩
abbrev main_cst_3 : Ref sig .tc := ⟨.hbm, 49, rfl⟩
abbrev main_v16 : Ref sig .tc := ⟨.hbm, 50, rfl⟩
abbrev main_cst_4 : Ref sig .tc := ⟨.hbm, 51, rfl⟩
abbrev main_v17 : Ref sig .tc := ⟨.hbm, 52, rfl⟩
abbrev main_cst_5 : Ref sig .tc := ⟨.hbm, 53, rfl⟩
abbrev main_call1_v0 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_6 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_7 : Ref sig .tc := ⟨.hbm, 66, rfl⟩
abbrev main_v28 : Ref sig .tc := ⟨.hbm, 67, rfl⟩
abbrev main_cst_8 : Ref sig .tc := ⟨.hbm, 68, rfl⟩
abbrev main_v29 : Ref sig .tc := ⟨.hbm, 69, rfl⟩
abbrev main_cst_9 : Ref sig .tc := ⟨.hbm, 70, rfl⟩
abbrev main_v30 : Ref sig .tc := ⟨.hbm, 71, rfl⟩
abbrev main_cst_10 : Ref sig .tc := ⟨.hbm, 72, rfl⟩
abbrev main_v31 : Ref sig .tc := ⟨.hbm, 73, rfl⟩
abbrev main_cst_11 : Ref sig .tc := ⟨.hbm, 74, rfl⟩
abbrev main_v32 : Ref sig .tc := ⟨.hbm, 75, rfl⟩
abbrev main_cst_12 : Ref sig .tc := ⟨.hbm, 76, rfl⟩
abbrev main_v33 : Ref sig .tc := ⟨.hbm, 77, rfl⟩
abbrev main_c_13 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_cst_0 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_cst_1 : Ref sig .tc := ⟨.hbm, 89, rfl⟩
abbrev main_call3_call0_v8 : Ref sig .tc := ⟨.hbm, 90, rfl⟩
abbrev main_call3_call0_cst_2 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_cst_3 : Ref sig .tc := ⟨.hbm, 94, rfl⟩
abbrev main_call3_call0_v11 : Ref sig .tc := ⟨.hbm, 95, rfl⟩
abbrev main_call3_call0_cst_4 : Ref sig .tc := ⟨.hbm, 96, rfl⟩
abbrev main_call3_call0_call0_v0 : Ref sig .tc := ⟨.hbm, 97, rfl⟩
abbrev main_call3_v0 : Ref sig .tc := ⟨.hbm, 98, rfl⟩
abbrev main_v34 : Ref sig .tc := ⟨.hbm, 99, rfl⟩
abbrev main_cst_14 : Ref sig .tc := ⟨.hbm, 100, rfl⟩
abbrev main_v35 : Ref sig .tc := ⟨.hbm, 101, rfl⟩
abbrev main_cst_15 : Ref sig .tc := ⟨.hbm, 102, rfl⟩
abbrev main_v36 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v37 : BitVec 1 := Scalar.cmpi .eq arg1 c24_i32
  let v38 : BitVec 32 := Scalar.extui v37
  let c0_i32_22 : BitVec 32 := 0#32
  let v39 : BitVec 1 := Scalar.cmpi .ne v38 c0_i32_22
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v37 : BitVec 1 := Scalar.cmpi .eq arg1 c24_i32
  let v38 : BitVec 32 := Scalar.extui v37
  let c0_i32_22 : BitVec 32 := 0#32
  let v39 : BitVec 1 := Scalar.cmpi .ne v38 c0_i32_22
  v39

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2x512x2048_S2x512x2048_0_0_0 : ∀ a, (![0, 0, 0] : Fin 3 → Nat) a + S2x512x2048.size a ≤ S2x512x2048.size a
  h_S2x512x2048 : 0 < S2x512x2048.numel
  shapeCasts_S2x512x2048_S2x512x2048 : S2x512x2048.ShapeCasts S2x512x2048
  shapeCasts_S2x512x2048_S1024x2048 : S2x512x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  reduces_S1024x1280_S1024 : S1024x1280.Reduces [1] S1024
  shapeCasts_S1024_S1024x1 : S1024.ShapeCasts S1024x1
  broadcasts_S1024x1_S1024x1280 : S1024x1.Broadcasts S1024x1280
  shapeCasts_S1024x1_S2x512 : S1024x1.ShapeCasts S2x512
  inb_S2x512_S2x512_0_0 : ∀ a, (![0, 0] : Fin 2 → Nat) a + S2x512.size a ≤ S2x512.size a
  h_S2x512 : 0 < S2x512.numel
  reducesTo_S2x1024_S2_d1 : S2x1024.ReducesTo [1] S2
  h_S_ : 0 < S_.numel
  reducesTo_S2_S_d0 : S2.ReducesTo [0] S_
  bcast_S_S2 : S_.BroadcastsInDim S2 (![] : Fin 0 → Fin S2.rank)
  bcast_S_S1 : S_.BroadcastsInDim S1 (![] : Fin 0 → Fin S1.rank)
  bcast_S1_S2_0 : S1.BroadcastsInDim S2 (![0] : Fin 1 → Fin S2.rank)
  reducesTo_S2x1024_S_d0_1 : S2x1024.ReducesTo [0, 1] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x2048.size a ≤ S2x1024x2048.size a
  hwx0_0 : ∀ i : grid0.Coords, EltTy.bits .bf16 = 32 ∨ (Rect.block (s := S2x1024x2048) S2x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x1024.size a
  hwx0_2 : ∀ i : grid0.Coords, EltTy.bits .f32 = 32 ∨ (Rect.block (s := S2x1024) S2x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x1024.size a
  hwx0_3 : ∀ i : grid0.Coords, EltTy.bits .f32 = 32 ∨ (Rect.block (s := S2x1024) S2x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x2048.size a ≤ S2x1024x2048.size a
  hwx1_0 : ∀ i : grid1.Coords, EltTy.bits .bf16 = 32 ∨ (Rect.block (s := S2x1024x2048) S2x512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S32000x2048.size a
  hwx1_1 : ∀ i : grid1.Coords, EltTy.bits .bf16 = 32 ∨ (Rect.block (s := S32000x2048) S1280x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512.size a ≤ S2x1024.size a
  hwx1_2 : ∀ i : grid1.Coords, EltTy.bits .f32 = 32 ∨ (Rect.block (s := S2x1024) S2x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512.size a ≤ S2x1024.size a
  hwx1_3 : ∀ i : grid1.Coords, EltTy.bits .f32 = 32 ∨ (Rect.block (s := S2x1024) S2x512.size (cc1_transform_3 i) (hinb1_3 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S2x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S2x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S2x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S2x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S2x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S2x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x1024x2048 : Shape := ⟨3, ![2, 1024, 2048]⟩
abbrev S32000x2048 : Shape := ⟨2, ![32000, 2048]⟩
abbrev S2x1024 : Shape := ⟨2, ![2, 1024]⟩
abbrev S2 : Shape := ⟨1, ![2]⟩
abbrev S2x1024x32000 : Shape := ⟨3, ![2, 1024, 32000]⟩
abbrev S_ : Shape := ⟨0, ![]⟩
abbrev S2x1024x1 : Shape := ⟨3, ![2, 1024, 1]⟩
abbrev S1 : Shape := ⟨1, ![1]⟩

abbrev nBuf : Space → Nat
  | .hbm => 120
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S32000x2048, .f32⟩
  | .hbm, ⟨2, _⟩ => ⟨S2x1024, .i32⟩
  | .hbm, ⟨3, _⟩ => ⟨S2, .f32⟩
  | .hbm, ⟨4, _⟩ => ⟨S2x1024x2048, .f32⟩
  | .hbm, ⟨5, _⟩ => ⟨S32000x2048, .f32⟩
  | .hbm, ⟨6, _⟩ => ⟨S2x1024, .f32⟩
  | .hbm, ⟨7, _⟩ => ⟨S2x1024x32000, .f32⟩
  | .hbm, ⟨8, _⟩ => ⟨S_, .f32⟩
  | .hbm, ⟨9, _⟩ => ⟨S2x1024, .f32⟩
  | .hbm, ⟨10, _⟩ => ⟨S2x1024x1, .f32⟩
  | .hbm, ⟨11, _⟩ => ⟨S2x1024x32000, .f32⟩
  | .hbm, ⟨12, _⟩ => ⟨S2x1024x32000, .f32⟩
  | .hbm, ⟨13, _⟩ => ⟨S2x1024x32000, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S_, .f32⟩
  | .hbm, ⟨21, _⟩ => ⟨S2, .f32⟩
  | .hbm, ⟨22, _⟩ => ⟨S2x1024x32000, .f32⟩
  | .hbm, ⟨23, _⟩ => ⟨S_, .f32⟩
  | .hbm, ⟨24, _⟩ => ⟨S2x1024, .f32⟩
  | .hbm, ⟨25, _⟩ => ⟨S2x1024x1, .f32⟩
  | .hbm, ⟨26, _⟩ => ⟨S2x1024x32000, .f32⟩
  | .hbm, ⟨27, _⟩ => ⟨S2x1024x32000, .f32⟩
  | .hbm, ⟨28, _⟩ => ⟨S2x1024x32000, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S_, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2, .f32⟩
  | .hbm, ⟨42, _⟩ => ⟨S2, .f32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S2, .f32⟩
  | .hbm, ⟨51, _⟩ => ⟨S2, .f32⟩
  | .hbm, ⟨52, _⟩ => ⟨S2, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S2, .f32⟩
  | .hbm, ⟨77, _⟩ => ⟨S2, .f32⟩
  | .hbm, ⟨78, _⟩ => ⟨S_, .f32⟩
  | .hbm, ⟨79, _⟩ => ⟨S2, .f32⟩
  | .hbm, ⟨80, _⟩ => ⟨S2, .f32⟩
  | .hbm, ⟨81, _⟩ => ⟨S2, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i32⟩
  | .hbm, ⟨91, _⟩ => ⟨S_, .f32⟩
  | .hbm, ⟨92, _⟩ => ⟨S_, .f32⟩
  | .hbm, ⟨93, _⟩ => ⟨S1, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S2, .f32⟩
  | .hbm, ⟨98, _⟩ => ⟨S2, .f32⟩
  | .hbm, ⟨99, _⟩ => ⟨S2, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_cst_0 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_cst_1 : Ref sig .tc := ⟨.hbm, 54, rfl⟩
abbrev main_call0_call0_v8 : Ref sig .tc := ⟨.hbm, 55, rfl⟩
abbrev main_call0_call0_cst_2 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_cst_3 : Ref sig .tc := ⟨.hbm, 59, rfl⟩
abbrev main_call0_call0_v11 : Ref sig .tc := ⟨.hbm, 60, rfl⟩
abbrev main_call0_call0_cst_4 : Ref sig .tc := ⟨.hbm, 61, rfl⟩
abbrev main_call0_call0_call0_v0 : Ref sig .tc := ⟨.hbm, 62, rfl⟩
abbrev main_call0_v0 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_cst_9 : Ref sig .tc := ⟨.hbm, 69, rfl⟩
abbrev main_call1_v0 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_11 : Ref sig .tc := ⟨.hbm, 82, rfl⟩
abbrev main_v42 : Ref sig .tc := ⟨.hbm, 83, rfl⟩
abbrev main_cst_12 : Ref sig .tc := ⟨.hbm, 84, rfl⟩
abbrev main_v43 : Ref sig .tc := ⟨.hbm, 85, rfl⟩
abbrev main_cst_13 : Ref sig .tc := ⟨.hbm, 86, rfl⟩
abbrev main_v44 : Ref sig .tc := ⟨.hbm, 87, rfl⟩
abbrev main_cst_14 : Ref sig .tc := ⟨.hbm, 88, rfl⟩
abbrev main_v45 : Ref sig .tc := ⟨.hbm, 89, rfl⟩
abbrev main_c_15 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_cst_0 : Ref sig .tc := ⟨.hbm, 94, rfl⟩
abbrev main_call3_call0_v2 : Ref sig .tc := ⟨.hbm, 95, rfl⟩
abbrev main_call3_call0_v3 : Ref sig .tc := ⟨.hbm, 96, rfl⟩
abbrev main_call3_call0_v4 : Ref sig .tc := ⟨.hbm, 97, rfl⟩
abbrev main_call3_call0_v5 : Ref sig .tc := ⟨.hbm, 98, rfl⟩
abbrev main_call3_call0_v6 : Ref sig .tc := ⟨.hbm, 99, rfl⟩
abbrev main_call3_call0_v7 : Ref sig .tc := ⟨.hbm, 100, rfl⟩
abbrev main_call3_call0_cst_1 : Ref sig .tc := ⟨.hbm, 101, rfl⟩
abbrev main_call3_call0_v8 : Ref sig .tc := ⟨.hbm, 102, rfl⟩
abbrev main_call3_call0_cst_2 : Ref sig .tc := ⟨.hbm, 103, rfl⟩
abbrev main_call3_call0_v9 : Ref sig .tc := ⟨.hbm, 104, rfl⟩
abbrev main_call3_call0_v10 : Ref sig .tc := ⟨.hbm, 105, rfl⟩
abbrev main_call3_call0_cst_3 : Ref sig .tc := ⟨.hbm, 106, rfl⟩
abbrev main_call3_call0_v11 : Ref sig .tc := ⟨.hbm, 107, rfl⟩
abbrev main_call3_call0_cst_4 : Ref sig .tc := ⟨.hbm, 108, rfl⟩
abbrev main_call3_call0_call0_v0 : Ref sig .tc := ⟨.hbm, 109, rfl⟩
abbrev main_call3_v0 : Ref sig .tc := ⟨.hbm, 110, rfl⟩
abbrev main_v46 : Ref sig .tc := ⟨.hbm, 111, rfl⟩
abbrev main_cst_16 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_cst_18 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩

abbrev nD : Nat := 1
abbrev τ : Topo := Topo.v7x

variable {F : FTy → Type} [FloatOps F]

class Facts₀ : Prop where
  reducesTo_S2x1024x32000_S2x1024_d2 : S2x1024x32000.ReducesTo [2] S2x1024
  h_S_ : 0 < S_.numel
  bcast_S2x1024_S2x1024x1_0_1 : S2x1024.BroadcastsInDim S2x1024x1 (![0, 1] : Fin 2 → Fin S2x1024x1.rank)
  bcast_S2x1024x1_S2x1024x32000_0_1_2 : S2x1024x1.BroadcastsInDim S2x1024x32000 (![0, 1, 2] : Fin 3 → Fin S2x1024x32000.rank)
  reducesTo_S2x1024_S2_d1 : S2x1024.ReducesTo [1] S2
  reducesTo_S2_S_d0 : S2.ReducesTo [0] S_
  bcast_S_S2 : S_.BroadcastsInDim S2 (![] : Fin 0 → Fin S2.rank)
  bcast_S_S1 : S_.BroadcastsInDim S1 (![] : Fin 0 → Fin S1.rank)
  bcast_S1_S2_0 : S1.BroadcastsInDim S2 (![0] : Fin 1 → Fin S2.rank)
  reducesTo_S2x1024x32000_S_d0_1_2 : S2x1024x32000.ReducesTo [0, 1, 2] S_
  dot_S2x1024x2048_S32000x2048_S2x1024x32000_2_1_01_0_n_n_wf : DotDims.WF S2x1024x2048 S32000x2048 S2x1024x32000 [2] [1] [0, 1] [0] [] []

variable [Facts₀]

def dot_S2x1024x2048_S32000x2048_S2x1024x32000_2_1_01_0_n_n : DotDims S2x1024x2048 S32000x2048 S2x1024x32000 where
  lhsContracting := [2]
  rhsContracting := [1]
  lhsNonContracting := [0, 1]
  rhsNonContracting := [0]
  lhsBatch := []
  rhsBatch := []
  wf := dot_S2x1024x2048_S32000x2048_S2x1024x32000_2_1_01_0_n_n_wf

class Facts : Prop extends Facts₀ where

variable [Facts]
-- ==== Proof.KB.Step.lean ====
/-
  What one grid point does to the three running columns, as pure functions of the point's two input blocks
  (x : the activations' rows of this row-tile, all 2048 features; w : the 1280 vocabulary rows of this tile).
  Per row of the 1024 = 2·512 rows: the running maximum m, the running sum l of exp (logit − m) (rescaled by
  exp (m_old − m_new) when the maximum moves) and the running plain sum r of the logits.  At the first vocabulary
  tile the three columns restart from −∞, 0, 0; at the last one the two output blocks are
  m − (m + log l) and r, each re-laid from [1024, 1] to [2, 512].
-/
import proofs.«130178_j27539330302083_1_alg».proof.Proof.Gen.Kernel.Skeleton

noncomputable section

namespace Cert.Kernel.Hand

open Idealize.ShloMosaic Cert.Kernel Cert.Kernel.Gen

variable {F : FTy → Type} [FloatOps F]

/-- The columns a row-tile starts from: −∞, 0, 0. -/
def resetM : Vec F S1024x1 .f32 := k0_pay5
def resetL : Vec F S1024x1 .f32 := k0_pay6
def resetR : Vec F S1024x1 .f32 := k0_pay7

/-- The new running maximum: max (m, row maximum of this tile's logits). -/
def stepM (x : Vec F S2x512x2048 .bf16) (w : Vec F S1280x2048 .bf16) (ms : Vec F S1024x1 .f32) : Vec F S1024x1 .f32 :=
  k0_pay2 (k0_pay9 x w ms)

/-- The new running sum: exp (m − m') · l + Σ over the tile of exp (logit − m'). -/
def stepL (x : Vec F S2x512x2048 .bf16) (w : Vec F S1280x2048 .bf16) (ms ls : Vec F S1024x1 .f32) : Vec F S1024x1 .f32 :=
  k0_pay10 x w ms ms ls

/-- The new plain sum: r + Σ over the tile of the logits. -/
def stepR (x : Vec F S2x512x2048 .bf16) (w : Vec F S1280x2048 .bf16) (rs : Vec F S1024x1 .f32) : Vec F S1024x1 .f32 :=
  k0_pay1 (k0_pay11 x w rs)

/-- The first output block from the final columns: m − (m + log l), as [2, 512]. -/
def outLp (ms ls : Vec F S1024x1 .f32) : Vec F S2x512 .f32 := k0_pay3 ms ls ms

/-- The second output block: the plain sums, as [2, 512]. -/
def outRs (rs : Vec F S1024x1 .f32) : Vec F S2x512 .f32 := k0_pay4 rs

/-- The three columns after a point that continues a row-tile from columns (ms, ls, rs). -/
def stepAll (x : Vec F S2x512x2048 .bf16) (w : Vec F S1280x2048 .bf16)
    (s : Vec F S1024x1 .f32 × Vec F S1024x1 .f32 × Vec F S1024x1 .f32) :
    Vec F S1024x1 .f32 × Vec F S1024x1 .f32 × Vec F S1024x1 .f32 :=
  (stepM x w s.1, stepL x w s.1 s.2.1, stepR x w s.2.2)

/-- The columns a row-tile starts from, as a triple. -/
def resetAll : Vec F S1024x1 .f32 × Vec F S1024x1 .f32 × Vec F S1024x1 .f32 := (resetM, resetL, resetR)

end Cert.Kernel.Hand

end
-- ==== Proof.KB.Body0.lean ====
/-
  The kernel body of region 0 as three triples, one per control case of its two conditionals (the grid's second
  coordinate v is the vocabulary tile): FIRST (v = 0: the three columns restart, nothing is written out), MIDDLE
  (0 < v < 24: the columns continue, nothing is written out), LAST (v = 24: the columns continue and the two
  output blocks are stored).  On whole buffers: the input blocks stay, an output block the case does not store
  stays as handed in, and the three scratch columns end at the pure functions of Step.lean.
-/
import proofs.«130178_j27539330302083_1_alg».proof.Proof.KB.Step
import proofs.«130178_j27539330302083_1_alg».proof.Proof.Gen.Kernel.Launch
import proofs.«130178_j27539330302083_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- "This point is the first vocabulary tile" as the body computes it from the grid coordinates. -/
abbrev isFirst0 (i : grid0.Coords) : Prop :=
  (Scalar.cmpi .ne (Scalar.extui (Scalar.cmpi .eq (BitVec.ofNat 32 (i 1).val) 0#32)) 0#32) = 1#1
/-- "This point is the last vocabulary tile" as the body computes it. -/
abbrev isLast0 (i : grid0.Coords) : Prop := k0_cond2 i = 1#1

/-- The zero offsets of a rank-2 rectangle, as the constant function. -/
theorem hz_R0 : (![0, 0] : Fin 2 → Nat) = fun _ => 0 := funext fun a => by fin_cases a <;> rfl
/-- The zero offsets of a rank-3 rectangle, as the constant function. -/
theorem hz3_R0 : (![0, 0, 0] : Fin 3 → Nat) = fun _ => 0 := funext fun a => by fin_cases a <;> rfl

set_option maxHeartbeats 4000000 in
/-- FIRST tile of a row-tile: whatever the columns held, they end at one step from (−∞, 0, 0); outputs untouched. -/
theorem body0_first (c : Dev nD) (E : Set ℕ) (i : grid0.Coords) (hf : isFirst0 i) (hl : ¬ isLast0 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM x w resetM) ∗ owns (c : Thread nD τ) a7 fullShare (stepL x w resetM resetL) ∗ owns (c : Thread nD τ) a8 fullShare (stepR x w resetR)) -∗ K ⟨⟩))
      ⊢ wp frame (wpE (defs₀ (F := F)) Variants.none c none) E (cc0_kernel i a2 h2 a3 h3 a4 h4 a5 h5 a6 h6 a7 h7 a8 h8) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R0 inb_S1024x1_S1024x1_0_0 y⟩)]
      rw [View.canon_cons_unit_zero (S := S1024x1) hz_R0]
      simp only [stepM, resetM, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H7]
  · iexists _; isplitr; swap
    · iexact H7
    · ipureintro
      sl_unfold_words
      rw [View.read_writes_eq_canon _ _ _ (fun y => ⟨_, List.mem_cons_self .., View.mem_set_unit_zero hz_R0 inb_S1024x1_S1024x1_0_0 y⟩)]
      rw [View.canon_cons_unit_zero (S := S1024x1) hz_R0]
      simp only [stepL, resetM, resetL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  · iexists _; isplitr; swap
    · iexact H8
    · ipureintro
      sl_unfold_words
      rw [View.read_writes_eq_canon _ _ _ (fun y => ⟨_, List.mem_cons_self .., View.mem_set_unit_zero hz_R0 inb_S1024x1_S1024x1_0_0 y⟩)]
      rw [View.canon_cons_unit_zero (S := S1024x1) hz_R0]
      simp only [stepR, resetR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]

set_option maxHeartbeats 4000000 in
/-- A MIDDLE tile: the columns advance one step from what they held; outputs untouched. -/
theorem body0_mid (c : Dev nD) (E : Set ℕ) (i : grid0.Coords) (hf : ¬ isFirst0 i) (hl : ¬ isLast0 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM x w ms) ∗ owns (c : Thread nD τ) a7 fullShare (stepL x w ms ls) ∗ owns (c : Thread nD τ) a8 fullShare (stepR x w rs)) -∗ K ⟨⟩))
      ⊢ wp frame (wpE (defs₀ (F := F)) Variants.none c none) E (cc0_kernel i a2 h2 a3 h3 a4 h4 a5 h5 a6 h6 a7 h7 a8 h8) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepM, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H7]
  · iexists _; isplitr; swap
    · iexact H7
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  · iexists _; isplitr; swap
    · iexact H8
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]

set_option maxHeartbeats 4000000 in
/-- The LAST tile: the columns advance one step and the two output blocks are stored from the final columns. -/
theorem body0_last (c : Dev nD) (E : Set ℕ) (i : grid0.Coords) (hf : ¬ isFirst0 i) (hl : isLast0 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (outLp (stepM x w ms) (stepL x w ms ls)) ∗ owns (c : Thread nD τ) a5 fullShare (outRs (stepR x w rs))
            ∗ owns (c : Thread nD τ) a6 fullShare (stepM x w ms) ∗ owns (c : Thread nD τ) a7 fullShare (stepL x w ms ls) ∗ owns (c : Thread nD τ) a8 fullShare (stepR x w rs)) -∗ K ⟨⟩))
      ⊢ wp frame (wpE (defs₀ (F := F)) Variants.none c none) E (cc0_kernel i a2 h2 a3 h3 a4 h4 a5 h5 a6 h6 a7 h7 a8 h8) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; swap
    · iexact H4
    · ipureintro
      sl_unfold_words
      rw [View.read_writes_eq_canon _ _ _ (fun y => ⟨_, List.mem_cons_self .., View.mem_set_unit_zero hz_R0 inb_S2x512_S2x512_0_0 y⟩)]
      rw [View.canon_unit_zero hz_R0]
      simp only [outLp, stepM, stepL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H5]
  · iexists _; isplitr; swap
    · iexact H5
    · ipureintro
      sl_unfold_words
      rw [View.read_writes_eq_canon _ _ _ (fun y => ⟨_, List.mem_cons_self .., View.mem_set_unit_zero hz_R0 inb_S2x512_S2x512_0_0 y⟩)]
      rw [View.canon_unit_zero hz_R0]
      simp only [outRs, stepR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H6]
  · iexists _; isplitr; swap
    · iexact H6
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepM, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H7]
  · iexists _; isplitr; swap
    · iexact H7
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  · iexists _; isplitr; swap
    · iexact H8
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]

end Cert.Kernel.Hand

end
-- ==== Proof.KB.Dat0.lean ====
/-
  Region 0's proof data at a parameter V (the core's buffer contents when the region is entered), and the body
  obligation.  The grid's 50 points are t = 25·s + v (s the row-tile, v the vocabulary tile).  The three scratch
  columns after point n are `colsAt0 V c n`: a recursion on n that restarts from (−∞, 0, 0) whenever n ≡ 0 (mod 25)
  and otherwise continues from the point before, each time folding in the point's two input blocks.  The
  invariant before point n + 1 holds the three scratch buffers at exactly those columns; the output windows'
  blocks after a point are the re-laid final columns (they matter only where v = 24, the only points written back).
-/
import proofs.«130178_j27539330302083_1_alg».proof.Proof.KB.Body0
import Idealize.ShloMosaic.Lib.Pipeline.Frame
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' block and the vocabulary block at point t, at their literal types. -/
abbrev xblk0 (c : Dev nD) (t : Fin cfg0.N) : Vec F S2x512x2048 .bf16 := iblk0 V c 0 t
abbrev wblk0 (c : Dev nD) (t : Fin cfg0.N) : Vec F S1280x2048 .bf16 := iblk0 V c 1 t

/-- Three [1024, 1] columns: running maximum, running rescaled exp-sum, running plain sum. -/
abbrev Cols (F : FTy → Type) [FloatOps F] : Type := Vec F S1024x1 .f32 × Vec F S1024x1 .f32 × Vec F S1024x1 .f32

/-- The scratch columns after point n. -/
def colsAt0 (c : Dev nD) : (n : ℕ) → n < cfg0.N → Cols F
  | 0, h => stepAll (xblk0 V c ⟨0, h⟩) (wblk0 V c ⟨0, h⟩) resetAll
  | n + 1, h =>
    if (n + 1) % 25 = 0 then stepAll (xblk0 V c ⟨n + 1, h⟩) (wblk0 V c ⟨n + 1, h⟩) resetAll
    else stepAll (xblk0 V c ⟨n + 1, h⟩) (wblk0 V c ⟨n + 1, h⟩) (colsAt0 c n (Nat.lt_of_succ_lt h))

/-- At the first vocabulary tile of a row-tile the columns restart. -/
theorem colsAt0_first (c : Dev nD) (t : Fin cfg0.N) (h : t.val % 25 = 0) :
    colsAt0 V c t.val t.isLt = stepAll (xblk0 V c t) (wblk0 V c t) resetAll := by
  obtain ⟨n, hn⟩ := t
  cases n with
  | zero => rfl
  | succ n => exact if_pos h

/-- At any other tile they continue from the point before. -/
theorem colsAt0_next (c : Dev nD) (t : Fin cfg0.N) (h : t.val % 25 ≠ 0) :
    colsAt0 V c t.val t.isLt
      = stepAll (xblk0 V c t) (wblk0 V c t) (colsAt0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this region nor one of its three scratch columns,
    at some contents each: carried through the region unopened. -/
abbrev restR0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The invariant before point n: at the region's entry the class's (every scratch buffer at anything, the generator
    register at some state); afterwards the three scratch buffers at the columns the point before left, the other
    scoped buffers at anything. -/
def PhiC0 (c : Dev nD) : (n : ℕ) → n ≤ cfg0.N → sProp 𝕄
  | 0, _ => Pipeline.ΦA spec0 c
  | n + 1, hn => iprop(owns (c : Thread nD τ) (Memref.whole cc0_scratch0 : Memref sig .tc .vmem S1024x1 .f32) fullShare (colsAt0 V c n hn).1
      ∗ owns (c : Thread nD τ) (Memref.whole cc0_scratch1 : Memref sig .tc .vmem S1024x1 .f32) fullShare (colsAt0 V c n hn).2.1
      ∗ owns (c : Thread nD τ) (Memref.whole cc0_scratch2 : Memref sig .tc .vmem S1024x1 .f32) fullShare (colsAt0 V c n hn).2.2
      ∗ restR0 (F := F) c ∗ (∃ r, prngReg c r))

theorem PhiC0_zeroR0 (c : Dev nD) (n : ℕ) (h : n ≤ cfg0.N) (hz : n = 0) : PhiC0 V c n h = Pipeline.ΦA spec0 c := by
  subst hz; rfl

theorem PhiC0_succR0 (c : Dev nD) (n : ℕ) (hn : n < cfg0.N) :
    PhiC0 V c (n + 1) hn = iprop(owns (c : Thread nD τ) (Memref.whole cc0_scratch0 : Memref sig .tc .vmem S1024x1 .f32) fullShare (colsAt0 V c n hn).1
      ∗ owns (c : Thread nD τ) (Memref.whole cc0_scratch1 : Memref sig .tc .vmem S1024x1 .f32) fullShare (colsAt0 V c n hn).2.1
      ∗ owns (c : Thread nD τ) (Memref.whole cc0_scratch2 : Memref sig .tc .vmem S1024x1 .f32) fullShare (colsAt0 V c n hn).2.2
      ∗ restR0 (F := F) c ∗ (∃ r, prngReg c r)) := rfl

theorem PhiC0_posR0 (c : Dev nD) (n : ℕ) (h : n ≤ cfg0.N) (hz : n ≠ 0) :
    PhiC0 V c n h = iprop(owns (c : Thread nD τ) (Memref.whole cc0_scratch0 : Memref sig .tc .vmem S1024x1 .f32) fullShare (colsAt0 V c (n - 1) (by omega)).1
      ∗ owns (c : Thread nD τ) (Memref.whole cc0_scratch1 : Memref sig .tc .vmem S1024x1 .f32) fullShare (colsAt0 V c (n - 1) (by omega)).2.1
      ∗ owns (c : Thread nD τ) (Memref.whole cc0_scratch2 : Memref sig .tc .vmem S1024x1 .f32) fullShare (colsAt0 V c (n - 1) (by omega)).2.2
      ∗ restR0 (F := F) c ∗ (∃ r, prngReg c r)) := by
  cases n with
  | zero => exact absurd rfl hz
  | succ n => rfl

/-- The class's invariant with the three scratch columns as memrefs owned at some contents, the rest unopened. -/
theorem PhiA_eqR0 (c : Dev nD) :
    (Pipeline.ΦA spec0 c : sProp 𝕄)
      = iprop(iprop(iprop((∃ d, owns (c : Thread nD τ) (Memref.whole cc0_scratch0 : Memref sig .tc .vmem S1024x1 .f32) fullShare d)
          ∗ (∃ d, owns (c : Thread nD τ) (Memref.whole cc0_scratch1 : Memref sig .tc .vmem S1024x1 .f32) fullShare d)
          ∗ (∃ d, owns (c : Thread nD τ) (Memref.whole cc0_scratch2 : Memref sig .tc .vmem S1024x1 .f32) fullShare d))
          ∗ restR0 (F := F) c) ∗ (∃ r, prngReg c r)) := by
  unfold Pipeline.ΦA
  rw [Pipeline.scopedRest_split_of_list spec0 c [cc0_scratch0, cc0_scratch1, cc0_scratch2] (by decide) (by decide)]
  simp only [BI.bigSepL_cons_cons, BI.bigSepL_singleton, owns_whole]
  rfl

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outLp (colsAt0 V c t.val t.isLt).1 (colsAt0 V c t.val t.isLt).2.1
    | ⟨3, _⟩ => outRs (colsAt0 V c t.val t.isLt).2.2
  Φ t := PhiC0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) :
    (dat0 V c).after 2 t = outLp (colsAt0 V c t.val t.isLt).1 (colsAt0 V c t.val t.isLt).2.1 := by dsimp only [dat0]
theorem after0_3 (c : Dev nD) (t : Fin cfg0.N) :
    (dat0 V c).after 3 t = outRs (colsAt0 V c t.val t.isLt).2.2 := by dsimp only [dat0]

theorem afterXR0 (c : Dev nD) (t : Fin cfg0.N) : (dat0 V c).after 0 t = iblk0 V c 0 t := by dsimp only [dat0]
theorem afterWR0 (c : Dev nD) (t : Fin cfg0.N) : (dat0 V c).after 1 t = iblk0 V c 1 t := by dsimp only [dat0]

/-- The invariant at a point's start, restated at the point's number. -/
theorem PhiC0_castSuccR0 (c : Dev nD) (t : Fin cfg0.N) :
    (dat0 V c).Φ t.castSucc = PhiC0 V c t.val (Nat.le_of_lt t.isLt) := by
  dsimp only [dat0]; simp only [Fin.coe_castSucc]

/-! ## The grid's 50 points: which control case, which windows are live -/

/-- v = 0 exactly at the points ≡ 0 (mod 25). -/
theorem isFirst_iffR0 : ∀ t : Fin cfg0.N, isFirst0 (grid0.coords t) ↔ t.val % 25 = 0 :=
  (by decide +kernel : ∀ t : Fin grid0.N, isFirst0 (grid0.coords t) ↔ t.val % 25 = 0)
/-- v = 24 exactly at the points ≡ 24 (mod 25). -/
theorem isLast_iffR0 : ∀ t : Fin cfg0.N, isLast0 (grid0.coords t) ↔ t.val % 25 = 24 :=
  (by decide +kernel : ∀ t : Fin grid0.N, isLast0 (grid0.coords t) ↔ t.val % 25 = 24)
/-- The two input windows are live at every point. -/
theorem liveXR0 : ∀ t : Fin cfg0.N, cfg0.idle 0 (grid0.coords t) = false := by decide +kernel
theorem liveWR0 : ∀ t : Fin cfg0.N, cfg0.idle 1 (grid0.coords t) = false := by decide +kernel
/-- The two output windows are idle, and not written back, off the last vocabulary tile; live on it. -/
theorem idleLpR0 : ∀ t : Fin cfg0.N, ¬ t.val % 25 = 24 → cfg0.idle 2 (grid0.coords t) = true := by decide +kernel
theorem idleRsR0 : ∀ t : Fin cfg0.N, ¬ t.val % 25 = 24 → cfg0.idle 3 (grid0.coords t) = true := by decide +kernel
theorem noFlushLpR0 : ∀ t : Fin cfg0.N, ¬ t.val % 25 = 24 → (cfg0.win 2).flush t = false := by decide +kernel
theorem noFlushRsR0 : ∀ t : Fin cfg0.N, ¬ t.val % 25 = 24 → (cfg0.win 3).flush t = false := by decide +kernel
theorem liveLpR0 : ∀ t : Fin cfg0.N, t.val % 25 = 24 → cfg0.idle 2 (grid0.coords t) = false := by decide +kernel
theorem liveRsR0 : ∀ t : Fin cfg0.N, t.val % 25 = 24 → cfg0.idle 3 (grid0.coords t) = false := by decide +kernel

/-! ## The inputs' staging buffers hold their blocks at every point -/

/-- The activations' current buffer holds the row-tile's block, fetched at this point or kept from v = 0. -/
theorem beforeXR0 (c : Dev nD) (t : Fin cfg0.N) (d) : (dat0 V c).before 0 t d = iblk0 V c 0 t := by
  have hk : ∀ t, (cfg0.win 0).cut (cfg0.grid.coords t) ((dat0 V c).after 0 t) = (dat0 V c).blockOf 0 t := fun t => by
    rw [afterXR0]; unfold Dat.blockOf iblk0; rw [A_eq0]; try rfl
  rw [(dat0 V c).before_in_eq_fetched 0 rfl (fun _ => rfl) (fun _ _ _ => rfl) hk t d]
  unfold Dat.fetched Dat.blockOf iblk0; rw [A_eq0]; try rfl

/-- The vocabulary tile's current buffer holds its block (fetched at every point). -/
theorem beforeWR0 (c : Dev nD) (t : Fin cfg0.N) (d) : (dat0 V c).before 1 t d = iblk0 V c 1 t := by
  have hk : ∀ t, (cfg0.win 1).cut (cfg0.grid.coords t) ((dat0 V c).after 1 t) = (dat0 V c).blockOf 1 t := fun t => by
    rw [afterWR0]; unfold Dat.blockOf iblk0; rw [A_eq0]; try rfl
  rw [(dat0 V c).before_in_eq_fetched 1 rfl (fun _ => rfl) (fun _ _ _ => rfl) hk t d]
  unfold Dat.fetched Dat.blockOf iblk0; rw [A_eq0]; try rfl

/-! ## The body obligation at a generic point -/

/-- Each window's current staging memref at point t, spelled as the pipeline passes it to the body. -/
abbrev msXR0 (t : Fin cfg0.N) : Memref sig .tc .vmem S2x512x2048 .bf16 := win0_0.stage (cfg0.slots t 0)
abbrev msWR0 (t : Fin cfg0.N) : Memref sig .tc .vmem S1280x2048 .bf16 := win0_1.stage (cfg0.slots t 1)
abbrev msLpR0 (t : Fin cfg0.N) : Memref sig .tc .vmem S2x512 .f32 := win0_2.stage (cfg0.slots t 2)
abbrev msRsR0 (t : Fin cfg0.N) : Memref sig .tc .vmem S2x512 .f32 := win0_3.stage (cfg0.slots t 3)

/-- What the body is called with at point t, the windows one by one, -/
def bodyPreR0 (c : Dev nD) (t : Fin cfg0.N) : sProp 𝕄 :=
  iprop((dat0 V c).Φ t.castSucc ∗ (dat0 V c).owesAt () t.castSucc
    ∗ (∃ d, owns (c : Thread nD τ) (msXR0 t) fullShare ((dat0 V c).before 0 t d))
    ∗ (∃ d, owns (c : Thread nD τ) (msWR0 t) fullShare ((dat0 V c).before 1 t d))
    ∗ (∃ d, owns (c : Thread nD τ) (msLpR0 t) fullShare ((dat0 V c).before 2 t d))
    ∗ (∃ d, owns (c : Thread nD τ) (msRsR0 t) fullShare ((dat0 V c).before 3 t d)))

/-- and what it returns. -/
def bodyPostR0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's number mod 25 says which control case
    it is; the invariant hands over the three scratch columns (at anything before the very first point, at the
    columns after the point before otherwise) and takes them back one step further; an output buffer is handed back
    as found off the last vocabulary tile and holds the re-laid final columns on it. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeXR0, beforeWR0]
  rw [show (dat0 V c).owesAt () t.succ = (dat0 V c).owesAt () t.castSucc from rfl]
  rw [show (dat0 V c).Φ t.succ = PhiC0 V c (t.val + 1) t.isLt from rfl, PhiC0_succR0]
  rw [show (dat0 V c).leavesExact 0 t = owns (c : Thread nD τ) (msXR0 t) fullShare ((dat0 V c).after 0 t) from by
    unfold Dat.leavesExact; rw [liveXR0 t], afterXR0]
  rw [show (dat0 V c).leavesExact 1 t = owns (c : Thread nD τ) (msWR0 t) fullShare ((dat0 V c).after 1 t) from by
    unfold Dat.leavesExact; rw [liveWR0 t], afterWR0]
  have hN : t.val < 50 := lt_of_lt_of_eq t.isLt (show cfg0.N = 50 from N_0)
  by_cases h0 : t.val % 25 = 0
  · -- the first vocabulary tile of a row-tile: the columns restart
    have h24 : ¬ t.val % 25 = 24 := by omega
    rw [Dat.leavesExact_idle (dat0 V c) 2 t (idleLpR0 t h24) (noFlushLpR0 t h24)]
    rw [Dat.leavesExact_idle (dat0 V c) 3 t (idleRsR0 t h24) (noFlushRsR0 t h24)]
    rw [colsAt0_first V c t h0]
    simp only [stepAll, resetAll]
    by_cases hz : t.val = 0
    · rw [PhiC0_castSuccR0 V c t, PhiC0_zeroR0 V c _ _ hz, PhiA_eqR0]
      iintro ⟨⟨⟨⟨⟨%m0, HS0⟩, ⟨%l0, HS1⟩, ⟨%r0, HS2⟩⟩, HR⟩, Hg⟩, Ho, ⟨%d0, H0⟩, ⟨%d1, H1⟩, ⟨%d2, H2⟩, ⟨%d3, H3⟩⟩
      iapply (body0_first c Set.univ (grid0.coords t) ((isFirst_iffR0 t).mpr h0) (fun h => h24 ((isLast_iffR0 t).mp h))
        _ _ _ _ _ _ _ _ _ _ _ _ _ _ (iblk0 V c 0 t) (iblk0 V c 1 t) ((dat0 V c).before 2 t d2) ((dat0 V c).before 3 t d3) m0 l0 r0 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
    · rw [PhiC0_castSuccR0 V c t, PhiC0_posR0 V c _ _ hz]
      iintro ⟨⟨HS0, HS1, HS2, HR, Hg⟩, Ho, ⟨%d0, H0⟩, ⟨%d1, H1⟩, ⟨%d2, H2⟩, ⟨%d3, H3⟩⟩
      iapply (body0_first c Set.univ (grid0.coords t) ((isFirst_iffR0 t).mpr h0) (fun h => h24 ((isLast_iffR0 t).mp h))
        _ _ _ _ _ _ _ _ _ _ _ _ _ _ (iblk0 V c 0 t) (iblk0 V c 1 t) ((dat0 V c).before 2 t d2) ((dat0 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
  · have hz : t.val ≠ 0 := fun hz => h0 (by rw [hz])
    by_cases h24 : t.val % 25 = 24
    · -- the last vocabulary tile: the columns continue and the two output blocks are stored
      rw [show (dat0 V c).leavesExact 2 t = owns (c : Thread nD τ) (msLpR0 t) fullShare ((dat0 V c).after 2 t) from by
        unfold Dat.leavesExact; rw [liveLpR0 t h24], after0_2]
      rw [show (dat0 V c).leavesExact 3 t = owns (c : Thread nD τ) (msRsR0 t) fullShare ((dat0 V c).after 3 t) from by
        unfold Dat.leavesExact; rw [liveRsR0 t h24], after0_3]
      rw [colsAt0_next V c t h0]
      simp only [stepAll]
      rw [PhiC0_castSuccR0 V c t, PhiC0_posR0 V c _ _ hz]
      iintro ⟨⟨HS0, HS1, HS2, HR, Hg⟩, Ho, ⟨%d0, H0⟩, ⟨%d1, H1⟩, ⟨%d2, H2⟩, ⟨%d3, H3⟩⟩
      iapply (body0_last c Set.univ (grid0.coords t) (fun h => h0 ((isFirst_iffR0 t).mp h)) ((isLast_iffR0 t).mpr h24)
        _ _ _ _ _ _ _ _ _ _ _ _ _ _ (iblk0 V c 0 t) (iblk0 V c 1 t) ((dat0 V c).before 2 t d2) ((dat0 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      iexact H3
    · -- a middle tile: the columns continue, nothing is stored out
      rw [Dat.leavesExact_idle (dat0 V c) 2 t (idleLpR0 t h24) (noFlushLpR0 t h24)]
      rw [Dat.leavesExact_idle (dat0 V c) 3 t (idleRsR0 t h24) (noFlushRsR0 t h24)]
      rw [colsAt0_next V c t h0]
      simp only [stepAll]
      rw [PhiC0_castSuccR0 V c t, PhiC0_posR0 V c _ _ hz]
      iintro ⟨⟨HS0, HS1, HS2, HR, Hg⟩, Ho, ⟨%d0, H0⟩, ⟨%d1, H1⟩, ⟨%d2, H2⟩, ⟨%d3, H3⟩⟩
      iapply (body0_mid c Set.univ (grid0.coords t) (fun h => h0 ((isFirst_iffR0 t).mp h)) (fun h => h24 ((isLast_iffR0 t).mp h))
        _ _ _ _ _ _ _ _ _ _ _ _ _ _ (iblk0 V c 0 t) (iblk0 V c 1 t) ((dat0 V c).before 2 t d2) ((dat0 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3

/-- The body obligation of region 0 at every point. -/
theorem body_obligation0 (c : Dev nD) : BodyObligation (dat0 (F := F) V c) (defs₀ (F := F)) Variants.none () Set.univ := fun t => by
  rw [bigSep_W0, bigSep_W0]
  exact sound_bodyR0 V c t

/-- What the launch hands the region is the invariant before the first point. -/
theorem hin0 (c : Dev nD) : Pipeline.ΦA spec0 c ⊢ (dat0 V c).Φ 0 := by
  rw [show (dat0 V c).Φ 0 = PhiC0 V c 0 (Nat.zero_le _) from rfl, PhiC0_zeroR0 V c 0 _ rfl]

/-- After any point the invariant gives the class's back: the columns' contents are forgotten. -/
theorem Phi_outR0 (c : Dev nD) (t : Fin (cfg0.N + 1)) (ht : t.val ≠ 0) : (dat0 V c).Φ t ⊢ Pipeline.ΦA spec0 c := by
  rw [show (dat0 V c).Φ t = PhiC0 V c t.val (Nat.le_of_lt_succ t.isLt) from rfl, PhiC0_posR0 V c _ _ ht, PhiA_eqR0]
  iintro ⟨H0, H1, H2, HR, Hg⟩
  isplitl [H0 H1 H2 HR]
  · isplitl [H0 H1 H2]
    · isplitl [H0]; · iexists _; iexact H0
      isplitl [H1]; · iexists _; iexact H1
      iexists _; iexact H2
    · iexact HR
  · iexact Hg

/-- After the last point the invariant gives the class's back (the columns' contents forgotten). -/
theorem hout0 (c : Dev nD) : (dat0 V c).Φ (Fin.last cfg0.N) ⊢ Pipeline.ΦA spec0 c :=
  Phi_outR0 V c _ (by rw [Fin.val_last]; have : cfg0.N = 50 := N_0; omega)

end Cert.Kernel.Hand

end
-- ==== Proof.KB.Step1.lean ====
/-
  What one grid point does to the three running columns, as pure functions of the point's two input blocks
  (x : the activations' rows of this row-tile, all 2048 features; w : the 1280 vocabulary rows of this tile).
  Per row of the 1024 = 2·512 rows: the running maximum m, the running sum l of exp (logit − m) (rescaled by
  exp (m_old − m_new) when the maximum moves) and the running plain sum r of the logits.  At the first vocabulary
  tile the three columns restart from −∞, 0, 0; at the last one the two output blocks are
  m − (m + log l) and r, each re-laid from [1024, 1] to [2, 512].
-/
import proofs.«130178_j27539330302083_1_alg».proof.Proof.Gen.Kernel.Skeleton

noncomputable section

namespace Cert.Kernel.Hand

open Idealize.ShloMosaic Cert.Kernel Cert.Kernel.Gen

variable {F : FTy → Type} [FloatOps F]

/-- The columns a row-tile starts from: −∞, 0, 0. -/
def resetM1 : Vec F S1024x1 .f32 := k1_pay5
def resetL1 : Vec F S1024x1 .f32 := k1_pay6
def resetR1 : Vec F S1024x1 .f32 := k1_pay7

/-- The new running maximum: max (m, row maximum of this tile's logits). -/
def stepM1 (x : Vec F S2x512x2048 .bf16) (w : Vec F S1280x2048 .bf16) (ms : Vec F S1024x1 .f32) : Vec F S1024x1 .f32 :=
  k1_pay2 (k1_pay9 x w ms)

/-- The new running sum: exp (m − m') · l + Σ over the tile of exp (logit − m'). -/
def stepL1 (x : Vec F S2x512x2048 .bf16) (w : Vec F S1280x2048 .bf16) (ms ls : Vec F S1024x1 .f32) : Vec F S1024x1 .f32 :=
  k1_pay10 x w ms ms ls

/-- The new plain sum: r + Σ over the tile of the logits. -/
def stepR1 (x : Vec F S2x512x2048 .bf16) (w : Vec F S1280x2048 .bf16) (rs : Vec F S1024x1 .f32) : Vec F S1024x1 .f32 :=
  k1_pay1 (k1_pay11 x w rs)

/-- The first output block from the final columns: m − (m + log l), as [2, 512]. -/
def outLp1 (ms ls : Vec F S1024x1 .f32) : Vec F S2x512 .f32 := k1_pay3 ms ls ms

/-- The second output block: the plain sums, as [2, 512]. -/
def outRs1 (rs : Vec F S1024x1 .f32) : Vec F S2x512 .f32 := k1_pay4 rs

/-- The three columns after a point that continues a row-tile from columns (ms, ls, rs). -/
def stepAll1 (x : Vec F S2x512x2048 .bf16) (w : Vec F S1280x2048 .bf16)
    (s : Vec F S1024x1 .f32 × Vec F S1024x1 .f32 × Vec F S1024x1 .f32) :
    Vec F S1024x1 .f32 × Vec F S1024x1 .f32 × Vec F S1024x1 .f32 :=
  (stepM1 x w s.1, stepL1 x w s.1 s.2.1, stepR1 x w s.2.2)

/-- The columns a row-tile starts from, as a triple. -/
def resetAll1 : Vec F S1024x1 .f32 × Vec F S1024x1 .f32 × Vec F S1024x1 .f32 := (resetM1, resetL1, resetR1)

end Cert.Kernel.Hand

end
-- ==== Proof.KB.Body1.lean ====
/-
  The kernel body of region 1 as three triples, one per control case of its two conditionals (the grid's second
  coordinate v is the vocabulary tile): FIRST (v = 0: the three columns restart, nothing is written out), MIDDLE
  (0 < v < 24: the columns continue, nothing is written out), LAST (v = 24: the columns continue and the two
  output blocks are stored).  On whole buffers: the input blocks stay, an output block the case does not store
  stays as handed in, and the three scratch columns end at the pure functions of Step.lean.
-/
import proofs.«130178_j27539330302083_1_alg».proof.Proof.KB.Step1
import proofs.«130178_j27539330302083_1_alg».proof.Proof.Gen.Kernel.Launch
import proofs.«130178_j27539330302083_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- "This point is the first vocabulary tile" as the body computes it from the grid coordinates. -/
abbrev isFirst1 (i : grid1.Coords) : Prop :=
  (Scalar.cmpi .ne (Scalar.extui (Scalar.cmpi .eq (BitVec.ofNat 32 (i 1).val) 0#32)) 0#32) = 1#1
/-- "This point is the last vocabulary tile" as the body computes it. -/
abbrev isLast1 (i : grid1.Coords) : Prop := k1_cond2 i = 1#1

/-- The zero offsets of a rank-2 rectangle, as the constant function. -/
theorem hz_R1 : (![0, 0] : Fin 2 → Nat) = fun _ => 0 := funext fun a => by fin_cases a <;> rfl
/-- The zero offsets of a rank-3 rectangle, as the constant function. -/
theorem hz3_R1 : (![0, 0, 0] : Fin 3 → Nat) = fun _ => 0 := funext fun a => by fin_cases a <;> rfl

set_option maxHeartbeats 4000000 in
/-- FIRST tile of a row-tile: whatever the columns held, they end at one step from (−∞, 0, 0); outputs untouched. -/
theorem body1_first (c : Dev nD) (E : Set ℕ) (i : grid1.Coords) (hf : isFirst1 i) (hl : ¬ isLast1 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM1 x w resetM1) ∗ owns (c : Thread nD τ) a7 fullShare (stepL1 x w resetM1 resetL1) ∗ owns (c : Thread nD τ) a8 fullShare (stepR1 x w resetR1)) -∗ K ⟨⟩))
      ⊢ wp frame (wpE (defs₀ (F := F)) Variants.none c none) E (cc1_kernel i a2 h2 a3 h3 a4 h4 a5 h5 a6 h6 a7 h7 a8 h8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R1 inb_S1024x1_S1024x1_0_0 y⟩)]
      rw [View.canon_cons_unit_zero (S := S1024x1) hz_R1]
      simp only [stepM1, resetM1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H7]
  · iexists _; isplitr; swap
    · iexact H7
    · ipureintro
      sl_unfold_words
      rw [View.read_writes_eq_canon _ _ _ (fun y => ⟨_, List.mem_cons_self .., View.mem_set_unit_zero hz_R1 inb_S1024x1_S1024x1_0_0 y⟩)]
      rw [View.canon_cons_unit_zero (S := S1024x1) hz_R1]
      simp only [stepL1, resetM1, resetL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  · iexists _; isplitr; swap
    · iexact H8
    · ipureintro
      sl_unfold_words
      rw [View.read_writes_eq_canon _ _ _ (fun y => ⟨_, List.mem_cons_self .., View.mem_set_unit_zero hz_R1 inb_S1024x1_S1024x1_0_0 y⟩)]
      rw [View.canon_cons_unit_zero (S := S1024x1) hz_R1]
      simp only [stepR1, resetR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]

set_option maxHeartbeats 4000000 in
/-- A MIDDLE tile: the columns advance one step from what they held; outputs untouched. -/
theorem body1_mid (c : Dev nD) (E : Set ℕ) (i : grid1.Coords) (hf : ¬ isFirst1 i) (hl : ¬ isLast1 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM1 x w ms) ∗ owns (c : Thread nD τ) a7 fullShare (stepL1 x w ms ls) ∗ owns (c : Thread nD τ) a8 fullShare (stepR1 x w rs)) -∗ K ⟨⟩))
      ⊢ wp frame (wpE (defs₀ (F := F)) Variants.none c none) E (cc1_kernel i a2 h2 a3 h3 a4 h4 a5 h5 a6 h6 a7 h7 a8 h8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepM1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H7]
  · iexists _; isplitr; swap
    · iexact H7
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  · iexists _; isplitr; swap
    · iexact H8
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]

set_option maxHeartbeats 4000000 in
/-- The LAST tile: the columns advance one step and the two output blocks are stored from the final columns. -/
theorem body1_last (c : Dev nD) (E : Set ℕ) (i : grid1.Coords) (hf : ¬ isFirst1 i) (hl : isLast1 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (outLp1 (stepM1 x w ms) (stepL1 x w ms ls)) ∗ owns (c : Thread nD τ) a5 fullShare (outRs1 (stepR1 x w rs))
            ∗ owns (c : Thread nD τ) a6 fullShare (stepM1 x w ms) ∗ owns (c : Thread nD τ) a7 fullShare (stepL1 x w ms ls) ∗ owns (c : Thread nD τ) a8 fullShare (stepR1 x w rs)) -∗ K ⟨⟩))
      ⊢ wp frame (wpE (defs₀ (F := F)) Variants.none c none) E (cc1_kernel i a2 h2 a3 h3 a4 h4 a5 h5 a6 h6 a7 h7 a8 h8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; swap
    · iexact H4
    · ipureintro
      sl_unfold_words
      rw [View.read_writes_eq_canon _ _ _ (fun y => ⟨_, List.mem_cons_self .., View.mem_set_unit_zero hz_R1 inb_S2x512_S2x512_0_0 y⟩)]
      rw [View.canon_unit_zero hz_R1]
      simp only [outLp1, stepM1, stepL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H5]
  · iexists _; isplitr; swap
    · iexact H5
    · ipureintro
      sl_unfold_words
      rw [View.read_writes_eq_canon _ _ _ (fun y => ⟨_, List.mem_cons_self .., View.mem_set_unit_zero hz_R1 inb_S2x512_S2x512_0_0 y⟩)]
      rw [View.canon_unit_zero hz_R1]
      simp only [outRs1, stepR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H6]
  · iexists _; isplitr; swap
    · iexact H6
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepM1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H7]
  · iexists _; isplitr; swap
    · iexact H7
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  · iexists _; isplitr; swap
    · iexact H8
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]

end Cert.Kernel.Hand

end
-- ==== Proof.KB.Dat1.lean ====
/-
  region 1's proof data at a parameter V (the core's buffer contents when the region is entered), and the body
  obligation.  The grid's 50 points are t = 25·s + v (s the row-tile, v the vocabulary tile).  The three scratch
  columns after point n are `colsAt1 V c n`: a recursion on n that restarts from (−∞, 0, 0) whenever n ≡ 0 (mod 25)
  and otherwise continues from the point before, each time folding in the point's two input blocks.  The
  invariant before point n + 1 holds the three scratch buffers at exactly those columns; the output windows'
  blocks after a point are the re-laid final columns (they matter only where v = 24, the only points written back).
-/
import proofs.«130178_j27539330302083_1_alg».proof.Proof.KB.Body1
import Idealize.ShloMosaic.Lib.Pipeline.Frame
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' block and the vocabulary block at point t, at their literal types. -/
abbrev xblk1 (c : Dev nD) (t : Fin cfg1.N) : Vec F S2x512x2048 .bf16 := iblk1 V c 0 t
abbrev wblk1 (c : Dev nD) (t : Fin cfg1.N) : Vec F S1280x2048 .bf16 := iblk1 V c 1 t

/-- Three [1024, 1] columns: running maximum, running rescaled exp-sum, running plain sum. -/
abbrev Cols1 (F : FTy → Type) [FloatOps F] : Type := Vec F S1024x1 .f32 × Vec F S1024x1 .f32 × Vec F S1024x1 .f32

/-- The scratch columns after point n. -/
def colsAt1 (c : Dev nD) : (n : ℕ) → n < cfg1.N → Cols1 F
  | 0, h => stepAll1 (xblk1 V c ⟨0, h⟩) (wblk1 V c ⟨0, h⟩) resetAll1
  | n + 1, h =>
    if (n + 1) % 25 = 0 then stepAll1 (xblk1 V c ⟨n + 1, h⟩) (wblk1 V c ⟨n + 1, h⟩) resetAll1
    else stepAll1 (xblk1 V c ⟨n + 1, h⟩) (wblk1 V c ⟨n + 1, h⟩) (colsAt1 c n (Nat.lt_of_succ_lt h))

/-- At the first vocabulary tile of a row-tile the columns restart. -/
theorem colsAt1_first (c : Dev nD) (t : Fin cfg1.N) (h : t.val % 25 = 0) :
    colsAt1 V c t.val t.isLt = stepAll1 (xblk1 V c t) (wblk1 V c t) resetAll1 := by
  obtain ⟨n, hn⟩ := t
  cases n with
  | zero => rfl
  | succ n => exact if_pos h

/-- At any other tile they continue from the point before. -/
theorem colsAt1_next (c : Dev nD) (t : Fin cfg1.N) (h : t.val % 25 ≠ 0) :
    colsAt1 V c t.val t.isLt
      = stepAll1 (xblk1 V c t) (wblk1 V c t) (colsAt1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this region nor one of its three scratch columns,
    at some contents each: carried through the region unopened. -/
abbrev restR1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The invariant before point n: at the region's entry the class's (every scratch buffer at anything, the generator
    register at some state); afterwards the three scratch buffers at the columns the point before left, the other
    scoped buffers at anything. -/
def PhiC1 (c : Dev nD) : (n : ℕ) → n ≤ cfg1.N → sProp 𝕄
  | 0, _ => Pipeline.ΦA spec1 c
  | n + 1, hn => iprop(owns (c : Thread nD τ) (Memref.whole cc1_scratch0 : Memref sig .tc .vmem S1024x1 .f32) fullShare (colsAt1 V c n hn).1
      ∗ owns (c : Thread nD τ) (Memref.whole cc1_scratch1 : Memref sig .tc .vmem S1024x1 .f32) fullShare (colsAt1 V c n hn).2.1
      ∗ owns (c : Thread nD τ) (Memref.whole cc1_scratch2 : Memref sig .tc .vmem S1024x1 .f32) fullShare (colsAt1 V c n hn).2.2
      ∗ restR1 (F := F) c ∗ (∃ r, prngReg c r))

theorem PhiC0_zeroR1 (c : Dev nD) (n : ℕ) (h : n ≤ cfg1.N) (hz : n = 0) : PhiC1 V c n h = Pipeline.ΦA spec1 c := by
  subst hz; rfl

theorem PhiC0_succR1 (c : Dev nD) (n : ℕ) (hn : n < cfg1.N) :
    PhiC1 V c (n + 1) hn = iprop(owns (c : Thread nD τ) (Memref.whole cc1_scratch0 : Memref sig .tc .vmem S1024x1 .f32) fullShare (colsAt1 V c n hn).1
      ∗ owns (c : Thread nD τ) (Memref.whole cc1_scratch1 : Memref sig .tc .vmem S1024x1 .f32) fullShare (colsAt1 V c n hn).2.1
      ∗ owns (c : Thread nD τ) (Memref.whole cc1_scratch2 : Memref sig .tc .vmem S1024x1 .f32) fullShare (colsAt1 V c n hn).2.2
      ∗ restR1 (F := F) c ∗ (∃ r, prngReg c r)) := rfl

theorem PhiC0_posR1 (c : Dev nD) (n : ℕ) (h : n ≤ cfg1.N) (hz : n ≠ 0) :
    PhiC1 V c n h = iprop(owns (c : Thread nD τ) (Memref.whole cc1_scratch0 : Memref sig .tc .vmem S1024x1 .f32) fullShare (colsAt1 V c (n - 1) (by omega)).1
      ∗ owns (c : Thread nD τ) (Memref.whole cc1_scratch1 : Memref sig .tc .vmem S1024x1 .f32) fullShare (colsAt1 V c (n - 1) (by omega)).2.1
      ∗ owns (c : Thread nD τ) (Memref.whole cc1_scratch2 : Memref sig .tc .vmem S1024x1 .f32) fullShare (colsAt1 V c (n - 1) (by omega)).2.2
      ∗ restR1 (F := F) c ∗ (∃ r, prngReg c r)) := by
  cases n with
  | zero => exact absurd rfl hz
  | succ n => rfl

/-- The class's invariant with the three scratch columns as memrefs owned at some contents, the rest unopened. -/
theorem PhiA_eqR1 (c : Dev nD) :
    (Pipeline.ΦA spec1 c : sProp 𝕄)
      = iprop(iprop(iprop((∃ d, owns (c : Thread nD τ) (Memref.whole cc1_scratch0 : Memref sig .tc .vmem S1024x1 .f32) fullShare d)
          ∗ (∃ d, owns (c : Thread nD τ) (Memref.whole cc1_scratch1 : Memref sig .tc .vmem S1024x1 .f32) fullShare d)
          ∗ (∃ d, owns (c : Thread nD τ) (Memref.whole cc1_scratch2 : Memref sig .tc .vmem S1024x1 .f32) fullShare d))
          ∗ restR1 (F := F) c) ∗ (∃ r, prngReg c r)) := by
  unfold Pipeline.ΦA
  rw [Pipeline.scopedRest_split_of_list spec1 c [cc1_scratch0, cc1_scratch1, cc1_scratch2] (by decide) (by decide)]
  simp only [BI.bigSepL_cons_cons, BI.bigSepL_singleton, owns_whole]
  rfl

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outLp1 (colsAt1 V c t.val t.isLt).1 (colsAt1 V c t.val t.isLt).2.1
    | ⟨3, _⟩ => outRs1 (colsAt1 V c t.val t.isLt).2.2
  Φ t := PhiC1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = outLp1 (colsAt1 V c t.val t.isLt).1 (colsAt1 V c t.val t.isLt).2.1 := by dsimp only [dat1]
theorem after1_3 (c : Dev nD) (t : Fin cfg1.N) :
    (dat1 V c).after 3 t = outRs1 (colsAt1 V c t.val t.isLt).2.2 := by dsimp only [dat1]

theorem afterXR1 (c : Dev nD) (t : Fin cfg1.N) : (dat1 V c).after 0 t = iblk1 V c 0 t := by dsimp only [dat1]
theorem afterWR1 (c : Dev nD) (t : Fin cfg1.N) : (dat1 V c).after 1 t = iblk1 V c 1 t := by dsimp only [dat1]

/-- The invariant at a point's start, restated at the point's number. -/
theorem PhiC0_castSuccR1 (c : Dev nD) (t : Fin cfg1.N) :
    (dat1 V c).Φ t.castSucc = PhiC1 V c t.val (Nat.le_of_lt t.isLt) := by
  dsimp only [dat1]; simp only [Fin.coe_castSucc]

/-! ## The grid's 50 points: which control case, which windows are live -/

/-- v = 0 exactly at the points ≡ 0 (mod 25). -/
theorem isFirst_iffR1 : ∀ t : Fin cfg1.N, isFirst1 (grid1.coords t) ↔ t.val % 25 = 0 :=
  (by decide +kernel : ∀ t : Fin grid1.N, isFirst1 (grid1.coords t) ↔ t.val % 25 = 0)
/-- v = 24 exactly at the points ≡ 24 (mod 25). -/
theorem isLast_iffR1 : ∀ t : Fin cfg1.N, isLast1 (grid1.coords t) ↔ t.val % 25 = 24 :=
  (by decide +kernel : ∀ t : Fin grid1.N, isLast1 (grid1.coords t) ↔ t.val % 25 = 24)
/-- The two input windows are live at every point. -/
theorem liveXR1 : ∀ t : Fin cfg1.N, cfg1.idle 0 (grid1.coords t) = false := by decide +kernel
theorem liveWR1 : ∀ t : Fin cfg1.N, cfg1.idle 1 (grid1.coords t) = false := by decide +kernel
/-- The two output windows are idle, and not written back, off the last vocabulary tile; live on it. -/
theorem idleLpR1 : ∀ t : Fin cfg1.N, ¬ t.val % 25 = 24 → cfg1.idle 2 (grid1.coords t) = true := by decide +kernel
theorem idleRsR1 : ∀ t : Fin cfg1.N, ¬ t.val % 25 = 24 → cfg1.idle 3 (grid1.coords t) = true := by decide +kernel
theorem noFlushLpR1 : ∀ t : Fin cfg1.N, ¬ t.val % 25 = 24 → (cfg1.win 2).flush t = false := by decide +kernel
theorem noFlushRsR1 : ∀ t : Fin cfg1.N, ¬ t.val % 25 = 24 → (cfg1.win 3).flush t = false := by decide +kernel
theorem liveLpR1 : ∀ t : Fin cfg1.N, t.val % 25 = 24 → cfg1.idle 2 (grid1.coords t) = false := by decide +kernel
theorem liveRsR1 : ∀ t : Fin cfg1.N, t.val % 25 = 24 → cfg1.idle 3 (grid1.coords t) = false := by decide +kernel

/-! ## The inputs' staging buffers hold their blocks at every point -/

/-- The activations' current buffer holds the row-tile's block, fetched at this point or kept from v = 0. -/
theorem beforeXR1 (c : Dev nD) (t : Fin cfg1.N) (d) : (dat1 V c).before 0 t d = iblk1 V c 0 t := by
  have hk : ∀ t, (cfg1.win 0).cut (cfg1.grid.coords t) ((dat1 V c).after 0 t) = (dat1 V c).blockOf 0 t := fun t => by
    rw [afterXR1]; unfold Dat.blockOf iblk1; rw [A_eq1]; try rfl
  rw [(dat1 V c).before_in_eq_fetched 0 rfl (fun _ => rfl) (fun _ _ _ => rfl) hk t d]
  unfold Dat.fetched Dat.blockOf iblk1; rw [A_eq1]; try rfl

/-- The vocabulary tile's current buffer holds its block (fetched at every point). -/
theorem beforeWR1 (c : Dev nD) (t : Fin cfg1.N) (d) : (dat1 V c).before 1 t d = iblk1 V c 1 t := by
  have hk : ∀ t, (cfg1.win 1).cut (cfg1.grid.coords t) ((dat1 V c).after 1 t) = (dat1 V c).blockOf 1 t := fun t => by
    rw [afterWR1]; unfold Dat.blockOf iblk1; rw [A_eq1]; try rfl
  rw [(dat1 V c).before_in_eq_fetched 1 rfl (fun _ => rfl) (fun _ _ _ => rfl) hk t d]
  unfold Dat.fetched Dat.blockOf iblk1; rw [A_eq1]; try rfl

/-! ## The body obligation at a generic point -/

/-- Each window's current staging memref at point t, spelled as the pipeline passes it to the body. -/
abbrev msXR1 (t : Fin cfg1.N) : Memref sig .tc .vmem S2x512x2048 .bf16 := win1_0.stage (cfg1.slots t 0)
abbrev msWR1 (t : Fin cfg1.N) : Memref sig .tc .vmem S1280x2048 .bf16 := win1_1.stage (cfg1.slots t 1)
abbrev msLpR1 (t : Fin cfg1.N) : Memref sig .tc .vmem S2x512 .f32 := win1_2.stage (cfg1.slots t 2)
abbrev msRsR1 (t : Fin cfg1.N) : Memref sig .tc .vmem S2x512 .f32 := win1_3.stage (cfg1.slots t 3)

/-- What the body is called with at point t, the windows one by one, -/
def bodyPreR1 (c : Dev nD) (t : Fin cfg1.N) : sProp 𝕄 :=
  iprop((dat1 V c).Φ t.castSucc ∗ (dat1 V c).owesAt () t.castSucc
    ∗ (∃ d, owns (c : Thread nD τ) (msXR1 t) fullShare ((dat1 V c).before 0 t d))
    ∗ (∃ d, owns (c : Thread nD τ) (msWR1 t) fullShare ((dat1 V c).before 1 t d))
    ∗ (∃ d, owns (c : Thread nD τ) (msLpR1 t) fullShare ((dat1 V c).before 2 t d))
    ∗ (∃ d, owns (c : Thread nD τ) (msRsR1 t) fullShare ((dat1 V c).before 3 t d)))

/-- and what it returns. -/
def bodyPostR1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' buffers hold their blocks; the point's number mod 25 says which control case
    it is; the invariant hands over the three scratch columns (at anything before the very first point, at the
    columns after the point before otherwise) and takes them back one step further; an output buffer is handed back
    as found off the last vocabulary tile and holds the re-laid final columns on it. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeXR1, beforeWR1]
  rw [show (dat1 V c).owesAt () t.succ = (dat1 V c).owesAt () t.castSucc from rfl]
  rw [show (dat1 V c).Φ t.succ = PhiC1 V c (t.val + 1) t.isLt from rfl, PhiC0_succR1]
  rw [show (dat1 V c).leavesExact 0 t = owns (c : Thread nD τ) (msXR1 t) fullShare ((dat1 V c).after 0 t) from by
    unfold Dat.leavesExact; rw [liveXR1 t], afterXR1]
  rw [show (dat1 V c).leavesExact 1 t = owns (c : Thread nD τ) (msWR1 t) fullShare ((dat1 V c).after 1 t) from by
    unfold Dat.leavesExact; rw [liveWR1 t], afterWR1]
  have hN : t.val < 50 := lt_of_lt_of_eq t.isLt (show cfg1.N = 50 from N_1)
  by_cases h0 : t.val % 25 = 0
  · -- the first vocabulary tile of a row-tile: the columns restart
    have h24 : ¬ t.val % 25 = 24 := by omega
    rw [Dat.leavesExact_idle (dat1 V c) 2 t (idleLpR1 t h24) (noFlushLpR1 t h24)]
    rw [Dat.leavesExact_idle (dat1 V c) 3 t (idleRsR1 t h24) (noFlushRsR1 t h24)]
    rw [colsAt1_first V c t h0]
    simp only [stepAll1, resetAll1]
    by_cases hz : t.val = 0
    · rw [PhiC0_castSuccR1 V c t, PhiC0_zeroR1 V c _ _ hz, PhiA_eqR1]
      iintro ⟨⟨⟨⟨⟨%m0, HS0⟩, ⟨%l0, HS1⟩, ⟨%r0, HS2⟩⟩, HR⟩, Hg⟩, Ho, ⟨%d0, H0⟩, ⟨%d1, H1⟩, ⟨%d2, H2⟩, ⟨%d3, H3⟩⟩
      iapply (body1_first c Set.univ (grid1.coords t) ((isFirst_iffR1 t).mpr h0) (fun h => h24 ((isLast_iffR1 t).mp h))
        _ _ _ _ _ _ _ _ _ _ _ _ _ _ (iblk1 V c 0 t) (iblk1 V c 1 t) ((dat1 V c).before 2 t d2) ((dat1 V c).before 3 t d3) m0 l0 r0 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
    · rw [PhiC0_castSuccR1 V c t, PhiC0_posR1 V c _ _ hz]
      iintro ⟨⟨HS0, HS1, HS2, HR, Hg⟩, Ho, ⟨%d0, H0⟩, ⟨%d1, H1⟩, ⟨%d2, H2⟩, ⟨%d3, H3⟩⟩
      iapply (body1_first c Set.univ (grid1.coords t) ((isFirst_iffR1 t).mpr h0) (fun h => h24 ((isLast_iffR1 t).mp h))
        _ _ _ _ _ _ _ _ _ _ _ _ _ _ (iblk1 V c 0 t) (iblk1 V c 1 t) ((dat1 V c).before 2 t d2) ((dat1 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
  · have hz : t.val ≠ 0 := fun hz => h0 (by rw [hz])
    by_cases h24 : t.val % 25 = 24
    · -- the last vocabulary tile: the columns continue and the two output blocks are stored
      rw [show (dat1 V c).leavesExact 2 t = owns (c : Thread nD τ) (msLpR1 t) fullShare ((dat1 V c).after 2 t) from by
        unfold Dat.leavesExact; rw [liveLpR1 t h24], after1_2]
      rw [show (dat1 V c).leavesExact 3 t = owns (c : Thread nD τ) (msRsR1 t) fullShare ((dat1 V c).after 3 t) from by
        unfold Dat.leavesExact; rw [liveRsR1 t h24], after1_3]
      rw [colsAt1_next V c t h0]
      simp only [stepAll1]
      rw [PhiC0_castSuccR1 V c t, PhiC0_posR1 V c _ _ hz]
      iintro ⟨⟨HS0, HS1, HS2, HR, Hg⟩, Ho, ⟨%d0, H0⟩, ⟨%d1, H1⟩, ⟨%d2, H2⟩, ⟨%d3, H3⟩⟩
      iapply (body1_last c Set.univ (grid1.coords t) (fun h => h0 ((isFirst_iffR1 t).mp h)) ((isLast_iffR1 t).mpr h24)
        _ _ _ _ _ _ _ _ _ _ _ _ _ _ (iblk1 V c 0 t) (iblk1 V c 1 t) ((dat1 V c).before 2 t d2) ((dat1 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      iexact H3
    · -- a middle tile: the columns continue, nothing is stored out
      rw [Dat.leavesExact_idle (dat1 V c) 2 t (idleLpR1 t h24) (noFlushLpR1 t h24)]
      rw [Dat.leavesExact_idle (dat1 V c) 3 t (idleRsR1 t h24) (noFlushRsR1 t h24)]
      rw [colsAt1_next V c t h0]
      simp only [stepAll1]
      rw [PhiC0_castSuccR1 V c t, PhiC0_posR1 V c _ _ hz]
      iintro ⟨⟨HS0, HS1, HS2, HR, Hg⟩, Ho, ⟨%d0, H0⟩, ⟨%d1, H1⟩, ⟨%d2, H2⟩, ⟨%d3, H3⟩⟩
      iapply (body1_mid c Set.univ (grid1.coords t) (fun h => h0 ((isFirst_iffR1 t).mp h)) (fun h => h24 ((isLast_iffR1 t).mp h))
        _ _ _ _ _ _ _ _ _ _ _ _ _ _ (iblk1 V c 0 t) (iblk1 V c 1 t) ((dat1 V c).before 2 t d2) ((dat1 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3

/-- The body obligation of region 1 at every point. -/
theorem body_obligation1 (c : Dev nD) : BodyObligation (dat1 (F := F) V c) (defs₀ (F := F)) Variants.none () Set.univ := fun t => by
  rw [bigSep_W1, bigSep_W1]
  exact sound_bodyR1 V c t

/-- What the launch hands the region is the invariant before the first point. -/
theorem hin1 (c : Dev nD) : Pipeline.ΦA spec1 c ⊢ (dat1 V c).Φ 0 := by
  rw [show (dat1 V c).Φ 0 = PhiC1 V c 0 (Nat.zero_le _) from rfl, PhiC0_zeroR1 V c 0 _ rfl]

/-- After any point the invariant gives the class's back: the columns' contents are forgotten. -/
theorem Phi_outR1 (c : Dev nD) (t : Fin (cfg1.N + 1)) (ht : t.val ≠ 0) : (dat1 V c).Φ t ⊢ Pipeline.ΦA spec1 c := by
  rw [show (dat1 V c).Φ t = PhiC1 V c t.val (Nat.le_of_lt_succ t.isLt) from rfl, PhiC0_posR1 V c _ _ ht, PhiA_eqR1]
  iintro ⟨H0, H1, H2, HR, Hg⟩
  isplitl [H0 H1 H2 HR]
  · isplitl [H0 H1 H2]
    · isplitl [H0]; · iexists _; iexact H0
      isplitl [H1]; · iexists _; iexact H1
      iexists _; iexact H2
    · iexact HR
  · iexact Hg

/-- After the last point the invariant gives the class's back (the columns' contents forgotten). -/
theorem hout1 (c : Dev nD) : (dat1 V c).Φ (Fin.last cfg1.N) ⊢ Pipeline.ΦA spec1 c :=
  Phi_outR1 V c _ (by rw [Fin.val_last]; have : cfg1.N = 50 := N_1; omega)

end Cert.Kernel.Hand

end
-- ==== Proof.KB.Run.lean ====
/-
  The run of @main, thirteen items in order: a host stretch, region 0, a host stretch, region 1, then nine host
  stretches.  Between two items every unscoped buffer of a core is held whole at a named valuation: the launch
  contents, then each host stretch's effect, then at a region's exit the region's two output arrays replaced by
  what the fifty write-backs leave (the final array of the region's proof data) and every other buffer untouched.
  Region 1's entry contents depend on region 0's outputs, so the family of region outputs is built in two stages.
  From the run: every unscoped buffer's final contents, and the frame claim (each argument array ends as launched).
-/
import proofs.«130178_j27539330302083_1_alg».proof.Proof.KB.Dat0
import proofs.«130178_j27539330302083_1_alg».proof.Proof.KB.Dat1
import proofs.«130178_j27539330302083_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the regions are entered from, and what they leave -/

/-- Region 0's entry contents: the launch memory after the first host stretch, read at the core's references. -/
def Vent0 : (c : Dev nD) → (b : Ref sig .tc) → Buf (Elt F) ((c : Thread nD τ).loc b) :=
  fun c b => Gen.V1 m c (Proc.devRef .tc b)

/-- First stage: at every index, region 0's exit contents (its four arrays at the proof data's final arrays, every
    other buffer as entered). Only region 0's two output arrays are ever read from it. -/
def outsA : Gen.Outs (F := F) := fun _ r c =>
  Pipeline.withArrays spec0 c (Gen.V1 m c) (fun w => (dat0 (Vent0 m) c).arrAt w cfg0.N) (Proc.devRef .tc r)

/-- Region 1's entry contents over the first stage: region 0's exit contents after the second host stretch. -/
def Vent1A : (c : Dev nD) → (b : Ref sig .tc) → Buf (Elt F) ((c : Thread nD τ).loc b) :=
  fun c b => Gen.V3 m (outsA m) c (Proc.devRef .tc b)

/-- What the regions leave: at index 2 region 0's exit contents, elsewhere region 1's (its four arrays at its proof
    data's final arrays over the entry contents above). -/
def outs : Gen.Outs (F := F) := fun J r c =>
  if J = 2 then outsA m J r c
  else Pipeline.withArrays spec1 c (Gen.V3 m (outsA m) c) (fun w => (dat1 (Vent1A m) c).arrAt w cfg1.N) (Proc.devRef .tc r)

/-- The valuation before region 1 reads the region outputs only at index 2, where the two stages agree. -/
theorem V3_outs (c : Dev nD) : Gen.V3 m (outs m) c = Gen.V3 m (outsA m) c := rfl

/-- Region 1's entry contents: region 0's exit contents after the second host stretch. -/
def Vent1 : (c : Dev nD) → (b : Ref sig .tc) → Buf (Elt F) ((c : Thread nD τ).loc b) :=
  fun c b => Gen.V3 m (outs m) c (Proc.devRef .tc b)

theorem Vent1_eq : Vent1 m = Vent1A m := rfl

/-- Region 0 leaves in its first output array the proof data's final array of window 2, -/
theorem outs_lp0 (c : Dev nD) : outs m 2 main_v3_0 c = (dat0 (Vent0 m) c).arrAt 2 cfg0.N := by
  show Pipeline.withArrays spec0 c (Gen.V1 m c) (fun w => (dat0 (Vent0 m) c).arrAt w cfg0.N)
    (Proc.devRef .tc (Pipeline.arrRef spec0 2)) = _
  exact Pipeline.withArrays_arr spec0 launch0.win.arr_inj c _ _ 2
/-- and in its second that of window 3. -/
theorem outs_rs0 (c : Dev nD) : outs m 2 main_v3_1 c = (dat0 (Vent0 m) c).arrAt 3 cfg0.N := by
  show Pipeline.withArrays spec0 c (Gen.V1 m c) (fun w => (dat0 (Vent0 m) c).arrAt w cfg0.N)
    (Proc.devRef .tc (Pipeline.arrRef spec0 3)) = _
  exact Pipeline.withArrays_arr spec0 launch0.win.arr_inj c _ _ 3
/-- Region 1 likewise, over its own entry contents. -/
theorem outs_lp1 (c : Dev nD) : outs m 4 main_v6_0 c = (dat1 (Vent1 m) c).arrAt 2 cfg1.N := by
  show Pipeline.withArrays spec1 c (Gen.V3 m (outsA m) c) (fun w => (dat1 (Vent1A m) c).arrAt w cfg1.N)
    (Proc.devRef .tc (Pipeline.arrRef spec1 2)) = _
  exact Pipeline.withArrays_arr spec1 launch1.win.arr_inj c _ _ 2
theorem outs_rs1 (c : Dev nD) : outs m 4 main_v6_1 c = (dat1 (Vent1 m) c).arrAt 3 cfg1.N := by
  show Pipeline.withArrays spec1 c (Gen.V3 m (outsA m) c) (fun w => (dat1 (Vent1A m) c).arrAt w cfg1.N)
    (Proc.devRef .tc (Pipeline.arrRef spec1 3)) = _
  exact Pipeline.withArrays_arr spec1 launch1.win.arr_inj c _ _ 3

/-! ## The regions' exit contents are the named valuations -/

/-- Region 0's exit valuation read at the core's references. -/
abbrev Vex0 (c : Dev nD) : (b : Ref sig .tc) → Buf (Elt F) ((c : Thread nD τ).loc b) :=
  fun b => Gen.V2 m (outs m) c (Proc.devRef .tc b)
/-- Region 1's. -/
abbrev Vex1 (c : Dev nD) : (b : Ref sig .tc) → Buf (Elt F) ((c : Thread nD τ).loc b) :=
  fun b => Gen.V4 m (outs m) c (Proc.devRef .tc b)

/-- At region 0's exit each of its arrays holds the proof data's final array: an input array is never written and
    no later update touches it; an output array is the update's value. -/
theorem exit0_arr (c : Dev nD) : ∀ w : Fin cfg0.W, (dat0 (Vent0 m) c).arrAt w cfg0.N = Vex0 m c (Pipeline.arrRef spec0 w)
  | ⟨0, _⟩ => ((dat0 (Vent0 m) c).arrAt_in 0 rfl _).trans <| (A_eq0 (Vent0 m) c 0).trans
      (show Vent0 m c (Pipeline.arrRef spec0 0) = Vex0 m c (Pipeline.arrRef spec0 0) from
        (Gen.V2_of m (outs m) c main_v1 (by decide)).symm)
  | ⟨1, _⟩ => ((dat0 (Vent0 m) c).arrAt_in 1 rfl _).trans <| (A_eq0 (Vent0 m) c 1).trans
      (show Vent0 m c (Pipeline.arrRef spec0 1) = Vex0 m c (Pipeline.arrRef spec0 1) from
        (Gen.V2_of m (outs m) c main_v2 (by decide)).symm)
  | ⟨2, _⟩ => (outs_lp0 m c).symm.trans (by
      show _ = Function.update (Function.update (Gen.V1 m c) main_v3_0 (outs m 2 main_v3_0 c)) main_v3_1 (outs m 2 main_v3_1 c) main_v3_0
      rw [Function.update_of_ne (StableHlo.devRef_ne_of_ne (by decide)), Function.update_self])
  | ⟨3, _⟩ => (outs_rs0 m c).symm.trans (by
      show _ = Function.update (Function.update (Gen.V1 m c) main_v3_0 (outs m 2 main_v3_0 c)) main_v3_1 (outs m 2 main_v3_1 c) main_v3_1
      rw [Function.update_self])

/-- Off region 0's arrays the exit valuation is the entry one. -/
theorem exit0_rest (c : Dev nD) : ∀ b, b ∉ Finset.univ.image (Pipeline.arrRef spec0) → Vex0 m c b = Vent0 m c b := fun b hb =>
  Gen.V2_of m (outs m) c b (by
    intro h
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h (List.not_mem_nil))

theorem exit1_arr (c : Dev nD) : ∀ w : Fin cfg1.W, (dat1 (Vent1 m) c).arrAt w cfg1.N = Vex1 m c (Pipeline.arrRef spec1 w)
  | ⟨0, _⟩ => ((dat1 (Vent1 m) c).arrAt_in 0 rfl _).trans <| (A_eq1 (Vent1 m) c 0).trans
      (show Vent1 m c (Pipeline.arrRef spec1 0) = Vex1 m c (Pipeline.arrRef spec1 0) from
        (Gen.V4_of m (outs m) c main_v4 (by decide)).symm)
  | ⟨1, _⟩ => ((dat1 (Vent1 m) c).arrAt_in 1 rfl _).trans <| (A_eq1 (Vent1 m) c 1).trans
      (show Vent1 m c (Pipeline.arrRef spec1 1) = Vex1 m c (Pipeline.arrRef spec1 1) from
        (Gen.V4_of m (outs m) c main_v5 (by decide)).symm)
  | ⟨2, _⟩ => (outs_lp1 m c).symm.trans (by
      show _ = Function.update (Function.update (Gen.V3 m (outs m) c) main_v6_0 (outs m 4 main_v6_0 c)) main_v6_1 (outs m 4 main_v6_1 c) main_v6_0
      rw [Function.update_of_ne (StableHlo.devRef_ne_of_ne (by decide)), Function.update_self])
  | ⟨3, _⟩ => (outs_rs1 m c).symm.trans (by
      show _ = Function.update (Function.update (Gen.V3 m (outs m) c) main_v6_0 (outs m 4 main_v6_0 c)) main_v6_1 (outs m 4 main_v6_1 c) main_v6_1
      rw [Function.update_self])

theorem exit1_rest (c : Dev nD) : ∀ b, b ∉ Finset.univ.image (Pipeline.arrRef spec1) → Vex1 m c b = Vent1 m c b := fun b hb =>
  Gen.V4_of m (outs m) c b (by
    intro h
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h (List.not_mem_nil))

/-! ## The proof data family and what rides beside the buffers -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vent0 m) c
  | ⟨1, _⟩ => fun c => dat1 (Vent1 m) c

/-- No pair of cores is assigned a level; no core owes another anything. -/
abbrev Lz : GSem nD τ sig → Finset Unit := fun _ => ∅
abbrev lvz : GSem nD τ sig → Unit → ℕ := fun _ _ => 0

/-- Beside the buffers, between any two items: the core's generator register at some state, and the core owing nothing. -/
abbrev Rst (c : Dev nD) : sProp 𝕄 :=
  iprop((∃ r, prngReg c r) ∗ ∃ W, owes (c : Thread nD τ) (0 : CellTallies nD τ sig Unit) W)
abbrev Est : Fin 3 → Dev nD → sProp 𝕄 := fun _ c => Rst (F := F) c

/-! ## Owing nothing, inside a region and outside -/

section Owes

variable {cfg : Cfg sig Λ₀} {c : Dev nD} (dat : Dat τ (Elt F) Unit ℕ (UR sig nD τ) ℕ cfg c)

/-- A core owing nothing is what a proof data that owes nothing before point t, and bounds its recorded pairs by
    nothing, holds there. -/
theorem owesAt_of_owes (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, Howes⟩
  iexists W
  isplitr
  · ipureintro; exact fun x _ => Or.inl (Set.mem_univ x)
  · iexact Howes

/-- and conversely, forgetting the bound. -/
theorem owes_of_owesAt (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, Howes⟩
  iexists W
  iexact Howes

end Owes

/-- What the launch deals a core beside its buffers makes the rest: its register at the launch state, owing nothing. -/
theorem rest_init (ρ : Dev nD → PrngReg) (c : Dev nD) :
    (iprop(owes (c : Thread nD τ) (0 : CellTallies nD τ sig Unit) ∅ ∗ prngReg c (ρ c)) : sProp 𝕄) ⊢ Rst c := by
  iintro ⟨Howes, Hprng⟩
  isplitl [Hprng]
  · iexists (ρ c); iexact Hprng
  · iexists ∅; iexact Howes

/-- No pallas_call here has a prefetched table: holding them all is holding nothing. -/
theorem prefHeld_nil (p : Fin 2) (c : Dev nD) :
    (BI.emp : sProp 𝕄) ⊢ Pipeline.prefHeld (pcfgs (F := F) p).pre c (fun _ => fullShare) (adm (F := F) p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]

/-! ## The two regions as segments -/

set_option backward.isDefEq.respectTransparency.types false in
/-- Region 0: entered from every unscoped buffer at the valuation after the first host stretch, left at that
    valuation with the two output arrays replaced. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ Lz lvz 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    have harr := Pipeline.arrays_of_unscopedBufs (p := 0) (pcfgs (F := F)) adm (pdats m) launch0.win launch0.arr_whole c
      ((pdats m 0 c).share_full fun _ => rfl) (Vent0 m c) fun _ => rfl
    rw [show (unscopedBufs c (Vent0 m c) : sProp 𝕄) = StableHlo.held (c : Thread nD τ) (Pipeline.ucRefs τ sig) (Gen.V1 m c)
      from Pipeline.unscopedBufs_held c (Gen.V1 m c)] at harr
    iintro ⟨⟨Hbufs, Hprng, Howes⟩, -, -⟩
    ihave Hparts := harr $$ Hbufs
    icases Hparts with ⟨Harr, Hrest⟩
    imodintro
    isplitl [Harr]; · iexact Harr
    isplitr; · iapply (prefHeld_nil (F := F) 0 c); iempintro
    isplitl [Howes]
    · iapply (owesAt_of_owes (pdats m 0 c) 0 rfl rfl); iexact Howes
    isplitl [Hprng]; · iexact Hprng
    iexact Hrest
  hin c := by
    refine .trans ?_ (hin0 (Vent0 m) c)
    unfold Pipeline.ΦA
    iintro ⟨Hprng, -, Hscoped⟩
    isplitl [Hscoped]; · iexact Hscoped
    iexact Hprng
  hout c := by
    refine (hout0 (Vent0 m) c).trans ?_
    rw [Pipeline.ownSems0_none]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (Vex0 m c) ((pdats m 0 c).arrAt · cfg0.N) (exit0_arr m c) (exit0_rest m c)
    rw [show (unscopedBufs c (Vex0 m c) : sProp 𝕄) = StableHlo.held (c : Thread nD τ) (Pipeline.ucRefs τ sig) (Gen.V2 m (outs m) c)
      from Pipeline.unscopedBufs_held c (Gen.V2 m (outs m) c)] at hjoin
    iintro ⟨Harr, Howes, Hprng, Hrest⟩
    imodintro
    isplitl [Harr Hrest]
    · iapply hjoin; isplitl [Harr]; · iexact Harr
      iexact Hrest
    isplitl [Hprng]; · iexact Hprng
    iapply (owes_of_owesAt (pdats m 0 c) (Fin.last _) rfl); iexact Howes

set_option backward.isDefEq.respectTransparency.types false in
/-- Region 1: entered from the valuation after the second host stretch, left with its two output arrays replaced. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ Lz lvz 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    have harr := Pipeline.arrays_of_unscopedBufs (p := 1) (pcfgs (F := F)) adm (pdats m) launch1.win launch1.arr_whole c
      ((pdats m 1 c).share_full fun _ => rfl) (Vent1 m c) fun _ => rfl
    rw [show (unscopedBufs c (Vent1 m c) : sProp 𝕄) = StableHlo.held (c : Thread nD τ) (Pipeline.ucRefs τ sig) (Gen.V3 m (outs m) c)
      from Pipeline.unscopedBufs_held c (Gen.V3 m (outs m) c)] at harr
    iintro ⟨⟨Hbufs, Hprng, Howes⟩, -, -⟩
    ihave Hparts := harr $$ Hbufs
    icases Hparts with ⟨Harr, Hrest⟩
    imodintro
    isplitl [Harr]; · iexact Harr
    isplitr; · iapply (prefHeld_nil (F := F) 1 c); iempintro
    isplitl [Howes]
    · iapply (owesAt_of_owes (pdats m 1 c) 0 rfl rfl); iexact Howes
    isplitl [Hprng]; · iexact Hprng
    iexact Hrest
  hin c := by
    refine .trans ?_ (hin1 (Vent1 m) c)
    unfold Pipeline.ΦA
    iintro ⟨Hprng, -, Hscoped⟩
    isplitl [Hscoped]; · iexact Hscoped
    iexact Hprng
  hout c := by
    refine (hout1 (Vent1 m) c).trans ?_
    rw [Pipeline.ownSems0_none]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vex1 m c) ((pdats m 1 c).arrAt · cfg1.N) (exit1_arr m c) (exit1_rest m c)
    rw [show (unscopedBufs c (Vex1 m c) : sProp 𝕄) = StableHlo.held (c : Thread nD τ) (Pipeline.ucRefs τ sig) (Gen.V4 m (outs m) c)
      from Pipeline.unscopedBufs_held c (Gen.V4 m (outs m) c)] at hjoin
    iintro ⟨Harr, Howes, Hprng, Hrest⟩
    imodintro
    isplitl [Harr Hrest]
    · iapply hjoin; isplitl [Harr]; · iexact Harr
      iexact Hrest
    isplitl [Hprng]; · iexact Hprng
    iapply (owes_of_owesAt (pdats m 1 c) (Fin.last _) rfl); iexact Howes

/-! ## The launch -/

/-- The launch element is the pipelines' own; no further ghost resource is dealt. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  rw [BI.bigSep_emp_const]
  iintro Hu
  imodintro
  isplitl [Hu]
  · iapply hown; iexact Hu
  · iempintro

/-! ## The run -/

set_option backward.isDefEq.respectTransparency.types false in
/-- Every weakly fair execution of @main from memory m with zero counters terminates, and every final memory holds
    each unscoped buffer of each core at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V13 m (outs m) c b) := by
  refine Pipeline.θ_run_regions_kit_dev (pcfgs (F := F)) adm (pdats m) () cellOf_inj emb₁ defs₀ Variants.none Lz lvz m ρ main
    (Gen.segs m (outs m) Variants.none Lz lvz Est () (pdats m) (reg0 m) (reg1 m))
    (fun c Q => by
      rewrite [main_chain c, Seg.run_eq_chain,
        show (Gen.segs m (outs m) Variants.none Lz lvz Est () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj)) (hu₀ := launch_own)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := ?_)
    (QY := fun c s => ∀ b ∈ Pipeline.ucRefs τ sig, s.mem ((c : Thread nD τ).1, b) = Gen.V13 m (outs m) c b)
    (hfin := fun c s' => ?_) (hQ := fun _ h => h)
  · -- the launch: each core's unscoped buffers are the launch valuation held; the rest from what is dealt beside them
    refine Pipeline.initEach Lz lvz fun c => ?_
    rw [show (unscopedBufs c (fun b => m ((c : Thread nD τ).loc b)) : sProp 𝕄)
        = StableHlo.held (c : Thread nD τ) (Pipeline.ucRefs τ sig) (Gen.V0 m c) from Pipeline.unscopedBufs_held c (Gen.V0 m c)]
    iintro ⟨⟨Hbufs, -, Howes, -, Hprng, -⟩, -⟩
    imodintro
    isplitl [Hbufs]; · iexact Hbufs
    iapply (rest_init (F := F) ρ c)
    isplitl [Howes]; · iexact Howes
    iexact Hprng
  · -- the end: every unscoped buffer read off the last valuation
    unfold StableHlo.held
    iintro ⟨Hbufs, HSI⟩
    imodintro
    iapply (pointsTo_read_all (Pipeline.ucRefs τ sig) (fun b => ((c : Thread nD τ).1, b)) (Gen.V13 m (outs m) c) s')
    isplitl [Hbufs]; · iexact Hbufs
    iexact HSI

set_option backward.isDefEq.respectTransparency.types false in
/-- The frame claim: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none Lz lvz (fun _ _ => rfl) ρ (outs m) (pdats m) 0 (fun _ => iprop(emp))
    (initOf (Pipeline.cells cfgs cellOf_inj) (Pipeline.launchToks cfgs cellOf_inj)) launch_own Est
    (Pipeline.initEach Lz lvz fun c => by
      iintro ⟨⟨-, Howes, -, Hprng, -⟩, -⟩
      imodintro
      iapply (rest_init (F := F) ρ c)
      isplitl [Howes]; · iexact Howes
      iexact Hprng)
    (fun c => by iintro ⟨-, HO⟩; iexact HO)
    (reg0 m) (fun _ => .rfl) (fun _ => .rfl) (reg1 m) (fun _ => .rfl) (fun _ => .rfl)

end Cert.Kernel.Hand

end
-- ==== Proof.KI.Step.lean ====
/-
  What one grid point does to the three running columns, as pure functions of the point's two input blocks
  (x : the activations' rows of this row-tile, all 2048 features; w : the 1280 vocabulary rows of this tile).
  Per row of the 1024 = 2·512 rows: the running maximum m, the running sum l of exp (logit − m) (rescaled by
  exp (m_old − m_new) when the maximum moves) and the running plain sum r of the logits.  At the first vocabulary
  tile the three columns restart from −∞, 0, 0; at the last one the two output blocks are
  m − (m + log l) and r, each re-laid from [1024, 1] to [2, 512].
-/
import proofs.«130178_j27539330302083_1_alg».proof.Proof.Gen.KernelIdeal.Skeleton

noncomputable section

namespace Cert.KernelIdeal.Hand

open Idealize.ShloMosaic Cert.KernelIdeal Cert.KernelIdeal.Gen

variable {F : FTy → Type} [FloatOps F]

/-- The columns a row-tile starts from: −∞, 0, 0. -/
def resetM : Vec F S1024x1 .f32 := k0_pay5
def resetL : Vec F S1024x1 .f32 := k0_pay6
def resetR : Vec F S1024x1 .f32 := k0_pay7

/-- The new running maximum: max (m, row maximum of this tile's logits). -/
def stepM (x : Vec F S2x512x2048 .bf16) (w : Vec F S1280x2048 .bf16) (ms : Vec F S1024x1 .f32) : Vec F S1024x1 .f32 :=
  k0_pay2 (k0_pay9 x w ms)

/-- The new running sum: exp (m − m') · l + Σ over the tile of exp (logit − m'). -/
def stepL (x : Vec F S2x512x2048 .bf16) (w : Vec F S1280x2048 .bf16) (ms ls : Vec F S1024x1 .f32) : Vec F S1024x1 .f32 :=
  k0_pay10 x w ms ms ls

/-- The new plain sum: r + Σ over the tile of the logits. -/
def stepR (x : Vec F S2x512x2048 .bf16) (w : Vec F S1280x2048 .bf16) (rs : Vec F S1024x1 .f32) : Vec F S1024x1 .f32 :=
  k0_pay1 (k0_pay11 x w rs)

/-- The first output block from the final columns: m − (m + log l), as [2, 512]. -/
def outLp (ms ls : Vec F S1024x1 .f32) : Vec F S2x512 .f32 := k0_pay3 ms ls ms

/-- The second output block: the plain sums, as [2, 512]. -/
def outRs (rs : Vec F S1024x1 .f32) : Vec F S2x512 .f32 := k0_pay4 rs

/-- The three columns after a point that continues a row-tile from columns (ms, ls, rs). -/
def stepAll (x : Vec F S2x512x2048 .bf16) (w : Vec F S1280x2048 .bf16)
    (s : Vec F S1024x1 .f32 × Vec F S1024x1 .f32 × Vec F S1024x1 .f32) :
    Vec F S1024x1 .f32 × Vec F S1024x1 .f32 × Vec F S1024x1 .f32 :=
  (stepM x w s.1, stepL x w s.1 s.2.1, stepR x w s.2.2)

/-- The columns a row-tile starts from, as a triple. -/
def resetAll : Vec F S1024x1 .f32 × Vec F S1024x1 .f32 × Vec F S1024x1 .f32 := (resetM, resetL, resetR)

end Cert.KernelIdeal.Hand

end
-- ==== Proof.KI.Body0.lean ====
/-
  The kernel body of region 0 as three triples, one per control case of its two conditionals (the grid's second
  coordinate v is the vocabulary tile): FIRST (v = 0: the three columns restart, nothing is written out), MIDDLE
  (0 < v < 24: the columns continue, nothing is written out), LAST (v = 24: the columns continue and the two
  output blocks are stored).  On whole buffers: the input blocks stay, an output block the case does not store
  stays as handed in, and the three scratch columns end at the pure functions of Step.lean.
-/
import proofs.«130178_j27539330302083_1_alg».proof.Proof.KI.Step
import proofs.«130178_j27539330302083_1_alg».proof.Proof.Gen.KernelIdeal.Launch
import proofs.«130178_j27539330302083_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- "This point is the first vocabulary tile" as the body computes it from the grid coordinates. -/
abbrev isFirst0 (i : grid0.Coords) : Prop :=
  (Scalar.cmpi .ne (Scalar.extui (Scalar.cmpi .eq (BitVec.ofNat 32 (i 1).val) 0#32)) 0#32) = 1#1
/-- "This point is the last vocabulary tile" as the body computes it. -/
abbrev isLast0 (i : grid0.Coords) : Prop := k0_cond2 i = 1#1

/-- The zero offsets of a rank-2 rectangle, as the constant function. -/
theorem hz_R0 : (![0, 0] : Fin 2 → Nat) = fun _ => 0 := funext fun a => by fin_cases a <;> rfl
/-- The zero offsets of a rank-3 rectangle, as the constant function. -/
theorem hz3_R0 : (![0, 0, 0] : Fin 3 → Nat) = fun _ => 0 := funext fun a => by fin_cases a <;> rfl

set_option maxHeartbeats 4000000 in
/-- FIRST tile of a row-tile: whatever the columns held, they end at one step from (−∞, 0, 0); outputs untouched. -/
theorem body0_first (c : Dev nD) (E : Set ℕ) (i : grid0.Coords) (hf : isFirst0 i) (hl : ¬ isLast0 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM x w resetM) ∗ owns (c : Thread nD τ) a7 fullShare (stepL x w resetM resetL) ∗ owns (c : Thread nD τ) a8 fullShare (stepR x w resetR)) -∗ K ⟨⟩))
      ⊢ wp frame (wpE (defs₀ (F := F)) Variants.none c none) E (cc0_kernel i a2 h2 a3 h3 a4 h4 a5 h5 a6 h6 a7 h7 a8 h8) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R0 inb_S1024x1_S1024x1_0_0 y⟩)]
      rw [View.canon_cons_unit_zero (S := S1024x1) hz_R0]
      simp only [stepM, resetM, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H7]
  · iexists _; isplitr; swap
    · iexact H7
    · ipureintro
      sl_unfold_words
      rw [View.read_writes_eq_canon _ _ _ (fun y => ⟨_, List.mem_cons_self .., View.mem_set_unit_zero hz_R0 inb_S1024x1_S1024x1_0_0 y⟩)]
      rw [View.canon_cons_unit_zero (S := S1024x1) hz_R0]
      simp only [stepL, resetM, resetL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  · iexists _; isplitr; swap
    · iexact H8
    · ipureintro
      sl_unfold_words
      rw [View.read_writes_eq_canon _ _ _ (fun y => ⟨_, List.mem_cons_self .., View.mem_set_unit_zero hz_R0 inb_S1024x1_S1024x1_0_0 y⟩)]
      rw [View.canon_cons_unit_zero (S := S1024x1) hz_R0]
      simp only [stepR, resetR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]

set_option maxHeartbeats 4000000 in
/-- A MIDDLE tile: the columns advance one step from what they held; outputs untouched. -/
theorem body0_mid (c : Dev nD) (E : Set ℕ) (i : grid0.Coords) (hf : ¬ isFirst0 i) (hl : ¬ isLast0 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM x w ms) ∗ owns (c : Thread nD τ) a7 fullShare (stepL x w ms ls) ∗ owns (c : Thread nD τ) a8 fullShare (stepR x w rs)) -∗ K ⟨⟩))
      ⊢ wp frame (wpE (defs₀ (F := F)) Variants.none c none) E (cc0_kernel i a2 h2 a3 h3 a4 h4 a5 h5 a6 h6 a7 h7 a8 h8) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepM, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H7]
  · iexists _; isplitr; swap
    · iexact H7
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  · iexists _; isplitr; swap
    · iexact H8
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]

set_option maxHeartbeats 4000000 in
/-- The LAST tile: the columns advance one step and the two output blocks are stored from the final columns. -/
theorem body0_last (c : Dev nD) (E : Set ℕ) (i : grid0.Coords) (hf : ¬ isFirst0 i) (hl : isLast0 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (outLp (stepM x w ms) (stepL x w ms ls)) ∗ owns (c : Thread nD τ) a5 fullShare (outRs (stepR x w rs))
            ∗ owns (c : Thread nD τ) a6 fullShare (stepM x w ms) ∗ owns (c : Thread nD τ) a7 fullShare (stepL x w ms ls) ∗ owns (c : Thread nD τ) a8 fullShare (stepR x w rs)) -∗ K ⟨⟩))
      ⊢ wp frame (wpE (defs₀ (F := F)) Variants.none c none) E (cc0_kernel i a2 h2 a3 h3 a4 h4 a5 h5 a6 h6 a7 h7 a8 h8) K := by
  simp only [cc0_kernel_eq_skeleton]; unfold cc0_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; swap
    · iexact H4
    · ipureintro
      sl_unfold_words
      rw [View.read_writes_eq_canon _ _ _ (fun y => ⟨_, List.mem_cons_self .., View.mem_set_unit_zero hz_R0 inb_S2x512_S2x512_0_0 y⟩)]
      rw [View.canon_unit_zero hz_R0]
      simp only [outLp, stepM, stepL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H5]
  · iexists _; isplitr; swap
    · iexact H5
    · ipureintro
      sl_unfold_words
      rw [View.read_writes_eq_canon _ _ _ (fun y => ⟨_, List.mem_cons_self .., View.mem_set_unit_zero hz_R0 inb_S2x512_S2x512_0_0 y⟩)]
      rw [View.canon_unit_zero hz_R0]
      simp only [outRs, stepR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H6]
  · iexists _; isplitr; swap
    · iexact H6
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepM, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  isplitl [H7]
  · iexists _; isplitr; swap
    · iexact H7
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepL, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]
  · iexists _; isplitr; swap
    · iexact H8
    · ipureintro
      sl_unfold_words
      rw [View.read_writes_eq_canon _ _ _ (fun y => ⟨_, List.mem_cons_self .., View.mem_set_unit_zero hz_R0 inb_S1024x1_S1024x1_0_0 y⟩)]
      rw [View.canon_unit_zero hz_R0]
      simp only [stepR, View.readAt_eq_ld, h2.read_unread, h3.read_unread, h4.read_unread, h5.read_unread, h6.read_unread, h7.read_unread, h8.read_unread,
        View.ld_unit_zero (S := S2x512x2048) hz3_R0, View.ld_unit_zero (S := S1280x2048) hz_R0, View.ld_unit_zero (S := S1024x1) hz_R0,
        View.ld_unit_zero (S := S2x512) hz_R0, View.readCov_unit_zero (S := S1024x1) _ hz_R0]

end Cert.KernelIdeal.Hand

end
-- ==== Proof.KI.Dat0.lean ====
/-
  Region 0's proof data at a parameter V (the core's buffer contents when the region is entered), and the body
  obligation.  The grid's 50 points are t = 25·s + v (s the row-tile, v the vocabulary tile).  The three scratch
  columns after point n are `colsAt0 V c n`: a recursion on n that restarts from (−∞, 0, 0) whenever n ≡ 0 (mod 25)
  and otherwise continues from the point before, each time folding in the point's two input blocks.  The
  invariant before point n + 1 holds the three scratch buffers at exactly those columns; the output windows'
  blocks after a point are the re-laid final columns (they matter only where v = 24, the only points written back).
-/
import proofs.«130178_j27539330302083_1_alg».proof.Proof.KI.Body0
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' block and the vocabulary block at point t, at their literal types. -/
abbrev xblk0 (c : Dev nD) (t : Fin cfg0.N) : Vec F S2x512x2048 .bf16 := iblk0 V c 0 t
abbrev wblk0 (c : Dev nD) (t : Fin cfg0.N) : Vec F S1280x2048 .bf16 := iblk0 V c 1 t

/-- Three [1024, 1] columns: running maximum, running rescaled exp-sum, running plain sum. -/
abbrev Cols (F : FTy → Type) [FloatOps F] : Type := Vec F S1024x1 .f32 × Vec F S1024x1 .f32 × Vec F S1024x1 .f32

/-- The scratch columns after point n. -/
def colsAt0 (c : Dev nD) : (n : ℕ) → n < cfg0.N → Cols F
  | 0, h => stepAll (xblk0 V c ⟨0, h⟩) (wblk0 V c ⟨0, h⟩) resetAll
  | n + 1, h =>
    if (n + 1) % 25 = 0 then stepAll (xblk0 V c ⟨n + 1, h⟩) (wblk0 V c ⟨n + 1, h⟩) resetAll
    else stepAll (xblk0 V c ⟨n + 1, h⟩) (wblk0 V c ⟨n + 1, h⟩) (colsAt0 c n (Nat.lt_of_succ_lt h))

/-- At the first vocabulary tile of a row-tile the columns restart. -/
theorem colsAt0_first (c : Dev nD) (t : Fin cfg0.N) (h : t.val % 25 = 0) :
    colsAt0 V c t.val t.isLt = stepAll (xblk0 V c t) (wblk0 V c t) resetAll := by
  obtain ⟨n, hn⟩ := t
  cases n with
  | zero => rfl
  | succ n => exact if_pos h

/-- At any other tile they continue from the point before. -/
theorem colsAt0_next (c : Dev nD) (t : Fin cfg0.N) (h : t.val % 25 ≠ 0) :
    colsAt0 V c t.val t.isLt
      = stepAll (xblk0 V c t) (wblk0 V c t) (colsAt0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this region nor one of its three scratch columns,
    at some contents each: carried through the region unopened. -/
abbrev restR0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The invariant before point n: at the region's entry the class's (every scratch buffer at anything, the generator
    register at some state); afterwards the three scratch buffers at the columns the point before left, the other
    scoped buffers at anything. -/
def PhiC0 (c : Dev nD) : (n : ℕ) → n ≤ cfg0.N → sProp 𝕄
  | 0, _ => Pipeline.ΦA spec0 c
  | n + 1, hn => iprop(owns (c : Thread nD τ) (Memref.whole cc0_scratch0 : Memref sig .tc .vmem S1024x1 .f32) fullShare (colsAt0 V c n hn).1
      ∗ owns (c : Thread nD τ) (Memref.whole cc0_scratch1 : Memref sig .tc .vmem S1024x1 .f32) fullShare (colsAt0 V c n hn).2.1
      ∗ owns (c : Thread nD τ) (Memref.whole cc0_scratch2 : Memref sig .tc .vmem S1024x1 .f32) fullShare (colsAt0 V c n hn).2.2
      ∗ restR0 (F := F) c ∗ (∃ r, prngReg c r))

theorem PhiC0_zeroR0 (c : Dev nD) (n : ℕ) (h : n ≤ cfg0.N) (hz : n = 0) : PhiC0 V c n h = Pipeline.ΦA spec0 c := by
  subst hz; rfl

theorem PhiC0_succR0 (c : Dev nD) (n : ℕ) (hn : n < cfg0.N) :
    PhiC0 V c (n + 1) hn = iprop(owns (c : Thread nD τ) (Memref.whole cc0_scratch0 : Memref sig .tc .vmem S1024x1 .f32) fullShare (colsAt0 V c n hn).1
      ∗ owns (c : Thread nD τ) (Memref.whole cc0_scratch1 : Memref sig .tc .vmem S1024x1 .f32) fullShare (colsAt0 V c n hn).2.1
      ∗ owns (c : Thread nD τ) (Memref.whole cc0_scratch2 : Memref sig .tc .vmem S1024x1 .f32) fullShare (colsAt0 V c n hn).2.2
      ∗ restR0 (F := F) c ∗ (∃ r, prngReg c r)) := rfl

theorem PhiC0_posR0 (c : Dev nD) (n : ℕ) (h : n ≤ cfg0.N) (hz : n ≠ 0) :
    PhiC0 V c n h = iprop(owns (c : Thread nD τ) (Memref.whole cc0_scratch0 : Memref sig .tc .vmem S1024x1 .f32) fullShare (colsAt0 V c (n - 1) (by omega)).1
      ∗ owns (c : Thread nD τ) (Memref.whole cc0_scratch1 : Memref sig .tc .vmem S1024x1 .f32) fullShare (colsAt0 V c (n - 1) (by omega)).2.1
      ∗ owns (c : Thread nD τ) (Memref.whole cc0_scratch2 : Memref sig .tc .vmem S1024x1 .f32) fullShare (colsAt0 V c (n - 1) (by omega)).2.2
      ∗ restR0 (F := F) c ∗ (∃ r, prngReg c r)) := by
  cases n with
  | zero => exact absurd rfl hz
  | succ n => rfl

/-- The class's invariant with the three scratch columns as memrefs owned at some contents, the rest unopened. -/
theorem PhiA_eqR0 (c : Dev nD) :
    (Pipeline.ΦA spec0 c : sProp 𝕄)
      = iprop(iprop(iprop((∃ d, owns (c : Thread nD τ) (Memref.whole cc0_scratch0 : Memref sig .tc .vmem S1024x1 .f32) fullShare d)
          ∗ (∃ d, owns (c : Thread nD τ) (Memref.whole cc0_scratch1 : Memref sig .tc .vmem S1024x1 .f32) fullShare d)
          ∗ (∃ d, owns (c : Thread nD τ) (Memref.whole cc0_scratch2 : Memref sig .tc .vmem S1024x1 .f32) fullShare d))
          ∗ restR0 (F := F) c) ∗ (∃ r, prngReg c r)) := by
  unfold Pipeline.ΦA
  rw [Pipeline.scopedRest_split_of_list spec0 c [cc0_scratch0, cc0_scratch1, cc0_scratch2] (by decide) (by decide)]
  simp only [BI.bigSepL_cons_cons, BI.bigSepL_singleton, owns_whole]
  rfl

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outLp (colsAt0 V c t.val t.isLt).1 (colsAt0 V c t.val t.isLt).2.1
    | ⟨3, _⟩ => outRs (colsAt0 V c t.val t.isLt).2.2
  Φ t := PhiC0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) :
    (dat0 V c).after 2 t = outLp (colsAt0 V c t.val t.isLt).1 (colsAt0 V c t.val t.isLt).2.1 := by dsimp only [dat0]
theorem after0_3 (c : Dev nD) (t : Fin cfg0.N) :
    (dat0 V c).after 3 t = outRs (colsAt0 V c t.val t.isLt).2.2 := by dsimp only [dat0]

theorem afterXR0 (c : Dev nD) (t : Fin cfg0.N) : (dat0 V c).after 0 t = iblk0 V c 0 t := by dsimp only [dat0]
theorem afterWR0 (c : Dev nD) (t : Fin cfg0.N) : (dat0 V c).after 1 t = iblk0 V c 1 t := by dsimp only [dat0]

/-- The invariant at a point's start, restated at the point's number. -/
theorem PhiC0_castSuccR0 (c : Dev nD) (t : Fin cfg0.N) :
    (dat0 V c).Φ t.castSucc = PhiC0 V c t.val (Nat.le_of_lt t.isLt) := by
  dsimp only [dat0]; simp only [Fin.coe_castSucc]

/-! ## The grid's 50 points: which control case, which windows are live -/

/-- v = 0 exactly at the points ≡ 0 (mod 25). -/
theorem isFirst_iffR0 : ∀ t : Fin cfg0.N, isFirst0 (grid0.coords t) ↔ t.val % 25 = 0 :=
  (by decide +kernel : ∀ t : Fin grid0.N, isFirst0 (grid0.coords t) ↔ t.val % 25 = 0)
/-- v = 24 exactly at the points ≡ 24 (mod 25). -/
theorem isLast_iffR0 : ∀ t : Fin cfg0.N, isLast0 (grid0.coords t) ↔ t.val % 25 = 24 :=
  (by decide +kernel : ∀ t : Fin grid0.N, isLast0 (grid0.coords t) ↔ t.val % 25 = 24)
/-- The two input windows are live at every point. -/
theorem liveXR0 : ∀ t : Fin cfg0.N, cfg0.idle 0 (grid0.coords t) = false := by decide +kernel
theorem liveWR0 : ∀ t : Fin cfg0.N, cfg0.idle 1 (grid0.coords t) = false := by decide +kernel
/-- The two output windows are idle, and not written back, off the last vocabulary tile; live on it. -/
theorem idleLpR0 : ∀ t : Fin cfg0.N, ¬ t.val % 25 = 24 → cfg0.idle 2 (grid0.coords t) = true := by decide +kernel
theorem idleRsR0 : ∀ t : Fin cfg0.N, ¬ t.val % 25 = 24 → cfg0.idle 3 (grid0.coords t) = true := by decide +kernel
theorem noFlushLpR0 : ∀ t : Fin cfg0.N, ¬ t.val % 25 = 24 → (cfg0.win 2).flush t = false := by decide +kernel
theorem noFlushRsR0 : ∀ t : Fin cfg0.N, ¬ t.val % 25 = 24 → (cfg0.win 3).flush t = false := by decide +kernel
theorem liveLpR0 : ∀ t : Fin cfg0.N, t.val % 25 = 24 → cfg0.idle 2 (grid0.coords t) = false := by decide +kernel
theorem liveRsR0 : ∀ t : Fin cfg0.N, t.val % 25 = 24 → cfg0.idle 3 (grid0.coords t) = false := by decide +kernel

/-! ## The inputs' staging buffers hold their blocks at every point -/

/-- The activations' current buffer holds the row-tile's block, fetched at this point or kept from v = 0. -/
theorem beforeXR0 (c : Dev nD) (t : Fin cfg0.N) (d) : (dat0 V c).before 0 t d = iblk0 V c 0 t := by
  have hk : ∀ t, (cfg0.win 0).cut (cfg0.grid.coords t) ((dat0 V c).after 0 t) = (dat0 V c).blockOf 0 t := fun t => by
    rw [afterXR0]; unfold Dat.blockOf iblk0; rw [A_eq0]; try rfl
  rw [(dat0 V c).before_in_eq_fetched 0 rfl (fun _ => rfl) (fun _ _ _ => rfl) hk t d]
  unfold Dat.fetched Dat.blockOf iblk0; rw [A_eq0]; try rfl

/-- The vocabulary tile's current buffer holds its block (fetched at every point). -/
theorem beforeWR0 (c : Dev nD) (t : Fin cfg0.N) (d) : (dat0 V c).before 1 t d = iblk0 V c 1 t := by
  have hk : ∀ t, (cfg0.win 1).cut (cfg0.grid.coords t) ((dat0 V c).after 1 t) = (dat0 V c).blockOf 1 t := fun t => by
    rw [afterWR0]; unfold Dat.blockOf iblk0; rw [A_eq0]; try rfl
  rw [(dat0 V c).before_in_eq_fetched 1 rfl (fun _ => rfl) (fun _ _ _ => rfl) hk t d]
  unfold Dat.fetched Dat.blockOf iblk0; rw [A_eq0]; try rfl

/-! ## The body obligation at a generic point -/

/-- Each window's current staging memref at point t, spelled as the pipeline passes it to the body. -/
abbrev msXR0 (t : Fin cfg0.N) : Memref sig .tc .vmem S2x512x2048 .bf16 := win0_0.stage (cfg0.slots t 0)
abbrev msWR0 (t : Fin cfg0.N) : Memref sig .tc .vmem S1280x2048 .bf16 := win0_1.stage (cfg0.slots t 1)
abbrev msLpR0 (t : Fin cfg0.N) : Memref sig .tc .vmem S2x512 .f32 := win0_2.stage (cfg0.slots t 2)
abbrev msRsR0 (t : Fin cfg0.N) : Memref sig .tc .vmem S2x512 .f32 := win0_3.stage (cfg0.slots t 3)

/-- What the body is called with at point t, the windows one by one, -/
def bodyPreR0 (c : Dev nD) (t : Fin cfg0.N) : sProp 𝕄 :=
  iprop((dat0 V c).Φ t.castSucc ∗ (dat0 V c).owesAt () t.castSucc
    ∗ (∃ d, owns (c : Thread nD τ) (msXR0 t) fullShare ((dat0 V c).before 0 t d))
    ∗ (∃ d, owns (c : Thread nD τ) (msWR0 t) fullShare ((dat0 V c).before 1 t d))
    ∗ (∃ d, owns (c : Thread nD τ) (msLpR0 t) fullShare ((dat0 V c).before 2 t d))
    ∗ (∃ d, owns (c : Thread nD τ) (msRsR0 t) fullShare ((dat0 V c).before 3 t d)))

/-- and what it returns. -/
def bodyPostR0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's number mod 25 says which control case
    it is; the invariant hands over the three scratch columns (at anything before the very first point, at the
    columns after the point before otherwise) and takes them back one step further; an output buffer is handed back
    as found off the last vocabulary tile and holds the re-laid final columns on it. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeXR0, beforeWR0]
  rw [show (dat0 V c).owesAt () t.succ = (dat0 V c).owesAt () t.castSucc from rfl]
  rw [show (dat0 V c).Φ t.succ = PhiC0 V c (t.val + 1) t.isLt from rfl, PhiC0_succR0]
  rw [show (dat0 V c).leavesExact 0 t = owns (c : Thread nD τ) (msXR0 t) fullShare ((dat0 V c).after 0 t) from by
    unfold Dat.leavesExact; rw [liveXR0 t], afterXR0]
  rw [show (dat0 V c).leavesExact 1 t = owns (c : Thread nD τ) (msWR0 t) fullShare ((dat0 V c).after 1 t) from by
    unfold Dat.leavesExact; rw [liveWR0 t], afterWR0]
  have hN : t.val < 50 := lt_of_lt_of_eq t.isLt (show cfg0.N = 50 from N_0)
  by_cases h0 : t.val % 25 = 0
  · -- the first vocabulary tile of a row-tile: the columns restart
    have h24 : ¬ t.val % 25 = 24 := by omega
    rw [Dat.leavesExact_idle (dat0 V c) 2 t (idleLpR0 t h24) (noFlushLpR0 t h24)]
    rw [Dat.leavesExact_idle (dat0 V c) 3 t (idleRsR0 t h24) (noFlushRsR0 t h24)]
    rw [colsAt0_first V c t h0]
    simp only [stepAll, resetAll]
    by_cases hz : t.val = 0
    · rw [PhiC0_castSuccR0 V c t, PhiC0_zeroR0 V c _ _ hz, PhiA_eqR0]
      iintro ⟨⟨⟨⟨⟨%m0, HS0⟩, ⟨%l0, HS1⟩, ⟨%r0, HS2⟩⟩, HR⟩, Hg⟩, Ho, ⟨%d0, H0⟩, ⟨%d1, H1⟩, ⟨%d2, H2⟩, ⟨%d3, H3⟩⟩
      iapply (body0_first c Set.univ (grid0.coords t) ((isFirst_iffR0 t).mpr h0) (fun h => h24 ((isLast_iffR0 t).mp h))
        _ _ _ _ _ _ _ _ _ _ _ _ _ _ (iblk0 V c 0 t) (iblk0 V c 1 t) ((dat0 V c).before 2 t d2) ((dat0 V c).before 3 t d3) m0 l0 r0 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
    · rw [PhiC0_castSuccR0 V c t, PhiC0_posR0 V c _ _ hz]
      iintro ⟨⟨HS0, HS1, HS2, HR, Hg⟩, Ho, ⟨%d0, H0⟩, ⟨%d1, H1⟩, ⟨%d2, H2⟩, ⟨%d3, H3⟩⟩
      iapply (body0_first c Set.univ (grid0.coords t) ((isFirst_iffR0 t).mpr h0) (fun h => h24 ((isLast_iffR0 t).mp h))
        _ _ _ _ _ _ _ _ _ _ _ _ _ _ (iblk0 V c 0 t) (iblk0 V c 1 t) ((dat0 V c).before 2 t d2) ((dat0 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
  · have hz : t.val ≠ 0 := fun hz => h0 (by rw [hz])
    by_cases h24 : t.val % 25 = 24
    · -- the last vocabulary tile: the columns continue and the two output blocks are stored
      rw [show (dat0 V c).leavesExact 2 t = owns (c : Thread nD τ) (msLpR0 t) fullShare ((dat0 V c).after 2 t) from by
        unfold Dat.leavesExact; rw [liveLpR0 t h24], after0_2]
      rw [show (dat0 V c).leavesExact 3 t = owns (c : Thread nD τ) (msRsR0 t) fullShare ((dat0 V c).after 3 t) from by
        unfold Dat.leavesExact; rw [liveRsR0 t h24], after0_3]
      rw [colsAt0_next V c t h0]
      simp only [stepAll]
      rw [PhiC0_castSuccR0 V c t, PhiC0_posR0 V c _ _ hz]
      iintro ⟨⟨HS0, HS1, HS2, HR, Hg⟩, Ho, ⟨%d0, H0⟩, ⟨%d1, H1⟩, ⟨%d2, H2⟩, ⟨%d3, H3⟩⟩
      iapply (body0_last c Set.univ (grid0.coords t) (fun h => h0 ((isFirst_iffR0 t).mp h)) ((isLast_iffR0 t).mpr h24)
        _ _ _ _ _ _ _ _ _ _ _ _ _ _ (iblk0 V c 0 t) (iblk0 V c 1 t) ((dat0 V c).before 2 t d2) ((dat0 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      iexact H3
    · -- a middle tile: the columns continue, nothing is stored out
      rw [Dat.leavesExact_idle (dat0 V c) 2 t (idleLpR0 t h24) (noFlushLpR0 t h24)]
      rw [Dat.leavesExact_idle (dat0 V c) 3 t (idleRsR0 t h24) (noFlushRsR0 t h24)]
      rw [colsAt0_next V c t h0]
      simp only [stepAll]
      rw [PhiC0_castSuccR0 V c t, PhiC0_posR0 V c _ _ hz]
      iintro ⟨⟨HS0, HS1, HS2, HR, Hg⟩, Ho, ⟨%d0, H0⟩, ⟨%d1, H1⟩, ⟨%d2, H2⟩, ⟨%d3, H3⟩⟩
      iapply (body0_mid c Set.univ (grid0.coords t) (fun h => h0 ((isFirst_iffR0 t).mp h)) (fun h => h24 ((isLast_iffR0 t).mp h))
        _ _ _ _ _ _ _ _ _ _ _ _ _ _ (iblk0 V c 0 t) (iblk0 V c 1 t) ((dat0 V c).before 2 t d2) ((dat0 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3

/-- The body obligation of region 0 at every point. -/
theorem body_obligation0 (c : Dev nD) : BodyObligation (dat0 (F := F) V c) (defs₀ (F := F)) Variants.none () Set.univ := fun t => by
  rw [bigSep_W0, bigSep_W0]
  exact sound_bodyR0 V c t

/-- What the launch hands the region is the invariant before the first point. -/
theorem hin0 (c : Dev nD) : Pipeline.ΦA spec0 c ⊢ (dat0 V c).Φ 0 := by
  rw [show (dat0 V c).Φ 0 = PhiC0 V c 0 (Nat.zero_le _) from rfl, PhiC0_zeroR0 V c 0 _ rfl]

/-- After any point the invariant gives the class's back: the columns' contents are forgotten. -/
theorem Phi_outR0 (c : Dev nD) (t : Fin (cfg0.N + 1)) (ht : t.val ≠ 0) : (dat0 V c).Φ t ⊢ Pipeline.ΦA spec0 c := by
  rw [show (dat0 V c).Φ t = PhiC0 V c t.val (Nat.le_of_lt_succ t.isLt) from rfl, PhiC0_posR0 V c _ _ ht, PhiA_eqR0]
  iintro ⟨H0, H1, H2, HR, Hg⟩
  isplitl [H0 H1 H2 HR]
  · isplitl [H0 H1 H2]
    · isplitl [H0]; · iexists _; iexact H0
      isplitl [H1]; · iexists _; iexact H1
      iexists _; iexact H2
    · iexact HR
  · iexact Hg

/-- After the last point the invariant gives the class's back (the columns' contents forgotten). -/
theorem hout0 (c : Dev nD) : (dat0 V c).Φ (Fin.last cfg0.N) ⊢ Pipeline.ΦA spec0 c :=
  Phi_outR0 V c _ (by rw [Fin.val_last]; have : cfg0.N = 50 := N_0; omega)

end Cert.KernelIdeal.Hand

end
-- ==== Proof.KI.Step1.lean ====
/-
  What one grid point does to the three running columns, as pure functions of the point's two input blocks
  (x : the activations' rows of this row-tile, all 2048 features; w : the 1280 vocabulary rows of this tile).
  Per row of the 1024 = 2·512 rows: the running maximum m, the running sum l of exp (logit − m) (rescaled by
  exp (m_old − m_new) when the maximum moves) and the running plain sum r of the logits.  At the first vocabulary
  tile the three columns restart from −∞, 0, 0; at the last one the two output blocks are
  m − (m + log l) and r, each re-laid from [1024, 1] to [2, 512].
-/
import proofs.«130178_j27539330302083_1_alg».proof.Proof.Gen.KernelIdeal.Skeleton

noncomputable section

namespace Cert.KernelIdeal.Hand

open Idealize.ShloMosaic Cert.KernelIdeal Cert.KernelIdeal.Gen

variable {F : FTy → Type} [FloatOps F]

/-- The columns a row-tile starts from: −∞, 0, 0. -/
def resetM1 : Vec F S1024x1 .f32 := k1_pay5
def resetL1 : Vec F S1024x1 .f32 := k1_pay6
def resetR1 : Vec F S1024x1 .f32 := k1_pay7

/-- The new running maximum: max (m, row maximum of this tile's logits). -/
def stepM1 (x : Vec F S2x512x2048 .bf16) (w : Vec F S1280x2048 .bf16) (ms : Vec F S1024x1 .f32) : Vec F S1024x1 .f32 :=
  k1_pay2 (k1_pay9 x w ms)

/-- The new running sum: exp (m − m') · l + Σ over the tile of exp (logit − m'). -/
def stepL1 (x : Vec F S2x512x2048 .bf16) (w : Vec F S1280x2048 .bf16) (ms ls : Vec F S1024x1 .f32) : Vec F S1024x1 .f32 :=
  k1_pay10 x w ms ms ls

/-- The new plain sum: r + Σ over the tile of the logits. -/
def stepR1 (x : Vec F S2x512x2048 .bf16) (w : Vec F S1280x2048 .bf16) (rs : Vec F S1024x1 .f32) : Vec F S1024x1 .f32 :=
  k1_pay1 (k1_pay11 x w rs)

/-- The first output block from the final columns: m − (m + log l), as [2, 512]. -/
def outLp1 (ms ls : Vec F S1024x1 .f32) : Vec F S2x512 .f32 := k1_pay3 ms ls ms

/-- The second output block: the plain sums, as [2, 512]. -/
def outRs1 (rs : Vec F S1024x1 .f32) : Vec F S2x512 .f32 := k1_pay4 rs

/-- The three columns after a point that continues a row-tile from columns (ms, ls, rs). -/
def stepAll1 (x : Vec F S2x512x2048 .bf16) (w : Vec F S1280x2048 .bf16)
    (s : Vec F S1024x1 .f32 × Vec F S1024x1 .f32 × Vec F S1024x1 .f32) :
    Vec F S1024x1 .f32 × Vec F S1024x1 .f32 × Vec F S1024x1 .f32 :=
  (stepM1 x w s.1, stepL1 x w s.1 s.2.1, stepR1 x w s.2.2)

/-- The columns a row-tile starts from, as a triple. -/
def resetAll1 : Vec F S1024x1 .f32 × Vec F S1024x1 .f32 × Vec F S1024x1 .f32 := (resetM1, resetL1, resetR1)

end Cert.KernelIdeal.Hand

end
-- ==== Proof.KI.Body1.lean ====
/-
  The kernel body of region 1 as three triples, one per control case of its two conditionals (the grid's second
  coordinate v is the vocabulary tile): FIRST (v = 0: the three columns restart, nothing is written out), MIDDLE
  (0 < v < 24: the columns continue, nothing is written out), LAST (v = 24: the columns continue and the two
  output blocks are stored).  On whole buffers: the input blocks stay, an output block the case does not store
  stays as handed in, and the three scratch columns end at the pure functions of Step.lean.
-/
import proofs.«130178_j27539330302083_1_alg».proof.Proof.KI.Step1
import proofs.«130178_j27539330302083_1_alg».proof.Proof.Gen.KernelIdeal.Launch
import proofs.«130178_j27539330302083_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- "This point is the first vocabulary tile" as the body computes it from the grid coordinates. -/
abbrev isFirst1 (i : grid1.Coords) : Prop :=
  (Scalar.cmpi .ne (Scalar.extui (Scalar.cmpi .eq (BitVec.ofNat 32 (i 1).val) 0#32)) 0#32) = 1#1
/-- "This point is the last vocabulary tile" as the body computes it. -/
abbrev isLast1 (i : grid1.Coords) : Prop := k1_cond2 i = 1#1

/-- The zero offsets of a rank-2 rectangle, as the constant function. -/
theorem hz_R1 : (![0, 0] : Fin 2 → Nat) = fun _ => 0 := funext fun a => by fin_cases a <;> rfl
/-- The zero offsets of a rank-3 rectangle, as the constant function. -/
theorem hz3_R1 : (![0, 0, 0] : Fin 3 → Nat) = fun _ => 0 := funext fun a => by fin_cases a <;> rfl

set_option maxHeartbeats 4000000 in
/-- FIRST tile of a row-tile: whatever the columns held, they end at one step from (−∞, 0, 0); outputs untouched. -/
theorem body1_first (c : Dev nD) (E : Set ℕ) (i : grid1.Coords) (hf : isFirst1 i) (hl : ¬ isLast1 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM1 x w resetM1) ∗ owns (c : Thread nD τ) a7 fullShare (stepL1 x w resetM1 resetL1) ∗ owns (c : Thread nD τ) a8 fullShare (stepR1 x w resetR1)) -∗ K ⟨⟩))
      ⊢ wp frame (wpE (defs₀ (F := F)) Variants.none c none) E (cc1_kernel i a2 h2 a3 h3 a4 h4 a5 h5 a6 h6 a7 h7 a8 h8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R1 inb_S1024x1_S1024x1_0_0 y⟩)]
      rw [View.canon_cons_unit_zero (S := S1024x1) hz_R1]
      simp only [stepM1, resetM1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H7]
  · iexists _; isplitr; swap
    · iexact H7
    · ipureintro
      sl_unfold_words
      rw [View.read_writes_eq_canon _ _ _ (fun y => ⟨_, List.mem_cons_self .., View.mem_set_unit_zero hz_R1 inb_S1024x1_S1024x1_0_0 y⟩)]
      rw [View.canon_cons_unit_zero (S := S1024x1) hz_R1]
      simp only [stepL1, resetM1, resetL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  · iexists _; isplitr; swap
    · iexact H8
    · ipureintro
      sl_unfold_words
      rw [View.read_writes_eq_canon _ _ _ (fun y => ⟨_, List.mem_cons_self .., View.mem_set_unit_zero hz_R1 inb_S1024x1_S1024x1_0_0 y⟩)]
      rw [View.canon_cons_unit_zero (S := S1024x1) hz_R1]
      simp only [stepR1, resetR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]

set_option maxHeartbeats 4000000 in
/-- A MIDDLE tile: the columns advance one step from what they held; outputs untouched. -/
theorem body1_mid (c : Dev nD) (E : Set ℕ) (i : grid1.Coords) (hf : ¬ isFirst1 i) (hl : ¬ isLast1 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (d4) ∗ owns (c : Thread nD τ) a5 fullShare (d5)
            ∗ owns (c : Thread nD τ) a6 fullShare (stepM1 x w ms) ∗ owns (c : Thread nD τ) a7 fullShare (stepL1 x w ms ls) ∗ owns (c : Thread nD τ) a8 fullShare (stepR1 x w rs)) -∗ K ⟨⟩))
      ⊢ wp frame (wpE (defs₀ (F := F)) Variants.none c none) E (cc1_kernel i a2 h2 a3 h3 a4 h4 a5 h5 a6 h6 a7 h7 a8 h8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap
    · iexact H6
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepM1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H7]
  · iexists _; isplitr; swap
    · iexact H7
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  · iexists _; isplitr; swap
    · iexact H8
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]

set_option maxHeartbeats 4000000 in
/-- The LAST tile: the columns advance one step and the two output blocks are stored from the final columns. -/
theorem body1_last (c : Dev nD) (E : Set ℕ) (i : grid1.Coords) (hf : ¬ isFirst1 i) (hl : isLast1 i)
    (a2 : Memref sig .tc .vmem S2x512x2048 .bf16) (h2 : a2.IsWhole) (a3 : Memref sig .tc .vmem S1280x2048 .bf16) (h3 : a3.IsWhole)
    (a4 : Memref sig .tc .vmem S2x512 .f32) (h4 : a4.IsWhole) (a5 : Memref sig .tc .vmem S2x512 .f32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole)
    (x : Vec F S2x512x2048 .bf16) (w : Vec F S1280x2048 .bf16) (d4 d5 : Vec F S2x512 .f32) (ms ls rs : Vec F S1024x1 .f32)
    (K : PUnit → sProp 𝕄) :
    iprop(owns (c : Thread nD τ) a2 fullShare x ∗ owns (c : Thread nD τ) a3 fullShare w
        ∗ owns (c : Thread nD τ) a4 fullShare d4 ∗ owns (c : Thread nD τ) a5 fullShare d5
        ∗ owns (c : Thread nD τ) a6 fullShare ms ∗ owns (c : Thread nD τ) a7 fullShare ls ∗ owns (c : Thread nD τ) a8 fullShare rs
        ∗ (iprop(owns (c : Thread nD τ) a2 fullShare x ∗ owns (c : Thread nD τ) a3 fullShare w
            ∗ owns (c : Thread nD τ) a4 fullShare (outLp1 (stepM1 x w ms) (stepL1 x w ms ls)) ∗ owns (c : Thread nD τ) a5 fullShare (outRs1 (stepR1 x w rs))
            ∗ owns (c : Thread nD τ) a6 fullShare (stepM1 x w ms) ∗ owns (c : Thread nD τ) a7 fullShare (stepL1 x w ms ls) ∗ owns (c : Thread nD τ) a8 fullShare (stepR1 x w rs)) -∗ K ⟨⟩))
      ⊢ wp frame (wpE (defs₀ (F := F)) Variants.none c none) E (cc1_kernel i a2 h2 a3 h3 a4 h4 a5 h5 a6 h6 a7 h7 a8 h8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hf | exact hl)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; swap
    · iexact H4
    · ipureintro
      sl_unfold_words
      rw [View.read_writes_eq_canon _ _ _ (fun y => ⟨_, List.mem_cons_self .., View.mem_set_unit_zero hz_R1 inb_S2x512_S2x512_0_0 y⟩)]
      rw [View.canon_unit_zero hz_R1]
      simp only [outLp1, stepM1, stepL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H5]
  · iexists _; isplitr; swap
    · iexact H5
    · ipureintro
      sl_unfold_words
      rw [View.read_writes_eq_canon _ _ _ (fun y => ⟨_, List.mem_cons_self .., View.mem_set_unit_zero hz_R1 inb_S2x512_S2x512_0_0 y⟩)]
      rw [View.canon_unit_zero hz_R1]
      simp only [outRs1, stepR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H6]
  · iexists _; isplitr; swap
    · iexact H6
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepM1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  isplitl [H7]
  · iexists _; isplitr; swap
    · iexact H7
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepL1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]
  · iexists _; isplitr; swap
    · iexact H8
    · ipureintro
      sl_unfold_words
      rw [View.read_writes_eq_canon _ _ _ (fun y => ⟨_, List.mem_cons_self .., View.mem_set_unit_zero hz_R1 inb_S1024x1_S1024x1_0_0 y⟩)]
      rw [View.canon_unit_zero hz_R1]
      simp only [stepR1, View.readAt_eq_ld, h2.read_unread, h3.read_unread, h4.read_unread, h5.read_unread, h6.read_unread, h7.read_unread, h8.read_unread,
        View.ld_unit_zero (S := S2x512x2048) hz3_R1, View.ld_unit_zero (S := S1280x2048) hz_R1, View.ld_unit_zero (S := S1024x1) hz_R1,
        View.ld_unit_zero (S := S2x512) hz_R1, View.readCov_unit_zero (S := S1024x1) _ hz_R1]

end Cert.KernelIdeal.Hand

end
-- ==== Proof.KI.Dat1.lean ====
/-
  region 1's proof data at a parameter V (the core's buffer contents when the region is entered), and the body
  obligation.  The grid's 50 points are t = 25·s + v (s the row-tile, v the vocabulary tile).  The three scratch
  columns after point n are `colsAt1 V c n`: a recursion on n that restarts from (−∞, 0, 0) whenever n ≡ 0 (mod 25)
  and otherwise continues from the point before, each time folding in the point's two input blocks.  The
  invariant before point n + 1 holds the three scratch buffers at exactly those columns; the output windows'
  blocks after a point are the re-laid final columns (they matter only where v = 24, the only points written back).
-/
import proofs.«130178_j27539330302083_1_alg».proof.Proof.KI.Body1
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' block and the vocabulary block at point t, at their literal types. -/
abbrev xblk1 (c : Dev nD) (t : Fin cfg1.N) : Vec F S2x512x2048 .bf16 := iblk1 V c 0 t
abbrev wblk1 (c : Dev nD) (t : Fin cfg1.N) : Vec F S1280x2048 .bf16 := iblk1 V c 1 t

/-- Three [1024, 1] columns: running maximum, running rescaled exp-sum, running plain sum. -/
abbrev Cols1 (F : FTy → Type) [FloatOps F] : Type := Vec F S1024x1 .f32 × Vec F S1024x1 .f32 × Vec F S1024x1 .f32

/-- The scratch columns after point n. -/
def colsAt1 (c : Dev nD) : (n : ℕ) → n < cfg1.N → Cols1 F
  | 0, h => stepAll1 (xblk1 V c ⟨0, h⟩) (wblk1 V c ⟨0, h⟩) resetAll1
  | n + 1, h =>
    if (n + 1) % 25 = 0 then stepAll1 (xblk1 V c ⟨n + 1, h⟩) (wblk1 V c ⟨n + 1, h⟩) resetAll1
    else stepAll1 (xblk1 V c ⟨n + 1, h⟩) (wblk1 V c ⟨n + 1, h⟩) (colsAt1 c n (Nat.lt_of_succ_lt h))

/-- At the first vocabulary tile of a row-tile the columns restart. -/
theorem colsAt1_first (c : Dev nD) (t : Fin cfg1.N) (h : t.val % 25 = 0) :
    colsAt1 V c t.val t.isLt = stepAll1 (xblk1 V c t) (wblk1 V c t) resetAll1 := by
  obtain ⟨n, hn⟩ := t
  cases n with
  | zero => rfl
  | succ n => exact if_pos h

/-- At any other tile they continue from the point before. -/
theorem colsAt1_next (c : Dev nD) (t : Fin cfg1.N) (h : t.val % 25 ≠ 0) :
    colsAt1 V c t.val t.isLt
      = stepAll1 (xblk1 V c t) (wblk1 V c t) (colsAt1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this region nor one of its three scratch columns,
    at some contents each: carried through the region unopened. -/
abbrev restR1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The invariant before point n: at the region's entry the class's (every scratch buffer at anything, the generator
    register at some state); afterwards the three scratch buffers at the columns the point before left, the other
    scoped buffers at anything. -/
def PhiC1 (c : Dev nD) : (n : ℕ) → n ≤ cfg1.N → sProp 𝕄
  | 0, _ => Pipeline.ΦA spec1 c
  | n + 1, hn => iprop(owns (c : Thread nD τ) (Memref.whole cc1_scratch0 : Memref sig .tc .vmem S1024x1 .f32) fullShare (colsAt1 V c n hn).1
      ∗ owns (c : Thread nD τ) (Memref.whole cc1_scratch1 : Memref sig .tc .vmem S1024x1 .f32) fullShare (colsAt1 V c n hn).2.1
      ∗ owns (c : Thread nD τ) (Memref.whole cc1_scratch2 : Memref sig .tc .vmem S1024x1 .f32) fullShare (colsAt1 V c n hn).2.2
      ∗ restR1 (F := F) c ∗ (∃ r, prngReg c r))

theorem PhiC0_zeroR1 (c : Dev nD) (n : ℕ) (h : n ≤ cfg1.N) (hz : n = 0) : PhiC1 V c n h = Pipeline.ΦA spec1 c := by
  subst hz; rfl

theorem PhiC0_succR1 (c : Dev nD) (n : ℕ) (hn : n < cfg1.N) :
    PhiC1 V c (n + 1) hn = iprop(owns (c : Thread nD τ) (Memref.whole cc1_scratch0 : Memref sig .tc .vmem S1024x1 .f32) fullShare (colsAt1 V c n hn).1
      ∗ owns (c : Thread nD τ) (Memref.whole cc1_scratch1 : Memref sig .tc .vmem S1024x1 .f32) fullShare (colsAt1 V c n hn).2.1
      ∗ owns (c : Thread nD τ) (Memref.whole cc1_scratch2 : Memref sig .tc .vmem S1024x1 .f32) fullShare (colsAt1 V c n hn).2.2
      ∗ restR1 (F := F) c ∗ (∃ r, prngReg c r)) := rfl

theorem PhiC0_posR1 (c : Dev nD) (n : ℕ) (h : n ≤ cfg1.N) (hz : n ≠ 0) :
    PhiC1 V c n h = iprop(owns (c : Thread nD τ) (Memref.whole cc1_scratch0 : Memref sig .tc .vmem S1024x1 .f32) fullShare (colsAt1 V c (n - 1) (by omega)).1
      ∗ owns (c : Thread nD τ) (Memref.whole cc1_scratch1 : Memref sig .tc .vmem S1024x1 .f32) fullShare (colsAt1 V c (n - 1) (by omega)).2.1
      ∗ owns (c : Thread nD τ) (Memref.whole cc1_scratch2 : Memref sig .tc .vmem S1024x1 .f32) fullShare (colsAt1 V c (n - 1) (by omega)).2.2
      ∗ restR1 (F := F) c ∗ (∃ r, prngReg c r)) := by
  cases n with
  | zero => exact absurd rfl hz
  | succ n => rfl

/-- The class's invariant with the three scratch columns as memrefs owned at some contents, the rest unopened. -/
theorem PhiA_eqR1 (c : Dev nD) :
    (Pipeline.ΦA spec1 c : sProp 𝕄)
      = iprop(iprop(iprop((∃ d, owns (c : Thread nD τ) (Memref.whole cc1_scratch0 : Memref sig .tc .vmem S1024x1 .f32) fullShare d)
          ∗ (∃ d, owns (c : Thread nD τ) (Memref.whole cc1_scratch1 : Memref sig .tc .vmem S1024x1 .f32) fullShare d)
          ∗ (∃ d, owns (c : Thread nD τ) (Memref.whole cc1_scratch2 : Memref sig .tc .vmem S1024x1 .f32) fullShare d))
          ∗ restR1 (F := F) c) ∗ (∃ r, prngReg c r)) := by
  unfold Pipeline.ΦA
  rw [Pipeline.scopedRest_split_of_list spec1 c [cc1_scratch0, cc1_scratch1, cc1_scratch2] (by decide) (by decide)]
  simp only [BI.bigSepL_cons_cons, BI.bigSepL_singleton, owns_whole]
  rfl

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outLp1 (colsAt1 V c t.val t.isLt).1 (colsAt1 V c t.val t.isLt).2.1
    | ⟨3, _⟩ => outRs1 (colsAt1 V c t.val t.isLt).2.2
  Φ t := PhiC1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = outLp1 (colsAt1 V c t.val t.isLt).1 (colsAt1 V c t.val t.isLt).2.1 := by dsimp only [dat1]
theorem after1_3 (c : Dev nD) (t : Fin cfg1.N) :
    (dat1 V c).after 3 t = outRs1 (colsAt1 V c t.val t.isLt).2.2 := by dsimp only [dat1]

theorem afterXR1 (c : Dev nD) (t : Fin cfg1.N) : (dat1 V c).after 0 t = iblk1 V c 0 t := by dsimp only [dat1]
theorem afterWR1 (c : Dev nD) (t : Fin cfg1.N) : (dat1 V c).after 1 t = iblk1 V c 1 t := by dsimp only [dat1]

/-- The invariant at a point's start, restated at the point's number. -/
theorem PhiC0_castSuccR1 (c : Dev nD) (t : Fin cfg1.N) :
    (dat1 V c).Φ t.castSucc = PhiC1 V c t.val (Nat.le_of_lt t.isLt) := by
  dsimp only [dat1]; simp only [Fin.coe_castSucc]

/-! ## The grid's 50 points: which control case, which windows are live -/

/-- v = 0 exactly at the points ≡ 0 (mod 25). -/
theorem isFirst_iffR1 : ∀ t : Fin cfg1.N, isFirst1 (grid1.coords t) ↔ t.val % 25 = 0 :=
  (by decide +kernel : ∀ t : Fin grid1.N, isFirst1 (grid1.coords t) ↔ t.val % 25 = 0)
/-- v = 24 exactly at the points ≡ 24 (mod 25). -/
theorem isLast_iffR1 : ∀ t : Fin cfg1.N, isLast1 (grid1.coords t) ↔ t.val % 25 = 24 :=
  (by decide +kernel : ∀ t : Fin grid1.N, isLast1 (grid1.coords t) ↔ t.val % 25 = 24)
/-- The two input windows are live at every point. -/
theorem liveXR1 : ∀ t : Fin cfg1.N, cfg1.idle 0 (grid1.coords t) = false := by decide +kernel
theorem liveWR1 : ∀ t : Fin cfg1.N, cfg1.idle 1 (grid1.coords t) = false := by decide +kernel
/-- The two output windows are idle, and not written back, off the last vocabulary tile; live on it. -/
theorem idleLpR1 : ∀ t : Fin cfg1.N, ¬ t.val % 25 = 24 → cfg1.idle 2 (grid1.coords t) = true := by decide +kernel
theorem idleRsR1 : ∀ t : Fin cfg1.N, ¬ t.val % 25 = 24 → cfg1.idle 3 (grid1.coords t) = true := by decide +kernel
theorem noFlushLpR1 : ∀ t : Fin cfg1.N, ¬ t.val % 25 = 24 → (cfg1.win 2).flush t = false := by decide +kernel
theorem noFlushRsR1 : ∀ t : Fin cfg1.N, ¬ t.val % 25 = 24 → (cfg1.win 3).flush t = false := by decide +kernel
theorem liveLpR1 : ∀ t : Fin cfg1.N, t.val % 25 = 24 → cfg1.idle 2 (grid1.coords t) = false := by decide +kernel
theorem liveRsR1 : ∀ t : Fin cfg1.N, t.val % 25 = 24 → cfg1.idle 3 (grid1.coords t) = false := by decide +kernel

/-! ## The inputs' staging buffers hold their blocks at every point -/

/-- The activations' current buffer holds the row-tile's block, fetched at this point or kept from v = 0. -/
theorem beforeXR1 (c : Dev nD) (t : Fin cfg1.N) (d) : (dat1 V c).before 0 t d = iblk1 V c 0 t := by
  have hk : ∀ t, (cfg1.win 0).cut (cfg1.grid.coords t) ((dat1 V c).after 0 t) = (dat1 V c).blockOf 0 t := fun t => by
    rw [afterXR1]; unfold Dat.blockOf iblk1; rw [A_eq1]; try rfl
  rw [(dat1 V c).before_in_eq_fetched 0 rfl (fun _ => rfl) (fun _ _ _ => rfl) hk t d]
  unfold Dat.fetched Dat.blockOf iblk1; rw [A_eq1]; try rfl

/-- The vocabulary tile's current buffer holds its block (fetched at every point). -/
theorem beforeWR1 (c : Dev nD) (t : Fin cfg1.N) (d) : (dat1 V c).before 1 t d = iblk1 V c 1 t := by
  have hk : ∀ t, (cfg1.win 1).cut (cfg1.grid.coords t) ((dat1 V c).after 1 t) = (dat1 V c).blockOf 1 t := fun t => by
    rw [afterWR1]; unfold Dat.blockOf iblk1; rw [A_eq1]; try rfl
  rw [(dat1 V c).before_in_eq_fetched 1 rfl (fun _ => rfl) (fun _ _ _ => rfl) hk t d]
  unfold Dat.fetched Dat.blockOf iblk1; rw [A_eq1]; try rfl

/-! ## The body obligation at a generic point -/

/-- Each window's current staging memref at point t, spelled as the pipeline passes it to the body. -/
abbrev msXR1 (t : Fin cfg1.N) : Memref sig .tc .vmem S2x512x2048 .bf16 := win1_0.stage (cfg1.slots t 0)
abbrev msWR1 (t : Fin cfg1.N) : Memref sig .tc .vmem S1280x2048 .bf16 := win1_1.stage (cfg1.slots t 1)
abbrev msLpR1 (t : Fin cfg1.N) : Memref sig .tc .vmem S2x512 .f32 := win1_2.stage (cfg1.slots t 2)
abbrev msRsR1 (t : Fin cfg1.N) : Memref sig .tc .vmem S2x512 .f32 := win1_3.stage (cfg1.slots t 3)

/-- What the body is called with at point t, the windows one by one, -/
def bodyPreR1 (c : Dev nD) (t : Fin cfg1.N) : sProp 𝕄 :=
  iprop((dat1 V c).Φ t.castSucc ∗ (dat1 V c).owesAt () t.castSucc
    ∗ (∃ d, owns (c : Thread nD τ) (msXR1 t) fullShare ((dat1 V c).before 0 t d))
    ∗ (∃ d, owns (c : Thread nD τ) (msWR1 t) fullShare ((dat1 V c).before 1 t d))
    ∗ (∃ d, owns (c : Thread nD τ) (msLpR1 t) fullShare ((dat1 V c).before 2 t d))
    ∗ (∃ d, owns (c : Thread nD τ) (msRsR1 t) fullShare ((dat1 V c).before 3 t d)))

/-- and what it returns. -/
def bodyPostR1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' buffers hold their blocks; the point's number mod 25 says which control case
    it is; the invariant hands over the three scratch columns (at anything before the very first point, at the
    columns after the point before otherwise) and takes them back one step further; an output buffer is handed back
    as found off the last vocabulary tile and holds the re-laid final columns on it. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeXR1, beforeWR1]
  rw [show (dat1 V c).owesAt () t.succ = (dat1 V c).owesAt () t.castSucc from rfl]
  rw [show (dat1 V c).Φ t.succ = PhiC1 V c (t.val + 1) t.isLt from rfl, PhiC0_succR1]
  rw [show (dat1 V c).leavesExact 0 t = owns (c : Thread nD τ) (msXR1 t) fullShare ((dat1 V c).after 0 t) from by
    unfold Dat.leavesExact; rw [liveXR1 t], afterXR1]
  rw [show (dat1 V c).leavesExact 1 t = owns (c : Thread nD τ) (msWR1 t) fullShare ((dat1 V c).after 1 t) from by
    unfold Dat.leavesExact; rw [liveWR1 t], afterWR1]
  have hN : t.val < 50 := lt_of_lt_of_eq t.isLt (show cfg1.N = 50 from N_1)
  by_cases h0 : t.val % 25 = 0
  · -- the first vocabulary tile of a row-tile: the columns restart
    have h24 : ¬ t.val % 25 = 24 := by omega
    rw [Dat.leavesExact_idle (dat1 V c) 2 t (idleLpR1 t h24) (noFlushLpR1 t h24)]
    rw [Dat.leavesExact_idle (dat1 V c) 3 t (idleRsR1 t h24) (noFlushRsR1 t h24)]
    rw [colsAt1_first V c t h0]
    simp only [stepAll1, resetAll1]
    by_cases hz : t.val = 0
    · rw [PhiC0_castSuccR1 V c t, PhiC0_zeroR1 V c _ _ hz, PhiA_eqR1]
      iintro ⟨⟨⟨⟨⟨%m0, HS0⟩, ⟨%l0, HS1⟩, ⟨%r0, HS2⟩⟩, HR⟩, Hg⟩, Ho, ⟨%d0, H0⟩, ⟨%d1, H1⟩, ⟨%d2, H2⟩, ⟨%d3, H3⟩⟩
      iapply (body1_first c Set.univ (grid1.coords t) ((isFirst_iffR1 t).mpr h0) (fun h => h24 ((isLast_iffR1 t).mp h))
        _ _ _ _ _ _ _ _ _ _ _ _ _ _ (iblk1 V c 0 t) (iblk1 V c 1 t) ((dat1 V c).before 2 t d2) ((dat1 V c).before 3 t d3) m0 l0 r0 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
    · rw [PhiC0_castSuccR1 V c t, PhiC0_posR1 V c _ _ hz]
      iintro ⟨⟨HS0, HS1, HS2, HR, Hg⟩, Ho, ⟨%d0, H0⟩, ⟨%d1, H1⟩, ⟨%d2, H2⟩, ⟨%d3, H3⟩⟩
      iapply (body1_first c Set.univ (grid1.coords t) ((isFirst_iffR1 t).mpr h0) (fun h => h24 ((isLast_iffR1 t).mp h))
        _ _ _ _ _ _ _ _ _ _ _ _ _ _ (iblk1 V c 0 t) (iblk1 V c 1 t) ((dat1 V c).before 2 t d2) ((dat1 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3
  · have hz : t.val ≠ 0 := fun hz => h0 (by rw [hz])
    by_cases h24 : t.val % 25 = 24
    · -- the last vocabulary tile: the columns continue and the two output blocks are stored
      rw [show (dat1 V c).leavesExact 2 t = owns (c : Thread nD τ) (msLpR1 t) fullShare ((dat1 V c).after 2 t) from by
        unfold Dat.leavesExact; rw [liveLpR1 t h24], after1_2]
      rw [show (dat1 V c).leavesExact 3 t = owns (c : Thread nD τ) (msRsR1 t) fullShare ((dat1 V c).after 3 t) from by
        unfold Dat.leavesExact; rw [liveRsR1 t h24], after1_3]
      rw [colsAt1_next V c t h0]
      simp only [stepAll1]
      rw [PhiC0_castSuccR1 V c t, PhiC0_posR1 V c _ _ hz]
      iintro ⟨⟨HS0, HS1, HS2, HR, Hg⟩, Ho, ⟨%d0, H0⟩, ⟨%d1, H1⟩, ⟨%d2, H2⟩, ⟨%d3, H3⟩⟩
      iapply (body1_last c Set.univ (grid1.coords t) (fun h => h0 ((isFirst_iffR1 t).mp h)) ((isLast_iffR1 t).mpr h24)
        _ _ _ _ _ _ _ _ _ _ _ _ _ _ (iblk1 V c 0 t) (iblk1 V c 1 t) ((dat1 V c).before 2 t d2) ((dat1 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      iexact H3
    · -- a middle tile: the columns continue, nothing is stored out
      rw [Dat.leavesExact_idle (dat1 V c) 2 t (idleLpR1 t h24) (noFlushLpR1 t h24)]
      rw [Dat.leavesExact_idle (dat1 V c) 3 t (idleRsR1 t h24) (noFlushRsR1 t h24)]
      rw [colsAt1_next V c t h0]
      simp only [stepAll1]
      rw [PhiC0_castSuccR1 V c t, PhiC0_posR1 V c _ _ hz]
      iintro ⟨⟨HS0, HS1, HS2, HR, Hg⟩, Ho, ⟨%d0, H0⟩, ⟨%d1, H1⟩, ⟨%d2, H2⟩, ⟨%d3, H3⟩⟩
      iapply (body1_mid c Set.univ (grid1.coords t) (fun h => h0 ((isFirst_iffR1 t).mp h)) (fun h => h24 ((isLast_iffR1 t).mp h))
        _ _ _ _ _ _ _ _ _ _ _ _ _ _ (iblk1 V c 0 t) (iblk1 V c 1 t) ((dat1 V c).before 2 t d2) ((dat1 V c).before 3 t d3) _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexists _; iexact H2
      iexists _; iexact H3

/-- The body obligation of region 1 at every point. -/
theorem body_obligation1 (c : Dev nD) : BodyObligation (dat1 (F := F) V c) (defs₀ (F := F)) Variants.none () Set.univ := fun t => by
  rw [bigSep_W1, bigSep_W1]
  exact sound_bodyR1 V c t

/-- What the launch hands the region is the invariant before the first point. -/
theorem hin1 (c : Dev nD) : Pipeline.ΦA spec1 c ⊢ (dat1 V c).Φ 0 := by
  rw [show (dat1 V c).Φ 0 = PhiC1 V c 0 (Nat.zero_le _) from rfl, PhiC0_zeroR1 V c 0 _ rfl]

/-- After any point the invariant gives the class's back: the columns' contents are forgotten. -/
theorem Phi_outR1 (c : Dev nD) (t : Fin (cfg1.N + 1)) (ht : t.val ≠ 0) : (dat1 V c).Φ t ⊢ Pipeline.ΦA spec1 c := by
  rw [show (dat1 V c).Φ t = PhiC1 V c t.val (Nat.le_of_lt_succ t.isLt) from rfl, PhiC0_posR1 V c _ _ ht, PhiA_eqR1]
  iintro ⟨H0, H1, H2, HR, Hg⟩
  isplitl [H0 H1 H2 HR]
  · isplitl [H0 H1 H2]
    · isplitl [H0]; · iexists _; iexact H0
      isplitl [H1]; · iexists _; iexact H1
      iexists _; iexact H2
    · iexact HR
  · iexact Hg

/-- After the last point the invariant gives the class's back (the columns' contents forgotten). -/
theorem hout1 (c : Dev nD) : (dat1 V c).Φ (Fin.last cfg1.N) ⊢ Pipeline.ΦA spec1 c :=
  Phi_outR1 V c _ (by rw [Fin.val_last]; have : cfg1.N = 50 := N_1; omega)

end Cert.KernelIdeal.Hand

end
-- ==== Proof.KI.Run.lean ====
/-
  The run of @main, thirteen items in order: a host stretch, region 0, a host stretch, region 1, then nine host
  stretches.  Between two items every unscoped buffer of a core is held whole at a named valuation: the launch
  contents, then each host stretch's effect, then at a region's exit the region's two output arrays replaced by
  what the fifty write-backs leave (the final array of the region's proof data) and every other buffer untouched.
  Region 1's entry contents depend on region 0's outputs, so the family of region outputs is built in two stages.
  From the run: every unscoped buffer's final contents, and the frame claim (each argument array ends as launched).
-/
import proofs.«130178_j27539330302083_1_alg».proof.Proof.KI.Dat0
import proofs.«130178_j27539330302083_1_alg».proof.Proof.KI.Dat1
import proofs.«130178_j27539330302083_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the regions are entered from, and what they leave -/

/-- Region 0's entry contents: the launch memory after the first host stretch, read at the core's references. -/
def Vent0 : (c : Dev nD) → (b : Ref sig .tc) → Buf (Elt F) ((c : Thread nD τ).loc b) :=
  fun c b => Gen.V1 m c (Proc.devRef .tc b)

/-- First stage: at every index, region 0's exit contents (its four arrays at the proof data's final arrays, every
    other buffer as entered). Only region 0's two output arrays are ever read from it. -/
def outsA : Gen.Outs (F := F) := fun _ r c =>
  Pipeline.withArrays spec0 c (Gen.V1 m c) (fun w => (dat0 (Vent0 m) c).arrAt w cfg0.N) (Proc.devRef .tc r)

/-- Region 1's entry contents over the first stage: region 0's exit contents after the second host stretch. -/
def Vent1A : (c : Dev nD) → (b : Ref sig .tc) → Buf (Elt F) ((c : Thread nD τ).loc b) :=
  fun c b => Gen.V3 m (outsA m) c (Proc.devRef .tc b)

/-- What the regions leave: at index 2 region 0's exit contents, elsewhere region 1's (its four arrays at its proof
    data's final arrays over the entry contents above). -/
def outs : Gen.Outs (F := F) := fun J r c =>
  if J = 2 then outsA m J r c
  else Pipeline.withArrays spec1 c (Gen.V3 m (outsA m) c) (fun w => (dat1 (Vent1A m) c).arrAt w cfg1.N) (Proc.devRef .tc r)

/-- The valuation before region 1 reads the region outputs only at index 2, where the two stages agree. -/
theorem V3_outs (c : Dev nD) : Gen.V3 m (outs m) c = Gen.V3 m (outsA m) c := rfl

/-- Region 1's entry contents: region 0's exit contents after the second host stretch. -/
def Vent1 : (c : Dev nD) → (b : Ref sig .tc) → Buf (Elt F) ((c : Thread nD τ).loc b) :=
  fun c b => Gen.V3 m (outs m) c (Proc.devRef .tc b)

theorem Vent1_eq : Vent1 m = Vent1A m := rfl

/-- Region 0 leaves in its first output array the proof data's final array of window 2, -/
theorem outs_lp0 (c : Dev nD) : outs m 2 main_v3_0 c = (dat0 (Vent0 m) c).arrAt 2 cfg0.N := by
  show Pipeline.withArrays spec0 c (Gen.V1 m c) (fun w => (dat0 (Vent0 m) c).arrAt w cfg0.N)
    (Proc.devRef .tc (Pipeline.arrRef spec0 2)) = _
  exact Pipeline.withArrays_arr spec0 launch0.win.arr_inj c _ _ 2
/-- and in its second that of window 3. -/
theorem outs_rs0 (c : Dev nD) : outs m 2 main_v3_1 c = (dat0 (Vent0 m) c).arrAt 3 cfg0.N := by
  show Pipeline.withArrays spec0 c (Gen.V1 m c) (fun w => (dat0 (Vent0 m) c).arrAt w cfg0.N)
    (Proc.devRef .tc (Pipeline.arrRef spec0 3)) = _
  exact Pipeline.withArrays_arr spec0 launch0.win.arr_inj c _ _ 3
/-- Region 1 likewise, over its own entry contents. -/
theorem outs_lp1 (c : Dev nD) : outs m 4 main_v6_0 c = (dat1 (Vent1 m) c).arrAt 2 cfg1.N := by
  show Pipeline.withArrays spec1 c (Gen.V3 m (outsA m) c) (fun w => (dat1 (Vent1A m) c).arrAt w cfg1.N)
    (Proc.devRef .tc (Pipeline.arrRef spec1 2)) = _
  exact Pipeline.withArrays_arr spec1 launch1.win.arr_inj c _ _ 2
theorem outs_rs1 (c : Dev nD) : outs m 4 main_v6_1 c = (dat1 (Vent1 m) c).arrAt 3 cfg1.N := by
  show Pipeline.withArrays spec1 c (Gen.V3 m (outsA m) c) (fun w => (dat1 (Vent1A m) c).arrAt w cfg1.N)
    (Proc.devRef .tc (Pipeline.arrRef spec1 3)) = _
  exact Pipeline.withArrays_arr spec1 launch1.win.arr_inj c _ _ 3

/-! ## The regions' exit contents are the named valuations -/

/-- Region 0's exit valuation read at the core's references. -/
abbrev Vex0 (c : Dev nD) : (b : Ref sig .tc) → Buf (Elt F) ((c : Thread nD τ).loc b) :=
  fun b => Gen.V2 m (outs m) c (Proc.devRef .tc b)
/-- Region 1's. -/
abbrev Vex1 (c : Dev nD) : (b : Ref sig .tc) → Buf (Elt F) ((c : Thread nD τ).loc b) :=
  fun b => Gen.V4 m (outs m) c (Proc.devRef .tc b)

/-- At region 0's exit each of its arrays holds the proof data's final array: an input array is never written and
    no later update touches it; an output array is the update's value. -/
theorem exit0_arr (c : Dev nD) : ∀ w : Fin cfg0.W, (dat0 (Vent0 m) c).arrAt w cfg0.N = Vex0 m c (Pipeline.arrRef spec0 w)
  | ⟨0, _⟩ => ((dat0 (Vent0 m) c).arrAt_in 0 rfl _).trans <| (A_eq0 (Vent0 m) c 0).trans
      (show Vent0 m c (Pipeline.arrRef spec0 0) = Vex0 m c (Pipeline.arrRef spec0 0) from
        (Gen.V2_of m (outs m) c main_v1 (by decide)).symm)
  | ⟨1, _⟩ => ((dat0 (Vent0 m) c).arrAt_in 1 rfl _).trans <| (A_eq0 (Vent0 m) c 1).trans
      (show Vent0 m c (Pipeline.arrRef spec0 1) = Vex0 m c (Pipeline.arrRef spec0 1) from
        (Gen.V2_of m (outs m) c main_v2 (by decide)).symm)
  | ⟨2, _⟩ => (outs_lp0 m c).symm.trans (by
      show _ = Function.update (Function.update (Gen.V1 m c) main_v3_0 (outs m 2 main_v3_0 c)) main_v3_1 (outs m 2 main_v3_1 c) main_v3_0
      rw [Function.update_of_ne (StableHlo.devRef_ne_of_ne (by decide)), Function.update_self])
  | ⟨3, _⟩ => (outs_rs0 m c).symm.trans (by
      show _ = Function.update (Function.update (Gen.V1 m c) main_v3_0 (outs m 2 main_v3_0 c)) main_v3_1 (outs m 2 main_v3_1 c) main_v3_1
      rw [Function.update_self])

/-- Off region 0's arrays the exit valuation is the entry one. -/
theorem exit0_rest (c : Dev nD) : ∀ b, b ∉ Finset.univ.image (Pipeline.arrRef spec0) → Vex0 m c b = Vent0 m c b := fun b hb =>
  Gen.V2_of m (outs m) c b (by
    intro h
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h (List.not_mem_nil))

theorem exit1_arr (c : Dev nD) : ∀ w : Fin cfg1.W, (dat1 (Vent1 m) c).arrAt w cfg1.N = Vex1 m c (Pipeline.arrRef spec1 w)
  | ⟨0, _⟩ => ((dat1 (Vent1 m) c).arrAt_in 0 rfl _).trans <| (A_eq1 (Vent1 m) c 0).trans
      (show Vent1 m c (Pipeline.arrRef spec1 0) = Vex1 m c (Pipeline.arrRef spec1 0) from
        (Gen.V4_of m (outs m) c main_v4 (by decide)).symm)
  | ⟨1, _⟩ => ((dat1 (Vent1 m) c).arrAt_in 1 rfl _).trans <| (A_eq1 (Vent1 m) c 1).trans
      (show Vent1 m c (Pipeline.arrRef spec1 1) = Vex1 m c (Pipeline.arrRef spec1 1) from
        (Gen.V4_of m (outs m) c main_v5 (by decide)).symm)
  | ⟨2, _⟩ => (outs_lp1 m c).symm.trans (by
      show _ = Function.update (Function.update (Gen.V3 m (outs m) c) main_v6_0 (outs m 4 main_v6_0 c)) main_v6_1 (outs m 4 main_v6_1 c) main_v6_0
      rw [Function.update_of_ne (StableHlo.devRef_ne_of_ne (by decide)), Function.update_self])
  | ⟨3, _⟩ => (outs_rs1 m c).symm.trans (by
      show _ = Function.update (Function.update (Gen.V3 m (outs m) c) main_v6_0 (outs m 4 main_v6_0 c)) main_v6_1 (outs m 4 main_v6_1 c) main_v6_1
      rw [Function.update_self])

theorem exit1_rest (c : Dev nD) : ∀ b, b ∉ Finset.univ.image (Pipeline.arrRef spec1) → Vex1 m c b = Vent1 m c b := fun b hb =>
  Gen.V4_of m (outs m) c b (by
    intro h
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h (List.not_mem_nil))

/-! ## The proof data family and what rides beside the buffers -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vent0 m) c
  | ⟨1, _⟩ => fun c => dat1 (Vent1 m) c

/-- No pair of cores is assigned a level; no core owes another anything. -/
abbrev Lz : GSem nD τ sig → Finset Unit := fun _ => ∅
abbrev lvz : GSem nD τ sig → Unit → ℕ := fun _ _ => 0

/-- Beside the buffers, between any two items: the core's generator register at some state, and the core owing nothing. -/
abbrev Rst (c : Dev nD) : sProp 𝕄 :=
  iprop((∃ r, prngReg c r) ∗ ∃ W, owes (c : Thread nD τ) (0 : CellTallies nD τ sig Unit) W)
abbrev Est : Fin 3 → Dev nD → sProp 𝕄 := fun _ c => Rst (F := F) c

/-! ## Owing nothing, inside a region and outside -/

section Owes

variable {cfg : Cfg sig Λ₀} {c : Dev nD} (dat : Dat τ (Elt F) Unit ℕ (UR sig nD τ) ℕ cfg c)

/-- A core owing nothing is what a proof data that owes nothing before point t, and bounds its recorded pairs by
    nothing, holds there. -/
theorem owesAt_of_owes (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, Howes⟩
  iexists W
  isplitr
  · ipureintro; exact fun x _ => Or.inl (Set.mem_univ x)
  · iexact Howes

/-- and conversely, forgetting the bound. -/
theorem owes_of_owesAt (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, Howes⟩
  iexists W
  iexact Howes

end Owes

/-- What the launch deals a core beside its buffers makes the rest: its register at the launch state, owing nothing. -/
theorem rest_init (ρ : Dev nD → PrngReg) (c : Dev nD) :
    (iprop(owes (c : Thread nD τ) (0 : CellTallies nD τ sig Unit) ∅ ∗ prngReg c (ρ c)) : sProp 𝕄) ⊢ Rst c := by
  iintro ⟨Howes, Hprng⟩
  isplitl [Hprng]
  · iexists (ρ c); iexact Hprng
  · iexists ∅; iexact Howes

/-- No pallas_call here has a prefetched table: holding them all is holding nothing. -/
theorem prefHeld_nil (p : Fin 2) (c : Dev nD) :
    (BI.emp : sProp 𝕄) ⊢ Pipeline.prefHeld (pcfgs (F := F) p).pre c (fun _ => fullShare) (adm (F := F) p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]

/-! ## The two regions as segments -/

set_option backward.isDefEq.respectTransparency.types false in
/-- Region 0: entered from every unscoped buffer at the valuation after the first host stretch, left at that
    valuation with the two output arrays replaced. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ Lz lvz 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    have harr := Pipeline.arrays_of_unscopedBufs (p := 0) (pcfgs (F := F)) adm (pdats m) launch0.win launch0.arr_whole c
      ((pdats m 0 c).share_full fun _ => rfl) (Vent0 m c) fun _ => rfl
    rw [show (unscopedBufs c (Vent0 m c) : sProp 𝕄) = StableHlo.held (c : Thread nD τ) (Pipeline.ucRefs τ sig) (Gen.V1 m c)
      from Pipeline.unscopedBufs_held c (Gen.V1 m c)] at harr
    iintro ⟨⟨Hbufs, Hprng, Howes⟩, -, -⟩
    ihave Hparts := harr $$ Hbufs
    icases Hparts with ⟨Harr, Hrest⟩
    imodintro
    isplitl [Harr]; · iexact Harr
    isplitr; · iapply (prefHeld_nil (F := F) 0 c); iempintro
    isplitl [Howes]
    · iapply (owesAt_of_owes (pdats m 0 c) 0 rfl rfl); iexact Howes
    isplitl [Hprng]; · iexact Hprng
    iexact Hrest
  hin c := by
    refine .trans ?_ (hin0 (Vent0 m) c)
    unfold Pipeline.ΦA
    iintro ⟨Hprng, -, Hscoped⟩
    isplitl [Hscoped]; · iexact Hscoped
    iexact Hprng
  hout c := by
    refine (hout0 (Vent0 m) c).trans ?_
    rw [Pipeline.ownSems0_none]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (Vex0 m c) ((pdats m 0 c).arrAt · cfg0.N) (exit0_arr m c) (exit0_rest m c)
    rw [show (unscopedBufs c (Vex0 m c) : sProp 𝕄) = StableHlo.held (c : Thread nD τ) (Pipeline.ucRefs τ sig) (Gen.V2 m (outs m) c)
      from Pipeline.unscopedBufs_held c (Gen.V2 m (outs m) c)] at hjoin
    iintro ⟨Harr, Howes, Hprng, Hrest⟩
    imodintro
    isplitl [Harr Hrest]
    · iapply hjoin; isplitl [Harr]; · iexact Harr
      iexact Hrest
    isplitl [Hprng]; · iexact Hprng
    iapply (owes_of_owesAt (pdats m 0 c) (Fin.last _) rfl); iexact Howes

set_option backward.isDefEq.respectTransparency.types false in
/-- Region 1: entered from the valuation after the second host stretch, left with its two output arrays replaced. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ Lz lvz 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    have harr := Pipeline.arrays_of_unscopedBufs (p := 1) (pcfgs (F := F)) adm (pdats m) launch1.win launch1.arr_whole c
      ((pdats m 1 c).share_full fun _ => rfl) (Vent1 m c) fun _ => rfl
    rw [show (unscopedBufs c (Vent1 m c) : sProp 𝕄) = StableHlo.held (c : Thread nD τ) (Pipeline.ucRefs τ sig) (Gen.V3 m (outs m) c)
      from Pipeline.unscopedBufs_held c (Gen.V3 m (outs m) c)] at harr
    iintro ⟨⟨Hbufs, Hprng, Howes⟩, -, -⟩
    ihave Hparts := harr $$ Hbufs
    icases Hparts with ⟨Harr, Hrest⟩
    imodintro
    isplitl [Harr]; · iexact Harr
    isplitr; · iapply (prefHeld_nil (F := F) 1 c); iempintro
    isplitl [Howes]
    · iapply (owesAt_of_owes (pdats m 1 c) 0 rfl rfl); iexact Howes
    isplitl [Hprng]; · iexact Hprng
    iexact Hrest
  hin c := by
    refine .trans ?_ (hin1 (Vent1 m) c)
    unfold Pipeline.ΦA
    iintro ⟨Hprng, -, Hscoped⟩
    isplitl [Hscoped]; · iexact Hscoped
    iexact Hprng
  hout c := by
    refine (hout1 (Vent1 m) c).trans ?_
    rw [Pipeline.ownSems0_none]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vex1 m c) ((pdats m 1 c).arrAt · cfg1.N) (exit1_arr m c) (exit1_rest m c)
    rw [show (unscopedBufs c (Vex1 m c) : sProp 𝕄) = StableHlo.held (c : Thread nD τ) (Pipeline.ucRefs τ sig) (Gen.V4 m (outs m) c)
      from Pipeline.unscopedBufs_held c (Gen.V4 m (outs m) c)] at hjoin
    iintro ⟨Harr, Howes, Hprng, Hrest⟩
    imodintro
    isplitl [Harr Hrest]
    · iapply hjoin; isplitl [Harr]; · iexact Harr
      iexact Hrest
    isplitl [Hprng]; · iexact Hprng
    iapply (owes_of_owesAt (pdats m 1 c) (Fin.last _) rfl); iexact Howes

/-! ## The launch -/

/-- The launch element is the pipelines' own; no further ghost resource is dealt. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  rw [BI.bigSep_emp_const]
  iintro Hu
  imodintro
  isplitl [Hu]
  · iapply hown; iexact Hu
  · iempintro

/-! ## The run -/

set_option backward.isDefEq.respectTransparency.types false in
/-- Every weakly fair execution of @main from memory m with zero counters terminates, and every final memory holds
    each unscoped buffer of each core at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V13 m (outs m) c b) := by
  refine Pipeline.θ_run_regions_kit_dev (pcfgs (F := F)) adm (pdats m) () cellOf_inj emb₁ defs₀ Variants.none Lz lvz m ρ main
    (Gen.segs m (outs m) Variants.none Lz lvz Est () (pdats m) (reg0 m) (reg1 m))
    (fun c Q => by
      rewrite [main_chain c, Seg.run_eq_chain,
        show (Gen.segs m (outs m) Variants.none Lz lvz Est () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj)) (hu₀ := launch_own)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := ?_)
    (QY := fun c s => ∀ b ∈ Pipeline.ucRefs τ sig, s.mem ((c : Thread nD τ).1, b) = Gen.V13 m (outs m) c b)
    (hfin := fun c s' => ?_) (hQ := fun _ h => h)
  · -- the launch: each core's unscoped buffers are the launch valuation held; the rest from what is dealt beside them
    refine Pipeline.initEach Lz lvz fun c => ?_
    rw [show (unscopedBufs c (fun b => m ((c : Thread nD τ).loc b)) : sProp 𝕄)
        = StableHlo.held (c : Thread nD τ) (Pipeline.ucRefs τ sig) (Gen.V0 m c) from Pipeline.unscopedBufs_held c (Gen.V0 m c)]
    iintro ⟨⟨Hbufs, -, Howes, -, Hprng, -⟩, -⟩
    imodintro
    isplitl [Hbufs]; · iexact Hbufs
    iapply (rest_init (F := F) ρ c)
    isplitl [Howes]; · iexact Howes
    iexact Hprng
  · -- the end: every unscoped buffer read off the last valuation
    unfold StableHlo.held
    iintro ⟨Hbufs, HSI⟩
    imodintro
    iapply (pointsTo_read_all (Pipeline.ucRefs τ sig) (fun b => ((c : Thread nD τ).1, b)) (Gen.V13 m (outs m) c) s')
    isplitl [Hbufs]; · iexact Hbufs
    iexact HSI

set_option backward.isDefEq.respectTransparency.types false in
/-- The frame claim: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none Lz lvz (fun _ _ => rfl) ρ (outs m) (pdats m) 0 (fun _ => iprop(emp))
    (initOf (Pipeline.cells cfgs cellOf_inj) (Pipeline.launchToks cfgs cellOf_inj)) launch_own Est
    (Pipeline.initEach Lz lvz fun c => by
      iintro ⟨⟨-, Howes, -, Hprng, -⟩, -⟩
      imodintro
      iapply (rest_init (F := F) ρ c)
      isplitl [Howes]; · iexact Howes
      iexact Hprng)
    (fun c => by iintro ⟨-, HO⟩; iexact HO)
    (reg0 m) (fun _ => .rfl) (fun _ => .rfl) (reg1 m) (fun _ => .rfl) (fun _ => .rfl)

end Cert.KernelIdeal.Hand

end
-- ==== Proof.KI.Entry.lean ====
/-
  What the kernel program's buffers hold where the two regions and the tail read them: the converted copies of the
  arguments that the host operations before each region write, the regions' outputs where the tail reads them, and the
  last valuation as the tail's operations applied to the valuation the second region leaves.
-/
import proofs.«130178_j27539330302083_1_alg».proof.Proof.Gen.KernelIdeal.Regions
import Idealize.ShloMosaic.Lib.StableHlo.Run
import Idealize.ShloMosaic.PureOps.Ideal

noncomputable section

namespace Cert.KernelIdeal.Hand

open Idealize.ShloMosaic Idealize.ShloMosaic.TcCoe
open Idealize.SL Idealize.SL.Sem
open Cert.KernelIdeal.Gen

/-! ## At any float instance -/

section Generic

variable {F : FTy → Type} [FloatOps F]
variable (m : (ℓ : Loc nD τ sig) → Buf (Elt F) ℓ) (outs : Gen.Outs (F := F))

/-- Before the first region the converted mask holds the integer-to-float conversion of the third argument. -/
theorem V1_v0 (c : Dev nD) :
    Gen.V1 m c main_v0 = sitofp .f32 (m ((c : Thread nD τ).loc main_arg2)) := by
  show StableHlo.after hostOps0 (Gen.V0 m c) (Proc.devRef .tc main_v0) = _
  after_results

/-- Nothing after the first host stretch writes the converted mask: the tail reads the same conversion. -/
theorem V4_v0 (c : Dev nD) :
    Gen.V4 m outs c main_v0 = sitofp .f32 (m ((c : Thread nD τ).loc main_arg2)) :=
  (Gen.V4_of m outs c main_v0 (by decide)).trans <| (Gen.V3_of m outs c main_v0 (by decide)).trans <|
    (Gen.V2_of m outs c main_v0 (by decide)).trans (V1_v0 m c)

/-- The fourth argument reaches the tail as launched. -/
theorem V4_arg3 (c : Dev nD) : Gen.V4 m outs c main_arg3 = m ((c : Thread nD τ).loc main_arg3) :=
  (Gen.V4_of m outs c main_arg3 (by decide)).trans <| (Gen.V3_of m outs c main_arg3 (by decide)).trans <|
    (Gen.V2_of m outs c main_arg3 (by decide)).trans <| (Gen.V1_of m c main_arg3 (by decide)).trans rfl

/-- The first region's first output reaches the tail as the region left it. -/
theorem V4_v3_0 (c : Dev nD) : Gen.V4 m outs c main_v3_0 = outs 2 main_v3_0 c :=
  (Gen.V4_of m outs c main_v3_0 (by decide)).trans <| (Gen.V3_of m outs c main_v3_0 (by decide)).trans <| by
    show Function.update (Function.update (Gen.V1 m c) (Proc.devRef .tc main_v3_0) (outs 2 main_v3_0 c))
      (Proc.devRef .tc main_v3_1) (outs 2 main_v3_1 c) (Proc.devRef .tc main_v3_0) = _
    rw [Function.update_of_ne (StableHlo.devRef_ne_of_ne (by decide)), Function.update_self]

/-- The first region's second output reaches the tail as the region left it. -/
theorem V4_v3_1 (c : Dev nD) : Gen.V4 m outs c main_v3_1 = outs 2 main_v3_1 c :=
  (Gen.V4_of m outs c main_v3_1 (by decide)).trans <| (Gen.V3_of m outs c main_v3_1 (by decide)).trans <| by
    show Function.update (Function.update (Gen.V1 m c) (Proc.devRef .tc main_v3_0) (outs 2 main_v3_0 c))
      (Proc.devRef .tc main_v3_1) (outs 2 main_v3_1 c) (Proc.devRef .tc main_v3_1) = _
    rw [Function.update_self]

/-- The second region's first output is what the region left. -/
theorem V4_v6_0 (c : Dev nD) : Gen.V4 m outs c main_v6_0 = outs 4 main_v6_0 c := by
  show Function.update (Function.update (Gen.V3 m outs c) (Proc.devRef .tc main_v6_0) (outs 4 main_v6_0 c))
    (Proc.devRef .tc main_v6_1) (outs 4 main_v6_1 c) (Proc.devRef .tc main_v6_0) = _
  rw [Function.update_of_ne (StableHlo.devRef_ne_of_ne (by decide)), Function.update_self]

/-- The second region's second output is what the region left. -/
theorem V4_v6_1 (c : Dev nD) : Gen.V4 m outs c main_v6_1 = outs 4 main_v6_1 c := by
  show Function.update (Function.update (Gen.V3 m outs c) (Proc.devRef .tc main_v6_0) (outs 4 main_v6_0 c))
    (Proc.devRef .tc main_v6_1) (outs 4 main_v6_1 c) (Proc.devRef .tc main_v6_1) = _
  rw [Function.update_self]

/-- The last valuation is the tail's nine stretches applied in order to the valuation the second region leaves. -/
theorem V13_eq (c : Dev nD) :
    Gen.V13 m outs c = StableHlo.after hostOps2_8 (StableHlo.after hostOps2_7 (StableHlo.after hostOps2_6
      (StableHlo.after hostOps2_5 (StableHlo.after hostOps2_4 (StableHlo.after hostOps2_3 (StableHlo.after hostOps2_2
      (StableHlo.after hostOps2_1 (StableHlo.after hostOps2 (Gen.V4 m outs c))))))))) := rfl

end Generic

/-! ## At the extended reals, where narrowing a float is the identity -/

section AtIdeal

variable (m : (ℓ : Loc nD τ sig) → Buf (Elt Ideal) ℓ) (outs : Gen.Outs (F := Ideal))

/-- The first region's activations are the first argument. -/
theorem V1_v1 (c : Dev nD) :
    (Gen.V1 m c main_v1 : S2x1024x2048.Idx → EReal) = m ((c : Thread nD τ).loc main_arg0) := by
  show StableHlo.after hostOps0 (Gen.V0 m c) (Proc.devRef .tc main_v1) = _
  after_results
  try rfl

/-- The first region's vocabulary rows are the second argument. -/
theorem V1_v2 (c : Dev nD) :
    (Gen.V1 m c main_v2 : S32000x2048.Idx → EReal) = m ((c : Thread nD τ).loc main_arg1) := by
  show StableHlo.after hostOps0 (Gen.V0 m c) (Proc.devRef .tc main_v2) = _
  after_results
  try rfl

/-- The second region's activations are the fifth argument. -/
theorem V3_v4 (c : Dev nD) :
    (Gen.V3 m outs c main_v4 : S2x1024x2048.Idx → EReal) = m ((c : Thread nD τ).loc main_arg4) := by
  refine Eq.trans ?_ ((Gen.V2_of m outs c main_arg4 (by decide)).trans ((Gen.V1_of m c main_arg4 (by decide)).trans rfl))
  show StableHlo.after hostOps1 (Gen.V2 m outs c) (Proc.devRef .tc main_v4) = _
  after_results
  try rfl

/-- The second region's vocabulary rows are the sixth argument. -/
theorem V3_v5 (c : Dev nD) :
    (Gen.V3 m outs c main_v5 : S32000x2048.Idx → EReal) = m ((c : Thread nD τ).loc main_arg5) := by
  refine Eq.trans ?_ ((Gen.V2_of m outs c main_arg5 (by decide)).trans ((Gen.V1_of m c main_arg5 (by decide)).trans rfl))
  show StableHlo.after hostOps1 (Gen.V2 m outs c) (Proc.devRef .tc main_v5) = _
  after_results
  try rfl

end AtIdeal

end Cert.KernelIdeal.Hand

end
-- ==== Proof.KI.Tail.lean ====
/-
  The host tail of the program, read as pure terms.

  After the two regions the program computes, from the two regions' first outputs `lp`, `lq` ([2,1024]), region 0's
  second output `rs` ([2,1024]), the mask ([2,1024]) and the rewards ([2]):
    * the masked row sums  s_p = Σ_j lp[i,j]·mask[i,j],  s_q = Σ_j lq[i,j]·mask[i,j]   ([2]);
    * the advantages  a = (rew − mean rew) / σ  where σ = std rew (one degree of freedom removed) if σ > 0, and
      rew − mean rew otherwise (the divisor being replaced by 1 where σ ≤ 0);
    * the loss  mean (−(a · s_p) + 0.1 · (s_p − s_q));
    * mean s_p, std s_p, mean (s_p − s_q), and (Σ_{i,j} rs[i,j]) / 6.5536e7.
  Each of the five results is stated as a function of those five arrays alone, and the tail run from ANY contents `W` of
  the buffers is shown to leave exactly these terms of `W` at the five arrays' buffers.
-/
import proofs.«130178_j27539330302083_1_alg».proof.Proof.Gen.KernelIdeal.Launch
import Idealize.ShloMosaic.Lib.StableHlo.Run

noncomputable section

namespace Cert.KernelIdeal.Hand

open Idealize.ShloMosaic Idealize.ShloMosaic.TcCoe
open Cert.KernelIdeal Cert.KernelIdeal.Gen

variable {F : FTy → Type} [FloatOps F]

/-! ## The building blocks -/

/-- Σ_i x[i] of a [2] array. -/
def sum2 (x : (⟨S2, .f32⟩ : BufTy).Contents (Elt F)) : (⟨S_, .f32⟩ : BufTy).Contents (Elt F) :=
  Host.reduceAdd x (constant S_ .f32 0x00000000#32) reducesTo_S2_S_d0 h_S_

/-- (Σ_i x[i]) / 2 of a [2] array. -/
def mean2 (x : (⟨S2, .f32⟩ : BufTy).Contents (Elt F)) : (⟨S_, .f32⟩ : BufTy).Contents (Elt F) :=
  Host.divf (sum2 x) (constant S_ .f32 0x40000000#32)

/-- x − mean x of a [2] array, the mean taken through a one-element array: ((Σ x) as [1]) / (2 as [1]), broadcast to [2]. -/
def centred1 (x : (⟨S2, .f32⟩ : BufTy).Contents (Elt F)) : (⟨S2, .f32⟩ : BufTy).Contents (Elt F) :=
  subf x (broadcastInDim S2 ![0] bcast_S1_S2_0
    (Host.divf (broadcastInDim S1 ![] bcast_S_S1 (sum2 x))
      (broadcastInDim S1 ![] bcast_S_S1 (constant S_ .f32 0x40000000#32 : (⟨S_, .f32⟩ : BufTy).Contents (Elt F)))))

/-- The divisor of the variance: 2 − 1, the 1 an integer constant converted. -/
def dof2 : (⟨S_, .f32⟩ : BufTy).Contents (Elt F) :=
  subf (constant S_ .f32 0x40000000#32) (sitofp .f32 (constantI S_ 32 1#32 : (⟨S_, .i32⟩ : BufTy).Contents (Elt F)))

/-- The variance of a [2] array with one degree of freedom removed: Σ (x − mean x)² / (2 − 1) where 2 − 1 > 0, NaN
    otherwise. -/
def var2 (x : (⟨S2, .f32⟩ : BufTy).Contents (Elt F)) : (⟨S_, .f32⟩ : BufTy).Contents (Elt F) :=
  select (cmpf .ogt (dof2 : (⟨S_, .f32⟩ : BufTy).Contents (Elt F)) (constant S_ .f32 0x00000000#32))
    (Host.divf (sum2 (mulf (centred1 x) (centred1 x))) dof2)
    (constant S_ .f32 0x7FC00000#32)

/-- The standard deviation: the variance's square root. -/
def std2 (x : (⟨S2, .f32⟩ : BufTy).Contents (Elt F)) : (⟨S_, .f32⟩ : BufTy).Contents (Elt F) :=
  Host.sqrt (var2 x)

/-- The masked row sums Σ_j l[i,j]·mask[i,j]. -/
def maskedSum (l mask : (⟨S2x1024, .f32⟩ : BufTy).Contents (Elt F)) : (⟨S2, .f32⟩ : BufTy).Contents (Elt F) :=
  Host.reduceAdd (mulf l mask) (constant S_ .f32 0x00000000#32) reducesTo_S2x1024_S2_d1 h_S_

/-- rew − mean rew, the mean a scalar broadcast to [2]. -/
def centred (rew : (⟨S2, .f32⟩ : BufTy).Contents (Elt F)) : (⟨S2, .f32⟩ : BufTy).Contents (Elt F) :=
  subf rew (broadcastInDim S2 ![] bcast_S_S2 (mean2 rew))

/-- The advantages: (rew − mean rew) / σ where σ = std rew > 0 (the divisor 1 where it is not), and rew − mean rew where
    σ ≤ 0. -/
def adv (rew : (⟨S2, .f32⟩ : BufTy).Contents (Elt F)) : (⟨S2, .f32⟩ : BufTy).Contents (Elt F) :=
  select (broadcastInDim S2 ![] bcast_S_S2 (cmpf .ogt (std2 rew) (constant S_ .f32 0x00000000#32)))
    (Host.divf (centred rew)
      (broadcastInDim S2 ![] bcast_S_S2
        (select (cmpf .ogt (std2 rew) (constant S_ .f32 0x00000000#32)) (std2 rew) (constant S_ .f32 0x3F800000#32))))
    (centred rew)

/-! ## The five results as functions of the five arrays -/

/-- The loss: mean (−(a · s_p) + 0.1 · (s_p − s_q)). -/
def res29 (lp lq rs mask : (⟨S2x1024, .f32⟩ : BufTy).Contents (Elt F)) (rew : (⟨S2, .f32⟩ : BufTy).Contents (Elt F)) :
    (⟨S_, .f32⟩ : BufTy).Contents (Elt F) :=
  mean2 (addf (Host.negf (mulf (adv rew) (maskedSum lp mask)))
    (mulf (broadcastInDim S2 ![] bcast_S_S2 (constant S_ .f32 0x3DCCCCCD#32 : (⟨S_, .f32⟩ : BufTy).Contents (Elt F)))
      (subf (maskedSum lp mask) (maskedSum lq mask))))

/-- mean s_p. -/
def res33 (lp lq rs mask : (⟨S2x1024, .f32⟩ : BufTy).Contents (Elt F)) (rew : (⟨S2, .f32⟩ : BufTy).Contents (Elt F)) :
    (⟨S_, .f32⟩ : BufTy).Contents (Elt F) :=
  mean2 (maskedSum lp mask)

/-- std s_p. -/
def res34 (lp lq rs mask : (⟨S2x1024, .f32⟩ : BufTy).Contents (Elt F)) (rew : (⟨S2, .f32⟩ : BufTy).Contents (Elt F)) :
    (⟨S_, .f32⟩ : BufTy).Contents (Elt F) :=
  std2 (maskedSum lp mask)

/-- (Σ_{i,j} rs[i,j]) / 6.5536e7. -/
def res31 (lp lq rs mask : (⟨S2x1024, .f32⟩ : BufTy).Contents (Elt F)) (rew : (⟨S2, .f32⟩ : BufTy).Contents (Elt F)) :
    (⟨S_, .f32⟩ : BufTy).Contents (Elt F) :=
  Host.divf (Host.reduceAdd rs (constant S_ .f32 0x00000000#32) reducesTo_S2x1024_S_d0_1 h_S_)
    (constant S_ .f32 0x4C7A0000#32)

/-- mean (s_p − s_q). -/
def res36 (lp lq rs mask : (⟨S2x1024, .f32⟩ : BufTy).Contents (Elt F)) (rew : (⟨S2, .f32⟩ : BufTy).Contents (Elt F)) :
    (⟨S_, .f32⟩ : BufTy).Contents (Elt F) :=
  mean2 (subf (maskedSum lp mask) (maskedSum lq mask))

/-! ## The tail run from arbitrary contents -/

/-- The buffers' contents after the nine host stretches, from contents `W`. -/
abbrev tailAfter (W : Valuation τ sig (Elt F)) : Valuation τ sig (Elt F) :=
  StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
      (StableHlo.after hostOps2 W))))))))

open StableHlo in
theorem tail_v29 (W : Valuation τ sig (Elt F)) :
    tailAfter W (Proc.devRef .tc main_v29)
      = res29 (W (Proc.devRef .tc main_v3_0)) (W (Proc.devRef .tc main_v6_0)) (W (Proc.devRef .tc main_v3_1))
          (W (Proc.devRef .tc main_v0)) (W (Proc.devRef .tc main_arg3)) := by
  dsimp only [tailAfter, hostOps2, hostOps2_1, hostOps2_2, hostOps2_3, hostOps2_4, hostOps2_5, hostOps2_6, hostOps2_7, hostOps2_8]
  after_results_simp
  simp only [TRef.ofBuf, TRef.toBuf, cast_eq]
  rfl

open StableHlo in
theorem tail_v33 (W : Valuation τ sig (Elt F)) :
    tailAfter W (Proc.devRef .tc main_v33)
      = res33 (W (Proc.devRef .tc main_v3_0)) (W (Proc.devRef .tc main_v6_0)) (W (Proc.devRef .tc main_v3_1))
          (W (Proc.devRef .tc main_v0)) (W (Proc.devRef .tc main_arg3)) := by
  dsimp only [tailAfter, hostOps2, hostOps2_1, hostOps2_2, hostOps2_3, hostOps2_4, hostOps2_5, hostOps2_6, hostOps2_7, hostOps2_8]
  after_results_simp
  rfl

open StableHlo in
theorem tail_v34 (W : Valuation τ sig (Elt F)) :
    tailAfter W (Proc.devRef .tc main_v34)
      = res34 (W (Proc.devRef .tc main_v3_0)) (W (Proc.devRef .tc main_v6_0)) (W (Proc.devRef .tc main_v3_1))
          (W (Proc.devRef .tc main_v0)) (W (Proc.devRef .tc main_arg3)) := by
  dsimp only [tailAfter, hostOps2, hostOps2_1, hostOps2_2, hostOps2_3, hostOps2_4, hostOps2_5, hostOps2_6, hostOps2_7, hostOps2_8]
  after_results_simp
  simp only [TRef.ofBuf, TRef.toBuf, cast_eq]
  rfl

open StableHlo in
theorem tail_v31 (W : Valuation τ sig (Elt F)) :
    tailAfter W (Proc.devRef .tc main_v31)
      = res31 (W (Proc.devRef .tc main_v3_0)) (W (Proc.devRef .tc main_v6_0)) (W (Proc.devRef .tc main_v3_1))
          (W (Proc.devRef .tc main_v0)) (W (Proc.devRef .tc main_arg3)) := by
  dsimp only [tailAfter, hostOps2, hostOps2_1, hostOps2_2, hostOps2_3, hostOps2_4, hostOps2_5, hostOps2_6, hostOps2_7, hostOps2_8]
  after_results_simp
  rfl

open StableHlo in
theorem tail_v36 (W : Valuation τ sig (Elt F)) :
    tailAfter W (Proc.devRef .tc main_v36)
      = res36 (W (Proc.devRef .tc main_v3_0)) (W (Proc.devRef .tc main_v6_0)) (W (Proc.devRef .tc main_v3_1))
          (W (Proc.devRef .tc main_v0)) (W (Proc.devRef .tc main_arg3)) := by
  dsimp only [tailAfter, hostOps2, hostOps2_1, hostOps2_2, hostOps2_3, hostOps2_4, hostOps2_5, hostOps2_6, hostOps2_7, hostOps2_8]
  after_results_simp
  rfl

end Cert.KernelIdeal.Hand

end
-- ==== Proof.LibFiniteSums.lean ====
import Mathlib.Data.EReal.Basic
import Mathlib.Data.EReal.Operations
import Mathlib.Data.EReal.Inv
import Mathlib.Analysis.Real.Sqrt
import Mathlib.Algebra.BigOperators.Group.Finset.Basic
import Mathlib.Algebra.BigOperators.Group.Finset.Piecewise
import Mathlib.Algebra.Order.BigOperators.Group.Finset
import Mathlib.Data.Fintype.BigOperators
import Mathlib.Logic.Equiv.Fin.Basic
import Idealize.ShloMosaic.PureOps.Ideal
import Idealize.ShloMosaic.PureOps.Ideal.Laws
import Idealize.ShloMosaic.Lib.ValueIdx

/-!
# Finite sums of finite extended reals

The extended reals are not a ring: a product does not distribute over a sum once an infinity is among the
terms. Where every term is a real number the usual laws hold. This file names that side condition
(`IsReal`), shows it closed under the field operations met in a normalised graph convolution (sum,
difference, product, maximum, finite sums, division by a positive real, inverse square root of a positive
real), and proves the regrouping laws of finite sums under it. It also splits a sum over a range of rows
into the sums over its tiles, turns a mask-weighted sum into a sum over the masked set, evaluates the few
single-precision words such a program spells, and reads a small index word as its signed value.
-/

noncomputable section

namespace Cert.LibFinite

open Idealize.ShloMosaic

/-! ### Real-valued extended reals -/

/-- An extended real is real when it is neither of the two infinities. -/
def IsReal (a : EReal) : Prop := a ≠ ⊤ ∧ a ≠ ⊥

/-- The cast of a real number is real. -/
theorem isReal_coe (r : ℝ) : IsReal (r : EReal) := ⟨EReal.coe_ne_top r, EReal.coe_ne_bot r⟩

/-- Zero is real. -/
theorem isReal_zero : IsReal (0 : EReal) := isReal_coe 0

/-- One is real. -/
theorem isReal_one : IsReal (1 : EReal) := isReal_coe 1

/-- A real extended real is the cast of some real number. -/
theorem IsReal.exists_coe {a : EReal} (ha : IsReal a) : ∃ r : ℝ, a = (r : EReal) :=
  ⟨a.toReal, (EReal.coe_toReal ha.1 ha.2).symm⟩

/-- The sum of two reals is real. -/
theorem IsReal.add {a b : EReal} (ha : IsReal a) (hb : IsReal b) : IsReal (a + b) := by
  obtain ⟨x, rfl⟩ := ha.exists_coe
  obtain ⟨y, rfl⟩ := hb.exists_coe
  rw [← EReal.coe_add]; exact isReal_coe _

/-- The difference of two reals is real. -/
theorem IsReal.sub {a b : EReal} (ha : IsReal a) (hb : IsReal b) : IsReal (a - b) := by
  obtain ⟨x, rfl⟩ := ha.exists_coe
  obtain ⟨y, rfl⟩ := hb.exists_coe
  rw [← EReal.coe_sub]; exact isReal_coe _

/-- The product of two reals is real. -/
theorem IsReal.mul {a b : EReal} (ha : IsReal a) (hb : IsReal b) : IsReal (a * b) := by
  obtain ⟨x, rfl⟩ := ha.exists_coe
  obtain ⟨y, rfl⟩ := hb.exists_coe
  rw [← EReal.coe_mul]; exact isReal_coe _

/-- The negative of a real is real. -/
theorem IsReal.neg {a : EReal} (ha : IsReal a) : IsReal (-a) := by
  obtain ⟨x, rfl⟩ := ha.exists_coe
  rw [← EReal.coe_neg]; exact isReal_coe _

/-- The larger of two reals is one of them, hence real. -/
theorem IsReal.max {a b : EReal} (ha : IsReal a) (hb : IsReal b) : IsReal (max a b) := by
  rcases max_choice a b with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The cast of a finite sum of real numbers is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### The ring laws among reals -/

/-- Adding zero on the left changes nothing. -/
theorem zero_add_ereal (a : EReal) : 0 + a = a := zero_add a

/-- A product with zero on the right is zero, at the infinities too. -/
theorem mul_zero_ereal (a : EReal) : a * 0 = 0 := mul_zero a

/-- Adding zero in front of a finite sum changes nothing. -/
theorem zero_add_sum {ι : Type*} (s : Finset ι) (f : ι → EReal) : 0 + ∑ i ∈ s, f i = ∑ i ∈ s, f i :=
  zero_add _

/-- A real minus itself is zero (false at the infinities, where the difference is an infinity). -/
theorem sub_self_of_isReal (a : EReal) (ha : IsReal a) : a - a = 0 := by
  obtain ⟨x, rfl⟩ := ha.exists_coe
  rw [← EReal.coe_sub, sub_self, EReal.coe_zero]

/-- Among reals a product distributes over a sum of two. -/
theorem mul_add_of_isReal (a : EReal) (ha : IsReal a) (b c : EReal) (hb : IsReal b) (hc : IsReal c) :
    a * (b + c) = a * b + a * c := by
  obtain ⟨x, rfl⟩ := ha.exists_coe
  obtain ⟨y, rfl⟩ := hb.exists_coe
  obtain ⟨z, rfl⟩ := hc.exists_coe
  rw [← EReal.coe_add, ← EReal.coe_mul, ← EReal.coe_mul, ← EReal.coe_mul, ← EReal.coe_add, mul_add]

/-- Among reals a product distributes over a finite sum. -/
theorem mul_sum_of_isReal (a : EReal) (ha : IsReal a) {ι : Type*} (s : Finset ι) (f : ι → EReal)
    (hf : ∀ i ∈ s, IsReal (f i)) : a * ∑ i ∈ s, f i = ∑ i ∈ s, a * f i := by
  classical
  induction s using Finset.induction_on with
  | empty => simp
  | insert b s hb ih =>
    have hs : ∀ i ∈ s, IsReal (f i) := fun i hi => hf i (Finset.mem_insert_of_mem hi)
    rw [Finset.sum_insert hb, Finset.sum_insert hb, ← ih hs]
    exact mul_add_of_isReal a ha _ _ (hf b (Finset.mem_insert_self b s)) (isReal_sum s f hs)

/-- A row's inverse-root degree `dn`, applied to the sum of the row's incoming messages `A e * dv e`, may be
    taken inside the sum and attached to each message's own inverse-root degree `dv e`. -/
theorem agg_regroup (dn : EReal) (hdn : IsReal dn) {ι : Type*} (s : Finset ι) (A dv : ι → EReal)
    (hA : ∀ e ∈ s, IsReal (A e)) (hd : ∀ e ∈ s, IsReal (dv e)) :
    dn * (0 + ∑ e ∈ s, A e * dv e) = 0 + ∑ e ∈ s, A e * (dv e * dn) := by
  rw [zero_add, zero_add, mul_sum_of_isReal dn hdn s _ fun e he => (hA e he).mul (hd e he)]
  refine Finset.sum_congr rfl fun e _ => ?_
  rw [mul_left_comm, mul_comm dn]

/-! ### Inverse square root, quotient by a positive real, squares, counts -/

/-- The inverse square root of a positive real is a positive real. -/
theorem isReal_rsqrt (a : EReal) (ha : IsReal a) (hpos : 0 < a) :
    IsReal (Ideal.rsqrt a) ∧ 0 < Ideal.rsqrt a := by
  obtain ⟨x, rfl⟩ := ha.exists_coe
  have hx : 0 < x := EReal.coe_pos.mp hpos
  rw [Ideal.rsqrt_coe, if_neg (not_lt.mpr hx.le), if_neg hx.ne']
  exact ⟨isReal_coe _, EReal.coe_pos.mpr (inv_pos.mpr (Real.sqrt_pos.mpr hx))⟩

/-- A real divided by a positive real is real, and nonnegative when the numerator is. Both the host's
    quotient and the kernel's are this quotient. -/
theorem isReal_div_pos (a : EReal) (ha : IsReal a) (r : ℝ) (hr : 0 < r) :
    IsReal (Ideal.div a (r : EReal)) ∧ (0 ≤ a → 0 ≤ Ideal.div a (r : EReal)) := by
  obtain ⟨x, rfl⟩ := ha.exists_coe
  rw [Ideal.div_coe hr.ne', ← EReal.coe_mul]
  refine ⟨isReal_coe _, fun h => ?_⟩
  have hx : 0 ≤ x := EReal.coe_nonneg.mp h
  exact EReal.coe_nonneg.mpr (mul_nonneg hx (by positivity))

/-- A finite sum of squares of reals is nonnegative. -/
theorem sum_sq_nonneg {ι : Type*} (s : Finset ι) (f : ι → EReal) (hf : ∀ i ∈ s, IsReal (f i)) :
    0 ≤ ∑ i ∈ s, f i * f i := by
  refine Finset.sum_nonneg fun i hi => ?_
  obtain ⟨x, hx⟩ := (hf i hi).exists_coe
  rw [hx, ← EReal.coe_mul]
  exact EReal.coe_nonneg.mpr (mul_self_nonneg x)

/-- Counting a nonempty finite set by adding a one per member gives a real number, at least one. -/
theorem count_pos {ι : Type*} (s : Finset ι) (hs : s.Nonempty) :
    IsReal (0 + ∑ _e ∈ s, (1 : EReal)) ∧ 1 ≤ 0 + ∑ _e ∈ s, (1 : EReal) := by
  have h1 : (∑ _e ∈ s, (1 : EReal)) = ((s.card : ℝ) : EReal) := by
    rw [Finset.sum_const, nsmul_one, ← EReal.coe_coe_eq_natCast]
  have hc : (1 : ℝ) ≤ (s.card : ℝ) := by exact_mod_cast Finset.card_pos.mpr hs
  rw [zero_add, h1]
  exact ⟨isReal_coe _, by rw [← EReal.coe_one]; exact EReal.coe_le_coe_iff.mpr hc⟩

/-! ### A sum over rows, tile by tile -/

/-- Three mixed-radix digits `s < a`, `j < b`, `r < c` name a number below `a * b * c`. -/
theorem digits_lt {a b c : ℕ} (s : Fin a) (j : Fin b) (r : Fin c) :
    (s.val * b + j.val) * c + r.val < a * b * c := by
  have h1 : s.val * b + j.val + 1 ≤ a * b :=
    calc s.val * b + j.val + 1 ≤ s.val * b + b := Nat.add_le_add_left j.isLt _
      _ = (s.val + 1) * b := (Nat.succ_mul _ _).symm
      _ ≤ a * b := Nat.mul_le_mul_right b s.isLt
  calc (s.val * b + j.val) * c + r.val < (s.val * b + j.val) * c + c := Nat.add_lt_add_left r.isLt _
    _ = (s.val * b + j.val + 1) * c := (Nat.succ_mul _ _).symm
    _ ≤ a * b * c := Nat.mul_le_mul_right c h1

/-- A sum over `a * b * c` consecutive indices is the triple sum over the three mixed-radix digits of
    the index: the outer digit below `a`, the middle below `b`, the inner below `c`. -/
theorem sum_fin_mul_mul {M : Type*} [AddCommMonoid M] (a b c : ℕ) (f : Fin (a * b * c) → M) :
    ∑ n, f n = ∑ s : Fin a, ∑ j : Fin b, ∑ r : Fin c, f ⟨(s.val * b + j.val) * c + r.val, digits_lt s j r⟩ :=
  calc ∑ n, f n
      = ∑ p : Fin (a * b) × Fin c, f (finProdFinEquiv p) := (Equiv.sum_comp finProdFinEquiv f).symm
    _ = ∑ p : Fin (a * b), ∑ r : Fin c, f (finProdFinEquiv (p, r)) := Fintype.sum_prod_type _
    _ = ∑ q : Fin a × Fin b, ∑ r : Fin c, f (finProdFinEquiv (finProdFinEquiv q, r)) :=
        (Equiv.sum_comp finProdFinEquiv fun p : Fin (a * b) => ∑ r : Fin c, f (finProdFinEquiv (p, r))).symm
    _ = ∑ s : Fin a, ∑ j : Fin b, ∑ r : Fin c, f (finProdFinEquiv (finProdFinEquiv (s, j), r)) :=
        Fintype.sum_prod_type _
    _ = _ := by
        refine Finset.sum_congr rfl fun s _ => Finset.sum_congr rfl fun j _ => Finset.sum_congr rfl fun r _ => ?_
        congr 1
        apply Fin.ext
        simp only [finProdFinEquiv_apply_val]
        ring

/-- A sum over 100000 rows, taken as 2 slices of 10 blocks of 5000 rows. -/
theorem sum_rows_tiled {M : Type*} [AddCommMonoid M] (f : Fin 100000 → M) :
    ∑ n, f n = ∑ s : Fin 2, ∑ j : Fin 10, ∑ r : Fin 5000,
      f ⟨(s.val * 10 + j.val) * 5000 + r.val, by omega⟩ :=
  sum_fin_mul_mul 2 10 5000 f

/-- A sum over 100000 rows, taken as 2 slices of 50 blocks of 1000 rows. -/
theorem sum_rows_tiled_pool {M : Type*} [AddCommMonoid M] (f : Fin 100000 → M) :
    ∑ n, f n = ∑ s : Fin 2, ∑ j : Fin 50, ∑ r : Fin 1000,
      f ⟨(s.val * 50 + j.val) * 1000 + r.val, by omega⟩ :=
  sum_fin_mul_mul 2 50 1000 f

/-! ### A mask-weighted sum -/

/-- Weighting each term by the 0/1 indicator of a predicate and summing over everything is summing over
    the members that satisfy the predicate. -/
theorem sum_mask_eq_sum_filter {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  split_ifs <;> simp

/-! ### The single-precision words, as the extended reals they denote -/

/-- The word of `100000.0` denotes the real `100000`. -/
theorem ofBits_100000 : Ideal.ofBits .f32 0x47C35000#32 = ((100000 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := Ideal.ofBits_zero_f32

/-- The word of the epsilon added under the square root denotes the dyadic `10995116 · 2⁻⁴⁰`. -/
theorem ofBits_eps_eq :
    Ideal.ofBits .f32 0x3727C5AC#32 = (((10995116 : ℝ) * (2 : ℝ) ^ (-40 : ℤ) : ℝ) : EReal) := by
  simp [Ideal.ofBits, Ideal.ieee, -EReal.coe_mul]

/-- The word of the epsilon added under the square root denotes a positive real. -/
theorem ofBits_eps :
    0 < Ideal.ofBits .f32 0x3727C5AC#32 ∧ IsReal (Ideal.ofBits .f32 0x3727C5AC#32) := by
  rw [ofBits_eps_eq]
  exact ⟨EReal.coe_pos.mpr (by positivity), isReal_coe _⟩

/-! ### A small index word and its signed value -/

/-- A 32-bit word equals the word of a number below 1024 exactly when its signed value is that number. -/
theorem toInt_ofNat_eq_iff (b : BitVec 32) (g : Nat) (hg : g < 1024) :
    b = BitVec.ofNat 32 g ↔ b.toInt = (g : ℤ) := by
  have hv : (BitVec.ofNat 32 g).toInt = (g : ℤ) := by
    rw [BitVec.toInt_eq_msb_cond,
      BitVec.msb_eq_false_iff_two_mul_lt.mpr (by simp [BitVec.toNat_ofNat]; omega)]
    simp [BitVec.toNat_ofNat]; omega
  exact ⟨fun h => h ▸ hv, fun h => BitVec.eq_of_toInt_eq (h.trans hv.symm)⟩

end Cert.LibFinite

end
-- ==== Proof.OnlineSoftmax.lean ====
/-
  The mathematics both programs compute, on the extended reals, with no program in sight.

  For one row of logits z : Fin n → EReal the quantity is  M − (M + log Σᵥ exp (zᵥ − M)),  M = maxᵥ zᵥ
  (the largest log-probability of the softmax of z).  The kernel reaches it tile by tile: it keeps a running
  maximum m, a running sum l of exp (z − m) rescaled by exp (m_old − m_new) whenever the maximum moves, and a
  running plain sum r.  `online_softmax` says that after all tiles the running triple is (M, Σ exp (z − M), Σ z),
  provided every logit is a real number (the rescaling law  exp (a − b) · exp (c − a) = exp (c − b)  needs it).
-/
import Mathlib.Data.EReal.Basic
import Mathlib.Data.EReal.Operations
import Mathlib.Algebra.BigOperators.Group.Finset.Basic
import Mathlib.Data.Fintype.BigOperators
import Mathlib.Logic.Equiv.Fin.Basic
import Idealize.ShloMosaic.PureOps.Ideal
import proofs.«130178_j27539330302083_1_alg».proof.Proof.LibFiniteSums

noncomputable section

namespace Cert.Spec

open Idealize.ShloMosaic Cert.LibFinite

/-- The maximum of a finite family, from −∞ (the form both programs' max-reductions take when read at an index). -/
def vmax {ι : Type} [Fintype ι] (z : ι → EReal) : EReal := (Finset.univ : Finset ι).fold max ⊥ z

/-- One logit: the inner product of an activation row with a vocabulary row. -/
def logit {H : Type} [Fintype H] (x w : H → EReal) : EReal := ∑ h, x h * w h

/-- M − (M + log Σᵥ exp (zᵥ − M)) with M = maxᵥ zᵥ. -/
def maxLogProb {ι : Type} [Fintype ι] (z : ι → EReal) : EReal :=
  vmax z - (vmax z + Ideal.log (∑ v, Ideal.exp (z v - vmax z)))

/-- The kernel's running triple: maximum so far, rescaled sum of exponentials so far, plain sum so far. -/
structure St where
  m : EReal
  l : EReal
  r : EReal

/-- Before the first tile: −∞, 0, 0. -/
def St.init : St := ⟨⊥, 0, 0⟩

/-- One tile y of logits folded into the running triple. -/
def St.step {T : ℕ} (s : St) (y : Fin T → EReal) : St :=
  let m' := max s.m (vmax y)
  ⟨m', Ideal.exp (s.m - m') * s.l + ∑ j, Ideal.exp (y j - m'), s.r + ∑ j, y j⟩

/-- The triple after the first k tiles of z. -/
def St.run {T : ℕ} (z : ℕ → Fin T → EReal) : ℕ → St
  | 0 => St.init
  | k + 1 => (St.run z k).step (z k)

/-! ### Finite maxima of real numbers -/

/-- The maximum from −∞ of a finite family is its supremum. -/
theorem vmax_eq_sup {ι : Type} [Fintype ι] (z : ι → EReal) : vmax z = Finset.univ.sup z := rfl

/-- The supremum of finitely many real numbers is not +∞. -/
theorem sup_ne_top {ι : Type} (s : Finset ι) (f : ι → EReal) (hf : ∀ v ∈ s, IsReal (f v)) :
    s.sup f ≠ ⊤ :=
  ((Finset.sup_lt_iff bot_lt_top).mpr fun v hv => lt_top_iff_ne_top.mpr (hf v hv).1).ne

/-- The supremum of a nonempty finite family of real numbers is one of them, hence real. -/
theorem sup_isReal {ι : Type} (s : Finset ι) (hs : s.Nonempty) (f : ι → EReal)
    (hf : ∀ v ∈ s, IsReal (f v)) : IsReal (s.sup f) := by
  obtain ⟨v, hv, h⟩ := Finset.exists_mem_eq_sup s hs f
  rw [h]; exact hf v hv

/-! ### The rescaling law -/

/-- Among real numbers  exp (a − b) · Σ exp (g − a) = Σ exp (g − b). -/
theorem rescale_real {ι : Type} (s : Finset ι) (g : ι → ℝ) (a b : ℝ) :
    Ideal.exp ((a : EReal) - (b : EReal)) * ∑ v ∈ s, Ideal.exp ((g v : EReal) - (a : EReal))
      = ∑ v ∈ s, Ideal.exp ((g v : EReal) - (b : EReal)) := by
  have h1 : ∀ c : ℝ, ∑ v ∈ s, Ideal.exp ((g v : EReal) - (c : EReal))
      = ((∑ v ∈ s, Real.exp (g v - c) : ℝ) : EReal) := by
    intro c
    rw [coe_sum]
    refine Finset.sum_congr rfl fun v _ => ?_
    rw [← EReal.coe_sub, Ideal.exp_coe]
  rw [h1 a, h1 b, ← EReal.coe_sub, Ideal.exp_coe, ← EReal.coe_mul, Finset.mul_sum]
  congr 1
  refine Finset.sum_congr rfl fun v _ => ?_
  rw [← Real.exp_add]; congr 1; ring

/-- The same with the old maximum the supremum M of a finite set of real numbers and the new maximum any m' ≥ M below +∞:
    exp (M − m') · Σ exp (f − M) = Σ exp (f − m').  Over the empty set both sides are 0 (and M = −∞). -/
theorem rescale {ι : Type} (s : Finset ι) (f : ι → EReal) (hf : ∀ v ∈ s, IsReal (f v)) (m' : EReal)
    (hle : s.sup f ≤ m') (htop : m' ≠ ⊤) :
    Ideal.exp (s.sup f - m') * ∑ v ∈ s, Ideal.exp (f v - s.sup f) = ∑ v ∈ s, Ideal.exp (f v - m') := by
  rcases s.eq_empty_or_nonempty with rfl | hs
  · simp
  · obtain ⟨a, ha⟩ := (sup_isReal s hs f hf).exists_coe
    have hbot : m' ≠ ⊥ := by
      intro h
      rw [h, ha] at hle
      exact EReal.coe_ne_bot a (le_bot_iff.mp hle)
    obtain ⟨b, rfl⟩ := IsReal.exists_coe ⟨htop, hbot⟩
    have hg : ∀ v ∈ s, f v = ((f v).toReal : EReal) := fun v hv =>
      (EReal.coe_toReal (hf v hv).1 (hf v hv).2).symm
    have e1 : ∀ c : EReal, ∑ v ∈ s, Ideal.exp (f v - c) = ∑ v ∈ s, Ideal.exp (((f v).toReal : EReal) - c) :=
      fun c => Finset.sum_congr rfl fun v hv => by rw [← hg v hv]
    rw [ha, e1, e1]
    exact rescale_real s (fun v => (f v).toReal) a b

/-! ### The invariant of the fold -/

/-- The running triple st is right for the set s of positions of the row z: the maximum over s, the sum over s of
    exp (z − that maximum), the plain sum over s. -/
def Inv {ι : Type} (z : ι → EReal) (s : Finset ι) (st : St) : Prop :=
  st.m = s.sup z ∧ st.l = ∑ v ∈ s, Ideal.exp (z v - s.sup z) ∧ st.r = ∑ v ∈ s, z v

/-- Folding in a tile whose places φ are new positions keeps the invariant, for the enlarged set of positions. -/
theorem Inv.step {ι : Type} [DecidableEq ι] {T : ℕ} (z : ι → EReal) (s t : Finset ι) (hd : Disjoint s t)
    (hz : ∀ v ∈ s ∪ t, IsReal (z v)) (st : St) (h : Inv z s st) (y : Fin T → EReal) (φ : Fin T → ι)
    (hφ : Function.Injective φ) (ht : t = Finset.univ.image φ) (hy : ∀ j, y j = z (φ j)) :
    Inv z (s ∪ t) (st.step y) := by
  obtain ⟨hm, hl, hr⟩ := h
  obtain rfl : y = fun j => z (φ j) := funext hy
  have hmax : vmax (fun j => z (φ j)) = t.sup z := by
    rw [vmax_eq_sup, ht, Finset.sup_image]; rfl
  have hsumE : ∀ c : EReal, ∑ j, Ideal.exp (z (φ j) - c) = ∑ v ∈ t, Ideal.exp (z v - c) := by
    intro c
    rw [ht, Finset.sum_image fun a _ b _ hab => hφ hab]
  have hsumI : ∑ j, z (φ j) = ∑ v ∈ t, z v := by
    rw [ht, Finset.sum_image fun a _ b _ hab => hφ hab]
  have hm' : max st.m (vmax fun j => z (φ j)) = (s ∪ t).sup z := by
    rw [hm, hmax, Finset.sup_union]
  have hle : s.sup z ≤ (s ∪ t).sup z := Finset.sup_mono Finset.subset_union_left
  refine ⟨hm', ?_, ?_⟩
  · show Ideal.exp (st.m - max st.m (vmax fun j => z (φ j))) * st.l
        + ∑ j, Ideal.exp (z (φ j) - max st.m (vmax fun j => z (φ j))) = _
    rw [hm', hsumE, hm, hl,
      rescale s z (fun v hv => hz v (Finset.mem_union_left t hv)) _ hle (sup_ne_top _ z hz),
      Finset.sum_union hd]
  · show st.r + ∑ j, z (φ j) = _
    rw [hr, hsumI, Finset.sum_union hd]

/-! ### The tiles of a row -/

/-- The tiles of the row zz cut through e (zero past the last tile). -/
def tiles {K T n : ℕ} (e : Fin K × Fin T ≃ Fin n) (zz : Fin n → EReal) : ℕ → Fin T → EReal :=
  fun k j => if h : k < K then zz (e (⟨k, h⟩, j)) else 0

/-- The positions of the row that lie in the first k tiles. -/
def firstTiles {K T n : ℕ} (e : Fin K × Fin T ≃ Fin n) (k : ℕ) : Finset (Fin n) :=
  Finset.univ.filter fun v => ((e.symm v).1 : ℕ) < k

/-- One more tile: the positions in the first k + 1 tiles are those in the first k and the places of tile k. -/
theorem firstTiles_succ {K T n : ℕ} (e : Fin K × Fin T ≃ Fin n) (k : ℕ) (hk : k < K) :
    firstTiles e (k + 1) = firstTiles e k ∪ Finset.univ.image fun j => e (⟨k, hk⟩, j) := by
  ext v
  simp only [firstTiles, Finset.mem_filter, Finset.mem_univ, true_and, Finset.mem_union, Finset.mem_image]
  constructor
  · intro h
    rcases Nat.lt_succ_iff_lt_or_eq.mp h with h | h
    · exact Or.inl h
    · right
      refine ⟨(e.symm v).2, ?_⟩
      have : ((⟨k, hk⟩ : Fin K), (e.symm v).2) = e.symm v := Prod.ext (Fin.ext h.symm) rfl
      rw [this, Equiv.apply_symm_apply]
  · rintro (h | ⟨j, rfl⟩)
    · exact Nat.lt_succ_of_lt h
    · rw [Equiv.symm_apply_apply]; exact Nat.lt_succ_self k

/-- The places of tile k are not among the positions of the first k tiles. -/
theorem firstTiles_disjoint {K T n : ℕ} (e : Fin K × Fin T ≃ Fin n) (k : ℕ) (hk : k < K) :
    Disjoint (firstTiles e k) (Finset.univ.image fun j => e (⟨k, hk⟩, j)) := by
  rw [Finset.disjoint_left]
  intro v hv hv'
  obtain ⟨j, _, rfl⟩ := Finset.mem_image.mp hv'
  have h2 := (Finset.mem_filter.mp hv).2
  rw [Equiv.symm_apply_apply] at h2
  exact lt_irrefl k h2

/-- After k ≤ K tiles the running triple is right for the positions in the first k tiles. -/
theorem run_inv {K T n : ℕ} (e : Fin K × Fin T ≃ Fin n) (zz : Fin n → EReal) (hfin : ∀ v, IsReal (zz v)) :
    ∀ k, k ≤ K → Inv zz (firstTiles e k) (St.run (tiles e zz) k) := by
  intro k
  induction k with
  | zero =>
    intro _
    have h0 : firstTiles e 0 = ∅ := Finset.filter_false_of_mem fun v _ => Nat.not_lt_zero _
    rw [h0]
    exact ⟨by simp [St.run, St.init], by simp [St.run, St.init], by simp [St.run, St.init]⟩
  | succ k ih =>
    intro hk
    have hk' : k < K := hk
    rw [firstTiles_succ e k hk']
    show Inv zz _ ((St.run (tiles e zz) k).step (tiles e zz k))
    exact Inv.step zz _ _ (firstTiles_disjoint e k hk') (fun v _ => hfin v) _ (ih hk'.le) _
      (fun j => e (⟨k, hk'⟩, j)) (fun a b hab => (Prod.mk.inj (e.injective hab)).2) rfl
      (fun j => dif_pos hk')

/-- A finite sum of products of real numbers is a real number. -/
theorem logit_isReal {H : Type} [Fintype H] (x w : H → EReal) (hx : ∀ h, IsReal (x h)) (hw : ∀ h, IsReal (w h)) :
    IsReal (logit x w) :=
  isReal_sum Finset.univ _ fun h _ => (hx h).mul (hw h)

/-- THE ONLINE SOFTMAX.  Cut a row of n real logits into K ≥ 1 tiles of T (through any bijection e of tile × place with
    the row's positions).  Folding the tiles in order leaves: the row's maximum; the sum of exp (z − maximum) over the whole
    row; the row's plain sum.  Hence the kernel's  m − (m + log l)  is the row's largest log-probability. -/
theorem online_softmax {K T n : ℕ} (e : Fin K × Fin T ≃ Fin n) (hK : 0 < K) (zz : Fin n → EReal)
    (hfin : ∀ v, IsReal (zz v)) :
    let s := St.run (fun k j => if h : k < K then zz (e (⟨k, h⟩, j)) else 0) K
    s.m - (s.m + Ideal.log s.l) = maxLogProb zz ∧ s.r = ∑ v, zz v := by
  intro s
  have hs : s = St.run (tiles e zz) K := rfl
  clear_value s
  subst hs
  have hall : firstTiles e K = Finset.univ := Finset.filter_true_of_mem fun v _ => (e.symm v).1.2
  obtain ⟨hm, hl, hr⟩ := run_inv e zz hfin K le_rfl
  rw [hall] at hm hl hr
  refine ⟨?_, hr⟩
  rw [hl, hm]
  rfl

end Cert.Spec

end
-- ==== Proof.KI.StepValue.lean ====
/-
  The per-point functions read ROW BY ROW at the extended reals.  Row r = 512·b + j of the [1024, …] arrays is row (b, j)
  of the [2, 512, …] blocks (the re-laying between the two shapes keeps row-major order).  For each row the point's
  step on the three columns is the scalar step `Spec.St.step` on that row's entries with the tile's 1280 logits of
  the row; the restart columns are `Spec.St.init`; the two output blocks at (b, j) are m − (m + log l) and r of row
  512·b + j.
-/
import proofs.«130178_j27539330302083_1_alg».proof.Proof.KI.Step
import proofs.«130178_j27539330302083_1_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- Row (b, j) of the blocks as an index of a [1024, 1] column. -/
def rowOf (b : Fin 2) (j : Fin 512) : S1024x1.Idx :=
  ix2 (⟨b.val * 512 + j.val, by have := b.isLt; have := j.isLt; omega⟩ : Fin 1024) (0 : Fin 1)

/-- The tile's logit of row (b, j) against the tile's vocabulary row q. -/
def tileLogit (x : Vec Ideal S2x512x2048 .bf16) (w : Vec Ideal S1280x2048 .bf16) (b : Fin 2) (j : Fin 512) (q : Fin 1280) : EReal :=
  Cert.Spec.logit (fun h : Fin 2048 => x (ix3 b j h)) (fun h : Fin 2048 => w (ix2 q h))

/-- Row (b, j) of three columns as a running triple. -/
def colSt (s : Vec Ideal S1024x1 .f32 × Vec Ideal S1024x1 .f32 × Vec Ideal S1024x1 .f32) (b : Fin 2) (j : Fin 512) : Cert.Spec.St :=
  ⟨s.1 (rowOf b j), s.2.1 (rowOf b j), s.2.2 (rowOf b j)⟩

/-- The word 0xFF800000 reads −∞. -/
theorem ofBits_negInf_f32 : Ideal.ofBits .f32 0xFF800000#32 = ⊥ := by simp [Ideal.ofBits, Ideal.ieee]

/-- Rows keep their row-major place between [1024, 1] and [2, 512]: row 512·b + j, column 0 sits where (b, j) does. -/
theorem rowMajor_rowOf (b : Fin 2) (j : Fin 512) :
    (S1024x1.rowMajor (rowOf b j)).val = (S2x512.rowMajor (ix2 b j)).val := by
  rw [Shape.rowMajor_val_two, Shape.rowMajor_val_two]
  show (b.val * 512 + j.val) * 1 + 0 = b.val * 512 + j.val
  omega

/-! ### The matrix product's operand indices, axis by axis -/

/-- Left operand, row axis: the output's row. -/
theorem lhs_axis0 (i : S1024x1280.Idx) (k : dot_S1024x2048_S1280x2048_S1024x1280_1_1_0_0_n_n.contr.Idx) :
    (dot_S1024x2048_S1280x2048_S1024x1280_1_1_0_0_n_n.lhsIdx i k 0).val = (i 0).val := rfl

/-- Left operand, feature axis: the contraction position. -/
theorem lhs_axis1 (i : S1024x1280.Idx) (k : dot_S1024x2048_S1280x2048_S1024x1280_1_1_0_0_n_n.contr.Idx) :
    (dot_S1024x2048_S1280x2048_S1024x1280_1_1_0_0_n_n.lhsIdx i k 1).val = (k ⟨0, by decide⟩).val :=
  DotDims.lhsIdx_val_of_single (d := dot_S1024x2048_S1280x2048_S1024x1280_1_1_0_0_n_n) (cl := 1) rfl i k

/-- Right operand, vocabulary axis: the output's column. -/
theorem rhs_axis0 (i : S1024x1280.Idx) (k : dot_S1024x2048_S1280x2048_S1024x1280_1_1_0_0_n_n.contr.Idx) :
    (dot_S1024x2048_S1280x2048_S1024x1280_1_1_0_0_n_n.rhsIdx i k 0).val = (i 1).val := rfl

/-- Right operand, feature axis: the contraction position. -/
theorem rhs_axis1 (i : S1024x1280.Idx) (k : dot_S1024x2048_S1280x2048_S1024x1280_1_1_0_0_n_n.contr.Idx) :
    (dot_S1024x2048_S1280x2048_S1024x1280_1_1_0_0_n_n.rhsIdx i k 1).val = (k ⟨0, by decide⟩).val :=
  DotDims.rhsIdx_val_of_single (d := dot_S1024x2048_S1280x2048_S1024x1280_1_1_0_0_n_n) (cr := 1) rfl i k

/-- Left operand, feature axis, at feature h. -/
theorem lhs_axis1_feat (i : S1024x1280.Idx) (h : Fin 2048) :
    (dot_S1024x2048_S1280x2048_S1024x1280_1_1_0_0_n_n.lhsIdx i
      ((contrEquiv1 dot_S1024x2048_S1280x2048_S1024x1280_1_1_0_0_n_n 2048 rfl rfl).symm h) 1).val = h.val :=
  (lhs_axis1 i _).trans (contrEquiv1_symm_val dot_S1024x2048_S1280x2048_S1024x1280_1_1_0_0_n_n 2048 rfl rfl h)

/-- Right operand, feature axis, at feature h. -/
theorem rhs_axis1_feat (i : S1024x1280.Idx) (h : Fin 2048) :
    (dot_S1024x2048_S1280x2048_S1024x1280_1_1_0_0_n_n.rhsIdx i
      ((contrEquiv1 dot_S1024x2048_S1280x2048_S1024x1280_1_1_0_0_n_n 2048 rfl rfl).symm h) 1).val = h.val :=
  (rhs_axis1 i _).trans (contrEquiv1_symm_val dot_S1024x2048_S1280x2048_S1024x1280_1_1_0_0_n_n 2048 rfl rfl h)

/-- The logits of one point: entry (512·b + j, q) is the inner product of activation row (b, j) with vocabulary row q. -/
theorem pay8_at (x : Vec Ideal S2x512x2048 .bf16) (w : Vec Ideal S1280x2048 .bf16) (b : Fin 2) (j : Fin 512) (q : Fin 1280) :
    k0_pay8 (F := Ideal) x w (ix2 (⟨b.val * 512 + j.val, by have := b.isLt; have := j.isLt; omega⟩ : Fin 1024) q)
      = tileLogit x w b j q := by
  unfold k0_pay8
  rw [shapeCast_self, shapeCast_self]
  refine (Ideal.matmul_constant_zero_apply (φ₁ := .bf16) (φ₂ := .bf16) dot_S1024x2048_S1280x2048_S1024x1280_1_1_0_0_n_n none
    (shapeCast S1024x2048 x shapeCasts_S2x512x2048_S1024x2048) w _).trans ?_
  rw [← Equiv.sum_comp (contrEquiv1 dot_S1024x2048_S1280x2048_S1024x1280_1_1_0_0_n_n 2048 rfl rfl).symm]
  unfold tileLogit Cert.Spec.logit
  refine Finset.sum_congr rfl fun h _ => ?_
  congr 1
  · refine shapeCast_apply x shapeCasts_S2x512x2048_S1024x2048 _ (ix3 b j h) ?_
    rw [Shape.rowMajor_val_three, Shape.rowMajor_val_two, lhs_axis0, lhs_axis1_feat]
    rfl
  · refine congrArg w (funext fun a => Fin.ext ?_)
    match a with
    | ⟨0, _⟩ => exact rhs_axis0 _ _
    | ⟨1, _⟩ => exact rhs_axis1_feat _ _

/-! ### The keepdims forms and the lane reductions at explicit coordinates -/

/-- 1024 entries re-laid as a [1024, 1] column: row r holds entry r. -/
theorem colCast_apply {α : Type} (v : S1024.Idx → α) (r : Fin 1024) :
    shapeCast S1024x1 v shapeCasts_S1024_S1024x1 (ix2 r (0 : Fin 1)) = v (ix1 r) := by
  refine shapeCast_apply v shapeCasts_S1024_S1024x1 _ (ix1 r) ?_
  rw [Shape.rowMajor_val_one, Shape.rowMajor_val_two]
  show r.val = r.val * 1 + 0
  omega

/-- A [1024, 1] column spread over 1280 lanes: every lane of row r holds the column's row r. -/
theorem rowBroadcast_apply {α : Type} (v : S1024x1.Idx → α) (r : Fin 1024) (q : Fin 1280) :
    broadcastTo S1024x1280 v broadcasts_S1024x1_S1024x1280 (ix2 r q) = v (ix2 r (0 : Fin 1)) := by
  refine broadcastTo_apply v broadcasts_S1024x1_S1024x1280 _ (ix2 r (0 : Fin 1)) fun a => ?_
  match a with
  | ⟨0, _⟩ => rfl
  | ⟨1, _⟩ => rfl

/-- Row r with lane q put back in is the entry (r, q). -/
theorem lift_row (r : Fin 1024) (q : Fin 1280) : reduces_S1024x1280_S1024.lift (ix1 r) q = ix2 r q := by
  funext c
  match c with
  | ⟨0, _⟩ => rfl
  | ⟨1, _⟩ => rfl

/-- The row maximum over the lanes, as a column. -/
theorem rowMax_apply (z : FVec Ideal S1024x1280 .f32) (r : Fin 1024) :
    shapeCast S1024x1 (multiReduction (F := Ideal) .maximumf [1] S1024 z 0xFF800000#32 reduces_S1024x1280_S1024 (.inl rfl) rfl)
        shapeCasts_S1024_S1024x1 (ix2 r (0 : Fin 1))
      = Cert.Spec.vmax fun q : Fin 1280 => z (ix2 r q) := by
  refine (colCast_apply _ r).trans ?_
  refine (Ideal.multiReduction_maximumf_single z 0xFF800000#32 reduces_S1024x1280_S1024 (.inl rfl) rfl (ix1 r)).trans ?_
  have hf : (z ∘ reduces_S1024x1280_S1024.lift (ix1 r)) = fun q : Fin 1280 => z (ix2 r q) :=
    funext fun q => congrArg z (lift_row r q)
  rw [hf]
  show Finset.univ.fold max (Ideal.ofBits .f32 0xFF800000#32) _ = _
  rw [ofBits_negInf_f32]
  rfl

/-- The row sum over the lanes, as a column. -/
theorem rowSum_apply (z : FVec Ideal S1024x1280 .f32) (r : Fin 1024) :
    shapeCast S1024x1 (multiReduction (F := Ideal) .add [1] S1024 z 0x00000000#32 reduces_S1024x1280_S1024 (.inl rfl) rfl)
        shapeCasts_S1024_S1024x1 (ix2 r (0 : Fin 1))
      = ∑ q : Fin 1280, z (ix2 r q) := by
  refine (colCast_apply _ r).trans ?_
  refine (Ideal.multiReduction_add_single z 0x00000000#32 reduces_S1024x1280_S1024 (.inl rfl) rfl (ix1 r)).trans ?_
  exact Finset.sum_congr rfl fun q _ => congrArg z (lift_row r q)

/-! ### The three columns of one point, row by row -/

/-- The new maximum of row (b, j). -/
theorem pay9_at (x : Vec Ideal S2x512x2048 .bf16) (w : Vec Ideal S1280x2048 .bf16) (ms : Vec Ideal S1024x1 .f32)
    (b : Fin 2) (j : Fin 512) :
    k0_pay9 (F := Ideal) x w ms (rowOf b j)
      = max (ms (rowOf b j)) (Cert.Spec.vmax fun q : Fin 1280 => tileLogit x w b j q) := by
  unfold k0_pay9
  refine (maximumf_apply _ _ _).trans ?_
  refine congrArg (max (ms (rowOf b j))) ?_
  refine (rowMax_apply (k0_pay8 x w) _).trans ?_
  exact congrArg Cert.Spec.vmax (funext fun q => pay8_at x w b j q)

theorem stepM_row (x : Vec Ideal S2x512x2048 .bf16) (w : Vec Ideal S1280x2048 .bf16) (ms : Vec Ideal S1024x1 .f32)
    (b : Fin 2) (j : Fin 512) :
    stepM (F := Ideal) x w ms (rowOf b j)
      = max (ms (rowOf b j)) (Cert.Spec.vmax fun q : Fin 1280 => tileLogit x w b j q) := by
  unfold stepM k0_pay2
  rw [shapeCast_self]
  exact pay9_at x w ms b j

/-- The new plain sum of row (b, j). -/
theorem stepR_row (x : Vec Ideal S2x512x2048 .bf16) (w : Vec Ideal S1280x2048 .bf16) (rs : Vec Ideal S1024x1 .f32)
    (b : Fin 2) (j : Fin 512) :
    stepR (F := Ideal) x w rs (rowOf b j) = rs (rowOf b j) + ∑ q : Fin 1280, tileLogit x w b j q := by
  unfold stepR k0_pay1
  rw [shapeCast_self]
  unfold k0_pay11
  refine (addf_apply _ _ _).trans ?_
  refine congrArg (rs (rowOf b j) + ·) ?_
  refine (rowSum_apply (k0_pay8 x w) _).trans ?_
  exact Finset.sum_congr rfl fun q _ => pay8_at x w b j q

/-- The new rescaled sum of row (b, j). -/
theorem stepL_row (x : Vec Ideal S2x512x2048 .bf16) (w : Vec Ideal S1280x2048 .bf16) (ms ls : Vec Ideal S1024x1 .f32)
    (b : Fin 2) (j : Fin 512) :
    stepL (F := Ideal) x w ms ls (rowOf b j)
      = Ideal.exp (ms (rowOf b j) - max (ms (rowOf b j)) (Cert.Spec.vmax fun q : Fin 1280 => tileLogit x w b j q)) * ls (rowOf b j)
        + ∑ q : Fin 1280, Ideal.exp (tileLogit x w b j q
            - max (ms (rowOf b j)) (Cert.Spec.vmax fun q : Fin 1280 => tileLogit x w b j q)) := by
  unfold stepL k0_pay10
  rw [shapeCast_self]
  refine (addf_apply _ _ _).trans ?_
  refine congrArg₂ (· + ·) ?_ ?_
  · show Ideal.exp (ms (rowOf b j) - k0_pay9 x w ms (rowOf b j)) * ls (rowOf b j) = _
    rw [pay9_at]
  · refine (rowSum_apply _ _).trans ?_
    refine Finset.sum_congr rfl fun q _ => ?_
    show Ideal.exp (k0_pay8 x w (ix2 _ q) - broadcastTo S1024x1280 (k0_pay9 x w ms) broadcasts_S1024x1_S1024x1280 (ix2 _ q)) = _
    rw [rowBroadcast_apply, pay8_at]
    show Ideal.exp (tileLogit x w b j q - k0_pay9 x w ms (rowOf b j)) = _
    rw [pay9_at]

/-- One point's step, row by row, is the scalar step with the row's 1280 tile logits. -/
theorem stepAll_row (x : Vec Ideal S2x512x2048 .bf16) (w : Vec Ideal S1280x2048 .bf16)
    (s : Vec Ideal S1024x1 .f32 × Vec Ideal S1024x1 .f32 × Vec Ideal S1024x1 .f32) (b : Fin 2) (j : Fin 512) :
    colSt (stepAll (F := Ideal) x w s) b j = (colSt s b j).step (fun q : Fin 1280 => tileLogit x w b j q) := by
  show Cert.Spec.St.mk (stepM x w s.1 (rowOf b j)) (stepL x w s.1 s.2.1 (rowOf b j)) (stepR x w s.2.2 (rowOf b j)) = _
  rw [stepM_row, stepL_row, stepR_row]
  rfl

/-- The restart columns, row by row: −∞, 0, 0. -/
theorem resetAll_row (b : Fin 2) (j : Fin 512) : colSt (resetAll (F := Ideal)) b j = Cert.Spec.St.init := by
  show Cert.Spec.St.mk (Ideal.ofBits .f32 0xFF800000#32) (Ideal.ofBits .f32 0x00000000#32) (Ideal.ofBits .f32 0x00000000#32)
    = ⟨⊥, 0, 0⟩
  rw [ofBits_negInf_f32, Ideal.ofBits_zero_f32]

/-- The first output block at (b, j): m − (m + log l) of row 512·b + j. -/
theorem outLp_at (ms ls : Vec Ideal S1024x1 .f32) (b : Fin 2) (j : Fin 512) :
    outLp (F := Ideal) ms ls (ix2 b j) = ms (rowOf b j) - (ms (rowOf b j) + Ideal.log (ls (rowOf b j))) := by
  unfold outLp k0_pay3
  exact shapeCast_apply _ shapeCasts_S1024x1_S2x512 (ix2 b j) (rowOf b j) (rowMajor_rowOf b j)

/-- The second output block at (b, j): r of row 512·b + j. -/
theorem outRs_at (rs : Vec Ideal S1024x1 .f32) (b : Fin 2) (j : Fin 512) :
    outRs (F := Ideal) rs (ix2 b j) = rs (rowOf b j) := by
  unfold outRs k0_pay4
  exact shapeCast_apply rs shapeCasts_S1024x1_S2x512 (ix2 b j) (rowOf b j) (rowMajor_rowOf b j)

end Cert.KernelIdeal.Hand

end
-- ==== Proof.RowSpec.lean ====
/-
  The two whole-array functions both programs are compared through, at this kernel's sizes: for activations
  x [2, 1024, 2048] and vocabulary rows w [32000, 2048], the logits of row (b, s) are v ↦ Σ_h x[b,s,h]·w[v,h];
  `seqLp` is each row's largest log-probability and `rowSum` each row's plain sum of logits.
-/
import Idealize.ShloMosaic.Lib.ValueIdx
import proofs.«130178_j27539330302083_1_alg».proof.Proof.OnlineSoftmax

noncomputable section

namespace Cert.Spec

open Idealize.ShloMosaic Idealize.ShloMosaic.ValueIdx

/-- The logits of row (b, s). -/
def rowLogits (x : (⟨3, ![2, 1024, 2048]⟩ : Shape).Idx → EReal) (w : (⟨2, ![32000, 2048]⟩ : Shape).Idx → EReal)
    (b : Fin 2) (s : Fin 1024) : Fin 32000 → EReal :=
  fun v => logit (fun h : Fin 2048 => x (ix3 b s h)) (fun h : Fin 2048 => w (ix2 v h))

/-- Each row's largest log-probability: M − (M + log Σ exp (z − M)). -/
def seqLp (x : (⟨3, ![2, 1024, 2048]⟩ : Shape).Idx → EReal) (w : (⟨2, ![32000, 2048]⟩ : Shape).Idx → EReal) :
    (⟨2, ![2, 1024]⟩ : Shape).Idx → EReal :=
  fun i => maxLogProb (rowLogits x w (i 0) (i 1))

/-- Each row's plain sum of logits. -/
def rowSum (x : (⟨3, ![2, 1024, 2048]⟩ : Shape).Idx → EReal) (w : (⟨2, ![32000, 2048]⟩ : Shape).Idx → EReal) :
    (⟨2, ![2, 1024]⟩ : Shape).Idx → EReal :=
  fun i => ∑ v, rowLogits x w (i 0) (i 1) v

end Cert.Spec

end
-- ==== Proof.KI.Blocks0.lean ====
/-
  Region 0's two output arrays after the region, as whole-array functions of the two arrays it reads (at the extended
  reals): output 0 is each row's largest log-probability, output 1 each row's plain sum of logits.  Row-tile s is written
  back once, at its last vocabulary tile (point 25·s + 24), from columns that by then have folded in all 25 vocabulary
  tiles of rows 512·s … 512·s + 511: the block of an input window at point 25·s + v is rows 512·s + · of the
  activations and vocabulary rows 1280·v + ·; the online-softmax theorem turns the folded columns into the row functions;
  the two blocks (0, s) cover the [2, 1024] array.
-/
import proofs.«130178_j27539330302083_1_alg».proof.Proof.KI.Dat0
import proofs.«130178_j27539330302083_1_alg».proof.Proof.KI.StepValue
import proofs.«130178_j27539330302083_1_alg».proof.Proof.RowSpec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibFinite

variable (V : (c : Dev nD) → (b : Ref sig .tc) → Buf (Elt Ideal) ((c : Thread nD τ).loc b))

/-- The activations and the vocabulary rows as the region finds them. -/
abbrev xarr0 (c : Dev nD) : S2x1024x2048.Idx → EReal := V c main_v1
abbrev warr0 (c : Dev nD) : S32000x2048.Idx → EReal := V c main_v2

/-! ## The grid's points: t = 25·s + v -/

/-- A point's number is below 50. -/
theorem lt50R0 (t : Fin cfg0.N) : t.val < 50 := lt_of_lt_of_eq t.isLt (show cfg0.N = 50 from N_0)

/-- A number below 50 is a point's. -/
theorem lt_NR0 {n : ℕ} (h : n < 50) : n < cfg0.N := lt_of_lt_of_eq h (show 50 = cfg0.N from N_0.symm)

/-- The block indices at point t: the activations' and both outputs' blocks move with the row-tile t / 25, the
    vocabulary block with the vocabulary tile t % 25; every other axis is whole. -/
theorem idx_factsR0 : ∀ t : Fin cfg0.N,
    win0_0.index t (0 : Fin 3) = 0 ∧ win0_0.index t (1 : Fin 3) = t.val / 25 ∧ win0_0.index t (2 : Fin 3) = 0
    ∧ win0_1.index t (0 : Fin 2) = t.val % 25 ∧ win0_1.index t (1 : Fin 2) = 0
    ∧ win0_2.index t (0 : Fin 2) = 0 ∧ win0_2.index t (1 : Fin 2) = t.val / 25
    ∧ win0_3.index t (0 : Fin 2) = 0 ∧ win0_3.index t (1 : Fin 2) = t.val / 25 :=
  (by decide +kernel : ∀ t : Fin grid0.N, _)

/-- Row j of the row-tile of point t, as a row of the [2, 1024, ·] arrays: 512·(t / 25) + j. -/
def rowIdxR0 (t : Fin cfg0.N) (j : Fin 512) : Fin 1024 :=
  ⟨512 * (t.val / 25) + j.val, by have := lt50R0 t; have := j.isLt; omega⟩

/-- Vocabulary row q of the vocabulary tile of point t: 1280·(t % 25) + q. -/
def vocIdxR0 (t : Fin cfg0.N) (q : Fin 1280) : Fin 32000 :=
  ⟨1280 * (t.val % 25) + q.val, by have := q.isLt; omega⟩

/-! ## The input blocks read off their arrays -/

/-- The activations' block at point t is rows 512·(t / 25) + · of the activations. -/
theorem xblk_atR0 (c : Dev nD) (t : Fin cfg0.N) (b : Fin 2) (j : Fin 512) (h : Fin 2048) :
    xblk0 V c t (ix3 b j h) = xarr0 V c (ix3 b (rowIdxR0 t j) h) := by
  obtain ⟨e0, e1, e2, -⟩ := idx_factsR0 t
  show iblk0 V c 0 t (ix3 b j h) = _
  unfold iblk0
  rw [View.read_apply]
  show xarr0 V c (((cfg0.win 0).blk t).view.emb (ix3 b j h)) = xarr0 V c _
  congr 1
  funext a
  apply Fin.ext
  match a with
  | ⟨0, _⟩ => show win0_0.index t (0 : Fin 3) * 2 + 1 * b.val = b.val; rw [e0]; omega
  | ⟨1, _⟩ => show win0_0.index t (1 : Fin 3) * 512 + 1 * j.val = 512 * (t.val / 25) + j.val; rw [e1]; omega
  | ⟨2, _⟩ => show win0_0.index t (2 : Fin 3) * 2048 + 1 * h.val = h.val; rw [e2]; omega

/-- The vocabulary block at point t is vocabulary rows 1280·(t % 25) + ·. -/
theorem wblk_atR0 (c : Dev nD) (t : Fin cfg0.N) (q : Fin 1280) (h : Fin 2048) :
    wblk0 V c t (ix2 q h) = warr0 V c (ix2 (vocIdxR0 t q) h) := by
  obtain ⟨-, -, -, e3, e4, -⟩ := idx_factsR0 t
  show iblk0 V c 1 t (ix2 q h) = _
  unfold iblk0
  rw [View.read_apply]
  show warr0 V c (((cfg0.win 1).blk t).view.emb (ix2 q h)) = warr0 V c _
  congr 1
  funext a
  apply Fin.ext
  match a with
  | ⟨0, _⟩ => show win0_1.index t (0 : Fin 2) * 1280 + 1 * q.val = 1280 * (t.val % 25) + q.val; rw [e3]; omega
  | ⟨1, _⟩ => show win0_1.index t (1 : Fin 2) * 2048 + 1 * h.val = h.val; rw [e4]; omega

/-- So the tile's logits at point t are the row's logits at the tile's vocabulary rows. -/
theorem tileLogit_atR0 (c : Dev nD) (t : Fin cfg0.N) (b : Fin 2) (j : Fin 512) (q : Fin 1280) :
    tileLogit (xblk0 V c t) (wblk0 V c t) b j q
      = Cert.Spec.rowLogits (xarr0 V c) (warr0 V c) b (rowIdxR0 t j) (vocIdxR0 t q) :=
  congrArg₂ Cert.Spec.logit (funext fun h => xblk_atR0 V c t b j h) (funext fun h => wblk_atR0 V c t q h)

/-! ## The columns after point 25·s + v hold the fold of the first v + 1 vocabulary tiles -/

/-- Tile k, place q ↦ vocabulary row 1280·k + q. -/
def tileEquivR0 : Fin 25 × Fin 1280 ≃ Fin 32000 where
  toFun p := ⟨1280 * p.1.val + p.2.val, by have := p.1.isLt; have := p.2.isLt; omega⟩
  invFun v := (⟨v.val / 1280, by have := v.isLt; omega⟩, ⟨v.val % 1280, Nat.mod_lt _ (by decide)⟩)
  left_inv p := by
    have h1 := p.1.isLt; have h2 := p.2.isLt
    apply Prod.ext <;> apply Fin.ext
    · show (1280 * p.1.val + p.2.val) / 1280 = p.1.val; omega
    · show (1280 * p.1.val + p.2.val) % 1280 = p.2.val; omega
  right_inv v := by
    apply Fin.ext
    show 1280 * (v.val / 1280) + v.val % 1280 = v.val; omega

/-- The tile of a row that point t folds in is the row at the point's vocabulary rows. -/
theorem tiles_atR0 (zz : Fin 32000 → EReal) (t : Fin cfg0.N) (q : Fin 1280) :
    Cert.Spec.tiles tileEquivR0 zz (t.val % 25) q = zz (vocIdxR0 t q) := by
  show (if h : t.val % 25 < 25 then zz (tileEquivR0 (⟨t.val % 25, h⟩, q)) else 0) = _
  rw [dif_pos (Nat.mod_lt _ (by decide))]
  rfl

/-- Row (b, j) of the columns after point t, for t at vocabulary tile v: the running triple of the row's
    logits after v + 1 tiles. -/
theorem cols_runR0 (c : Dev nD) (b : Fin 2) (j : Fin 512) :
    ∀ (v : ℕ) (t : Fin cfg0.N), t.val % 25 = v →
      colSt (colsAt0 V c t.val t.isLt) b j
        = Cert.Spec.St.run (Cert.Spec.tiles tileEquivR0 (Cert.Spec.rowLogits (xarr0 V c) (warr0 V c) b (rowIdxR0 t j))) (v + 1) := by
  intro v
  induction v with
  | zero =>
    intro t ht
    rw [colsAt0_first V c t ht, stepAll_row, resetAll_row]
    show _ = Cert.Spec.St.init.step (Cert.Spec.tiles tileEquivR0 _ 0)
    refine congrArg (Cert.Spec.St.step Cert.Spec.St.init) (funext fun q => ?_)
    have hq := tiles_atR0 (Cert.Spec.rowLogits (xarr0 V c) (warr0 V c) b (rowIdxR0 t j)) t q
    rw [ht] at hq
    rw [tileLogit_atR0]
    exact hq.symm
  | succ v ih =>
    intro t ht
    have h50 := lt50R0 t
    have hne : t.val % 25 ≠ 0 := by omega
    rw [colsAt0_next V c t hne, stepAll_row]
    have hrow : rowIdxR0 ⟨t.val - 1, lt_NR0 (by omega)⟩ j = rowIdxR0 t j :=
      Fin.ext (by show 512 * ((t.val - 1) / 25) + j.val = 512 * (t.val / 25) + j.val; omega)
    have ih' : colSt (colsAt0 V c (t.val - 1) (Nat.lt_of_le_of_lt (Nat.sub_le _ _) t.isLt)) b j
        = Cert.Spec.St.run (Cert.Spec.tiles tileEquivR0 (Cert.Spec.rowLogits (xarr0 V c) (warr0 V c) b (rowIdxR0 t j))) (v + 1) := by
      rw [← hrow]
      exact ih ⟨t.val - 1, lt_NR0 (by omega)⟩ (by show (t.val - 1) % 25 = v; omega)
    rw [ih']
    show _ = (Cert.Spec.St.run (Cert.Spec.tiles tileEquivR0 _) (v + 1)).step (Cert.Spec.tiles tileEquivR0 _ (v + 1))
    refine congrArg (Cert.Spec.St.step _) (funext fun q => ?_)
    have hq := tiles_atR0 (Cert.Spec.rowLogits (xarr0 V c) (warr0 V c) b (rowIdxR0 t j)) t q
    rw [ht] at hq
    rw [tileLogit_atR0]
    exact hq.symm

/-! ## The two output blocks at a row-tile's last vocabulary tile -/

/-- Every logit of a row of real activations against real vocabulary rows is a real number. -/
theorem rowLogits_isRealR0 (c : Dev nD) (hx : ∀ i, IsReal (xarr0 V c i)) (hw : ∀ i, IsReal (warr0 V c i))
    (b : Fin 2) (r : Fin 1024) (v : Fin 32000) : IsReal (Cert.Spec.rowLogits (xarr0 V c) (warr0 V c) b r v) :=
  Cert.Spec.logit_isReal _ _ (fun h => hx _) (fun h => hw _)

/-- The first output block at a last vocabulary tile: the rows' largest log-probabilities. -/
theorem lpblk_atR0 (c : Dev nD) (hx : ∀ i, IsReal (xarr0 V c i)) (hw : ∀ i, IsReal (warr0 V c i))
    (t : Fin cfg0.N) (ht : t.val % 25 = 24) (b : Fin 2) (j : Fin 512) :
    outLp (F := Ideal) (colsAt0 V c t.val t.isLt).1 (colsAt0 V c t.val t.isLt).2.1 (ix2 b j)
      = Cert.Spec.seqLp (xarr0 V c) (warr0 V c) (ix2 b (rowIdxR0 t j)) := by
  rw [outLp_at]
  have hrun := cols_runR0 V c b j 24 t ht
  have hm : (colsAt0 V c t.val t.isLt).1 (rowOf b j) = _ := congrArg Cert.Spec.St.m hrun
  have hl : (colsAt0 V c t.val t.isLt).2.1 (rowOf b j) = _ := congrArg Cert.Spec.St.l hrun
  rw [hm, hl]
  exact (Cert.Spec.online_softmax tileEquivR0 (by decide) (Cert.Spec.rowLogits (xarr0 V c) (warr0 V c) b (rowIdxR0 t j)) (rowLogits_isRealR0 V c hx hw b (rowIdxR0 t j))).1

/-- The second output block at a last vocabulary tile: the rows' plain sums of logits. -/
theorem rsblk_atR0 (c : Dev nD) (hx : ∀ i, IsReal (xarr0 V c i)) (hw : ∀ i, IsReal (warr0 V c i))
    (t : Fin cfg0.N) (ht : t.val % 25 = 24) (b : Fin 2) (j : Fin 512) :
    outRs (F := Ideal) (colsAt0 V c t.val t.isLt).2.2 (ix2 b j)
      = Cert.Spec.rowSum (xarr0 V c) (warr0 V c) (ix2 b (rowIdxR0 t j)) := by
  rw [outRs_at]
  have hrun := cols_runR0 V c b j 24 t ht
  have hr : (colsAt0 V c t.val t.isLt).2.2 (rowOf b j) = _ := congrArg Cert.Spec.St.r hrun
  rw [hr]
  exact (Cert.Spec.online_softmax tileEquivR0 (by decide) (Cert.Spec.rowLogits (xarr0 V c) (warr0 V c) b (rowIdxR0 t j)) (rowLogits_isRealR0 V c hx hw b (rowIdxR0 t j))).2

/-! ## From blocks to the arrays -/

/-- What a writing point writes back to output 0 is its block of the rows' largest log-probabilities. -/
theorem flushedLp_eqR0 (c : Dev nD) (hx : ∀ i, IsReal (xarr0 V c i)) (hw : ∀ i, IsReal (warr0 V c i))
    (t : Fin cfg0.N) (hf : (cfg0.win 2).flush t = true) :
    (dat0 (F := Ideal) V c).flushed 2 t
      = ((cfg0.win 2).blk t).view.read (Elt Ideal) (Cert.Spec.seqLp (xarr0 V c) (warr0 V c)) := by
  have ht : t.val % 25 = 24 := (flush0_2 t).mp hf
  obtain ⟨-, -, -, -, -, e5, e6, -⟩ := idx_factsR0 t
  show (cfg0.win 2).cut (grid0.coords t) ((dat0 (F := Ideal) V c).after 2 t) = _
  rw [after0_2]
  funext y
  rw [View.read_apply, cast_eq]
  have hb : (y 0).val < 2 := (y 0).isLt
  have hj : (y 1).val < 512 := (y 1).isLt
  have hy : (cfg0.win 2).xinj (grid0.coords t) y = ix2 (⟨(y 0).val, hb⟩ : Fin 2) (⟨(y 1).val, hj⟩ : Fin 512) := by
    funext a
    match a with
    | ⟨0, _⟩ => rfl
    | ⟨1, _⟩ => rfl
  show outLp (F := Ideal) (colsAt0 V c t.val t.isLt).1 (colsAt0 V c t.val t.isLt).2.1 ((cfg0.win 2).xinj (grid0.coords t) y) = _
  rw [hy, lpblk_atR0 V c hx hw t ht]
  congr 1
  funext a
  apply Fin.ext
  match a with
  | ⟨0, _⟩ => show (y 0).val = win0_2.index t (0 : Fin 2) * 2 + 1 * (y 0).val; rw [e5]; omega
  | ⟨1, _⟩ => show 512 * (t.val / 25) + (y 1).val = win0_2.index t (1 : Fin 2) * 512 + 1 * (y 1).val; rw [e6]; omega

/-- What a writing point writes back to output 1 is its block of the rows' plain sums. -/
theorem flushedRs_eqR0 (c : Dev nD) (hx : ∀ i, IsReal (xarr0 V c i)) (hw : ∀ i, IsReal (warr0 V c i))
    (t : Fin cfg0.N) (hf : (cfg0.win 3).flush t = true) :
    (dat0 (F := Ideal) V c).flushed 3 t
      = ((cfg0.win 3).blk t).view.read (Elt Ideal) (Cert.Spec.rowSum (xarr0 V c) (warr0 V c)) := by
  have ht : t.val % 25 = 24 := (flush0_3 t).mp hf
  obtain ⟨-, -, -, -, -, -, -, e7, e8⟩ := idx_factsR0 t
  show (cfg0.win 3).cut (grid0.coords t) ((dat0 (F := Ideal) V c).after 3 t) = _
  rw [after0_3]
  funext y
  rw [View.read_apply, cast_eq]
  have hb : (y 0).val < 2 := (y 0).isLt
  have hj : (y 1).val < 512 := (y 1).isLt
  have hy : (cfg0.win 3).xinj (grid0.coords t) y = ix2 (⟨(y 0).val, hb⟩ : Fin 2) (⟨(y 1).val, hj⟩ : Fin 512) := by
    funext a
    match a with
    | ⟨0, _⟩ => rfl
    | ⟨1, _⟩ => rfl
  show outRs (F := Ideal) (colsAt0 V c t.val t.isLt).2.2 ((cfg0.win 3).xinj (grid0.coords t) y) = _
  rw [hy, rsblk_atR0 V c hx hw t ht]
  congr 1
  funext a
  apply Fin.ext
  match a with
  | ⟨0, _⟩ => show (y 0).val = win0_3.index t (0 : Fin 2) * 2 + 1 * (y 0).val; rw [e7]; omega
  | ⟨1, _⟩ => show 512 * (t.val / 25) + (y 1).val = win0_3.index t (1 : Fin 2) * 512 + 1 * (y 1).val; rw [e8]; omega

/-- Every entry of output 0 lies in the block of the last point of its row-tile. -/
theorem coverLpR0 (i : S2x1024.Idx) :
    ∃ t : Fin cfg0.N, (cfg0.win 2).flush t = true ∧ i ∈ ((cfg0.win 2).blk t).view.set := by
  have h0 : (i 0).val < 2 := (i 0).isLt
  have h1 : (i 1).val < 1024 := (i 1).isLt
  obtain ⟨t, tv⟩ : ∃ t : Fin cfg0.N, t.val = 25 * ((i 1).val / 512) + 24 := ⟨⟨_, lt_NR0 (by omega)⟩, rfl⟩
  obtain ⟨-, -, -, -, -, e5, e6, -⟩ := idx_factsR0 t
  refine ⟨t, (flush0_2 t).mpr (by omega), ?_⟩
  show i ∈ ((View.whole (Pipeline.arrRef spec0 2)).slice (win0_2.rect t)).set
  rw [View.set_slice_whole, Rect.mem_set_unit]
  intro a
  match a with
  | ⟨0, _⟩ =>
    show win0_2.index t (0 : Fin 2) * 2 ≤ (i 0).val ∧ (i 0).val < win0_2.index t (0 : Fin 2) * 2 + 2
    rw [e5]; omega
  | ⟨1, _⟩ =>
    show win0_2.index t (1 : Fin 2) * 512 ≤ (i 1).val ∧ (i 1).val < win0_2.index t (1 : Fin 2) * 512 + 512
    rw [e6, tv]; omega

/-- Every entry of output 1 lies in the block of the last point of its row-tile. -/
theorem coverRsR0 (i : S2x1024.Idx) :
    ∃ t : Fin cfg0.N, (cfg0.win 3).flush t = true ∧ i ∈ ((cfg0.win 3).blk t).view.set := by
  have h0 : (i 0).val < 2 := (i 0).isLt
  have h1 : (i 1).val < 1024 := (i 1).isLt
  obtain ⟨t, tv⟩ : ∃ t : Fin cfg0.N, t.val = 25 * ((i 1).val / 512) + 24 := ⟨⟨_, lt_NR0 (by omega)⟩, rfl⟩
  obtain ⟨-, -, -, -, -, -, -, e7, e8⟩ := idx_factsR0 t
  refine ⟨t, (flush0_3 t).mpr (by omega), ?_⟩
  show i ∈ ((View.whole (Pipeline.arrRef spec0 3)).slice (win0_3.rect t)).set
  rw [View.set_slice_whole, Rect.mem_set_unit]
  intro a
  match a with
  | ⟨0, _⟩ =>
    show win0_3.index t (0 : Fin 2) * 2 ≤ (i 0).val ∧ (i 0).val < win0_3.index t (0 : Fin 2) * 2 + 2
    rw [e7]; omega
  | ⟨1, _⟩ =>
    show win0_3.index t (1 : Fin 2) * 512 ≤ (i 1).val ∧ (i 1).val < win0_3.index t (1 : Fin 2) * 512 + 512
    rw [e8, tv]; omega

/-- Output 0 of region 0 after the region: each row's largest log-probability. -/
theorem lp0_value (c : Dev nD) (hx : ∀ i, IsReal (xarr0 V c i)) (hw : ∀ i, IsReal (warr0 V c i)) :
    ((dat0 (F := Ideal) V c).arrAt 2 cfg0.N : S2x1024.Idx → EReal) = Cert.Spec.seqLp (xarr0 V c) (warr0 V c) :=
  (dat0 (F := Ideal) V c).arrAt_eq_of_cover 2 (Cert.Spec.seqLp (xarr0 V c) (warr0 V c))
    (fun t hf => flushedLp_eqR0 V c hx hw t hf) coverLpR0

/-- Output 1 of region 0 after the region: each row's plain sum of logits. -/
theorem rs0_value (c : Dev nD) (hx : ∀ i, IsReal (xarr0 V c i)) (hw : ∀ i, IsReal (warr0 V c i)) :
    ((dat0 (F := Ideal) V c).arrAt 3 cfg0.N : S2x1024.Idx → EReal) = Cert.Spec.rowSum (xarr0 V c) (warr0 V c) :=
  (dat0 (F := Ideal) V c).arrAt_eq_of_cover 3 (Cert.Spec.rowSum (xarr0 V c) (warr0 V c))
    (fun t hf => flushedRs_eqR0 V c hx hw t hf) coverRsR0

end Cert.KernelIdeal.Hand

end
-- ==== Proof.KI.StepValue1.lean ====
/-
  Region 1 runs the same kernel text, so its per-point functions are the same terms as region 0's; the row-by-row
  readings carry over unchanged.
-/
import proofs.«130178_j27539330302083_1_alg».proof.Proof.KI.Step1
import proofs.«130178_j27539330302083_1_alg».proof.Proof.KI.StepValue

noncomputable section

namespace Cert.KernelIdeal.Hand

open Idealize.ShloMosaic Idealize.ShloMosaic.ValueIdx Cert.KernelIdeal Cert.KernelIdeal.Gen

/-- Region 1's step is region 0's (the two payload families are one text). -/
theorem stepAll1_eq (x : Vec Ideal S2x512x2048 .bf16) (w : Vec Ideal S1280x2048 .bf16)
    (s : Vec Ideal S1024x1 .f32 × Vec Ideal S1024x1 .f32 × Vec Ideal S1024x1 .f32) :
    stepAll1 (F := Ideal) x w s = stepAll (F := Ideal) x w s := rfl

theorem resetAll1_eq : resetAll1 (F := Ideal) = resetAll (F := Ideal) := rfl

theorem stepAll_row1 (x : Vec Ideal S2x512x2048 .bf16) (w : Vec Ideal S1280x2048 .bf16)
    (s : Vec Ideal S1024x1 .f32 × Vec Ideal S1024x1 .f32 × Vec Ideal S1024x1 .f32) (b : Fin 2) (j : Fin 512) :
    colSt (stepAll1 (F := Ideal) x w s) b j = (colSt s b j).step (fun q : Fin 1280 => tileLogit x w b j q) := by
  rw [stepAll1_eq]; exact stepAll_row x w s b j

theorem resetAll_row1 (b : Fin 2) (j : Fin 512) : colSt (resetAll1 (F := Ideal)) b j = Cert.Spec.St.init := by
  rw [resetAll1_eq]; exact resetAll_row b j

theorem outLp_at1 (ms ls : Vec Ideal S1024x1 .f32) (b : Fin 2) (j : Fin 512) :
    outLp1 (F := Ideal) ms ls (ix2 b j) = ms (rowOf b j) - (ms (rowOf b j) + Ideal.log (ls (rowOf b j))) :=
  outLp_at ms ls b j

theorem outRs_at1 (rs : Vec Ideal S1024x1 .f32) (b : Fin 2) (j : Fin 512) :
    outRs1 (F := Ideal) rs (ix2 b j) = rs (rowOf b j) :=
  outRs_at rs b j

end Cert.KernelIdeal.Hand

end
-- ==== Proof.KI.Blocks1.lean ====
/-
  region 1's two output arrays after the region, as whole-array functions of the two arrays it reads (at the extended
  reals): output 0 is each row's largest log-probability, output 1 each row's plain sum of logits.  Row-tile s is written
  back once, at its last vocabulary tile (point 25·s + 24), from columns that by then have folded in all 25 vocabulary
  tiles of rows 512·s … 512·s + 511: the block of an input window at point 25·s + v is rows 512·s + · of the
  activations and vocabulary rows 1280·v + ·; the online-softmax theorem turns the folded columns into the row functions;
  the two blocks (0, s) cover the [2, 1024] array.
-/
import proofs.«130178_j27539330302083_1_alg».proof.Proof.KI.Dat1
import proofs.«130178_j27539330302083_1_alg».proof.Proof.KI.StepValue1
import proofs.«130178_j27539330302083_1_alg».proof.Proof.RowSpec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibFinite

variable (V : (c : Dev nD) → (b : Ref sig .tc) → Buf (Elt Ideal) ((c : Thread nD τ).loc b))

/-- The activations and the vocabulary rows as the region finds them. -/
abbrev xarr1 (c : Dev nD) : S2x1024x2048.Idx → EReal := V c main_v4
abbrev warr1 (c : Dev nD) : S32000x2048.Idx → EReal := V c main_v5

/-! ## The grid's points: t = 25·s + v -/

/-- A point's number is below 50. -/
theorem lt50R1 (t : Fin cfg1.N) : t.val < 50 := lt_of_lt_of_eq t.isLt (show cfg1.N = 50 from N_1)

/-- A number below 50 is a point's. -/
theorem lt_NR1 {n : ℕ} (h : n < 50) : n < cfg1.N := lt_of_lt_of_eq h (show 50 = cfg1.N from N_1.symm)

/-- The block indices at point t: the activations' and both outputs' blocks move with the row-tile t / 25, the
    vocabulary block with the vocabulary tile t % 25; every other axis is whole. -/
theorem idx_factsR1 : ∀ t : Fin cfg1.N,
    win1_0.index t (0 : Fin 3) = 0 ∧ win1_0.index t (1 : Fin 3) = t.val / 25 ∧ win1_0.index t (2 : Fin 3) = 0
    ∧ win1_1.index t (0 : Fin 2) = t.val % 25 ∧ win1_1.index t (1 : Fin 2) = 0
    ∧ win1_2.index t (0 : Fin 2) = 0 ∧ win1_2.index t (1 : Fin 2) = t.val / 25
    ∧ win1_3.index t (0 : Fin 2) = 0 ∧ win1_3.index t (1 : Fin 2) = t.val / 25 :=
  (by decide +kernel : ∀ t : Fin grid1.N, _)

/-- Row j of the row-tile of point t, as a row of the [2, 1024, ·] arrays: 512·(t / 25) + j. -/
def rowIdxR1 (t : Fin cfg1.N) (j : Fin 512) : Fin 1024 :=
  ⟨512 * (t.val / 25) + j.val, by have := lt50R1 t; have := j.isLt; omega⟩

/-- Vocabulary row q of the vocabulary tile of point t: 1280·(t % 25) + q. -/
def vocIdxR1 (t : Fin cfg1.N) (q : Fin 1280) : Fin 32000 :=
  ⟨1280 * (t.val % 25) + q.val, by have := q.isLt; omega⟩

/-! ## The input blocks read off their arrays -/

/-- The activations' block at point t is rows 512·(t / 25) + · of the activations. -/
theorem xblk_atR1 (c : Dev nD) (t : Fin cfg1.N) (b : Fin 2) (j : Fin 512) (h : Fin 2048) :
    xblk1 V c t (ix3 b j h) = xarr1 V c (ix3 b (rowIdxR1 t j) h) := by
  obtain ⟨e0, e1, e2, -⟩ := idx_factsR1 t
  show iblk1 V c 0 t (ix3 b j h) = _
  unfold iblk1
  rw [View.read_apply]
  show xarr1 V c (((cfg1.win 0).blk t).view.emb (ix3 b j h)) = xarr1 V c _
  congr 1
  funext a
  apply Fin.ext
  match a with
  | ⟨0, _⟩ => show win1_0.index t (0 : Fin 3) * 2 + 1 * b.val = b.val; rw [e0]; omega
  | ⟨1, _⟩ => show win1_0.index t (1 : Fin 3) * 512 + 1 * j.val = 512 * (t.val / 25) + j.val; rw [e1]; omega
  | ⟨2, _⟩ => show win1_0.index t (2 : Fin 3) * 2048 + 1 * h.val = h.val; rw [e2]; omega

/-- The vocabulary block at point t is vocabulary rows 1280·(t % 25) + ·. -/
theorem wblk_atR1 (c : Dev nD) (t : Fin cfg1.N) (q : Fin 1280) (h : Fin 2048) :
    wblk1 V c t (ix2 q h) = warr1 V c (ix2 (vocIdxR1 t q) h) := by
  obtain ⟨-, -, -, e3, e4, -⟩ := idx_factsR1 t
  show iblk1 V c 1 t (ix2 q h) = _
  unfold iblk1
  rw [View.read_apply]
  show warr1 V c (((cfg1.win 1).blk t).view.emb (ix2 q h)) = warr1 V c _
  congr 1
  funext a
  apply Fin.ext
  match a with
  | ⟨0, _⟩ => show win1_1.index t (0 : Fin 2) * 1280 + 1 * q.val = 1280 * (t.val % 25) + q.val; rw [e3]; omega
  | ⟨1, _⟩ => show win1_1.index t (1 : Fin 2) * 2048 + 1 * h.val = h.val; rw [e4]; omega

/-- So the tile's logits at point t are the row's logits at the tile's vocabulary rows. -/
theorem tileLogit_atR1 (c : Dev nD) (t : Fin cfg1.N) (b : Fin 2) (j : Fin 512) (q : Fin 1280) :
    tileLogit (xblk1 V c t) (wblk1 V c t) b j q
      = Cert.Spec.rowLogits (xarr1 V c) (warr1 V c) b (rowIdxR1 t j) (vocIdxR1 t q) :=
  congrArg₂ Cert.Spec.logit (funext fun h => xblk_atR1 V c t b j h) (funext fun h => wblk_atR1 V c t q h)

/-! ## The columns after point 25·s + v hold the fold of the first v + 1 vocabulary tiles -/

/-- Tile k, place q ↦ vocabulary row 1280·k + q. -/
def tileEquivR1 : Fin 25 × Fin 1280 ≃ Fin 32000 where
  toFun p := ⟨1280 * p.1.val + p.2.val, by have := p.1.isLt; have := p.2.isLt; omega⟩
  invFun v := (⟨v.val / 1280, by have := v.isLt; omega⟩, ⟨v.val % 1280, Nat.mod_lt _ (by decide)⟩)
  left_inv p := by
    have h1 := p.1.isLt; have h2 := p.2.isLt
    apply Prod.ext <;> apply Fin.ext
    · show (1280 * p.1.val + p.2.val) / 1280 = p.1.val; omega
    · show (1280 * p.1.val + p.2.val) % 1280 = p.2.val; omega
  right_inv v := by
    apply Fin.ext
    show 1280 * (v.val / 1280) + v.val % 1280 = v.val; omega

/-- The tile of a row that point t folds in is the row at the point's vocabulary rows. -/
theorem tiles_atR1 (zz : Fin 32000 → EReal) (t : Fin cfg1.N) (q : Fin 1280) :
    Cert.Spec.tiles tileEquivR1 zz (t.val % 25) q = zz (vocIdxR1 t q) := by
  show (if h : t.val % 25 < 25 then zz (tileEquivR1 (⟨t.val % 25, h⟩, q)) else 0) = _
  rw [dif_pos (Nat.mod_lt _ (by decide))]
  rfl

/-- Row (b, j) of the columns after point t, for t at vocabulary tile v: the running triple of the row's
    logits after v + 1 tiles. -/
theorem cols_runR1 (c : Dev nD) (b : Fin 2) (j : Fin 512) :
    ∀ (v : ℕ) (t : Fin cfg1.N), t.val % 25 = v →
      colSt (colsAt1 V c t.val t.isLt) b j
        = Cert.Spec.St.run (Cert.Spec.tiles tileEquivR1 (Cert.Spec.rowLogits (xarr1 V c) (warr1 V c) b (rowIdxR1 t j))) (v + 1) := by
  intro v
  induction v with
  | zero =>
    intro t ht
    rw [colsAt1_first V c t ht, stepAll_row1, resetAll_row1]
    show _ = Cert.Spec.St.init.step (Cert.Spec.tiles tileEquivR1 _ 0)
    refine congrArg (Cert.Spec.St.step Cert.Spec.St.init) (funext fun q => ?_)
    have hq := tiles_atR1 (Cert.Spec.rowLogits (xarr1 V c) (warr1 V c) b (rowIdxR1 t j)) t q
    rw [ht] at hq
    rw [tileLogit_atR1]
    exact hq.symm
  | succ v ih =>
    intro t ht
    have h50 := lt50R1 t
    have hne : t.val % 25 ≠ 0 := by omega
    rw [colsAt1_next V c t hne, stepAll_row1]
    have hrow : rowIdxR1 ⟨t.val - 1, lt_NR1 (by omega)⟩ j = rowIdxR1 t j :=
      Fin.ext (by show 512 * ((t.val - 1) / 25) + j.val = 512 * (t.val / 25) + j.val; omega)
    have ih' : colSt (colsAt1 V c (t.val - 1) (Nat.lt_of_le_of_lt (Nat.sub_le _ _) t.isLt)) b j
        = Cert.Spec.St.run (Cert.Spec.tiles tileEquivR1 (Cert.Spec.rowLogits (xarr1 V c) (warr1 V c) b (rowIdxR1 t j))) (v + 1) := by
      rw [← hrow]
      exact ih ⟨t.val - 1, lt_NR1 (by omega)⟩ (by show (t.val - 1) % 25 = v; omega)
    rw [ih']
    show _ = (Cert.Spec.St.run (Cert.Spec.tiles tileEquivR1 _) (v + 1)).step (Cert.Spec.tiles tileEquivR1 _ (v + 1))
    refine congrArg (Cert.Spec.St.step _) (funext fun q => ?_)
    have hq := tiles_atR1 (Cert.Spec.rowLogits (xarr1 V c) (warr1 V c) b (rowIdxR1 t j)) t q
    rw [ht] at hq
    rw [tileLogit_atR1]
    exact hq.symm

/-! ## The two output blocks at a row-tile's last vocabulary tile -/

/-- Every logit of a row of real activations against real vocabulary rows is a real number. -/
theorem rowLogits_isRealR1 (c : Dev nD) (hx : ∀ i, IsReal (xarr1 V c i)) (hw : ∀ i, IsReal (warr1 V c i))
    (b : Fin 2) (r : Fin 1024) (v : Fin 32000) : IsReal (Cert.Spec.rowLogits (xarr1 V c) (warr1 V c) b r v) :=
  Cert.Spec.logit_isReal _ _ (fun h => hx _) (fun h => hw _)

/-- The first output block at a last vocabulary tile: the rows' largest log-probabilities. -/
theorem lpblk_atR1 (c : Dev nD) (hx : ∀ i, IsReal (xarr1 V c i)) (hw : ∀ i, IsReal (warr1 V c i))
    (t : Fin cfg1.N) (ht : t.val % 25 = 24) (b : Fin 2) (j : Fin 512) :
    outLp1 (F := Ideal) (colsAt1 V c t.val t.isLt).1 (colsAt1 V c t.val t.isLt).2.1 (ix2 b j)
      = Cert.Spec.seqLp (xarr1 V c) (warr1 V c) (ix2 b (rowIdxR1 t j)) := by
  rw [outLp_at1]
  have hrun := cols_runR1 V c b j 24 t ht
  have hm : (colsAt1 V c t.val t.isLt).1 (rowOf b j) = _ := congrArg Cert.Spec.St.m hrun
  have hl : (colsAt1 V c t.val t.isLt).2.1 (rowOf b j) = _ := congrArg Cert.Spec.St.l hrun
  rw [hm, hl]
  exact (Cert.Spec.online_softmax tileEquivR1 (by decide) (Cert.Spec.rowLogits (xarr1 V c) (warr1 V c) b (rowIdxR1 t j)) (rowLogits_isRealR1 V c hx hw b (rowIdxR1 t j))).1

/-- The second output block at a last vocabulary tile: the rows' plain sums of logits. -/
theorem rsblk_atR1 (c : Dev nD) (hx : ∀ i, IsReal (xarr1 V c i)) (hw : ∀ i, IsReal (warr1 V c i))
    (t : Fin cfg1.N) (ht : t.val % 25 = 24) (b : Fin 2) (j : Fin 512) :
    outRs1 (F := Ideal) (colsAt1 V c t.val t.isLt).2.2 (ix2 b j)
      = Cert.Spec.rowSum (xarr1 V c) (warr1 V c) (ix2 b (rowIdxR1 t j)) := by
  rw [outRs_at1]
  have hrun := cols_runR1 V c b j 24 t ht
  have hr : (colsAt1 V c t.val t.isLt).2.2 (rowOf b j) = _ := congrArg Cert.Spec.St.r hrun
  rw [hr]
  exact (Cert.Spec.online_softmax tileEquivR1 (by decide) (Cert.Spec.rowLogits (xarr1 V c) (warr1 V c) b (rowIdxR1 t j)) (rowLogits_isRealR1 V c hx hw b (rowIdxR1 t j))).2

/-! ## From blocks to the arrays -/

/-- What a writing point writes back to output 0 is its block of the rows' largest log-probabilities. -/
theorem flushedLp_eqR1 (c : Dev nD) (hx : ∀ i, IsReal (xarr1 V c i)) (hw : ∀ i, IsReal (warr1 V c i))
    (t : Fin cfg1.N) (hf : (cfg1.win 2).flush t = true) :
    (dat1 (F := Ideal) V c).flushed 2 t
      = ((cfg1.win 2).blk t).view.read (Elt Ideal) (Cert.Spec.seqLp (xarr1 V c) (warr1 V c)) := by
  have ht : t.val % 25 = 24 := (flush1_2 t).mp hf
  obtain ⟨-, -, -, -, -, e5, e6, -⟩ := idx_factsR1 t
  show (cfg1.win 2).cut (grid1.coords t) ((dat1 (F := Ideal) V c).after 2 t) = _
  rw [after1_2]
  funext y
  rw [View.read_apply, cast_eq]
  have hb : (y 0).val < 2 := (y 0).isLt
  have hj : (y 1).val < 512 := (y 1).isLt
  have hy : (cfg1.win 2).xinj (grid1.coords t) y = ix2 (⟨(y 0).val, hb⟩ : Fin 2) (⟨(y 1).val, hj⟩ : Fin 512) := by
    funext a
    match a with
    | ⟨0, _⟩ => rfl
    | ⟨1, _⟩ => rfl
  show outLp1 (F := Ideal) (colsAt1 V c t.val t.isLt).1 (colsAt1 V c t.val t.isLt).2.1 ((cfg1.win 2).xinj (grid1.coords t) y) = _
  rw [hy, lpblk_atR1 V c hx hw t ht]
  congr 1
  funext a
  apply Fin.ext
  match a with
  | ⟨0, _⟩ => show (y 0).val = win1_2.index t (0 : Fin 2) * 2 + 1 * (y 0).val; rw [e5]; omega
  | ⟨1, _⟩ => show 512 * (t.val / 25) + (y 1).val = win1_2.index t (1 : Fin 2) * 512 + 1 * (y 1).val; rw [e6]; omega

/-- What a writing point writes back to output 1 is its block of the rows' plain sums. -/
theorem flushedRs_eqR1 (c : Dev nD) (hx : ∀ i, IsReal (xarr1 V c i)) (hw : ∀ i, IsReal (warr1 V c i))
    (t : Fin cfg1.N) (hf : (cfg1.win 3).flush t = true) :
    (dat1 (F := Ideal) V c).flushed 3 t
      = ((cfg1.win 3).blk t).view.read (Elt Ideal) (Cert.Spec.rowSum (xarr1 V c) (warr1 V c)) := by
  have ht : t.val % 25 = 24 := (flush1_3 t).mp hf
  obtain ⟨-, -, -, -, -, -, -, e7, e8⟩ := idx_factsR1 t
  show (cfg1.win 3).cut (grid1.coords t) ((dat1 (F := Ideal) V c).after 3 t) = _
  rw [after1_3]
  funext y
  rw [View.read_apply, cast_eq]
  have hb : (y 0).val < 2 := (y 0).isLt
  have hj : (y 1).val < 512 := (y 1).isLt
  have hy : (cfg1.win 3).xinj (grid1.coords t) y = ix2 (⟨(y 0).val, hb⟩ : Fin 2) (⟨(y 1).val, hj⟩ : Fin 512) := by
    funext a
    match a with
    | ⟨0, _⟩ => rfl
    | ⟨1, _⟩ => rfl
  show outRs1 (F := Ideal) (colsAt1 V c t.val t.isLt).2.2 ((cfg1.win 3).xinj (grid1.coords t) y) = _
  rw [hy, rsblk_atR1 V c hx hw t ht]
  congr 1
  funext a
  apply Fin.ext
  match a with
  | ⟨0, _⟩ => show (y 0).val = win1_3.index t (0 : Fin 2) * 2 + 1 * (y 0).val; rw [e7]; omega
  | ⟨1, _⟩ => show 512 * (t.val / 25) + (y 1).val = win1_3.index t (1 : Fin 2) * 512 + 1 * (y 1).val; rw [e8]; omega

/-- Every entry of output 0 lies in the block of the last point of its row-tile. -/
theorem coverLpR1 (i : S2x1024.Idx) :
    ∃ t : Fin cfg1.N, (cfg1.win 2).flush t = true ∧ i ∈ ((cfg1.win 2).blk t).view.set := by
  have h0 : (i 0).val < 2 := (i 0).isLt
  have h1 : (i 1).val < 1024 := (i 1).isLt
  obtain ⟨t, tv⟩ : ∃ t : Fin cfg1.N, t.val = 25 * ((i 1).val / 512) + 24 := ⟨⟨_, lt_NR1 (by omega)⟩, rfl⟩
  obtain ⟨-, -, -, -, -, e5, e6, -⟩ := idx_factsR1 t
  refine ⟨t, (flush1_2 t).mpr (by omega), ?_⟩
  show i ∈ ((View.whole (Pipeline.arrRef spec1 2)).slice (win1_2.rect t)).set
  rw [View.set_slice_whole, Rect.mem_set_unit]
  intro a
  match a with
  | ⟨0, _⟩ =>
    show win1_2.index t (0 : Fin 2) * 2 ≤ (i 0).val ∧ (i 0).val < win1_2.index t (0 : Fin 2) * 2 + 2
    rw [e5]; omega
  | ⟨1, _⟩ =>
    show win1_2.index t (1 : Fin 2) * 512 ≤ (i 1).val ∧ (i 1).val < win1_2.index t (1 : Fin 2) * 512 + 512
    rw [e6, tv]; omega

/-- Every entry of output 1 lies in the block of the last point of its row-tile. -/
theorem coverRsR1 (i : S2x1024.Idx) :
    ∃ t : Fin cfg1.N, (cfg1.win 3).flush t = true ∧ i ∈ ((cfg1.win 3).blk t).view.set := by
  have h0 : (i 0).val < 2 := (i 0).isLt
  have h1 : (i 1).val < 1024 := (i 1).isLt
  obtain ⟨t, tv⟩ : ∃ t : Fin cfg1.N, t.val = 25 * ((i 1).val / 512) + 24 := ⟨⟨_, lt_NR1 (by omega)⟩, rfl⟩
  obtain ⟨-, -, -, -, -, -, -, e7, e8⟩ := idx_factsR1 t
  refine ⟨t, (flush1_3 t).mpr (by omega), ?_⟩
  show i ∈ ((View.whole (Pipeline.arrRef spec1 3)).slice (win1_3.rect t)).set
  rw [View.set_slice_whole, Rect.mem_set_unit]
  intro a
  match a with
  | ⟨0, _⟩ =>
    show win1_3.index t (0 : Fin 2) * 2 ≤ (i 0).val ∧ (i 0).val < win1_3.index t (0 : Fin 2) * 2 + 2
    rw [e7]; omega
  | ⟨1, _⟩ =>
    show win1_3.index t (1 : Fin 2) * 512 ≤ (i 1).val ∧ (i 1).val < win1_3.index t (1 : Fin 2) * 512 + 512
    rw [e8, tv]; omega

/-- Output 0 of region 1 after the region: each row's largest log-probability. -/
theorem lp1_value (c : Dev nD) (hx : ∀ i, IsReal (xarr1 V c i)) (hw : ∀ i, IsReal (warr1 V c i)) :
    ((dat1 (F := Ideal) V c).arrAt 2 cfg1.N : S2x1024.Idx → EReal) = Cert.Spec.seqLp (xarr1 V c) (warr1 V c) :=
  (dat1 (F := Ideal) V c).arrAt_eq_of_cover 2 (Cert.Spec.seqLp (xarr1 V c) (warr1 V c))
    (fun t hf => flushedLp_eqR1 V c hx hw t hf) coverLpR1

/-- Output 1 of region 1 after the region: each row's plain sum of logits. -/
theorem rs1_value (c : Dev nD) (hx : ∀ i, IsReal (xarr1 V c i)) (hw : ∀ i, IsReal (warr1 V c i)) :
    ((dat1 (F := Ideal) V c).arrAt 3 cfg1.N : S2x1024.Idx → EReal) = Cert.Spec.rowSum (xarr1 V c) (warr1 V c) :=
  (dat1 (F := Ideal) V c).arrAt_eq_of_cover 3 (Cert.Spec.rowSum (xarr1 V c) (warr1 V c))
    (fun t hf => flushedRs_eqR1 V c hx hw t hf) coverRsR1

end Cert.KernelIdeal.Hand

end
-- ==== Proof.KI.Results.lean ====
/-
  The kernel program's five results as pure terms of its argument arrays (at the extended reals).

  The last valuation is the host tail applied to the valuation the second region leaves; the tail reads five arrays:
  the two regions' first outputs, region 0's second output, the converted mask and the rewards.  Region 0's outputs are
  the row functions (each row's largest log-probability, each row's plain sum of logits) of the arrays the region reads,
  which are the first two arguments; region 1's first output is the same row function of the fifth and sixth arguments;
  the converted mask is the integer-to-float conversion of the third argument and the rewards are the fourth.  So each
  result is the tail's term at those five functions of the arguments, provided the four float arguments hold real numbers.
-/
import proofs.«130178_j27539330302083_1_alg».proof.Proof.KI.Run
import proofs.«130178_j27539330302083_1_alg».proof.Proof.KI.Entry
import proofs.«130178_j27539330302083_1_alg».proof.Proof.KI.Tail
import proofs.«130178_j27539330302083_1_alg».proof.Proof.KI.Blocks0
import proofs.«130178_j27539330302083_1_alg».proof.Proof.KI.Blocks1
import proofs.«130178_j27539330302083_1_alg».proof.Proof.RowSpec
import proofs.«130178_j27539330302083_1_alg».proof.Proof.LibFiniteSums

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibFinite

variable (m : (ℓ : Loc nD τ sig) → Buf (Elt Ideal) ℓ)

/-- Region 0 reads the first two arguments. -/
theorem xarr0_arg (c : Dev nD) : xarr0 (Vent0 m) c = (m ((c : Thread nD τ).loc main_arg0) : S2x1024x2048.Idx → EReal) := V1_v1 m c
theorem warr0_arg (c : Dev nD) : warr0 (Vent0 m) c = (m ((c : Thread nD τ).loc main_arg1) : S32000x2048.Idx → EReal) := V1_v2 m c
/-- Region 1 reads the fifth and sixth arguments. -/
theorem xarr1_arg (c : Dev nD) : xarr1 (Vent1 m) c = (m ((c : Thread nD τ).loc main_arg4) : S2x1024x2048.Idx → EReal) := V3_v4 m (outs m) c
theorem warr1_arg (c : Dev nD) : warr1 (Vent1 m) c = (m ((c : Thread nD τ).loc main_arg5) : S32000x2048.Idx → EReal) := V3_v5 m (outs m) c

/-- Region 0's first output is each row's largest log-probability of the first two arguments. -/
theorem lp0_args (c : Dev nD) (h0 : ∀ i, IsReal ((m ((c : Thread nD τ).loc main_arg0) : S2x1024x2048.Idx → EReal) i))
    (h1 : ∀ i, IsReal ((m ((c : Thread nD τ).loc main_arg1) : S32000x2048.Idx → EReal) i)) :
    (outs m 2 main_v3_0 c : S2x1024.Idx → EReal) = Cert.Spec.seqLp (m ((c : Thread nD τ).loc main_arg0) : S2x1024x2048.Idx → EReal) (m ((c : Thread nD τ).loc main_arg1) : S32000x2048.Idx → EReal) := by
  rw [outs_lp0, lp0_value (Vent0 m) c (fun i => by rw [xarr0_arg]; exact h0 i) (fun i => by rw [warr0_arg]; exact h1 i),
    xarr0_arg, warr0_arg]

/-- Region 0's second output is each row's plain sum of logits of the first two arguments. -/
theorem rs0_args (c : Dev nD) (h0 : ∀ i, IsReal ((m ((c : Thread nD τ).loc main_arg0) : S2x1024x2048.Idx → EReal) i))
    (h1 : ∀ i, IsReal ((m ((c : Thread nD τ).loc main_arg1) : S32000x2048.Idx → EReal) i)) :
    (outs m 2 main_v3_1 c : S2x1024.Idx → EReal) = Cert.Spec.rowSum (m ((c : Thread nD τ).loc main_arg0) : S2x1024x2048.Idx → EReal) (m ((c : Thread nD τ).loc main_arg1) : S32000x2048.Idx → EReal) := by
  rw [outs_rs0, rs0_value (Vent0 m) c (fun i => by rw [xarr0_arg]; exact h0 i) (fun i => by rw [warr0_arg]; exact h1 i),
    xarr0_arg, warr0_arg]

/-- Region 1's first output is each row's largest log-probability of the fifth and sixth arguments. -/
theorem lp1_args (c : Dev nD) (h4 : ∀ i, IsReal ((m ((c : Thread nD τ).loc main_arg4) : S2x1024x2048.Idx → EReal) i))
    (h5 : ∀ i, IsReal ((m ((c : Thread nD τ).loc main_arg5) : S32000x2048.Idx → EReal) i)) :
    (outs m 4 main_v6_0 c : S2x1024.Idx → EReal) = Cert.Spec.seqLp (m ((c : Thread nD τ).loc main_arg4) : S2x1024x2048.Idx → EReal) (m ((c : Thread nD τ).loc main_arg5) : S32000x2048.Idx → EReal) := by
  rw [outs_lp1, lp1_value (Vent1 m) c (fun i => by rw [xarr1_arg]; exact h4 i) (fun i => by rw [warr1_arg]; exact h5 i),
    xarr1_arg, warr1_arg]

/-- The loss, as a term of the argument arrays alone. -/
theorem kernel_v29 (c : Dev nD)
    (h0 : ∀ i, IsReal ((m ((c : Thread nD τ).loc main_arg0) : S2x1024x2048.Idx → EReal) i))
    (h1 : ∀ i, IsReal ((m ((c : Thread nD τ).loc main_arg1) : S32000x2048.Idx → EReal) i))
    (h4 : ∀ i, IsReal ((m ((c : Thread nD τ).loc main_arg4) : S2x1024x2048.Idx → EReal) i))
    (h5 : ∀ i, IsReal ((m ((c : Thread nD τ).loc main_arg5) : S32000x2048.Idx → EReal) i)) :
    Gen.V13 m (outs m) c main_v29
      = res29 (Cert.Spec.seqLp (m ((c : Thread nD τ).loc main_arg0) : S2x1024x2048.Idx → EReal) (m ((c : Thread nD τ).loc main_arg1) : S32000x2048.Idx → EReal))
          (Cert.Spec.seqLp (m ((c : Thread nD τ).loc main_arg4) : S2x1024x2048.Idx → EReal) (m ((c : Thread nD τ).loc main_arg5) : S32000x2048.Idx → EReal))
          (Cert.Spec.rowSum (m ((c : Thread nD τ).loc main_arg0) : S2x1024x2048.Idx → EReal) (m ((c : Thread nD τ).loc main_arg1) : S32000x2048.Idx → EReal))
          (sitofp .f32 (m ((c : Thread nD τ).loc main_arg2))) (m ((c : Thread nD τ).loc main_arg3)) := by
  rw [V13_eq]
  show tailAfter (Gen.V4 m (outs m) c) (Proc.devRef .tc main_v29) = _
  rw [tail_v29, V4_v3_0, V4_v6_0, V4_v3_1, V4_v0, V4_arg3, lp0_args m c h0 h1, lp1_args m c h4 h5, rs0_args m c h0 h1]

/-- The mean of the masked sums of the first region's log-probabilities, as a term of the argument arrays alone. -/
theorem kernel_v33 (c : Dev nD)
    (h0 : ∀ i, IsReal ((m ((c : Thread nD τ).loc main_arg0) : S2x1024x2048.Idx → EReal) i))
    (h1 : ∀ i, IsReal ((m ((c : Thread nD τ).loc main_arg1) : S32000x2048.Idx → EReal) i))
    (h4 : ∀ i, IsReal ((m ((c : Thread nD τ).loc main_arg4) : S2x1024x2048.Idx → EReal) i))
    (h5 : ∀ i, IsReal ((m ((c : Thread nD τ).loc main_arg5) : S32000x2048.Idx → EReal) i)) :
    Gen.V13 m (outs m) c main_v33
      = res33 (Cert.Spec.seqLp (m ((c : Thread nD τ).loc main_arg0) : S2x1024x2048.Idx → EReal) (m ((c : Thread nD τ).loc main_arg1) : S32000x2048.Idx → EReal))
          (Cert.Spec.seqLp (m ((c : Thread nD τ).loc main_arg4) : S2x1024x2048.Idx → EReal) (m ((c : Thread nD τ).loc main_arg5) : S32000x2048.Idx → EReal))
          (Cert.Spec.rowSum (m ((c : Thread nD τ).loc main_arg0) : S2x1024x2048.Idx → EReal) (m ((c : Thread nD τ).loc main_arg1) : S32000x2048.Idx → EReal))
          (sitofp .f32 (m ((c : Thread nD τ).loc main_arg2))) (m ((c : Thread nD τ).loc main_arg3)) := by
  rw [V13_eq]
  show tailAfter (Gen.V4 m (outs m) c) (Proc.devRef .tc main_v33) = _
  rw [tail_v33, V4_v3_0, V4_v6_0, V4_v3_1, V4_v0, V4_arg3, lp0_args m c h0 h1, lp1_args m c h4 h5, rs0_args m c h0 h1]

/-- Their standard deviation, as a term of the argument arrays alone. -/
theorem kernel_v34 (c : Dev nD)
    (h0 : ∀ i, IsReal ((m ((c : Thread nD τ).loc main_arg0) : S2x1024x2048.Idx → EReal) i))
    (h1 : ∀ i, IsReal ((m ((c : Thread nD τ).loc main_arg1) : S32000x2048.Idx → EReal) i))
    (h4 : ∀ i, IsReal ((m ((c : Thread nD τ).loc main_arg4) : S2x1024x2048.Idx → EReal) i))
    (h5 : ∀ i, IsReal ((m ((c : Thread nD τ).loc main_arg5) : S32000x2048.Idx → EReal) i)) :
    Gen.V13 m (outs m) c main_v34
      = res34 (Cert.Spec.seqLp (m ((c : Thread nD τ).loc main_arg0) : S2x1024x2048.Idx → EReal) (m ((c : Thread nD τ).loc main_arg1) : S32000x2048.Idx → EReal))
          (Cert.Spec.seqLp (m ((c : Thread nD τ).loc main_arg4) : S2x1024x2048.Idx → EReal) (m ((c : Thread nD τ).loc main_arg5) : S32000x2048.Idx → EReal))
          (Cert.Spec.rowSum (m ((c : Thread nD τ).loc main_arg0) : S2x1024x2048.Idx → EReal) (m ((c : Thread nD τ).loc main_arg1) : S32000x2048.Idx → EReal))
          (sitofp .f32 (m ((c : Thread nD τ).loc main_arg2))) (m ((c : Thread nD τ).loc main_arg3)) := by
  rw [V13_eq]
  show tailAfter (Gen.V4 m (outs m) c) (Proc.devRef .tc main_v34) = _
  rw [tail_v34, V4_v3_0, V4_v6_0, V4_v3_1, V4_v0, V4_arg3, lp0_args m c h0 h1, lp1_args m c h4 h5, rs0_args m c h0 h1]

/-- The scaled total of the first region's logit sums, as a term of the argument arrays alone. -/
theorem kernel_v31 (c : Dev nD)
    (h0 : ∀ i, IsReal ((m ((c : Thread nD τ).loc main_arg0) : S2x1024x2048.Idx → EReal) i))
    (h1 : ∀ i, IsReal ((m ((c : Thread nD τ).loc main_arg1) : S32000x2048.Idx → EReal) i))
    (h4 : ∀ i, IsReal ((m ((c : Thread nD τ).loc main_arg4) : S2x1024x2048.Idx → EReal) i))
    (h5 : ∀ i, IsReal ((m ((c : Thread nD τ).loc main_arg5) : S32000x2048.Idx → EReal) i)) :
    Gen.V13 m (outs m) c main_v31
      = res31 (Cert.Spec.seqLp (m ((c : Thread nD τ).loc main_arg0) : S2x1024x2048.Idx → EReal) (m ((c : Thread nD τ).loc main_arg1) : S32000x2048.Idx → EReal))
          (Cert.Spec.seqLp (m ((c : Thread nD τ).loc main_arg4) : S2x1024x2048.Idx → EReal) (m ((c : Thread nD τ).loc main_arg5) : S32000x2048.Idx → EReal))
          (Cert.Spec.rowSum (m ((c : Thread nD τ).loc main_arg0) : S2x1024x2048.Idx → EReal) (m ((c : Thread nD τ).loc main_arg1) : S32000x2048.Idx → EReal))
          (sitofp .f32 (m ((c : Thread nD τ).loc main_arg2))) (m ((c : Thread nD τ).loc main_arg3)) := by
  rw [V13_eq]
  show tailAfter (Gen.V4 m (outs m) c) (Proc.devRef .tc main_v31) = _
  rw [tail_v31, V4_v3_0, V4_v6_0, V4_v3_1, V4_v0, V4_arg3, lp0_args m c h0 h1, lp1_args m c h4 h5, rs0_args m c h0 h1]

/-- The mean difference of the two regions' masked sums, as a term of the argument arrays alone. -/
theorem kernel_v36 (c : Dev nD)
    (h0 : ∀ i, IsReal ((m ((c : Thread nD τ).loc main_arg0) : S2x1024x2048.Idx → EReal) i))
    (h1 : ∀ i, IsReal ((m ((c : Thread nD τ).loc main_arg1) : S32000x2048.Idx → EReal) i))
    (h4 : ∀ i, IsReal ((m ((c : Thread nD τ).loc main_arg4) : S2x1024x2048.Idx → EReal) i))
    (h5 : ∀ i, IsReal ((m ((c : Thread nD τ).loc main_arg5) : S32000x2048.Idx → EReal) i)) :
    Gen.V13 m (outs m) c main_v36
      = res36 (Cert.Spec.seqLp (m ((c : Thread nD τ).loc main_arg0) : S2x1024x2048.Idx → EReal) (m ((c : Thread nD τ).loc main_arg1) : S32000x2048.Idx → EReal))
          (Cert.Spec.seqLp (m ((c : Thread nD τ).loc main_arg4) : S2x1024x2048.Idx → EReal) (m ((c : Thread nD τ).loc main_arg5) : S32000x2048.Idx → EReal))
          (Cert.Spec.rowSum (m ((c : Thread nD τ).loc main_arg0) : S2x1024x2048.Idx → EReal) (m ((c : Thread nD τ).loc main_arg1) : S32000x2048.Idx → EReal))
          (sitofp .f32 (m ((c : Thread nD τ).loc main_arg2))) (m ((c : Thread nD τ).loc main_arg3)) := by
  rw [V13_eq]
  show tailAfter (Gen.V4 m (outs m) c) (Proc.devRef .tc main_v36) = _
  rw [tail_v36, V4_v3_0, V4_v6_0, V4_v3_1, V4_v0, V4_arg3, lp0_args m c h0 h1, lp1_args m c h4 h5, rs0_args m c h0 h1]

end Cert.KernelIdeal.Hand

end
-- ==== Proof.Ref.Run.lean ====
/-
  The reference program's @main read as ONE straight line of host operations: every call of an outlined function
  (the standard deviation, which calls the variance, which calls a select; the two selects of the advantage) replaced
  by the callee's operations over that call's own buffers, in program order. The line is cut where a call begins and
  where it ends, so that each piece is either @main's own operations or exactly one callee's body; `ops` is the
  pieces appended. Running @main is then running the line: every TensorCore buffer ends at the fold of the
  operations' results over the launch contents.
-/
import proofs.«130178_j27539330302083_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The pieces of the line -/

/-- The mask as floats, then the log-probability row sums of the first pair (x, w): logits, row maximum, shifted exponentials, their row sums, log, the masked sum over the rows. (16 operations) -/
abbrev ops0 : List (HloOp τ sig (Elt F)) :=
  [ unary main_arg2 main_v0 (sitofp .f32 : (⟨S2x1024, .i32⟩ : BufTy).Contents (Elt F) → (⟨S2x1024, .f32⟩ : BufTy).Contents (Elt F)),
    binary main_arg0 main_arg1 main_v1 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst (constant S_ .f32 0xFF800000#32),
    binary main_v1 main_cst main_v2 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v2 main_v3 (broadcastInDim S2x1024x1 ![0, 1] bcast_S2x1024_S2x1024x1_0_1 : (⟨S2x1024, .f32⟩ : BufTy).Contents (Elt F) → (⟨S2x1024x1, .f32⟩ : BufTy).Contents (Elt F)),
    unary main_v3 main_v4 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v1 main_v4 main_v5 (subf : (⟨S2x1024x32000, .f32⟩ : BufTy).Contents (Elt F) → (⟨S2x1024x32000, .f32⟩ : BufTy).Contents (Elt F) → (⟨S2x1024x32000, .f32⟩ : BufTy).Contents (Elt F)),
    unary main_v5 main_v6 (Host.exp : (⟨S2x1024x32000, .f32⟩ : BufTy).Contents (Elt F) → (⟨S2x1024x32000, .f32⟩ : BufTy).Contents (Elt F)),
    nullary main_cst_0 (constant S_ .f32 0x00000000#32),
    binary main_v6 main_cst_0 main_v7 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v7 main_v8 (Host.log : (⟨S2x1024, .f32⟩ : BufTy).Contents (Elt F) → (⟨S2x1024, .f32⟩ : BufTy).Contents (Elt F)),
    binary main_v2 main_v8 main_v9 (addf : (⟨S2x1024, .f32⟩ : BufTy).Contents (Elt F) → (⟨S2x1024, .f32⟩ : BufTy).Contents (Elt F) → (⟨S2x1024, .f32⟩ : BufTy).Contents (Elt F)),
    binary main_v2 main_v9 main_v10 (subf : (⟨S2x1024, .f32⟩ : BufTy).Contents (Elt F) → (⟨S2x1024, .f32⟩ : BufTy).Contents (Elt F) → (⟨S2x1024, .f32⟩ : BufTy).Contents (Elt F)),
    binary main_v10 main_v0 main_v11 (mulf : (⟨S2x1024, .f32⟩ : BufTy).Contents (Elt F) → (⟨S2x1024, .f32⟩ : BufTy).Contents (Elt F) → (⟨S2x1024, .f32⟩ : BufTy).Contents (Elt F)),
    nullary main_cst_1 (constant S_ .f32 0x00000000#32),
    binary main_v11 main_cst_1 main_v12 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)) ]

/-- The same column for the second pair (the reference input and weight). (15 operations) -/
abbrev ops1 : List (HloOp τ sig (Elt F)) :=
  [ binary main_arg4 main_arg5 main_v13 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst_2 (constant S_ .f32 0xFF800000#32),
    binary main_v13 main_cst_2 main_v14 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v14 main_v15 (broadcastInDim S2x1024x1 ![0, 1] bcast_S2x1024_S2x1024x1_0_1 : (⟨S2x1024, .f32⟩ : BufTy).Contents (Elt F) → (⟨S2x1024x1, .f32⟩ : BufTy).Contents (Elt F)),
    unary main_v15 main_v16 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v13 main_v16 main_v17 (subf : (⟨S2x1024x32000, .f32⟩ : BufTy).Contents (Elt F) → (⟨S2x1024x32000, .f32⟩ : BufTy).Contents (Elt F) → (⟨S2x1024x32000, .f32⟩ : BufTy).Contents (Elt F)),
    unary main_v17 main_v18 (Host.exp : (⟨S2x1024x32000, .f32⟩ : BufTy).Contents (Elt F) → (⟨S2x1024x32000, .f32⟩ : BufTy).Contents (Elt F)),
    nullary main_cst_3 (constant S_ .f32 0x00000000#32),
    binary main_v18 main_cst_3 main_v19 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v19 main_v20 (Host.log : (⟨S2x1024, .f32⟩ : BufTy).Contents (Elt F) → (⟨S2x1024, .f32⟩ : BufTy).Contents (Elt F)),
    binary main_v14 main_v20 main_v21 (addf : (⟨S2x1024, .f32⟩ : BufTy).Contents (Elt F) → (⟨S2x1024, .f32⟩ : BufTy).Contents (Elt F) → (⟨S2x1024, .f32⟩ : BufTy).Contents (Elt F)),
    binary main_v14 main_v21 main_v22 (subf : (⟨S2x1024, .f32⟩ : BufTy).Contents (Elt F) → (⟨S2x1024, .f32⟩ : BufTy).Contents (Elt F) → (⟨S2x1024, .f32⟩ : BufTy).Contents (Elt F)),
    binary main_v22 main_v0 main_v23 (mulf : (⟨S2x1024, .f32⟩ : BufTy).Contents (Elt F) → (⟨S2x1024, .f32⟩ : BufTy).Contents (Elt F) → (⟨S2x1024, .f32⟩ : BufTy).Contents (Elt F)),
    nullary main_cst_4 (constant S_ .f32 0x00000000#32),
    binary main_v23 main_cst_4 main_v24 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)) ]

/-- The rewards minus their mean, and the degrees-of-freedom constant. (7 operations) -/
abbrev ops2 : List (HloOp τ sig (Elt F)) :=
  [ nullary main_cst_5 (constant S_ .f32 0x00000000#32),
    binary main_arg3 main_cst_5 main_v25 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_6 (constant S_ .f32 0x40000000#32),
    binary main_v25 main_cst_6 main_v26 (Host.divf : (⟨S_, .f32⟩ : BufTy).Contents (Elt F) → (⟨S_, .f32⟩ : BufTy).Contents (Elt F) → (⟨S_, .f32⟩ : BufTy).Contents (Elt F)),
    unary main_v26 main_v27 (broadcastInDim S2 ![] bcast_S_S2 : (⟨S_, .f32⟩ : BufTy).Contents (Elt F) → (⟨S2, .f32⟩ : BufTy).Contents (Elt F)),
    binary main_arg3 main_v27 main_v28 (subf : (⟨S2, .f32⟩ : BufTy).Contents (Elt F) → (⟨S2, .f32⟩ : BufTy).Contents (Elt F) → (⟨S2, .f32⟩ : BufTy).Contents (Elt F)),
    nullary main_c (constantI S_ 32 1#32) ]

/-- The standard deviation of the rewards (one degree of freedom removed): mean, squared deviations, their sum over `2 - 1`, the quotient kept only when the divisor is positive, the square root. (21 operations) -/
abbrev ops3 : List (HloOp τ sig (Elt F)) :=
  [ TRef.nullary main_call0_call0.cst (constant S_ .f32 0x00000000#32),
    TRef.binary (.of main_arg3 : TRef sig ⟨S2, .f32⟩) main_call0_call0.cst main_call0_call0.v0 (fun x v => Host.reduceAdd x v reducesTo_S2_S_d0 h_S_),
    TRef.unary main_call0_call0.v0 main_call0_call0.v1 (broadcastInDim S1 ![] bcast_S_S1),
    TRef.nullary main_call0_call0.cst_0 (constant S_ .f32 0x40000000#32),
    TRef.unary main_call0_call0.cst_0 main_call0_call0.v2 (broadcastInDim S1 ![] bcast_S_S1),
    TRef.binary main_call0_call0.v1 main_call0_call0.v2 main_call0_call0.v3 Host.divf,
    TRef.unary main_call0_call0.v3 main_call0_call0.v4 (broadcastInDim S2 ![0] bcast_S1_S2_0),
    TRef.binary (.of main_arg3 : TRef sig ⟨S2, .f32⟩) main_call0_call0.v4 main_call0_call0.v5 subf,
    TRef.binary main_call0_call0.v5 main_call0_call0.v5 main_call0_call0.v6 mulf,
    TRef.unary (.of main_c : TRef sig ⟨S_, .i32⟩) main_call0_call0.v7 (sitofp .f32),
    TRef.nullary main_call0_call0.cst_1 (constant S_ .f32 0x40000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S2_S_d0 h_S_),
    TRef.binary main_call0_call0.v9 main_call0_call0.v8 main_call0_call0.v10 Host.divf,
    TRef.nullary main_call0_call0.cst_3 (constant S_ .f32 0x00000000#32),
    TRef.binary main_call0_call0.v8 main_call0_call0.cst_3 main_call0_call0.v11 (cmpf .ogt),
    TRef.nullary main_call0_call0.cst_4 (constant S_ .f32 0x7FC00000#32),
    TRef.unary main_call0_call0.cst_4 main_call0_call0.call0.v0 id,
    TRef.ternary main_call0_call0.v11 main_call0_call0.v10 main_call0_call0.call0.v0 main_call0_call0.call0.v1 select,
    TRef.unary main_call0_call0.call0.v1 (.of main_v29 : TRef sig ⟨S_, .f32⟩) Host.sqrt ]

/-- Is the deviation positive, twice, and the constant one. (5 operations) -/
abbrev ops4 : List (HloOp τ sig (Elt F)) :=
  [ nullary main_cst_7 (constant S_ .f32 0x00000000#32),
    binary main_v29 main_cst_7 main_v30 (cmpf .ogt : (⟨S_, .f32⟩ : BufTy).Contents (Elt F) → (⟨S_, .f32⟩ : BufTy).Contents (Elt F) → (⟨S_, .i1⟩ : BufTy).Contents (Elt F)),
    nullary main_cst_8 (constant S_ .f32 0x00000000#32),
    binary main_v29 main_cst_8 main_v31 (cmpf .ogt : (⟨S_, .f32⟩ : BufTy).Contents (Elt F) → (⟨S_, .f32⟩ : BufTy).Contents (Elt F) → (⟨S_, .i1⟩ : BufTy).Contents (Elt F)),
    nullary main_cst_9 (constant S_ .f32 0x3F800000#32) ]

/-- The divisor: the deviation where positive, else one. (2 operations) -/
abbrev ops5 : List (HloOp τ sig (Elt F)) :=
  [ TRef.unary (.of main_cst_9 : TRef sig ⟨S_, .f32⟩) main_call1.v0 id,
    TRef.ternary (.of main_v31 : TRef sig ⟨S_, .i1⟩) (.of main_v29 : TRef sig ⟨S_, .f32⟩) main_call1.v0 main_call1.v1 select ]

/-- The centred rewards over the divisor. (2 operations) -/
abbrev ops6 : List (HloOp τ sig (Elt F)) :=
  [ unary main_v32 main_v33 (broadcastInDim S2 ![] bcast_S_S2 : (⟨S_, .f32⟩ : BufTy).Contents (Elt F) → (⟨S2, .f32⟩ : BufTy).Contents (Elt F)),
    binary main_v28 main_v33 main_v34 (Host.divf : (⟨S2, .f32⟩ : BufTy).Contents (Elt F) → (⟨S2, .f32⟩ : BufTy).Contents (Elt F) → (⟨S2, .f32⟩ : BufTy).Contents (Elt F)) ]

/-- The advantages: the quotient where the deviation is positive, else the centred rewards. (1 operation) -/
abbrev ops7 : List (HloOp τ sig (Elt F)) :=
  [ TRef.ternary (.of main_v30 : TRef sig ⟨S_, .i1⟩) (.of main_v34 : TRef sig ⟨S2, .f32⟩) (.of main_v28 : TRef sig ⟨S2, .f32⟩) main_call2.v0 (fun p a b => select (broadcastInDim S2 ![] bcast_S_S2 p) a b) ]

/-- The loss terms: minus advantage times log-probability sum, plus a tenth of the difference of the two sums; their mean. (12 operations) -/
abbrev ops8 : List (HloOp τ sig (Elt F)) :=
  [ binary main_v35 main_v12 main_v36 (mulf : (⟨S2, .f32⟩ : BufTy).Contents (Elt F) → (⟨S2, .f32⟩ : BufTy).Contents (Elt F) → (⟨S2, .f32⟩ : BufTy).Contents (Elt F)),
    unary main_v36 main_v37 (Host.negf : (⟨S2, .f32⟩ : BufTy).Contents (Elt F) → (⟨S2, .f32⟩ : BufTy).Contents (Elt F)),
    binary main_v12 main_v24 main_v38 (subf : (⟨S2, .f32⟩ : BufTy).Contents (Elt F) → (⟨S2, .f32⟩ : BufTy).Contents (Elt F) → (⟨S2, .f32⟩ : BufTy).Contents (Elt F)),
    nullary main_cst_10 (constant S_ .f32 0x3DCCCCCD#32),
    unary main_cst_10 main_v39 (broadcastInDim S2 ![] bcast_S_S2 : (⟨S_, .f32⟩ : BufTy).Contents (Elt F) → (⟨S2, .f32⟩ : BufTy).Contents (Elt F)),
    binary main_v39 main_v38 main_v40 (mulf : (⟨S2, .f32⟩ : BufTy).Contents (Elt F) → (⟨S2, .f32⟩ : BufTy).Contents (Elt F) → (⟨S2, .f32⟩ : BufTy).Contents (Elt F)),
    binary main_v37 main_v40 main_v41 (addf : (⟨S2, .f32⟩ : BufTy).Contents (Elt F) → (⟨S2, .f32⟩ : BufTy).Contents (Elt F) → (⟨S2, .f32⟩ : BufTy).Contents (Elt F)),
    nullary main_cst_11 (constant S_ .f32 0x00000000#32),
    binary main_v41 main_cst_11 main_v42 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_12 (constant S_ .f32 0x40000000#32),
    binary main_v42 main_cst_12 main_v43 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32) ]

/-- The mean of the log-probability sums. (4 operations) -/
abbrev ops9 : List (HloOp τ sig (Elt F)) :=
  [ binary main_v12 main_cst_13 main_v44 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_14 (constant S_ .f32 0x40000000#32),
    binary main_v44 main_cst_14 main_v45 (Host.divf : (⟨S_, .f32⟩ : BufTy).Contents (Elt F) → (⟨S_, .f32⟩ : BufTy).Contents (Elt F) → (⟨S_, .f32⟩ : BufTy).Contents (Elt F)),
    nullary main_c_15 (constantI S_ 32 1#32) ]

/-- The standard deviation of the log-probability sums, as for the rewards. (21 operations) -/
abbrev ops10 : List (HloOp τ sig (Elt F)) :=
  [ TRef.nullary main_call3_call0.cst (constant S_ .f32 0x00000000#32),
    TRef.binary (.of main_v12 : TRef sig ⟨S2, .f32⟩) main_call3_call0.cst main_call3_call0.v0 (fun x v => Host.reduceAdd x v reducesTo_S2_S_d0 h_S_),
    TRef.unary main_call3_call0.v0 main_call3_call0.v1 (broadcastInDim S1 ![] bcast_S_S1),
    TRef.nullary main_call3_call0.cst_0 (constant S_ .f32 0x40000000#32),
    TRef.unary main_call3_call0.cst_0 main_call3_call0.v2 (broadcastInDim S1 ![] bcast_S_S1),
    TRef.binary main_call3_call0.v1 main_call3_call0.v2 main_call3_call0.v3 Host.divf,
    TRef.unary main_call3_call0.v3 main_call3_call0.v4 (broadcastInDim S2 ![0] bcast_S1_S2_0),
    TRef.binary (.of main_v12 : TRef sig ⟨S2, .f32⟩) main_call3_call0.v4 main_call3_call0.v5 subf,
    TRef.binary main_call3_call0.v5 main_call3_call0.v5 main_call3_call0.v6 mulf,
    TRef.unary (.of main_c_15 : TRef sig ⟨S_, .i32⟩) main_call3_call0.v7 (sitofp .f32),
    TRef.nullary main_call3_call0.cst_1 (constant S_ .f32 0x40000000#32),
    TRef.binary main_call3_call0.cst_1 main_call3_call0.v7 main_call3_call0.v8 subf,
    TRef.nullary main_call3_call0.cst_2 (constant S_ .f32 0x00000000#32),
    TRef.binary main_call3_call0.v6 main_call3_call0.cst_2 main_call3_call0.v9 (fun x v => Host.reduceAdd x v reducesTo_S2_S_d0 h_S_),
    TRef.binary main_call3_call0.v9 main_call3_call0.v8 main_call3_call0.v10 Host.divf,
    TRef.nullary main_call3_call0.cst_3 (constant S_ .f32 0x00000000#32),
    TRef.binary main_call3_call0.v8 main_call3_call0.cst_3 main_call3_call0.v11 (cmpf .ogt),
    TRef.nullary main_call3_call0.cst_4 (constant S_ .f32 0x7FC00000#32),
    TRef.unary main_call3_call0.cst_4 main_call3_call0.call0.v0 id,
    TRef.ternary main_call3_call0.v11 main_call3_call0.v10 main_call3_call0.call0.v0 main_call3_call0.call0.v1 select,
    TRef.unary main_call3_call0.call0.v1 (.of main_v46 : TRef sig ⟨S_, .f32⟩) Host.sqrt ]

/-- The mean logit over all `2 * 1024 * 32000` entries, and the mean difference of the two sums. (8 operations) -/
abbrev ops11 : List (HloOp τ sig (Elt F)) :=
  [ nullary main_cst_16 (constant S_ .f32 0x00000000#32),
    binary main_v1 main_cst_16 main_v47 ((fun x v => Host.reduceAdd x v reducesTo_S2x1024x32000_S_d0_1_2 h_S_) : (⟨S2x1024x32000, .f32⟩ : BufTy).Contents (Elt F) → (⟨S_, .f32⟩ : BufTy).Contents (Elt F) → (⟨S_, .f32⟩ : BufTy).Contents (Elt F)),
    nullary main_cst_17 (constant S_ .f32 0x4C7A0000#32),
    binary main_v47 main_cst_17 main_v48 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_v38 main_cst_18 main_v49 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_19 (constant S_ .f32 0x40000000#32),
    binary main_v49 main_cst_19 main_v50 (Host.divf : (⟨S_, .f32⟩ : BufTy).Contents (Elt F) → (⟨S_, .f32⟩ : BufTy).Contents (Elt F) → (⟨S_, .f32⟩ : BufTy).Contents (Elt F)) ]

/-- @main's 114 operations in program order, every call inlined. -/
abbrev ops : List (HloOp τ sig (Elt F)) :=
  ops0 ++ (ops1 ++ (ops2 ++ (ops3 ++ (ops4 ++ (ops5 ++ (ops6 ++ (ops7 ++ (ops8 ++ (ops9 ++ (ops10 ++ (ops11)))))))))))

/-! ## Every operation touches TensorCore buffers only, and allocates none -/

theorem ops0_sub : (ops0 : List (HloOp τ sig (Elt F))).Forall fun op => op.bufs ⊆ tcRefs τ sig :=
  ⟨unary_bufs_sub .., binary_bufs_sub .., nullary_bufs_sub .., binary_bufs_sub .., unary_bufs_sub .., unary_bufs_sub .., binary_bufs_sub .., unary_bufs_sub .., nullary_bufs_sub .., binary_bufs_sub .., unary_bufs_sub .., binary_bufs_sub .., binary_bufs_sub .., binary_bufs_sub .., nullary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨binary_bufs_sub .., nullary_bufs_sub .., binary_bufs_sub .., unary_bufs_sub .., unary_bufs_sub .., binary_bufs_sub .., unary_bufs_sub .., nullary_bufs_sub .., binary_bufs_sub .., unary_bufs_sub .., binary_bufs_sub .., binary_bufs_sub .., binary_bufs_sub .., nullary_bufs_sub .., binary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub ..⟩
theorem ops2_fresh : (ops2 : List (HloOp τ sig (Elt F))).Forall fun op => op.fresh = ∅ :=
  ⟨rfl, rfl, rfl, rfl, rfl, rfl, rfl⟩

theorem ops3_sub : (ops3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., binary_bufs_sub .., nullary_bufs_sub .., binary_bufs_sub .., nullary_bufs_sub ..⟩
theorem ops4_fresh : (ops4 : List (HloOp τ sig (Elt F))).Forall fun op => op.fresh = ∅ :=
  ⟨rfl, rfl, rfl, rfl, rfl⟩

theorem ops5_sub : (ops5 : List (HloOp τ sig (Elt F))).Forall fun op => op.bufs ⊆ tcRefs τ sig :=
  ⟨unary_bufs_sub .., ternary_bufs_sub ..⟩
theorem ops5_fresh : (ops5 : List (HloOp τ sig (Elt F))).Forall fun op => op.fresh = ∅ :=
  ⟨rfl, rfl⟩

theorem ops6_sub : (ops6 : List (HloOp τ sig (Elt F))).Forall fun op => op.bufs ⊆ tcRefs τ sig :=
  ⟨unary_bufs_sub .., binary_bufs_sub ..⟩
theorem ops6_fresh : (ops6 : List (HloOp τ sig (Elt F))).Forall fun op => op.fresh = ∅ :=
  ⟨rfl, rfl⟩

theorem ops7_sub : (ops7 : List (HloOp τ sig (Elt F))).Forall fun op => op.bufs ⊆ tcRefs τ sig :=
  ternary_bufs_sub ..
theorem ops7_fresh : (ops7 : List (HloOp τ sig (Elt F))).Forall fun op => op.fresh = ∅ :=
  rfl

theorem ops8_sub : (ops8 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub ..⟩
theorem ops8_fresh : (ops8 : List (HloOp τ sig (Elt F))).Forall fun op => op.fresh = ∅ :=
  ⟨rfl, rfl, rfl, rfl, rfl, rfl, rfl, rfl, rfl, rfl, rfl, rfl⟩

theorem ops9_sub : (ops9 : List (HloOp τ sig (Elt F))).Forall fun op => op.bufs ⊆ tcRefs τ sig :=
  ⟨binary_bufs_sub .., nullary_bufs_sub .., binary_bufs_sub .., nullary_bufs_sub ..⟩
theorem ops9_fresh : (ops9 : List (HloOp τ sig (Elt F))).Forall fun op => op.fresh = ∅ :=
  ⟨rfl, rfl, rfl, rfl⟩

theorem ops10_sub : (ops10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub ..⟩
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ops11_sub : (ops11 : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub ..⟩
theorem ops11_fresh : (ops11 : List (HloOp τ sig (Elt F))).Forall fun op => op.fresh = ∅ :=
  ⟨rfl, rfl, rfl, rfl, rfl, rfl, rfl, rfl⟩

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, List.forall_append.2 ⟨ops5_sub, List.forall_append.2 ⟨ops6_sub, List.forall_append.2 ⟨ops7_sub, List.forall_append.2 ⟨ops8_sub, List.forall_append.2 ⟨ops9_sub, List.forall_append.2 ⟨ops10_sub, ops11_sub⟩⟩⟩⟩⟩⟩⟩⟩⟩⟩⟩

theorem ops_fresh : ∀ op ∈ (ops : List (HloOp τ sig (Elt F))), op.fresh = ∅ :=
  List.forall_iff_forall_mem.1 (List.forall_append.2 ⟨ops0_fresh, List.forall_append.2 ⟨ops1_fresh, List.forall_append.2 ⟨ops2_fresh, List.forall_append.2 ⟨ops3_fresh, List.forall_append.2 ⟨ops4_fresh, List.forall_append.2 ⟨ops5_fresh, List.forall_append.2 ⟨ops6_fresh, List.forall_append.2 ⟨ops7_fresh, List.forall_append.2 ⟨ops8_fresh, List.forall_append.2 ⟨ops9_fresh, List.forall_append.2 ⟨ops10_fresh, ops11_fresh⟩⟩⟩⟩⟩⟩⟩⟩⟩⟩⟩)

/-! ## @main is the line -/

/-- The fold over an appended line is the fold over the second piece after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the whole line, piece by piece. -/
theorem after_ops (V : Valuation τ sig (Elt F)) :
    after ops V = after ops11 (after ops10 (after ops9 (after ops8 (after ops7 (after ops6 (after ops5 (after ops4 (after ops3 (after ops2 (after ops1 (after ops0 (V)))))))))))) := by
  simp only [ops, after_app]

/-- The appended line run as one is its pieces run one after the other. -/
theorem seq_ops {nD' : Nat} {Λ : Labels} :
    (seq ops : Prog (TpuEff nD' τ sig (Elt F) Λ .tc) PUnit)
      = Pipeline.chainK [seq ops0, seq ops1, seq ops2, seq ops3, seq ops4, seq ops5, seq ops6, seq ops7, seq ops8, seq ops9, seq ops10] (seq ops11) := by
  simp only [ops, seq_append, Pipeline.chainK]

/-- @main's two windows run one after the other are the pieces run one after the other: both sides are the same
    right-nested sequence of `hlo` steps once each callee's definition is opened at its call and each record at its
    fields, which is computation. -/
theorem main_chain (c : Dev nD) :
    main (F := F) c = Pipeline.chainK [seq ops0, seq ops1, seq ops2, seq ops3, seq ops4, seq ops5, seq ops6, seq ops7, seq ops8, seq ops9, seq ops10] (seq ops11) := by
  chain_rfl

/-- @main is the line. -/
theorem main_eq (c : Dev nD) : main (F := F) c = seq ops :=
  (main_chain c).trans seq_ops.symm

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every TensorCore buffer ends at the fold of the line's results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.Read.lean ====
/-
  What the reference's buffers hold after its run, read as mathematics: the five results as compositions of the
  tail's operations over the head's arrays; the head's arrays index by index on the extended reals (each row's
  logits, its largest log-probability, the mask); the arguments unchanged.
-/
import proofs.«130178_j27539330302083_1_alg».proof.Proof.Ref.Run
import proofs.«130178_j27539330302083_1_alg».proof.Proof.RowSpec
import Idealize.ShloMosaic.PureOps.Ideal.Laws
import proofs.«130178_j27539330302083_1_alg».proof.Proof.KI.Tail
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo

section Generic

variable {F : FTy → Type} [FloatOps F]

/-! ## The building blocks of the tail -/

/-- Σ_i x[i] of a [2] array. -/
def sum2 (x : (⟨S2, .f32⟩ : BufTy).Contents (Elt F)) : (⟨S_, .f32⟩ : BufTy).Contents (Elt F) :=
  Host.reduceAdd x (constant S_ .f32 0x00000000#32) reducesTo_S2_S_d0 h_S_

/-- (Σ_i x[i]) / 2 of a [2] array. -/
def mean2 (x : (⟨S2, .f32⟩ : BufTy).Contents (Elt F)) : (⟨S_, .f32⟩ : BufTy).Contents (Elt F) :=
  Host.divf (sum2 x) (constant S_ .f32 0x40000000#32)

/-- x − mean x of a [2] array, the mean taken through a one-element array: ((Σ x) as [1]) / (2 as [1]), broadcast to [2]. -/
def centred1 (x : (⟨S2, .f32⟩ : BufTy).Contents (Elt F)) : (⟨S2, .f32⟩ : BufTy).Contents (Elt F) :=
  subf x (broadcastInDim S2 ![0] bcast_S1_S2_0
    (Host.divf (broadcastInDim S1 ![] bcast_S_S1 (sum2 x))
      (broadcastInDim S1 ![] bcast_S_S1 (constant S_ .f32 0x40000000#32 : (⟨S_, .f32⟩ : BufTy).Contents (Elt F)))))

/-- The divisor of the variance: 2 − 1, the 1 an integer constant converted. -/
def dof2 : (⟨S_, .f32⟩ : BufTy).Contents (Elt F) :=
  subf (constant S_ .f32 0x40000000#32) (sitofp .f32 (constantI S_ 32 1#32 : (⟨S_, .i32⟩ : BufTy).Contents (Elt F)))

/-- The variance of a [2] array with one degree of freedom removed: Σ (x − mean x)² / (2 − 1) where 2 − 1 > 0, NaN
    otherwise. -/
def var2 (x : (⟨S2, .f32⟩ : BufTy).Contents (Elt F)) : (⟨S_, .f32⟩ : BufTy).Contents (Elt F) :=
  select (cmpf .ogt (dof2 : (⟨S_, .f32⟩ : BufTy).Contents (Elt F)) (constant S_ .f32 0x00000000#32))
    (Host.divf (sum2 (mulf (centred1 x) (centred1 x))) dof2)
    (constant S_ .f32 0x7FC00000#32)

/-- The standard deviation: the variance's square root. -/
def std2 (x : (⟨S2, .f32⟩ : BufTy).Contents (Elt F)) : (⟨S_, .f32⟩ : BufTy).Contents (Elt F) :=
  Host.sqrt (var2 x)

/-- The masked row sums Σ_j l[i,j]·mask[i,j]. -/
def maskedSum (l mask : (⟨S2x1024, .f32⟩ : BufTy).Contents (Elt F)) : (⟨S2, .f32⟩ : BufTy).Contents (Elt F) :=
  Host.reduceAdd (mulf l mask) (constant S_ .f32 0x00000000#32) reducesTo_S2x1024_S2_d1 h_S_

/-- rew − mean rew, the mean a scalar broadcast to [2]. -/
def centred (rew : (⟨S2, .f32⟩ : BufTy).Contents (Elt F)) : (⟨S2, .f32⟩ : BufTy).Contents (Elt F) :=
  subf rew (broadcastInDim S2 ![] bcast_S_S2 (mean2 rew))

/-- The advantages: (rew − mean rew) / σ where σ = std rew > 0 (the divisor 1 where it is not), and rew − mean rew where
    σ ≤ 0. -/
def adv (rew : (⟨S2, .f32⟩ : BufTy).Contents (Elt F)) : (⟨S2, .f32⟩ : BufTy).Contents (Elt F) :=
  select (broadcastInDim S2 ![] bcast_S_S2 (cmpf .ogt (std2 rew) (constant S_ .f32 0x00000000#32)))
    (Host.divf (centred rew)
      (broadcastInDim S2 ![] bcast_S_S2
        (select (cmpf .ogt (std2 rew) (constant S_ .f32 0x00000000#32)) (std2 rew) (constant S_ .f32 0x3F800000#32))))
    (centred rew)

/-- The loss of the two masked sums and the rewards: mean (−(a · s_p) + 0.1 · (s_p − s_q)). -/
def lossOf (sp sq rew : (⟨S2, .f32⟩ : BufTy).Contents (Elt F)) : (⟨S_, .f32⟩ : BufTy).Contents (Elt F) :=
  mean2 (addf (Host.negf (mulf (adv rew) sp))
    (mulf (broadcastInDim S2 ![] bcast_S_S2 (constant S_ .f32 0x3DCCCCCD#32 : (⟨S_, .f32⟩ : BufTy).Contents (Elt F)))
      (subf sp sq)))

/-! ## The five results as functions of the head's arrays -/

/-- The loss: mean (−(a · s_p) + 0.1 · (s_p − s_q)). -/
def rres43 (lp lq : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) : (⟨S_, .f32⟩ : BufTy).Contents (Elt F) :=
  mean2 (addf (Host.negf (mulf (adv rew) (maskedSum lp mask)))
    (mulf (broadcastInDim S2 ![] bcast_S_S2 (constant S_ .f32 0x3DCCCCCD#32 : (⟨S_, .f32⟩ : BufTy).Contents (Elt F)))
      (subf (maskedSum lp mask) (maskedSum lq mask))))

/-- mean s_p. -/
def rres45 (lp lq : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) : (⟨S_, .f32⟩ : BufTy).Contents (Elt F) :=
  mean2 (maskedSum lp mask)

/-- std s_p. -/
def rres46 (lp lq : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) : (⟨S_, .f32⟩ : BufTy).Contents (Elt F) :=
  std2 (maskedSum lp mask)

/-- (Σ of all logits) / 6.5536e7. -/
def rres48 (lp lq : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) : (⟨S_, .f32⟩ : BufTy).Contents (Elt F) :=
  Host.divf (Host.reduceAdd lg (constant S_ .f32 0x00000000#32) reducesTo_S2x1024x32000_S_d0_1_2 h_S_)
    (constant S_ .f32 0x4C7A0000#32)

/-- mean (s_p − s_q). -/
def rres50 (lp lq : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) : (⟨S_, .f32⟩ : BufTy).Contents (Elt F) :=
  mean2 (subf (maskedSum lp mask) (maskedSum lq mask))

/-! ## The head's arrays as terms of the arguments -/

/-- All logits of one pair: every activation row against every vocabulary row. -/
def dotTerm (x : (⟨S2x1024x2048, .f32⟩ : BufTy).Contents (Elt F)) (w : (⟨S32000x2048, .f32⟩ : BufTy).Contents (Elt F)) : (⟨S2x1024x32000, .f32⟩ : BufTy).Contents (Elt F) :=
  Host.dotGeneral dot_S2x1024x2048_S32000x2048_S2x1024x32000_2_1_01_0_n_n none x w

/-- Each row's maximum over the vocabulary, from −∞. -/
def rowMaxOf (z : (⟨S2x1024x32000, .f32⟩ : BufTy).Contents (Elt F)) : (⟨S2x1024, .f32⟩ : BufTy).Contents (Elt F) :=
  Host.reduce FloatOps.maximumf z (constant S_ .f32 0xFF800000#32 : (⟨S_, .f32⟩ : BufTy).Contents (Elt F)) reducesTo_S2x1024x32000_S2x1024_d2 h_S_

/-- Each row's M − (M + log Σ exp (z − M)), M the row's maximum, as the operations compose it. -/
def lseTerm (x : (⟨S2x1024x2048, .f32⟩ : BufTy).Contents (Elt F)) (w : (⟨S32000x2048, .f32⟩ : BufTy).Contents (Elt F)) : (⟨S2x1024, .f32⟩ : BufTy).Contents (Elt F) :=
  subf (rowMaxOf (dotTerm x w))
    (addf (rowMaxOf (dotTerm x w))
      (Host.log (Host.reduceAdd
        (Host.exp (subf (dotTerm x w)
          (broadcastInDim S2x1024x32000 ![0, 1, 2] bcast_S2x1024x1_S2x1024x32000_0_1_2
            (broadcastInDim S2x1024x1 ![0, 1] bcast_S2x1024_S2x1024x1_0_1 (rowMaxOf (dotTerm x w))))))
        (constant S_ .f32 0x00000000#32 : (⟨S_, .f32⟩ : BufTy).Contents (Elt F)) reducesTo_S2x1024x32000_S2x1024_d2 h_S_)))

/-! ## The line cut where the head ends

The first two pieces each end with the three operations of a masked sum; cut there, the line is: the first column's
head, its masked sum, the second column's head, and then a tail that reads only the two columns' row arrays, the
first masked sum, the mask, the first logits and the rewards. -/

/-- The mask as floats and the first column up to its row log-probabilities. -/
abbrev head0 : List (HloOp τ sig (Elt F)) :=
  [ unary main_arg2 main_v0 (sitofp .f32 : (⟨S2x1024, .i32⟩ : BufTy).Contents (Elt F) → (⟨S2x1024, .f32⟩ : BufTy).Contents (Elt F)),
    binary main_arg0 main_arg1 main_v1 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst (constant S_ .f32 0xFF800000#32),
    binary main_v1 main_cst main_v2 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v2 main_v3 (broadcastInDim S2x1024x1 ![0, 1] bcast_S2x1024_S2x1024x1_0_1 : (⟨S2x1024, .f32⟩ : BufTy).Contents (Elt F) → (⟨S2x1024x1, .f32⟩ : BufTy).Contents (Elt F)),
    unary main_v3 main_v4 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v1 main_v4 main_v5 (subf : (⟨S2x1024x32000, .f32⟩ : BufTy).Contents (Elt F) → (⟨S2x1024x32000, .f32⟩ : BufTy).Contents (Elt F) → (⟨S2x1024x32000, .f32⟩ : BufTy).Contents (Elt F)),
    unary main_v5 main_v6 (Host.exp : (⟨S2x1024x32000, .f32⟩ : BufTy).Contents (Elt F) → (⟨S2x1024x32000, .f32⟩ : BufTy).Contents (Elt F)),
    nullary main_cst_0 (constant S_ .f32 0x00000000#32),
    binary main_v6 main_cst_0 main_v7 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v7 main_v8 (Host.log : (⟨S2x1024, .f32⟩ : BufTy).Contents (Elt F) → (⟨S2x1024, .f32⟩ : BufTy).Contents (Elt F)),
    binary main_v2 main_v8 main_v9 (addf : (⟨S2x1024, .f32⟩ : BufTy).Contents (Elt F) → (⟨S2x1024, .f32⟩ : BufTy).Contents (Elt F) → (⟨S2x1024, .f32⟩ : BufTy).Contents (Elt F)),
    binary main_v2 main_v9 main_v10 (subf : (⟨S2x1024, .f32⟩ : BufTy).Contents (Elt F) → (⟨S2x1024, .f32⟩ : BufTy).Contents (Elt F) → (⟨S2x1024, .f32⟩ : BufTy).Contents (Elt F)) ]
/-- The first masked sum. -/
abbrev tail0 : List (HloOp τ sig (Elt F)) :=
  [ binary main_v10 main_v0 main_v11 (mulf : (⟨S2x1024, .f32⟩ : BufTy).Contents (Elt F) → (⟨S2x1024, .f32⟩ : BufTy).Contents (Elt F) → (⟨S2x1024, .f32⟩ : BufTy).Contents (Elt F)),
    nullary main_cst_1 (constant S_ .f32 0x00000000#32),
    binary main_v11 main_cst_1 main_v12 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)) ]
/-- The second column up to its row log-probabilities. -/
abbrev head1 : List (HloOp τ sig (Elt F)) :=
  [ binary main_arg4 main_arg5 main_v13 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst_2 (constant S_ .f32 0xFF800000#32),
    binary main_v13 main_cst_2 main_v14 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v14 main_v15 (broadcastInDim S2x1024x1 ![0, 1] bcast_S2x1024_S2x1024x1_0_1 : (⟨S2x1024, .f32⟩ : BufTy).Contents (Elt F) → (⟨S2x1024x1, .f32⟩ : BufTy).Contents (Elt F)),
    unary main_v15 main_v16 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v13 main_v16 main_v17 (subf : (⟨S2x1024x32000, .f32⟩ : BufTy).Contents (Elt F) → (⟨S2x1024x32000, .f32⟩ : BufTy).Contents (Elt F) → (⟨S2x1024x32000, .f32⟩ : BufTy).Contents (Elt F)),
    unary main_v17 main_v18 (Host.exp : (⟨S2x1024x32000, .f32⟩ : BufTy).Contents (Elt F) → (⟨S2x1024x32000, .f32⟩ : BufTy).Contents (Elt F)),
    nullary main_cst_3 (constant S_ .f32 0x00000000#32),
    binary main_v18 main_cst_3 main_v19 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v19 main_v20 (Host.log : (⟨S2x1024, .f32⟩ : BufTy).Contents (Elt F) → (⟨S2x1024, .f32⟩ : BufTy).Contents (Elt F)),
    binary main_v14 main_v20 main_v21 (addf : (⟨S2x1024, .f32⟩ : BufTy).Contents (Elt F) → (⟨S2x1024, .f32⟩ : BufTy).Contents (Elt F) → (⟨S2x1024, .f32⟩ : BufTy).Contents (Elt F)),
    binary main_v14 main_v21 main_v22 (subf : (⟨S2x1024, .f32⟩ : BufTy).Contents (Elt F) → (⟨S2x1024, .f32⟩ : BufTy).Contents (Elt F) → (⟨S2x1024, .f32⟩ : BufTy).Contents (Elt F)) ]
/-- The second masked sum. -/
abbrev tail1 : List (HloOp τ sig (Elt F)) :=
  [ binary main_v22 main_v0 main_v23 (mulf : (⟨S2x1024, .f32⟩ : BufTy).Contents (Elt F) → (⟨S2x1024, .f32⟩ : BufTy).Contents (Elt F) → (⟨S2x1024, .f32⟩ : BufTy).Contents (Elt F)),
    nullary main_cst_4 (constant S_ .f32 0x00000000#32),
    binary main_v23 main_cst_4 main_v24 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)) ]

theorem ops0_cut : (ops0 : List (HloOp τ sig (Elt F))) = head0 ++ tail0 := rfl
theorem ops1_cut : (ops1 : List (HloOp τ sig (Elt F))) = head1 ++ tail1 := rfl

/-- The buffers after the tail, from contents `W`: the second masked sum and everything after it. -/
abbrev tailAfter (W : Valuation τ sig (Elt F)) : Valuation τ sig (Elt F) :=
  after ops11 (after ops10 (after ops9 (after ops8 (after ops7 (after ops6 (after ops5 (after ops4 (after ops3
    (after ops2 (after tail1 W))))))))))

/-- The buffers when the tail begins: after the first piece and the second column's head. -/
abbrev headAfter (W0 : Valuation τ sig (Elt F)) : Valuation τ sig (Elt F) :=
  after head1 (after tail0 (after head0 W0))

/-- The whole run is the tail after the head. -/
theorem after_ops_cut (W0 : Valuation τ sig (Elt F)) : after ops W0 = tailAfter (headAfter W0) := by
  rw [after_ops, ops0_cut, ops1_cut, after_app, after_app]

/-! ## What each piece writes, and that it leaves every other buffer alone -/

/-- A written buffer listed among the references is in the listed set. -/
theorem wsub {w : List (Ref sig .tc)} {y : Ref sig .tc} (h : y ∈ w) :
    ({Proc.devRef .tc y} : Finset (DevRef τ sig)) ⊆ (w.map (Proc.devRef (τ := τ) .tc)).toFinset :=
  Finset.singleton_subset_iff.2 (List.mem_toFinset.2 (List.mem_map.2 ⟨y, h, rfl⟩))

/-- The buffers `head0` writes, in order. -/
abbrev w_head0 : List (Ref sig .tc) :=
  [main_v0, main_v1, main_cst, main_v2, main_v3, main_v4, main_v5, main_v6, main_cst_0, main_v7, main_v8, main_v9, main_v10]
theorem head0_writes : (head0 : List (HloOp τ sig (Elt F))).Forall fun op =>
    op.writes ⊆ (w_head0.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _))))))), wsub (.tail _ (.tail _ (.tail _ (.tail _ (.tail _ (.tail _ (.tail _ (.head _)))))))), wsub (.tail _ (.tail _ (.tail _ (.tail _ (.tail _ (.tail _ (.tail _ (.tail _ (.head _))))))))), wsub (.tail _ (.tail _ (.tail _ (.tail _ (.tail _ (.tail _ (.tail _ (.tail _ (.tail _ (.head _)))))))))), wsub (.tail _ (.tail _ (.tail _ (.tail _ (.tail _ (.tail _ (.tail _ (.tail _ (.tail _ (.tail _ (.head _))))))))))), wsub (.tail _ (.tail _ (.tail _ (.tail _ (.tail _ (.tail _ (.tail _ (.tail _ (.tail _ (.tail _ (.tail _ (.head _)))))))))))), wsub (.tail _ (.tail _ (.tail _ (.tail _ (.tail _ (.tail _ (.tail _ (.tail _ (.tail _ (.tail _ (.tail _ (.tail _ (.head _)))))))))))))⟩
theorem keep_head0 {r : Ref sig .tc} (V : Valuation τ sig (Elt F)) (hr : r ∉ w_head0) :
    after head0 V (no_index (Proc.devRef .tc r)) = V (Proc.devRef .tc r) :=
  after_of_writes_sub head0 V head0_writes hr

/-- The buffers `tail0` writes, in order. -/
abbrev w_tail0 : List (Ref sig .tc) :=
  [main_v11, main_cst_1, main_v12]
theorem tail0_writes : (tail0 : List (HloOp τ sig (Elt F))).Forall fun op =>
    op.writes ⊆ (w_tail0.map (Proc.devRef (τ := τ) .tc)).toFinset :=
  ⟨wsub (.head _), wsub (.tail _ (.head _)), wsub (.tail _ (.tail _ (.head _)))⟩
theorem keep_tail0 {r : Ref sig .tc} (V : Valuation τ sig (Elt F)) (hr : r ∉ w_tail0) :
    after tail0 V (no_index (Proc.devRef .tc r)) = V (Proc.devRef .tc r) :=
  after_of_writes_sub tail0 V tail0_writes hr

/-- The buffers `head1` writes, in order. -/
abbrev w_head1 : List (Ref sig .tc) :=
  [main_v13, main_cst_2, main_v14, main_v15, main_v16, main_v17, main_v18, main_cst_3, main_v19, main_v20, main_v21, main_v22]
theorem head1_writes : (head1 : List (HloOp τ sig (Elt F))).Forall fun op =>
    op.writes ⊆ (w_head1.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _))))))), wsub (.tail _ (.tail _ (.tail _ (.tail _ (.tail _ (.tail _ (.tail _ (.head _)))))))), wsub (.tail _ (.tail _ (.tail _ (.tail _ (.tail _ (.tail _ (.tail _ (.tail _ (.head _))))))))), wsub (.tail _ (.tail _ (.tail _ (.tail _ (.tail _ (.tail _ (.tail _ (.tail _ (.tail _ (.head _)))))))))), wsub (.tail _ (.tail _ (.tail _ (.tail _ (.tail _ (.tail _ (.tail _ (.tail _ (.tail _ (.tail _ (.head _))))))))))), wsub (.tail _ (.tail _ (.tail _ (.tail _ (.tail _ (.tail _ (.tail _ (.tail _ (.tail _ (.tail _ (.tail _ (.head _))))))))))))⟩
theorem keep_head1 {r : Ref sig .tc} (V : Valuation τ sig (Elt F)) (hr : r ∉ w_head1) :
    after head1 V (no_index (Proc.devRef .tc r)) = V (Proc.devRef .tc r) :=
  after_of_writes_sub head1 V head1_writes hr

/-- The buffers `tail1` writes, in order. -/
abbrev w_tail1 : List (Ref sig .tc) :=
  [main_v23, main_cst_4, main_v24]
theorem tail1_writes : (tail1 : List (HloOp τ sig (Elt F))).Forall fun op =>
    op.writes ⊆ (w_tail1.map (Proc.devRef (τ := τ) .tc)).toFinset :=
  ⟨wsub (.head _), wsub (.tail _ (.head _)), wsub (.tail _ (.tail _ (.head _)))⟩
theorem keep_tail1 {r : Ref sig .tc} (V : Valuation τ sig (Elt F)) (hr : r ∉ w_tail1) :
    after tail1 V (no_index (Proc.devRef .tc r)) = V (Proc.devRef .tc r) :=
  after_of_writes_sub tail1 V tail1_writes hr

/-- The buffers `ops2` writes, in order. -/
abbrev w_ops2 : List (Ref sig .tc) :=
  [main_cst_5, main_v25, main_cst_6, main_v26, main_v27, main_v28, main_c]
theorem ops2_writes : (ops2 : List (HloOp τ sig (Elt F))).Forall fun op =>
    op.writes ⊆ (w_ops2.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _)))))))⟩
theorem keep_ops2 {r : Ref sig .tc} (V : Valuation τ sig (Elt F)) (hr : r ∉ w_ops2) :
    after ops2 V (no_index (Proc.devRef .tc r)) = V (Proc.devRef .tc r) :=
  after_of_writes_sub ops2 V ops2_writes hr

/-- The buffers `ops3` writes, in order. -/
abbrev w_ops3 : List (Ref sig .tc) :=
  [main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_cst_3, main_call0_call0_v11, main_call0_call0_cst_4, main_call0_call0_call0_v0, main_call0_v0, main_v29]
theorem ops3_writes : (ops3 : List (HloOp τ sig (Elt F))).Forall fun op =>
    op.writes ⊆ (w_ops3.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _))))))), wsub (.tail _ (.tail _ (.tail _ (.tail _ (.tail _ (.tail _ (.tail _ (.head _)))))))), wsub (.tail _ (.tail _ (.tail _ (.tail _ (.tail _ (.tail _ (.tail _ (.tail _ (.head _))))))))), wsub (.tail _ (.tail _ (.tail _ (.tail _ (.tail _ (.tail _ (.tail _ (.tail _ (.tail _ (.head _)))))))))), wsub (.tail _ (.tail _ (.tail _ (.tail _ (.tail _ (.tail _ (.tail _ (.tail _ (.tail _ (.tail _ (.head _))))))))))), wsub (.tail _ (.tail _ (.tail _ (.tail _ (.tail _ (.tail _ (.tail _ (.tail _ (.tail _ (.tail _ (.tail _ (.head _)))))))))))), wsub (.tail _ (.tail _ (.tail _ (.tail _ (.tail _ (.tail _ (.tail _ (.tail _ (.tail _ (.tail _ (.tail _ (.tail _ (.head _))))))))))))), wsub (.tail _ (.tail _ (.tail _ (.tail _ (.tail _ (.tail _ (.tail _ (.tail _ (.tail _ (.tail _ (.tail _ (.tail _ (.tail _ (.head _)))))))))))))), wsub (.tail _ (.tail _ (.tail _ (.tail _ (.tail _ (.tail _ (.tail _ (.tail _ (.tail _ (.tail _ (.tail _ (.tail _ (.tail _ (.tail _ (.head _))))))))))))))), wsub (.tail _ (.tail _ (.tail _ (.tail _ (.tail _ (.tail _ (.tail _ (.tail _ (.tail _ (.tail _ (.tail _ (.tail _ (.tail _ (.tail _ (.tail _ (.head _)))))))))))))))), wsub (.tail _ (.tail _ (.tail _ (.tail _ (.tail _ (.tail _ (.tail _ (.tail _ (.tail _ (.tail _ (.tail _ (.tail _ (.tail _ (.tail _ (.tail _ (.tail _ (.head _))))))))))))))))), wsub (.tail _ (.tail _ (.tail _ (.tail _ (.tail _ (.tail _ (.tail _ (.tail _ (.tail _ (.tail _ (.tail _ (.tail _ (.tail _ (.tail _ (.tail _ (.tail _ (.tail _ (.head _)))))))))))))))))), wsub (.tail _ (.tail _ (.tail _ (.tail _ (.tail _ (.tail _ (.tail _ (.tail _ (.tail _ (.tail _ (.tail _ (.tail _ (.tail _ (.tail _ (.tail _ (.tail _ (.tail _ (.tail _ (.head _))))))))))))))))))), wsub (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), wsub (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩
theorem keep_ops3 {r : Ref sig .tc} (V : Valuation τ sig (Elt F)) (hr : r ∉ w_ops3) :
    after ops3 V (no_index (Proc.devRef .tc r)) = V (Proc.devRef .tc r) :=
  after_of_writes_sub ops3 V ops3_writes hr

/-- The buffers `ops4` writes, in order. -/
abbrev w_ops4 : List (Ref sig .tc) :=
  [main_cst_7, main_v30, main_cst_8, main_v31, main_cst_9]
theorem ops4_writes : (ops4 : List (HloOp τ sig (Elt F))).Forall fun op =>
    op.writes ⊆ (w_ops4.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _)))))⟩
theorem keep_ops4 {r : Ref sig .tc} (V : Valuation τ sig (Elt F)) (hr : r ∉ w_ops4) :
    after ops4 V (no_index (Proc.devRef .tc r)) = V (Proc.devRef .tc r) :=
  after_of_writes_sub ops4 V ops4_writes hr

/-- The buffers `ops5` writes, in order. -/
abbrev w_ops5 : List (Ref sig .tc) :=
  [main_call1_v0, main_v32]
theorem ops5_writes : (ops5 : List (HloOp τ sig (Elt F))).Forall fun op =>
    op.writes ⊆ (w_ops5.map (Proc.devRef (τ := τ) .tc)).toFinset :=
  ⟨wsub (.head _), wsub (.tail _ (.head _))⟩
theorem keep_ops5 {r : Ref sig .tc} (V : Valuation τ sig (Elt F)) (hr : r ∉ w_ops5) :
    after ops5 V (no_index (Proc.devRef .tc r)) = V (Proc.devRef .tc r) :=
  after_of_writes_sub ops5 V ops5_writes hr

/-- The buffers `ops6` writes, in order. -/
abbrev w_ops6 : List (Ref sig .tc) :=
  [main_v33, main_v34]
theorem ops6_writes : (ops6 : List (HloOp τ sig (Elt F))).Forall fun op =>
    op.writes ⊆ (w_ops6.map (Proc.devRef (τ := τ) .tc)).toFinset :=
  ⟨wsub (.head _), wsub (.tail _ (.head _))⟩
theorem keep_ops6 {r : Ref sig .tc} (V : Valuation τ sig (Elt F)) (hr : r ∉ w_ops6) :
    after ops6 V (no_index (Proc.devRef .tc r)) = V (Proc.devRef .tc r) :=
  after_of_writes_sub ops6 V ops6_writes hr

/-- The buffers `ops7` writes, in order. -/
abbrev w_ops7 : List (Ref sig .tc) :=
  [main_v35]
theorem ops7_writes : (ops7 : List (HloOp τ sig (Elt F))).Forall fun op =>
    op.writes ⊆ (w_ops7.map (Proc.devRef (τ := τ) .tc)).toFinset :=
  wsub (.head _)
theorem keep_ops7 {r : Ref sig .tc} (V : Valuation τ sig (Elt F)) (hr : r ∉ w_ops7) :
    after ops7 V (no_index (Proc.devRef .tc r)) = V (Proc.devRef .tc r) :=
  after_of_writes_sub ops7 V ops7_writes hr

/-- The buffers `ops8` writes, in order. -/
abbrev w_ops8 : List (Ref sig .tc) :=
  [main_v36, main_v37, main_v38, main_cst_10, main_v39, main_v40, main_v41, main_cst_11, main_v42, main_cst_12, main_v43, main_cst_13]
theorem ops8_writes : (ops8 : List (HloOp τ sig (Elt F))).Forall fun op =>
    op.writes ⊆ (w_ops8.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _))))))), wsub (.tail _ (.tail _ (.tail _ (.tail _ (.tail _ (.tail _ (.tail _ (.head _)))))))), wsub (.tail _ (.tail _ (.tail _ (.tail _ (.tail _ (.tail _ (.tail _ (.tail _ (.head _))))))))), wsub (.tail _ (.tail _ (.tail _ (.tail _ (.tail _ (.tail _ (.tail _ (.tail _ (.tail _ (.head _)))))))))), wsub (.tail _ (.tail _ (.tail _ (.tail _ (.tail _ (.tail _ (.tail _ (.tail _ (.tail _ (.tail _ (.head _))))))))))), wsub (.tail _ (.tail _ (.tail _ (.tail _ (.tail _ (.tail _ (.tail _ (.tail _ (.tail _ (.tail _ (.tail _ (.head _))))))))))))⟩
theorem keep_ops8 {r : Ref sig .tc} (V : Valuation τ sig (Elt F)) (hr : r ∉ w_ops8) :
    after ops8 V (no_index (Proc.devRef .tc r)) = V (Proc.devRef .tc r) :=
  after_of_writes_sub ops8 V ops8_writes hr

/-- The buffers `ops9` writes, in order. -/
abbrev w_ops9 : List (Ref sig .tc) :=
  [main_v44, main_cst_14, main_v45, main_c_15]
theorem ops9_writes : (ops9 : List (HloOp τ sig (Elt F))).Forall fun op =>
    op.writes ⊆ (w_ops9.map (Proc.devRef (τ := τ) .tc)).toFinset :=
  ⟨wsub (.head _), wsub (.tail _ (.head _)), wsub (.tail _ (.tail _ (.head _))), wsub (.tail _ (.tail _ (.tail _ (.head _))))⟩
theorem keep_ops9 {r : Ref sig .tc} (V : Valuation τ sig (Elt F)) (hr : r ∉ w_ops9) :
    after ops9 V (no_index (Proc.devRef .tc r)) = V (Proc.devRef .tc r) :=
  after_of_writes_sub ops9 V ops9_writes hr

/-- The buffers `ops10` writes, in order. -/
abbrev w_ops10 : List (Ref sig .tc) :=
  [main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_cst_3, main_call3_call0_v11, main_call3_call0_cst_4, main_call3_call0_call0_v0, main_call3_v0, main_v46]
theorem ops10_writes : (ops10 : List (HloOp τ sig (Elt F))).Forall fun op =>
    op.writes ⊆ (w_ops10.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _))))))), wsub (.tail _ (.tail _ (.tail _ (.tail _ (.tail _ (.tail _ (.tail _ (.head _)))))))), wsub (.tail _ (.tail _ (.tail _ (.tail _ (.tail _ (.tail _ (.tail _ (.tail _ (.head _))))))))), wsub (.tail _ (.tail _ (.tail _ (.tail _ (.tail _ (.tail _ (.tail _ (.tail _ (.tail _ (.head _)))))))))), wsub (.tail _ (.tail _ (.tail _ (.tail _ (.tail _ (.tail _ (.tail _ (.tail _ (.tail _ (.tail _ (.head _))))))))))), wsub (.tail _ (.tail _ (.tail _ (.tail _ (.tail _ (.tail _ (.tail _ (.tail _ (.tail _ (.tail _ (.tail _ (.head _)))))))))))), wsub (.tail _ (.tail _ (.tail _ (.tail _ (.tail _ (.tail _ (.tail _ (.tail _ (.tail _ (.tail _ (.tail _ (.tail _ (.head _))))))))))))), wsub (.tail _ (.tail _ (.tail _ (.tail _ (.tail _ (.tail _ (.tail _ (.tail _ (.tail _ (.tail _ (.tail _ (.tail _ (.tail _ (.head _)))))))))))))), wsub (.tail _ (.tail _ (.tail _ (.tail _ (.tail _ (.tail _ (.tail _ (.tail _ (.tail _ (.tail _ (.tail _ (.tail _ (.tail _ (.tail _ (.head _))))))))))))))), wsub (.tail _ (.tail _ (.tail _ (.tail _ (.tail _ (.tail _ (.tail _ (.tail _ (.tail _ (.tail _ (.tail _ (.tail _ (.tail _ (.tail _ (.tail _ (.head _)))))))))))))))), wsub (.tail _ (.tail _ (.tail _ (.tail _ (.tail _ (.tail _ (.tail _ (.tail _ (.tail _ (.tail _ (.tail _ (.tail _ (.tail _ (.tail _ (.tail _ (.tail _ (.head _))))))))))))))))), wsub (.tail _ (.tail _ (.tail _ (.tail _ (.tail _ (.tail _ (.tail _ (.tail _ (.tail _ (.tail _ (.tail _ (.tail _ (.tail _ (.tail _ (.tail _ (.tail _ (.tail _ (.head _)))))))))))))))))), wsub (.tail _ (.tail _ (.tail _ (.tail _ (.tail _ (.tail _ (.tail _ (.tail _ (.tail _ (.tail _ (.tail _ (.tail _ (.tail _ (.tail _ (.tail _ (.tail _ (.tail _ (.tail _ (.head _))))))))))))))))))), wsub (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), wsub (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩
theorem keep_ops10 {r : Ref sig .tc} (V : Valuation τ sig (Elt F)) (hr : r ∉ w_ops10) :
    after ops10 V (no_index (Proc.devRef .tc r)) = V (Proc.devRef .tc r) :=
  after_of_writes_sub ops10 V ops10_writes hr

/-- The buffers `ops11` writes, in order. -/
abbrev w_ops11 : List (Ref sig .tc) :=
  [main_cst_16, main_v47, main_cst_17, main_v48, main_cst_18, main_v49, main_cst_19, main_v50]
theorem ops11_writes : (ops11 : List (HloOp τ sig (Elt F))).Forall fun op =>
    op.writes ⊆ (w_ops11.map (Proc.devRef (τ := τ) .tc)).toFinset :=
  ⟨wsub (.head _), wsub (.tail _ (.head _)), wsub (.tail _ (.tail _ (.head _))), wsub (.tail _ (.tail _ (.tail _ (.head _)))), wsub (.tail _ (.tail _ (.tail _ (.tail _ (.head _))))), wsub (.tail _ (.tail _ (.tail _ (.tail _ (.tail _ (.head _)))))), wsub (.tail _ (.tail _ (.tail _ (.tail _ (.tail _ (.tail _ (.head _))))))), wsub (.tail _ (.tail _ (.tail _ (.tail _ (.tail _ (.tail _ (.tail _ (.head _))))))))⟩
theorem keep_ops11 {r : Ref sig .tc} (V : Valuation τ sig (Elt F)) (hr : r ∉ w_ops11) :
    after ops11 V (no_index (Proc.devRef .tc r)) = V (Proc.devRef .tc r) :=
  after_of_writes_sub ops11 V ops11_writes hr

/-! ## The tail run from arbitrary contents -/

theorem tail_v43 (W : Valuation τ sig (Elt F)) :
    tailAfter W (Proc.devRef .tc main_v43) = lossOf (W (Proc.devRef .tc main_v12)) (maskedSum (W (Proc.devRef .tc main_v22)) (W (Proc.devRef .tc main_v0))) (W (Proc.devRef .tc main_arg3)) := by
  dsimp only [tailAfter, tail1, ops2, ops3, ops4, ops5, ops6, ops7, ops8, ops9, ops10, ops11]
  after_results_simp
  simp only [TRef.ofBuf, TRef.toBuf, cast_eq]
  rfl

theorem tail_v45 (W : Valuation τ sig (Elt F)) :
    tailAfter W (Proc.devRef .tc main_v45) = mean2 (W (Proc.devRef .tc main_v12)) := by
  dsimp only [tailAfter, tail1, ops2, ops3, ops4, ops5, ops6, ops7, ops8, ops9, ops10, ops11]
  after_results_simp
  rfl

theorem tail_v46 (W : Valuation τ sig (Elt F)) :
    tailAfter W (Proc.devRef .tc main_v46) = std2 (W (Proc.devRef .tc main_v12)) := by
  dsimp only [tailAfter, tail1, ops2, ops3, ops4, ops5, ops6, ops7, ops8, ops9, ops10, ops11]
  after_results_simp
  simp only [TRef.ofBuf, TRef.toBuf, cast_eq]
  rfl

theorem tail_v48 (W : Valuation τ sig (Elt F)) :
    tailAfter W (Proc.devRef .tc main_v48) = Host.divf (Host.reduceAdd (W (Proc.devRef .tc main_v1)) (constant S_ .f32 0x00000000#32) reducesTo_S2x1024x32000_S_d0_1_2 h_S_) (constant S_ .f32 0x4C7A0000#32) := by
  dsimp only [tailAfter, tail1, ops2, ops3, ops4, ops5, ops6, ops7, ops8, ops9, ops10, ops11]
  after_results_simp

theorem tail_v50 (W : Valuation τ sig (Elt F)) :
    tailAfter W (Proc.devRef .tc main_v50) = mean2 (subf (W (Proc.devRef .tc main_v12)) (maskedSum (W (Proc.devRef .tc main_v22)) (W (Proc.devRef .tc main_v0)))) := by
  dsimp only [tailAfter, tail1, ops2, ops3, ops4, ops5, ops6, ops7, ops8, ops9, ops10, ops11]
  after_results_simp
  rfl

/-! ## The first masked sum -/

/-- The three operations after the first column's head leave its masked sum. -/
theorem tail0_v12 (V : Valuation τ sig (Elt F)) :
    after tail0 V (Proc.devRef .tc main_v12) = maskedSum (V (Proc.devRef .tc main_v10)) (V (Proc.devRef .tc main_v0)) := by
  dsimp only [tail0]
  after_results_simp
  rfl

/-! ## The five results after the whole run -/

theorem ref_v43 (W0 : Valuation τ sig (Elt F)) :
    after ops W0 (Proc.devRef .tc main_v43)
      = rres43 (after ops W0 (Proc.devRef .tc main_v10)) (after ops W0 (Proc.devRef .tc main_v22)) (after ops W0 (Proc.devRef .tc main_v1))
          (after ops W0 (Proc.devRef .tc main_v0)) (W0 (Proc.devRef .tc main_arg3)) := by
  rw [after_ops_cut, tail_v43]
  simp (disch := decide) only [tailAfter, keep_head0, keep_tail0, keep_head1, keep_tail1, keep_ops2, keep_ops3, keep_ops4, keep_ops5, keep_ops6, keep_ops7, keep_ops8, keep_ops9, keep_ops10, keep_ops11]
  rw [tail0_v12]
  rfl

theorem ref_v45 (W0 : Valuation τ sig (Elt F)) :
    after ops W0 (Proc.devRef .tc main_v45)
      = rres45 (after ops W0 (Proc.devRef .tc main_v10)) (after ops W0 (Proc.devRef .tc main_v22)) (after ops W0 (Proc.devRef .tc main_v1))
          (after ops W0 (Proc.devRef .tc main_v0)) (W0 (Proc.devRef .tc main_arg3)) := by
  rw [after_ops_cut, tail_v45]
  simp (disch := decide) only [tailAfter, keep_head0, keep_tail0, keep_head1, keep_tail1, keep_ops2, keep_ops3, keep_ops4, keep_ops5, keep_ops6, keep_ops7, keep_ops8, keep_ops9, keep_ops10, keep_ops11]
  rw [tail0_v12]
  rfl

theorem ref_v46 (W0 : Valuation τ sig (Elt F)) :
    after ops W0 (Proc.devRef .tc main_v46)
      = rres46 (after ops W0 (Proc.devRef .tc main_v10)) (after ops W0 (Proc.devRef .tc main_v22)) (after ops W0 (Proc.devRef .tc main_v1))
          (after ops W0 (Proc.devRef .tc main_v0)) (W0 (Proc.devRef .tc main_arg3)) := by
  rw [after_ops_cut, tail_v46]
  simp (disch := decide) only [tailAfter, keep_head0, keep_tail0, keep_head1, keep_tail1, keep_ops2, keep_ops3, keep_ops4, keep_ops5, keep_ops6, keep_ops7, keep_ops8, keep_ops9, keep_ops10, keep_ops11]
  rw [tail0_v12]
  rfl

theorem ref_v48 (W0 : Valuation τ sig (Elt F)) :
    after ops W0 (Proc.devRef .tc main_v48)
      = rres48 (after ops W0 (Proc.devRef .tc main_v10)) (after ops W0 (Proc.devRef .tc main_v22)) (after ops W0 (Proc.devRef .tc main_v1))
          (after ops W0 (Proc.devRef .tc main_v0)) (W0 (Proc.devRef .tc main_arg3)) := by
  rw [after_ops_cut, tail_v48]
  simp (disch := decide) only [tailAfter, keep_head0, keep_tail0, keep_head1, keep_tail1, keep_ops2, keep_ops3, keep_ops4, keep_ops5, keep_ops6, keep_ops7, keep_ops8, keep_ops9, keep_ops10, keep_ops11]
  rfl

theorem ref_v50 (W0 : Valuation τ sig (Elt F)) :
    after ops W0 (Proc.devRef .tc main_v50)
      = rres50 (after ops W0 (Proc.devRef .tc main_v10)) (after ops W0 (Proc.devRef .tc main_v22)) (after ops W0 (Proc.devRef .tc main_v1))
          (after ops W0 (Proc.devRef .tc main_v0)) (W0 (Proc.devRef .tc main_arg3)) := by
  rw [after_ops_cut, tail_v50]
  simp (disch := decide) only [tailAfter, keep_head0, keep_tail0, keep_head1, keep_tail1, keep_ops2, keep_ops3, keep_ops4, keep_ops5, keep_ops6, keep_ops7, keep_ops8, keep_ops9, keep_ops10, keep_ops11]
  rw [tail0_v12]
  rfl

/-! ## The arguments are left as they were -/

theorem ref_arg0 (W0 : Valuation τ sig (Elt F)) : after ops W0 (Proc.devRef .tc main_arg0) = W0 (Proc.devRef .tc main_arg0) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]

theorem ref_arg1 (W0 : Valuation τ sig (Elt F)) : after ops W0 (Proc.devRef .tc main_arg1) = W0 (Proc.devRef .tc main_arg1) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]

theorem ref_arg2 (W0 : Valuation τ sig (Elt F)) : after ops W0 (Proc.devRef .tc main_arg2) = W0 (Proc.devRef .tc main_arg2) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]

theorem ref_arg3 (W0 : Valuation τ sig (Elt F)) : after ops W0 (Proc.devRef .tc main_arg3) = W0 (Proc.devRef .tc main_arg3) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]

theorem ref_arg4 (W0 : Valuation τ sig (Elt F)) : after ops W0 (Proc.devRef .tc main_arg4) = W0 (Proc.devRef .tc main_arg4) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]

theorem ref_arg5 (W0 : Valuation τ sig (Elt F)) : after ops W0 (Proc.devRef .tc main_arg5) = W0 (Proc.devRef .tc main_arg5) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]

/-! ## The head's arrays after the whole run -/

/-- The mask as floats. -/
theorem ref_mask (W0 : Valuation τ sig (Elt F)) :
    after ops W0 (Proc.devRef .tc main_v0) = (sitofp .f32 (W0 (Proc.devRef .tc main_arg2)) : (⟨S2x1024, .f32⟩ : BufTy).Contents (Elt F)) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]
  dsimp only [head0]
  after_results_simp

/-- The first array of logits. -/
theorem fin_lg (W0 : Valuation τ sig (Elt F)) :
    after ops W0 (Proc.devRef .tc main_v1) = dotTerm (W0 (Proc.devRef .tc main_arg0)) (W0 (Proc.devRef .tc main_arg1)) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]
  dsimp only [head0]
  after_results_simp
  rfl

/-- The first column's row array. -/
theorem fin_lp (W0 : Valuation τ sig (Elt F)) :
    after ops W0 (Proc.devRef .tc main_v10) = lseTerm (W0 (Proc.devRef .tc main_arg0)) (W0 (Proc.devRef .tc main_arg1)) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]
  dsimp only [head0]
  after_results_simp
  rfl

/-- The second column's row array. -/
theorem fin_lq (W0 : Valuation τ sig (Elt F)) :
    after ops W0 (Proc.devRef .tc main_v22) = lseTerm (W0 (Proc.devRef .tc main_arg4)) (W0 (Proc.devRef .tc main_arg5)) := by
  rw [after_ops_cut]
  simp (disch := decide) only [tailAfter, headAfter, keep_head0, keep_tail0, keep_head1, keep_tail1, keep_ops2, keep_ops3, keep_ops4, keep_ops5, keep_ops6, keep_ops7, keep_ops8, keep_ops9, keep_ops10, keep_ops11]
  dsimp only [head1]
  after_results_simp
  rfl

/-! ## The kernel program's tail computes the same five terms -/

theorem tail_same29 (lp lq rs : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) :
    Cert.KernelIdeal.Hand.res29 (F := F) lp lq rs mask rew = rres43 lp lq lg mask rew := rfl
theorem tail_same33 (lp lq rs : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) :
    Cert.KernelIdeal.Hand.res33 (F := F) lp lq rs mask rew = rres45 lp lq lg mask rew := rfl
theorem tail_same34 (lp lq rs : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) :
    Cert.KernelIdeal.Hand.res34 (F := F) lp lq rs mask rew = rres46 lp lq lg mask rew := rfl
theorem tail_same36 (lp lq rs : (⟨S2x1024, .f32⟩ : BufTy).Contents (Elt F)) (lg : (⟨S2x1024x32000, .f32⟩ : BufTy).Contents (Elt F)) (mask : (⟨S2x1024, .f32⟩ : BufTy).Contents (Elt F)) (rew : (⟨S2, .f32⟩ : BufTy).Contents (Elt F)) :
    Cert.KernelIdeal.Hand.res36 (F := F) lp lq rs mask rew = rres50 lp lq lg mask rew := rfl

end Generic

section AtIdeal

open Idealize.ShloMosaic.ValueIdx

/-! ## The head read on the extended reals -/

/-- The word 0xFF800000 reads −∞. -/
theorem ofBits_negInf : Ideal.ofBits .f32 0xFF800000#32 = ⊥ := by simp [Ideal.ofBits, Ideal.ieee]

/-- The dimension numbers of the logits' product: rows (b, s) of the activations against rows v of the vocabulary,
    over the 2048 features. -/
abbrev dd : DotDims S2x1024x2048 S32000x2048 S2x1024x32000 :=
  dot_S2x1024x2048_S32000x2048_S2x1024x32000_2_1_01_0_n_n

/-- At feature h the product reads the activations at (b, s, h), (b, s) the output's row. -/
theorem lhs_at (j : S2x1024x32000.Idx) (h : Fin 2048) :
    dd.lhsIdx j ((contrEquiv1 dd 2048 rfl rfl).symm h) = ix3 (j 0) (j 1) h := by
  funext a
  apply Fin.ext
  match a with
  | ⟨0, _⟩ => rfl
  | ⟨1, _⟩ => rfl
  | ⟨2, _⟩ =>
    exact (DotDims.lhsIdx_val_of_single (d := dd) (cl := 2) rfl j _).trans (contrEquiv1_symm_val dd 2048 rfl rfl h)

/-- At feature h the product reads the vocabulary at (v, h), v the output's column. -/
theorem rhs_at (j : S2x1024x32000.Idx) (h : Fin 2048) :
    dd.rhsIdx j ((contrEquiv1 dd 2048 rfl rfl).symm h) = ix2 (j 2) h := by
  funext a
  apply Fin.ext
  match a with
  | ⟨0, _⟩ => rfl
  | ⟨1, _⟩ =>
    exact (DotDims.rhsIdx_val_of_single (d := dd) (cr := 1) rfl j _).trans (contrEquiv1_symm_val dd 2048 rfl rfl h)

/-- The product entry by entry: row (b, s)'s inner product with vocabulary row v. -/
theorem dot_at (X : (⟨3, ![2, 1024, 2048]⟩ : Shape).Idx → EReal) (Wt : (⟨2, ![32000, 2048]⟩ : Shape).Idx → EReal) (j : S2x1024x32000.Idx) :
    dotTerm (F := Ideal) X Wt j = Cert.Spec.rowLogits X Wt (j 0) (j 1) (j 2) := by
  unfold dotTerm
  refine (Ideal.dotGeneral_apply (φ₁ := .f32) (φ₂ := .f32) dd none .single X Wt j).trans ?_
  rw [← Equiv.sum_comp (contrEquiv1 dd 2048 rfl rfl).symm]
  unfold Cert.Spec.rowLogits Cert.Spec.logit
  refine Finset.sum_congr rfl fun h _ => ?_
  rw [lhs_at, rhs_at]
  rfl

/-- The reduction over the vocabulary axis as a shape fact with the kept index named. -/
theorem redVocab : S2x1024x32000.Reduces [2] S2x1024 := by decide

/-- Row (b, s) with vocabulary position v put back in is the entry (b, s, v). -/
theorem lift_at (r : S2x1024.Idx) (v : Fin 32000) : redVocab.lift r v = ix3 (r 0) (r 1) v := by
  funext c
  match c with
  | ⟨0, _⟩ => rfl
  | ⟨1, _⟩ => rfl
  | ⟨2, _⟩ => rfl

/-- The row maximum is the maximum from −∞ over the row. -/
theorem rowMax_at (z : S2x1024x32000.Idx → EReal) (r : S2x1024.Idx) :
    rowMaxOf (F := Ideal) z r = Cert.Spec.vmax fun v : Fin 32000 => z (ix3 (r 0) (r 1) v) := by
  unfold rowMaxOf
  refine (Host.reduce_eq_fold_single (FloatOps.maximumf (F := Ideal) (φ := .f32)) z _
    reducesTo_S2x1024x32000_S2x1024_d2 redVocab h_S_ r).trans ?_
  have hf : (z ∘ redVocab.lift r) = fun v : Fin 32000 => z (ix3 (r 0) (r 1) v) :=
    funext fun v => congrArg z (lift_at r v)
  rw [hf]
  show Finset.univ.fold max (Ideal.ofBits .f32 0xFF800000#32) _ = _
  rw [ofBits_negInf]
  rfl

/-- The row sum from zero is the sum over the row. -/
theorem rowSum_at (e : S2x1024x32000.Idx → EReal) (r : S2x1024.Idx) :
    (Host.reduceAdd (F := Ideal) (φ := .f32) e (constant S_ .f32 0x00000000#32) reducesTo_S2x1024x32000_S2x1024_d2 h_S_) r
      = ∑ v : Fin 32000, e (ix3 (r 0) (r 1) v) := by
  refine (Ideal.hostReduceAdd_single reducesTo_S2x1024x32000_S2x1024_d2 redVocab e _ r).trans ?_
  show Ideal.ofBits .f32 0x00000000#32 + _ = _
  rw [Ideal.ofBits_zero_f32, zero_add]
  exact Finset.sum_congr rfl fun v _ => congrArg e (lift_at r v)

/-- A row array spread over the vocabulary (through a unit axis): every entry of row (b, s) holds that row's value. -/
theorem spread_at (m : S2x1024.Idx → EReal) (j : S2x1024x32000.Idx) :
    broadcastInDim S2x1024x32000 ![0, 1, 2] bcast_S2x1024x1_S2x1024x32000_0_1_2
      (broadcastInDim S2x1024x1 ![0, 1] bcast_S2x1024_S2x1024x1_0_1 m) j = m (ix2 (j 0) (j 1)) := by
  refine (broadcastInDim_apply _ _ _ j (ix3 (j 0) (j 1) (0 : Fin 1)) fun a => ?_).trans
    (broadcastInDim_apply _ _ m _ (ix2 (j 0) (j 1)) fun a => ?_)
  · match a with
    | ⟨0, _⟩ => rfl
    | ⟨1, _⟩ => rfl
    | ⟨2, _⟩ => rfl
  · match a with
    | ⟨0, _⟩ => rfl
    | ⟨1, _⟩ => rfl

/-- The host logarithm and exponential at an entry. -/
theorem hostLog_at {s : Shape} (x : FVec Ideal s .f32) (i : s.Idx) : Host.log x i = Ideal.log (x i) := rfl
theorem hostExp_at {s : Shape} (x : FVec Ideal s .f32) (i : s.Idx) : Host.exp x i = Ideal.exp (x i) := rfl

/-- The composed row term at row (b, s) is that row's largest log-probability. -/
theorem lse_at (X : (⟨3, ![2, 1024, 2048]⟩ : Shape).Idx → EReal) (Wt : (⟨2, ![32000, 2048]⟩ : Shape).Idx → EReal) (r : S2x1024.Idx) :
    lseTerm (F := Ideal) X Wt r = Cert.Spec.maxLogProb (Cert.Spec.rowLogits X Wt (r 0) (r 1)) := by
  have hz : ∀ v : Fin 32000, dotTerm (F := Ideal) X Wt (ix3 (r 0) (r 1) v) = Cert.Spec.rowLogits X Wt (r 0) (r 1) v :=
    fun v => dot_at X Wt _
  have hM : rowMaxOf (F := Ideal) (dotTerm X Wt) r = Cert.Spec.vmax (Cert.Spec.rowLogits X Wt (r 0) (r 1)) :=
    (rowMax_at _ r).trans (congrArg Cert.Spec.vmax (funext hz))
  have hB : ∀ v : Fin 32000,
      broadcastInDim S2x1024x32000 ![0, 1, 2] bcast_S2x1024x1_S2x1024x32000_0_1_2
        (broadcastInDim S2x1024x1 ![0, 1] bcast_S2x1024_S2x1024x1_0_1 (rowMaxOf (F := Ideal) (dotTerm X Wt))) (ix3 (r 0) (r 1) v)
        = Cert.Spec.vmax (Cert.Spec.rowLogits X Wt (r 0) (r 1)) :=
    fun v => (spread_at _ _).trans ((congrArg (rowMaxOf (F := Ideal) (dotTerm X Wt)) (eq_ix2 r).symm).trans hM)
  unfold lseTerm Cert.Spec.maxLogProb
  rw [subf_apply, addf_apply, hostLog_at, rowSum_at, hM]
  simp only [hostExp_at, subf_apply, hz, hB]

/-- The composed row term is each row's largest log-probability. -/
theorem lse_eq (X : (⟨3, ![2, 1024, 2048]⟩ : Shape).Idx → EReal) (Wt : (⟨2, ![32000, 2048]⟩ : Shape).Idx → EReal) :
    lseTerm (F := Ideal) X Wt = Cert.Spec.seqLp X Wt :=
  funext fun r => lse_at X Wt r

/-- The first array of logits, entry by entry: row (b, s)'s inner product with vocabulary row v. -/
theorem ref_logits (W0 : Valuation τ sig (Elt Ideal)) :
    (after ops W0 (Proc.devRef .tc main_v1) : S2x1024x32000.Idx → EReal)
      = fun i => Cert.Spec.rowLogits (W0 (Proc.devRef .tc main_arg0)) (W0 (Proc.devRef .tc main_arg1)) (i 0) (i 1) (i 2) := by
  rw [fin_lg]
  exact funext fun i => dot_at _ _ i

/-- The first array of row log-probabilities is each row's largest log-probability. -/
theorem ref_lp (W0 : Valuation τ sig (Elt Ideal)) :
    (after ops W0 (Proc.devRef .tc main_v10) : S2x1024.Idx → EReal)
      = Cert.Spec.seqLp (W0 (Proc.devRef .tc main_arg0)) (W0 (Proc.devRef .tc main_arg1)) := by
  rw [fin_lp]
  exact lse_eq _ _

/-- The second array likewise, of the second pair. -/
theorem ref_lq (W0 : Valuation τ sig (Elt Ideal)) :
    (after ops W0 (Proc.devRef .tc main_v22) : S2x1024.Idx → EReal)
      = Cert.Spec.seqLp (W0 (Proc.devRef .tc main_arg4)) (W0 (Proc.devRef .tc main_arg5)) := by
  rw [fin_lq]
  exact lse_eq _ _

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of all logits is the sum over the rows of each row's sum. -/
theorem sum_logits (X : (⟨3, ![2, 1024, 2048]⟩ : Shape).Idx → EReal) (Wt : (⟨2, ![32000, 2048]⟩ : Shape).Idx → EReal) :
    ∑ i : S2x1024x32000.Idx, Cert.Spec.rowLogits X Wt (i 0) (i 1) (i 2) = ∑ i : S2x1024.Idx, Cert.Spec.rowSum X Wt i := by
  rw [sum_idx3, sum_idx2]
  rfl

/-- The kernel program's mean logit is the reference's once the row sums add up to the sum of all logits. -/
theorem tail_same31 (lp lq rs : (⟨S2x1024, .f32⟩ : BufTy).Contents (Elt Ideal)) (lg : (⟨S2x1024x32000, .f32⟩ : BufTy).Contents (Elt Ideal))
    (mask : (⟨S2x1024, .f32⟩ : BufTy).Contents (Elt Ideal)) (rew : (⟨S2, .f32⟩ : BufTy).Contents (Elt Ideal))
    (h : ∑ i : S2x1024.Idx, rs i = ∑ i : S2x1024x32000.Idx, lg i) :
    Cert.KernelIdeal.Hand.res31 (F := Ideal) lp lq rs mask rew = rres48 lp lq lg mask rew := by
  have e1 : Host.reduceAdd (F := Ideal) (φ := .f32) rs (constant Cert.KernelIdeal.S_ .f32 0x00000000#32)
        Cert.KernelIdeal.Gen.reducesTo_S2x1024_S_d0_1 Cert.KernelIdeal.Gen.h_S_
      = Host.reduceAdd (F := Ideal) (φ := .f32) lg (constant S_ .f32 0x00000000#32) reducesTo_S2x1024x32000_S_d0_1_2 h_S_ :=
    funext fun j =>
      (Ideal.hostReduceAdd_total Cert.KernelIdeal.Gen.reducesTo_S2x1024_S_d0_1 (fun b => b.elim0) rs _ j).trans
        ((congrArg (_ + ·) h).trans
          (Ideal.hostReduceAdd_total reducesTo_S2x1024x32000_S_d0_1_2 (fun b => b.elim0) lg _ j).symm)
  unfold Cert.KernelIdeal.Hand.res31 rres48
  rw [e1]

end AtIdeal

end Cert.ReferenceIdeal.Hand

end
-- ==== Proof.PreFinite.lean ====
/-
  The precondition read: "every float input is finite" says that every entry of the five float argument arrays
  is a real number (neither infinity) at the extended reals.
-/
import proofs.«130178_j27539330302083_1_alg».proof.Pre_finite_inputs
import proofs.«130178_j27539330302083_1_alg».proof.Proof.Gen.Pre_finite_inputs
import proofs.«130178_j27539330302083_1_alg».proof.Proof.LibFiniteSums
import Idealize.ShloMosaic.PureOps.Ideal
import Idealize.ShloMosaic.Lib.ReduceAll

noncomputable section

namespace Cert.PreFinite

open Idealize.ShloMosaic Cert.LibFinite Cert.Pre_finite_inputs

/-- The scalar shape has one index. -/
instance : Subsingleton S_.Idx := ⟨fun _ _ => funext fun d => d.elim0⟩

/-- The word 0x7F800000 denotes +∞. -/
theorem ofBits_inf : Ideal.ofBits .f32 0x7F800000#32 = ⊤ := by
  simp [Ideal.ofBits, Ideal.ieee]

/-- |x| < +∞, with |x| = max x (−x), says x is neither infinity. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  constructor
  · rintro rfl
    simp at hlt
  · rintro rfl
    simp at hlt

/-- One conjunct of the predicate: the comparison |a| < +∞ holding at an index says that entry of a is real. -/
theorem entry_real {s : Shape} (a : FVec Ideal s .f32) (hb : S_.BroadcastsInDim s (![] : Fin 0 → Fin s.rank))
    (i : s.Idx)
    (h : cmpf .olt (Host.absf a) (broadcastInDim s ![] hb (constant S_ .f32 0x7F800000#32)) i = 1#1) :
    IsReal (a i) :=
  isReal_of_abs_lt_inf (a i) h

/-- All ones from the printed predicate means: every entry of the activations, the vocabulary rows, the rewards and
    the reference model's two arrays is a real number. -/
theorem args_real [Cert.Pre_finite_inputs.Facts]
    (a0 : FVec Ideal S2x1024x2048 .f32) (a1 : FVec Ideal S32000x2048 .f32) (a2 : IVec S2x1024 32)
    (a3 : FVec Ideal S2 .f32) (a4 : FVec Ideal S2x1024x2048 .f32) (a5 : FVec Ideal S32000x2048 .f32)
    (h : Cert.Pre_finite_inputs.fn (F := Ideal) a0 a1 a2 a3 a4 a5 = fun _ => 1#1) :
    (∀ i, IsReal (a0 i)) ∧ (∀ i, IsReal (a1 i)) ∧ (∀ i, IsReal (a3 i)) ∧ (∀ i, IsReal (a4 i)) ∧ (∀ i, IsReal (a5 i)) := by
  have h0 := congrFun h ValueIdx.ix0
  dsimp only [fn, fn_part1] at h0
  obtain ⟨h1, r5⟩ := IntOp.andi_eq_one.1 h0
  obtain ⟨h2, r4⟩ := IntOp.andi_eq_one.1 h1
  obtain ⟨h3, r3⟩ := IntOp.andi_eq_one.1 h2
  obtain ⟨r1, r2⟩ := IntOp.andi_eq_one.1 h3
  exact ⟨fun i => entry_real a0 _ i (Host.reduce_andi_all _ _ _ _ ValueIdx.ix0 r1 i),
    fun i => entry_real a1 _ i (Host.reduce_andi_all _ _ _ _ ValueIdx.ix0 r2 i),
    fun i => entry_real a3 _ i (Host.reduce_andi_all _ _ _ _ ValueIdx.ix0 r3 i),
    fun i => entry_real a4 _ i (Host.reduce_andi_all _ _ _ _ ValueIdx.ix0 r4 i),
    fun i => entry_real a5 _ i (Host.reduce_andi_all _ _ _ _ ValueIdx.ix0 r5 i)⟩

end Cert.PreFinite

end
-- ==== Proof.lean ====
/-
  The certificate assembled.

  Kernel: two launches of one fused LM-head kernel (policy and reference model).  Per row of logits z = x·Wᵀ it keeps, vocabulary
  tile by vocabulary tile, a running maximum m, a running sum l of exp (z − m) rescaled by exp (m_old − m_new) when the maximum
  moves, and a running plain sum r; at the last tile it writes m − (m + log l) and r.  Reference: the whole logits array, its
  row maximum M, M − (M + log Σ exp (z − M)), and the mean of all logits.  On real inputs the folded triple is
  (M, Σ exp (z − M), Σ z) (the online-softmax identity, exp (a − b)·exp (c − a) = exp (c − b) on reals), so the two programs'
  row arrays are one function of the arguments; the sum of the kernel's row sums is the reference's sum over all logits
  (a finite sum re-indexed); everything after that is the same host arithmetic applied to equal values.

  Frames: each kernel program's @main is run segment by segment (host stretches and the two kernel regions) with every
  buffer's contents named at each boundary, the regions' scratch columns carried in the invariant; the arguments are never
  written.  The reference is straight-line host code.
-/
import proofs.«130178_j27539330302083_1_alg».proof.Defs
import proofs.«130178_j27539330302083_1_alg».proof.Proof.Gen.Kernel
import proofs.«130178_j27539330302083_1_alg».proof.Proof.Gen.KernelIdeal
import proofs.«130178_j27539330302083_1_alg».proof.Proof.Gen.ReferenceIdeal
import proofs.«130178_j27539330302083_1_alg».proof.Proof.Gen.Pre_finite_inputs
import proofs.«130178_j27539330302083_1_alg».proof.Proof.KB.Run
import proofs.«130178_j27539330302083_1_alg».proof.Proof.KI.Run
import proofs.«130178_j27539330302083_1_alg».proof.Proof.KI.Results
import proofs.«130178_j27539330302083_1_alg».proof.Proof.Ref.Run
import proofs.«130178_j27539330302083_1_alg».proof.Proof.Ref.Read
import proofs.«130178_j27539330302083_1_alg».proof.Proof.PreFinite

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- The idealized program likewise. -/
theorem frame_ki : Cert.frame_KernelIdeal := fun m ρ _ => Cert.KernelIdeal.Hand.frame m ρ

/-- The reference is host code that writes no argument. -/
theorem frame_ri : Cert.frame_ReferenceIdeal := fun m ρ _ =>
  (θ_run Cert.ReferenceIdeal.defs _ _).mono (fun _ h c =>
    ⟨(h c _).trans (Cert.ReferenceIdeal.Hand.ref_arg0 _), (h c _).trans (Cert.ReferenceIdeal.Hand.ref_arg1 _),
     (h c _).trans (Cert.ReferenceIdeal.Hand.ref_arg2 _), (h c _).trans (Cert.ReferenceIdeal.Hand.ref_arg3 _),
     (h c _).trans (Cert.ReferenceIdeal.Hand.ref_arg4 _), (h c _).trans (Cert.ReferenceIdeal.Hand.ref_arg5 _)⟩)
    (Cert.ReferenceIdeal.Hand.run_after (F := Ideal) m ρ)

/-- The ideal pass rewrote nothing. -/
theorem preserves : Cert.preserves_Kernel_KernelIdeal := trivial

/-! ## The reference's five results as the tail terms of the row functions of ITS arguments -/

theorem ref_side_v43 (m' : (ℓ : Loc Cert.ReferenceIdeal.nD Cert.ReferenceIdeal.τ Cert.ReferenceIdeal.sig) → Buf (Elt Ideal) ℓ) (c : Dev Cert.ReferenceIdeal.nD)
    (X : Cert.ReferenceIdeal.S2x1024x2048.Idx → EReal) (Wt : Cert.ReferenceIdeal.S32000x2048.Idx → EReal)
    (X' : Cert.ReferenceIdeal.S2x1024x2048.Idx → EReal) (Wt' : Cert.ReferenceIdeal.S32000x2048.Idx → EReal)
    (mk : (⟨Cert.ReferenceIdeal.S2x1024, .i32⟩ : BufTy).Contents (Elt Ideal)) (rw : (⟨Cert.ReferenceIdeal.S2, .f32⟩ : BufTy).Contents (Elt Ideal))
    (e0 : m' ((c.tc : Thread Cert.ReferenceIdeal.nD Cert.ReferenceIdeal.τ).loc Cert.ReferenceIdeal.main_arg0) = X) (e1 : m' ((c.tc : Thread Cert.ReferenceIdeal.nD Cert.ReferenceIdeal.τ).loc Cert.ReferenceIdeal.main_arg1) = Wt)
    (e2 : m' ((c.tc : Thread Cert.ReferenceIdeal.nD Cert.ReferenceIdeal.τ).loc Cert.ReferenceIdeal.main_arg2) = mk) (e3 : m' ((c.tc : Thread Cert.ReferenceIdeal.nD Cert.ReferenceIdeal.τ).loc Cert.ReferenceIdeal.main_arg3) = rw)
    (e4 : m' ((c.tc : Thread Cert.ReferenceIdeal.nD Cert.ReferenceIdeal.τ).loc Cert.ReferenceIdeal.main_arg4) = X') (e5 : m' ((c.tc : Thread Cert.ReferenceIdeal.nD Cert.ReferenceIdeal.τ).loc Cert.ReferenceIdeal.main_arg5) = Wt') :
    StableHlo.after (Cert.ReferenceIdeal.Hand.ops (F := Ideal)) (StableHlo.launchContents m' c) (Proc.devRef .tc Cert.ReferenceIdeal.main_v43)
      = Cert.ReferenceIdeal.Hand.rres43 (Cert.Spec.seqLp X Wt) (Cert.Spec.seqLp X' Wt')
          (fun i => Cert.Spec.rowLogits X Wt (i 0) (i 1) (i 2)) (sitofp .f32 mk) rw := by
  subst e0 e1 e2 e3 e4 e5
  rw [Cert.ReferenceIdeal.Hand.ref_v43, Cert.ReferenceIdeal.Hand.ref_lp, Cert.ReferenceIdeal.Hand.ref_lq, Cert.ReferenceIdeal.Hand.ref_logits, Cert.ReferenceIdeal.Hand.ref_mask]
  rfl

theorem ref_side_v45 (m' : (ℓ : Loc Cert.ReferenceIdeal.nD Cert.ReferenceIdeal.τ Cert.ReferenceIdeal.sig) → Buf (Elt Ideal) ℓ) (c : Dev Cert.ReferenceIdeal.nD)
    (X : Cert.ReferenceIdeal.S2x1024x2048.Idx → EReal) (Wt : Cert.ReferenceIdeal.S32000x2048.Idx → EReal)
    (X' : Cert.ReferenceIdeal.S2x1024x2048.Idx → EReal) (Wt' : Cert.ReferenceIdeal.S32000x2048.Idx → EReal)
    (mk : (⟨Cert.ReferenceIdeal.S2x1024, .i32⟩ : BufTy).Contents (Elt Ideal)) (rw : (⟨Cert.ReferenceIdeal.S2, .f32⟩ : BufTy).Contents (Elt Ideal))
    (e0 : m' ((c.tc : Thread Cert.ReferenceIdeal.nD Cert.ReferenceIdeal.τ).loc Cert.ReferenceIdeal.main_arg0) = X) (e1 : m' ((c.tc : Thread Cert.ReferenceIdeal.nD Cert.ReferenceIdeal.τ).loc Cert.ReferenceIdeal.main_arg1) = Wt)
    (e2 : m' ((c.tc : Thread Cert.ReferenceIdeal.nD Cert.ReferenceIdeal.τ).loc Cert.ReferenceIdeal.main_arg2) = mk) (e3 : m' ((c.tc : Thread Cert.ReferenceIdeal.nD Cert.ReferenceIdeal.τ).loc Cert.ReferenceIdeal.main_arg3) = rw)
    (e4 : m' ((c.tc : Thread Cert.ReferenceIdeal.nD Cert.ReferenceIdeal.τ).loc Cert.ReferenceIdeal.main_arg4) = X') (e5 : m' ((c.tc : Thread Cert.ReferenceIdeal.nD Cert.ReferenceIdeal.τ).loc Cert.ReferenceIdeal.main_arg5) = Wt') :
    StableHlo.after (Cert.ReferenceIdeal.Hand.ops (F := Ideal)) (StableHlo.launchContents m' c) (Proc.devRef .tc Cert.ReferenceIdeal.main_v45)
      = Cert.ReferenceIdeal.Hand.rres45 (Cert.Spec.seqLp X Wt) (Cert.Spec.seqLp X' Wt')
          (fun i => Cert.Spec.rowLogits X Wt (i 0) (i 1) (i 2)) (sitofp .f32 mk) rw := by
  subst e0 e1 e2 e3 e4 e5
  rw [Cert.ReferenceIdeal.Hand.ref_v45, Cert.ReferenceIdeal.Hand.ref_lp, Cert.ReferenceIdeal.Hand.ref_lq, Cert.ReferenceIdeal.Hand.ref_logits, Cert.ReferenceIdeal.Hand.ref_mask]
  rfl

theorem ref_side_v46 (m' : (ℓ : Loc Cert.ReferenceIdeal.nD Cert.ReferenceIdeal.τ Cert.ReferenceIdeal.sig) → Buf (Elt Ideal) ℓ) (c : Dev Cert.ReferenceIdeal.nD)
    (X : Cert.ReferenceIdeal.S2x1024x2048.Idx → EReal) (Wt : Cert.ReferenceIdeal.S32000x2048.Idx → EReal)
    (X' : Cert.ReferenceIdeal.S2x1024x2048.Idx → EReal) (Wt' : Cert.ReferenceIdeal.S32000x2048.Idx → EReal)
    (mk : (⟨Cert.ReferenceIdeal.S2x1024, .i32⟩ : BufTy).Contents (Elt Ideal)) (rw : (⟨Cert.ReferenceIdeal.S2, .f32⟩ : BufTy).Contents (Elt Ideal))
    (e0 : m' ((c.tc : Thread Cert.ReferenceIdeal.nD Cert.ReferenceIdeal.τ).loc Cert.ReferenceIdeal.main_arg0) = X) (e1 : m' ((c.tc : Thread Cert.ReferenceIdeal.nD Cert.ReferenceIdeal.τ).loc Cert.ReferenceIdeal.main_arg1) = Wt)
    (e2 : m' ((c.tc : Thread Cert.ReferenceIdeal.nD Cert.ReferenceIdeal.τ).loc Cert.ReferenceIdeal.main_arg2) = mk) (e3 : m' ((c.tc : Thread Cert.ReferenceIdeal.nD Cert.ReferenceIdeal.τ).loc Cert.ReferenceIdeal.main_arg3) = rw)
    (e4 : m' ((c.tc : Thread Cert.ReferenceIdeal.nD Cert.ReferenceIdeal.τ).loc Cert.ReferenceIdeal.main_arg4) = X') (e5 : m' ((c.tc : Thread Cert.ReferenceIdeal.nD Cert.ReferenceIdeal.τ).loc Cert.ReferenceIdeal.main_arg5) = Wt') :
    StableHlo.after (Cert.ReferenceIdeal.Hand.ops (F := Ideal)) (StableHlo.launchContents m' c) (Proc.devRef .tc Cert.ReferenceIdeal.main_v46)
      = Cert.ReferenceIdeal.Hand.rres46 (Cert.Spec.seqLp X Wt) (Cert.Spec.seqLp X' Wt')
          (fun i => Cert.Spec.rowLogits X Wt (i 0) (i 1) (i 2)) (sitofp .f32 mk) rw := by
  subst e0 e1 e2 e3 e4 e5
  rw [Cert.ReferenceIdeal.Hand.ref_v46, Cert.ReferenceIdeal.Hand.ref_lp, Cert.ReferenceIdeal.Hand.ref_lq, Cert.ReferenceIdeal.Hand.ref_logits, Cert.ReferenceIdeal.Hand.ref_mask]
  rfl

theorem ref_side_v48 (m' : (ℓ : Loc Cert.ReferenceIdeal.nD Cert.ReferenceIdeal.τ Cert.ReferenceIdeal.sig) → Buf (Elt Ideal) ℓ) (c : Dev Cert.ReferenceIdeal.nD)
    (X : Cert.ReferenceIdeal.S2x1024x2048.Idx → EReal) (Wt : Cert.ReferenceIdeal.S32000x2048.Idx → EReal)
    (X' : Cert.ReferenceIdeal.S2x1024x2048.Idx → EReal) (Wt' : Cert.ReferenceIdeal.S32000x2048.Idx → EReal)
    (mk : (⟨Cert.ReferenceIdeal.S2x1024, .i32⟩ : BufTy).Contents (Elt Ideal)) (rw : (⟨Cert.ReferenceIdeal.S2, .f32⟩ : BufTy).Contents (Elt Ideal))
    (e0 : m' ((c.tc : Thread Cert.ReferenceIdeal.nD Cert.ReferenceIdeal.τ).loc Cert.ReferenceIdeal.main_arg0) = X) (e1 : m' ((c.tc : Thread Cert.ReferenceIdeal.nD Cert.ReferenceIdeal.τ).loc Cert.ReferenceIdeal.main_arg1) = Wt)
    (e2 : m' ((c.tc : Thread Cert.ReferenceIdeal.nD Cert.ReferenceIdeal.τ).loc Cert.ReferenceIdeal.main_arg2) = mk) (e3 : m' ((c.tc : Thread Cert.ReferenceIdeal.nD Cert.ReferenceIdeal.τ).loc Cert.ReferenceIdeal.main_arg3) = rw)
    (e4 : m' ((c.tc : Thread Cert.ReferenceIdeal.nD Cert.ReferenceIdeal.τ).loc Cert.ReferenceIdeal.main_arg4) = X') (e5 : m' ((c.tc : Thread Cert.ReferenceIdeal.nD Cert.ReferenceIdeal.τ).loc Cert.ReferenceIdeal.main_arg5) = Wt') :
    StableHlo.after (Cert.ReferenceIdeal.Hand.ops (F := Ideal)) (StableHlo.launchContents m' c) (Proc.devRef .tc Cert.ReferenceIdeal.main_v48)
      = Cert.ReferenceIdeal.Hand.rres48 (Cert.Spec.seqLp X Wt) (Cert.Spec.seqLp X' Wt')
          (fun i => Cert.Spec.rowLogits X Wt (i 0) (i 1) (i 2)) (sitofp .f32 mk) rw := by
  subst e0 e1 e2 e3 e4 e5
  rw [Cert.ReferenceIdeal.Hand.ref_v48, Cert.ReferenceIdeal.Hand.ref_lp, Cert.ReferenceIdeal.Hand.ref_lq, Cert.ReferenceIdeal.Hand.ref_logits, Cert.ReferenceIdeal.Hand.ref_mask]
  rfl

theorem ref_side_v50 (m' : (ℓ : Loc Cert.ReferenceIdeal.nD Cert.ReferenceIdeal.τ Cert.ReferenceIdeal.sig) → Buf (Elt Ideal) ℓ) (c : Dev Cert.ReferenceIdeal.nD)
    (X : Cert.ReferenceIdeal.S2x1024x2048.Idx → EReal) (Wt : Cert.ReferenceIdeal.S32000x2048.Idx → EReal)
    (X' : Cert.ReferenceIdeal.S2x1024x2048.Idx → EReal) (Wt' : Cert.ReferenceIdeal.S32000x2048.Idx → EReal)
    (mk : (⟨Cert.ReferenceIdeal.S2x1024, .i32⟩ : BufTy).Contents (Elt Ideal)) (rw : (⟨Cert.ReferenceIdeal.S2, .f32⟩ : BufTy).Contents (Elt Ideal))
    (e0 : m' ((c.tc : Thread Cert.ReferenceIdeal.nD Cert.ReferenceIdeal.τ).loc Cert.ReferenceIdeal.main_arg0) = X) (e1 : m' ((c.tc : Thread Cert.ReferenceIdeal.nD Cert.ReferenceIdeal.τ).loc Cert.ReferenceIdeal.main_arg1) = Wt)
    (e2 : m' ((c.tc : Thread Cert.ReferenceIdeal.nD Cert.ReferenceIdeal.τ).loc Cert.ReferenceIdeal.main_arg2) = mk) (e3 : m' ((c.tc : Thread Cert.ReferenceIdeal.nD Cert.ReferenceIdeal.τ).loc Cert.ReferenceIdeal.main_arg3) = rw)
    (e4 : m' ((c.tc : Thread Cert.ReferenceIdeal.nD Cert.ReferenceIdeal.τ).loc Cert.ReferenceIdeal.main_arg4) = X') (e5 : m' ((c.tc : Thread Cert.ReferenceIdeal.nD Cert.ReferenceIdeal.τ).loc Cert.ReferenceIdeal.main_arg5) = Wt') :
    StableHlo.after (Cert.ReferenceIdeal.Hand.ops (F := Ideal)) (StableHlo.launchContents m' c) (Proc.devRef .tc Cert.ReferenceIdeal.main_v50)
      = Cert.ReferenceIdeal.Hand.rres50 (Cert.Spec.seqLp X Wt) (Cert.Spec.seqLp X' Wt')
          (fun i => Cert.Spec.rowLogits X Wt (i 0) (i 1) (i 2)) (sitofp .f32 mk) rw := by
  subst e0 e1 e2 e3 e4 e5
  rw [Cert.ReferenceIdeal.Hand.ref_v50, Cert.ReferenceIdeal.Hand.ref_lp, Cert.ReferenceIdeal.Hand.ref_lq, Cert.ReferenceIdeal.Hand.ref_logits, Cert.ReferenceIdeal.Hand.ref_mask]
  rfl

/-- An unscoped buffer of the kernel program is among those whose final contents the run names. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Both idealized programs run; their five results are equal extended reals; the arguments are unchanged. -/
theorem algebraic : Cert.algebraic_KernelIdeal_ReferenceIdeal := by
  intro m ρ m' ρ' hpre hagree
  refine ⟨fun c => Cert.KernelIdeal.Gen.V13 m (Cert.KernelIdeal.Hand.outs m) c Cert.KernelIdeal.main_v29, fun c => Cert.KernelIdeal.Gen.V13 m (Cert.KernelIdeal.Hand.outs m) c Cert.KernelIdeal.main_v33,
    fun c => Cert.KernelIdeal.Gen.V13 m (Cert.KernelIdeal.Hand.outs m) c Cert.KernelIdeal.main_v34, fun c => Cert.KernelIdeal.Gen.V13 m (Cert.KernelIdeal.Hand.outs m) c Cert.KernelIdeal.main_v31,
    fun c => Cert.KernelIdeal.Gen.V13 m (Cert.KernelIdeal.Hand.outs m) c Cert.KernelIdeal.main_v36, ?_, ?_⟩
  · refine (θ_run _ _ _).mono (fun r h c => ?_) (Cert.KernelIdeal.Hand.run_all m ρ)
    have hm := fun (b : Ref Cert.KernelIdeal.sig .tc) (hb : ¬ (Proc.devRef .tc b : DevRef Cert.KernelIdeal.τ Cert.KernelIdeal.sig).isScoped) =>
      h c (Proc.devRef .tc b) (mem_uc b hb)
    exact ⟨hm Cert.KernelIdeal.main_v29 (by decide), hm Cert.KernelIdeal.main_v33 (by decide), hm Cert.KernelIdeal.main_v34 (by decide),
      hm Cert.KernelIdeal.main_v31 (by decide), hm Cert.KernelIdeal.main_v36 (by decide),
      (hm Cert.KernelIdeal.main_arg0 (by decide)).trans (Cert.KernelIdeal.Gen.V13_main_arg0 m _ c), (hm Cert.KernelIdeal.main_arg1 (by decide)).trans (Cert.KernelIdeal.Gen.V13_main_arg1 m _ c),
      (hm Cert.KernelIdeal.main_arg2 (by decide)).trans (Cert.KernelIdeal.Gen.V13_main_arg2 m _ c), (hm Cert.KernelIdeal.main_arg3 (by decide)).trans (Cert.KernelIdeal.Gen.V13_main_arg3 m _ c),
      (hm Cert.KernelIdeal.main_arg4 (by decide)).trans (Cert.KernelIdeal.Gen.V13_main_arg4 m _ c), (hm Cert.KernelIdeal.main_arg5 (by decide)).trans (Cert.KernelIdeal.Gen.V13_main_arg5 m _ c)⟩
  · refine (θ_run _ _ _).mono (fun r h c => ?_) (Cert.ReferenceIdeal.Hand.run_after (F := Ideal) m' ρ')
    obtain ⟨e0, e1, e2, e3, e4, e5⟩ := hagree c
    obtain ⟨h0, h1, -, h4, h5⟩ := Cert.PreFinite.args_real _ _ _ _ _ _ (hpre c)
    refine ⟨(h c _).trans ((ref_side_v43 m' c _ _ _ _ _ _ e0 e1 e2 e3 e4 e5).trans ?_),
      (h c _).trans ((ref_side_v45 m' c _ _ _ _ _ _ e0 e1 e2 e3 e4 e5).trans ?_),
      (h c _).trans ((ref_side_v46 m' c _ _ _ _ _ _ e0 e1 e2 e3 e4 e5).trans ?_),
      (h c _).trans ((ref_side_v48 m' c _ _ _ _ _ _ e0 e1 e2 e3 e4 e5).trans ?_),
      (h c _).trans ((ref_side_v50 m' c _ _ _ _ _ _ e0 e1 e2 e3 e4 e5).trans ?_),
      (h c _).trans (Cert.ReferenceIdeal.Hand.ref_arg0 _), (h c _).trans (Cert.ReferenceIdeal.Hand.ref_arg1 _), (h c _).trans (Cert.ReferenceIdeal.Hand.ref_arg2 _),
      (h c _).trans (Cert.ReferenceIdeal.Hand.ref_arg3 _), (h c _).trans (Cert.ReferenceIdeal.Hand.ref_arg4 _), (h c _).trans (Cert.ReferenceIdeal.Hand.ref_arg5 _)⟩
    · exact (Cert.ReferenceIdeal.Hand.tail_same29 _ _ _ _ _ _).symm.trans (Cert.KernelIdeal.Hand.kernel_v29 m c h0 h1 h4 h5).symm
    · exact (Cert.ReferenceIdeal.Hand.tail_same33 _ _ _ _ _ _).symm.trans (Cert.KernelIdeal.Hand.kernel_v33 m c h0 h1 h4 h5).symm
    · exact (Cert.ReferenceIdeal.Hand.tail_same34 _ _ _ _ _ _).symm.trans (Cert.KernelIdeal.Hand.kernel_v34 m c h0 h1 h4 h5).symm
    · exact (Cert.ReferenceIdeal.Hand.tail_same31 _ _ _ _ _ _ (Cert.ReferenceIdeal.Hand.sum_logits _ _).symm).symm.trans (Cert.KernelIdeal.Hand.kernel_v31 m c h0 h1 h4 h5).symm
    · exact (Cert.ReferenceIdeal.Hand.tail_same36 _ _ _ _ _ _).symm.trans (Cert.KernelIdeal.Hand.kernel_v36 m c h0 h1 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
